-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v238) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x3200000 : Shape := ⟨2, ![2, 3200000]⟩
abbrev S3x8 : Shape := ⟨2, ![3, 8]⟩
abbrev S8 : Shape := ⟨1, ![8]⟩
abbrev S22x8 : Shape := ⟨2, ![22, 8]⟩
abbrev S8x1 : Shape := ⟨2, ![8, 1]⟩
abbrev S1 : Shape := ⟨1, ![1]⟩
abbrev S33x8 : Shape := ⟨2, ![33, 8]⟩
abbrev S8x8 : Shape := ⟨2, ![8, 8]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x8 : S_.BroadcastsInDim S3x8 (![] : Fin 0 → Fin S3x8.rank)
  reducesTo_S3x8_S_d0_1 : S3x8.ReducesTo [0, 1] S_
  bcast_S_S8 : S_.BroadcastsInDim S8 (![] : Fin 0 → Fin S8.rank)
  reducesTo_S8_S_d0 : S8.ReducesTo [0] S_
  bcast_S_S22x8 : S_.BroadcastsInDim S22x8 (![] : Fin 0 → Fin S22x8.rank)
  reducesTo_S22x8_S_d0_1 : S22x8.ReducesTo [0, 1] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_
  bcast_S_S33x8 : S_.BroadcastsInDim S33x8 (![] : Fin 0 → Fin S33x8.rank)
  reducesTo_S33x8_S_d0_1 : S33x8.ReducesTo [0, 1] S_
  bcast_S_S8x8 : S_.BroadcastsInDim S8x8 (![] : Fin 0 → Fin S8x8.rank)
  reducesTo_S8x8_S_d0_1 : S8x8.ReducesTo [0, 1] S_
  bcast_S_S2x3200000 : S_.BroadcastsInDim S2x3200000 (![] : Fin 0 → Fin S2x3200000.rank)
  reducesTo_S2x3200000_S_d0_1 : S2x3200000.ReducesTo [0, 1] S_

variable [Facts]

def fn_part3 {F : FTy → Type} [FloatOps F] (main_arg1 : IVec S2x3200000 32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_c_20 : IVec S_ 32 := constantI S_ 32 0#32
  let main_v54 : IVec S2x3200000 32 := broadcastInDim S2x3200000 ![] bcast_S_S2x3200000 main_c_20
  let main_v55 : IVec S2x3200000 1 := cmpi .sge main_arg1 main_v54
  let main_c_21 : IVec S_ 1 := constantI S_ 1 1#1
  let main_v56 : IVec S_ 1 := (fun x v => Host.reduce IntOp.andi x v reducesTo_S2x3200000_S_d0_1 h_S_) main_v55 main_c_21
  let main_v57 : IVec S_ 1 := andi main_v53 main_v56
  let main_c_22 : IVec S_ 32 := constantI S_ 32 100000#32
  let main_v58 : IVec S2x3200000 32 := broadcastInDim S2x3200000 ![] bcast_S_S2x3200000 main_c_22
  let main_v59 : IVec S2x3200000 1 := cmpi .slt main_arg1 main_v58
  let main_c_23 : IVec S_ 1 := constantI S_ 1 1#1
  let main_v60 : IVec S_ 1 := (fun x v => Host.reduce IntOp.andi x v reducesTo_S2x3200000_S_d0_1 h_S_) main_v59 main_c_23
  let main_v61 : IVec S_ 1 := andi main_v57 main_v60
  main_v61

def fn_part2 {F : FTy → Type} [FloatOps F] (main_arg1 : IVec S2x3200000 32) (main_arg8 : FVec F S33x8 .f32) (main_arg9 : FVec F S8 .f32) (main_arg10 : FVec F S8x8 .f32) (main_arg11 : FVec F S8 .f32) (main_v33 : IVec S_ 1) : IVec S_ 1 :=
  let main_v34 : FVec F S33x8 .f32 := Host.absf main_arg8
  let main_cst_12 : FVec F S_ .f32 := constant S_ .f32 0x7F800000#32
  let main_v35 : FVec F S33x8 .f32 := broadcastInDim S33x8 ![] bcast_S_S33x8 main_cst_12
  let main_v36 : IVec S33x8 1 := cmpf .olt main_v34 main_v35
  let main_c_13 : IVec S_ 1 := constantI S_ 1 1#1
  let main_v37 : IVec S_ 1 := (fun x v => Host.reduce IntOp.andi x v reducesTo_S33x8_S_d0_1 h_S_) main_v36 main_c_13
  let main_v38 : IVec S_ 1 := andi main_v33 main_v37
  let main_v39 : FVec F S8 .f32 := Host.absf main_arg9
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8x8 .f32 := Host.absf main_arg10
  let main_cst_16 : FVec F S_ .f32 := constant S_ .f32 0x7F800000#32
  let main_v45 : FVec F S8x8 .f32 := broadcastInDim S8x8 ![] bcast_S_S8x8 main_cst_16
  let main_v46 : IVec S8x8 1 := cmpf .olt main_v44 main_v45
  let main_c_17 : IVec S_ 1 := constantI S_ 1 1#1
  let main_v47 : IVec S_ 1 := (fun x v => Host.reduce IntOp.andi x v reducesTo_S8x8_S_d0_1 h_S_) main_v46 main_c_17
  let main_v48 : IVec S_ 1 := andi main_v43 main_v47
  let main_v49 : FVec F S8 .f32 := Host.absf main_arg11
  let main_cst_18 : FVec F S_ .f32 := constant S_ .f32 0x7F800000#32
  let main_v50 : FVec F S8 .f32 := broadcastInDim S8 ![] bcast_S_S8 main_cst_18
  fn_part3 (F := F) main_arg1 main_v48 main_v49 main_v50

def fn_part1 {F : FTy → Type} [FloatOps F] (main_arg1 : IVec S2x3200000 32) (main_arg5 : FVec F S8 .f32) (main_arg6 : FVec F S8x1 .f32) (main_arg7 : FVec F S1 .f32) (main_arg8 : FVec F S33x8 .f32) (main_arg9 : FVec F S8 .f32) (main_arg10 : FVec F S8x8 .f32) (main_arg11 : FVec F S8 .f32) (main_v13 : IVec S_ 1) (main_v16 : IVec S22x8 1) : IVec S_ 1 :=
  let main_c_5 : IVec S_ 1 := constantI S_ 1 1#1
  let main_v17 : IVec S_ 1 := (fun x v => Host.reduce IntOp.andi x v reducesTo_S22x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x1 .f32 := Host.absf main_arg6
  let main_cst_8 : FVec F S_ .f32 := constant S_ .f32 0x7F800000#32
  let main_v25 : FVec F S8x1 .f32 := broadcastInDim S8x1 ![] bcast_S_S8x1 main_cst_8
  let main_v26 : IVec S8x1 1 := cmpf .olt main_v24 main_v25
  let main_c_9 : IVec S_ 1 := constantI S_ 1 1#1
  let main_v27 : IVec S_ 1 := (fun x v => Host.reduce IntOp.andi x v reducesTo_S8x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S100000x3 .f32) (main_arg1 : IVec S2x3200000 32) (main_arg2 : FVec F S3x8 .f32) (main_arg3 : FVec F S8 .f32) (main_arg4 : FVec F S22x8 .f32) (main_arg5 : FVec F S8 .f32) (main_arg6 : FVec F S8x1 .f32) (main_arg7 : FVec F S1 .f32) (main_arg8 : FVec F S33x8 .f32) (main_arg9 : FVec F S8 .f32) (main_arg10 : FVec F S8x8 .f32) (main_arg11 : FVec F S8 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x8 .f32 := Host.absf main_arg2
  let main_cst_0 : FVec F S_ .f32 := constant S_ .f32 0x7F800000#32
  let main_v5 : FVec F S3x8 .f32 := broadcastInDim S3x8 ![] bcast_S_S3x8 main_cst_0
  let main_v6 : IVec S3x8 1 := cmpf .olt main_v4 main_v5
  let main_c_1 : IVec S_ 1 := constantI S_ 1 1#1
  let main_v7 : IVec S_ 1 := (fun x v => Host.reduce IntOp.andi x v reducesTo_S3x8_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S22x8 .f32 := Host.absf main_arg4
  let main_cst_4 : FVec F S_ .f32 := constant S_ .f32 0x7F800000#32
  let main_v15 : FVec F S22x8 .f32 := broadcastInDim S22x8 ![] bcast_S_S22x8 main_cst_4
  let main_v16 : IVec S22x8 1 := cmpf .olt main_v14 main_v15
  fn_part1 (F := F) main_arg1 main_arg5 main_arg6 main_arg7 main_arg8 main_arg9 main_arg10 main_arg11 main_v13 main_v16
-- ==== Kernel.lean ====
abbrev S100000x3 : Shape := ⟨2, ![100000, 3]⟩
abbrev S2x3200000 : Shape := ⟨2, ![2, 3200000]⟩
abbrev S3x8 : Shape := ⟨2, ![3, 8]⟩
abbrev S8 : Shape := ⟨1, ![8]⟩
abbrev S22x8 : Shape := ⟨2, ![22, 8]⟩
abbrev S8x1 : Shape := ⟨2, ![8, 1]⟩
abbrev S1 : Shape := ⟨1, ![1]⟩
abbrev S33x8 : Shape := ⟨2, ![33, 8]⟩
abbrev S8x8 : Shape := ⟨2, ![8, 8]⟩
abbrev S1x3200000 : Shape := ⟨2, ![1, 3200000]⟩
abbrev S3200000 : Shape := ⟨1, ![3200000]⟩
abbrev S1x8 : Shape := ⟨2, ![1, 8]⟩
abbrev S100000x11 : Shape := ⟨2, ![100000, 11]⟩
abbrev S5000x3 : Shape := ⟨2, ![5000, 3]⟩
abbrev S5000x11 : Shape := ⟨2, ![5000, 11]⟩
abbrev S5000x8 : Shape := ⟨2, ![5000, 8]⟩
abbrev S_ : Shape := ⟨0, ![]⟩
abbrev S3200000x1 : Shape := ⟨2, ![3200000, 1]⟩
abbrev S1x1 : Shape := ⟨2, ![1, 1]⟩
abbrev S3200000x11 : Shape := ⟨2, ![3200000, 11]⟩
abbrev S5120x11 : Shape := ⟨2, ![5120, 11]⟩
abbrev S5120x1 : Shape := ⟨2, ![5120, 1]⟩
abbrev S5120x22 : Shape := ⟨2, ![5120, 22]⟩
abbrev S5120x8 : Shape := ⟨2, ![5120, 8]⟩
abbrev S5000x33 : Shape := ⟨2, ![5000, 33]⟩

abbrev nBuf : Space → Nat
  | .hbm => 254
  | .vmem => 100
  | .smem => 0
  | _ => 0

abbrev hbmTy0_0 (i : Nat) : BufTy := match i % 128 with
  | 0 => ⟨S100000x3, .f32⟩
  | 1 => ⟨S2x3200000, .i32⟩
  | 2 => ⟨S3x8, .f32⟩
  | 3 => ⟨S8, .f32⟩
  | 4 => ⟨S22x8, .f32⟩
  | 5 => ⟨S8, .f32⟩
  | 6 => ⟨S8x1, .f32⟩
  | 7 => ⟨S1, .f32⟩
  | 8 => ⟨S33x8, .f32⟩
  | 9 => ⟨S8, .f32⟩
  | 10 => ⟨S8x8, .f32⟩
  | 11 => ⟨S8, .f32⟩
  | 12 => ⟨S1x3200000, .i32⟩
  | 13 => ⟨S3200000, .i32⟩
  | 14 => ⟨S1x3200000, .i32⟩
  | 15 => ⟨S3200000, .i32⟩
  | 16 => ⟨S1x8, .f32⟩
  | 17 => ⟨S100000x11, .f32⟩
  | 18 => ⟨S_, .i32⟩
  | 19 => ⟨S3200000, .i32⟩
  | 20 => ⟨S3200000, .i1⟩
  | 21 => ⟨S_, .i32⟩
  | 22 => ⟨S3200000, .i32⟩
  | 23 => ⟨S3200000, .i32⟩
  | 24 => ⟨S3200000, .i32⟩
  | 25 => ⟨S3200000x1, .i32⟩
  | 26 => ⟨S1, .i32⟩
  | 27 => ⟨S_, .i32⟩
  | 28 => ⟨S3200000x1, .i32⟩
  | 29 => ⟨S3200000x1, .i1⟩
  | 30 => ⟨S1x1, .i32⟩
  | 31 => ⟨S3200000x1, .i32⟩
  | 32 => ⟨S3200000x1, .i1⟩
  | 33 => ⟨S3200000x1, .i1⟩
  | 34 => ⟨S_, .i1⟩
  | 35 => ⟨S3200000, .i1⟩
  | 36 => ⟨S3200000x11, .f32⟩
  | 37 => ⟨S3200000x11, .i1⟩
  | 38 => ⟨S_, .f32⟩
  | 39 => ⟨S3200000x11, .f32⟩
  | 40 => ⟨S3200000x11, .f32⟩
  | 41 => ⟨S_, .i32⟩
  | 42 => ⟨S3200000, .i32⟩
  | 43 => ⟨S3200000, .i1⟩
  | 44 => ⟨S_, .i32⟩
  | 45 => ⟨S3200000, .i32⟩
  | 46 => ⟨S3200000, .i32⟩
  | 47 => ⟨S3200000, .i32⟩
  | 48 => ⟨S3200000x1, .i32⟩
  | 49 => ⟨S1, .i32⟩
  | 50 => ⟨S_, .i32⟩
  | 51 => ⟨S3200000x1, .i32⟩
  | 52 => ⟨S3200000x1, .i1⟩
  | 53 => ⟨S1x1, .i32⟩
  | 54 => ⟨S3200000x1, .i32⟩
  | 55 => ⟨S3200000x1, .i1⟩
  | 56 => ⟨S3200000x1, .i1⟩
  | 57 => ⟨S_, .i1⟩
  | 58 => ⟨S3200000, .i1⟩
  | 59 => ⟨S3200000x11, .f32⟩
  | 60 => ⟨S3200000x11, .i1⟩
  | 61 => ⟨S_, .f32⟩
  | 62 => ⟨S3200000x11, .f32⟩
  | 63 => ⟨S3200000x11, .f32⟩
  | 64 => ⟨S1x8, .f32⟩
  | 65 => ⟨S1x1, .f32⟩
  | 66 => ⟨S3200000x1, .f32⟩
  | 67 => ⟨S3200000x11, .f32⟩
  | 68 => ⟨S3200000x11, .f32⟩
  | 69 => ⟨S_, .f32⟩
  | 70 => ⟨S100000x11, .f32⟩
  | 71 => ⟨S3200000x1, .i32⟩
  | 72 => ⟨S100000x11, .f32⟩
  | 73 => ⟨S_, .f32⟩
  | 74 => ⟨S100000x11, .f32⟩
  | 75 => ⟨S3200000x1, .i32⟩
  | 76 => ⟨S100000x11, .f32⟩
  | 77 => ⟨S1x8, .f32⟩
  | 78 => ⟨S1x8, .f32⟩
  | 79 => ⟨S100000x11, .f32⟩
  | 80 => ⟨S_, .i32⟩
  | 81 => ⟨S3200000, .i32⟩
  | 82 => ⟨S3200000, .i1⟩
  | 83 => ⟨S_, .i32⟩
  | 84 => ⟨S3200000, .i32⟩
  | 85 => ⟨S3200000, .i32⟩
  | 86 => ⟨S3200000, .i32⟩
  | 87 => ⟨S3200000x1, .i32⟩
  | 88 => ⟨S1, .i32⟩
  | 89 => ⟨S_, .i32⟩
  | 90 => ⟨S3200000x1, .i32⟩
  | 91 => ⟨S3200000x1, .i1⟩
  | 92 => ⟨S1x1, .i32⟩
  | 93 => ⟨S3200000x1, .i32⟩
  | 94 => ⟨S3200000x1, .i1⟩
  | 95 => ⟨S3200000x1, .i1⟩
  | 96 => ⟨S_, .i1⟩
  | 97 => ⟨S3200000, .i1⟩
  | 98 => ⟨S3200000x11, .f32⟩
  | 99 => ⟨S3200000x11, .i1⟩
  | 100 => ⟨S_, .f32⟩
  | 101 => ⟨S3200000x11, .f32⟩
  | 102 => ⟨S3200000x11, .f32⟩
  | 103 => ⟨S_, .i32⟩
  | 104 => ⟨S3200000, .i32⟩
  | 105 => ⟨S3200000, .i1⟩
  | 106 => ⟨S_, .i32⟩
  | 107 => ⟨S3200000, .i32⟩
  | 108 => ⟨S3200000, .i32⟩
  | 109 => ⟨S3200000, .i32⟩
  | 110 => ⟨S3200000x1, .i32⟩
  | 111 => ⟨S1, .i32⟩
  | 112 => ⟨S_, .i32⟩
  | 113 => ⟨S3200000x1, .i32⟩
  | 114 => ⟨S3200000x1, .i1⟩
  | 115 => ⟨S1x1, .i32⟩
  | 116 => ⟨S3200000x1, .i32⟩
  | 117 => ⟨S3200000x1, .i1⟩
  | 118 => ⟨S3200000x1, .i1⟩
  | 119 => ⟨S_, .i1⟩
  | 120 => ⟨S3200000, .i1⟩
  | 121 => ⟨S3200000x11, .f32⟩
  | 122 => ⟨S3200000x11, .i1⟩
  | 123 => ⟨S_, .f32⟩
  | 124 => ⟨S3200000x11, .f32⟩
  | 125 => ⟨S3200000x11, .f32⟩
  | 126 => ⟨S1x8, .f32⟩
  | 127 => ⟨S1x1, .f32⟩
  | _ => ⟨S100000x3, .f32⟩

abbrev hbmTy0_1 (i : Nat) : BufTy := match i % 128 with
  | 0 => ⟨S3200000x1, .f32⟩
  | 1 => ⟨S3200000x11, .f32⟩
  | 2 => ⟨S3200000x11, .f32⟩
  | 3 => ⟨S_, .f32⟩
  | 4 => ⟨S100000x11, .f32⟩
  | 5 => ⟨S3200000x1, .i32⟩
  | 6 => ⟨S100000x11, .f32⟩
  | 7 => ⟨S_, .f32⟩
  | 8 => ⟨S100000x11, .f32⟩
  | 9 => ⟨S3200000x1, .i32⟩
  | 10 => ⟨S100000x11, .f32⟩
  | 11 => ⟨S1x8, .f32⟩
  | 12 => ⟨S1x8, .f32⟩
  | 13 => ⟨S100000x11, .f32⟩
  | 14 => ⟨S_, .i32⟩
  | 15 => ⟨S3200000, .i32⟩
  | 16 => ⟨S3200000, .i1⟩
  | 17 => ⟨S_, .i32⟩
  | 18 => ⟨S3200000, .i32⟩
  | 19 => ⟨S3200000, .i32⟩
  | 20 => ⟨S3200000, .i32⟩
  | 21 => ⟨S3200000x1, .i32⟩
  | 22 => ⟨S1, .i32⟩
  | 23 => ⟨S_, .i32⟩
  | 24 => ⟨S3200000x1, .i32⟩
  | 25 => ⟨S3200000x1, .i1⟩
  | 26 => ⟨S1x1, .i32⟩
  | 27 => ⟨S3200000x1, .i32⟩
  | 28 => ⟨S3200000x1, .i1⟩
  | 29 => ⟨S3200000x1, .i1⟩
  | 30 => ⟨S_, .i1⟩
  | 31 => ⟨S3200000, .i1⟩
  | 32 => ⟨S3200000x11, .f32⟩
  | 33 => ⟨S3200000x11, .i1⟩
  | 34 => ⟨S_, .f32⟩
  | 35 => ⟨S3200000x11, .f32⟩
  | 36 => ⟨S3200000x11, .f32⟩
  | 37 => ⟨S_, .i32⟩
  | 38 => ⟨S3200000, .i32⟩
  | 39 => ⟨S3200000, .i1⟩
  | 40 => ⟨S_, .i32⟩
  | 41 => ⟨S3200000, .i32⟩
  | 42 => ⟨S3200000, .i32⟩
  | 43 => ⟨S3200000, .i32⟩
  | 44 => ⟨S3200000x1, .i32⟩
  | 45 => ⟨S1, .i32⟩
  | 46 => ⟨S_, .i32⟩
  | 47 => ⟨S3200000x1, .i32⟩
  | 48 => ⟨S3200000x1, .i1⟩
  | 49 => ⟨S1x1, .i32⟩
  | 50 => ⟨S3200000x1, .i32⟩
  | 51 => ⟨S3200000x1, .i1⟩
  | 52 => ⟨S3200000x1, .i1⟩
  | 53 => ⟨S_, .i1⟩
  | 54 => ⟨S3200000, .i1⟩
  | 55 => ⟨S3200000x11, .f32⟩
  | 56 => ⟨S3200000x11, .i1⟩
  | 57 => ⟨S_, .f32⟩
  | 58 => ⟨S3200000x11, .f32⟩
  | 59 => ⟨S3200000x11, .f32⟩
  | 60 => ⟨S1x8, .f32⟩
  | 61 => ⟨S1x1, .f32⟩
  | 62 => ⟨S3200000x1, .f32⟩
  | 63 => ⟨S3200000x11, .f32⟩
  | 64 => ⟨S3200000x11, .f32⟩
  | 65 => ⟨S_, .f32⟩
  | 66 => ⟨S100000x11, .f32⟩
  | 67 => ⟨S3200000x1, .i32⟩
  | 68 => ⟨S100000x11, .f32⟩
  | 69 => ⟨S_, .f32⟩
  | 70 => ⟨S100000x11, .f32⟩
  | 71 => ⟨S3200000x1, .i32⟩
  | 72 => ⟨S100000x11, .f32⟩
  | 73 => ⟨S1x8, .f32⟩
  | 74 => ⟨S1x8, .f32⟩
  | 75 => ⟨S100000x11, .f32⟩
  | 76 => ⟨S_, .i32⟩
  | 77 => ⟨S3200000, .i32⟩
  | 78 => ⟨S3200000, .i1⟩
  | 79 => ⟨S_, .i32⟩
  | 80 => ⟨S3200000, .i32⟩
  | 81 => ⟨S3200000, .i32⟩
  | 82 => ⟨S3200000, .i32⟩
  | 83 => ⟨S3200000x1, .i32⟩
  | 84 => ⟨S1, .i32⟩
  | 85 => ⟨S_, .i32⟩
  | 86 => ⟨S3200000x1, .i32⟩
  | 87 => ⟨S3200000x1, .i1⟩
  | 88 => ⟨S1x1, .i32⟩
  | 89 => ⟨S3200000x1, .i32⟩
  | 90 => ⟨S3200000x1, .i1⟩
  | 91 => ⟨S3200000x1, .i1⟩
  | 92 => ⟨S_, .i1⟩
  | 93 => ⟨S3200000, .i1⟩
  | 94 => ⟨S3200000x11, .f32⟩
  | 95 => ⟨S3200000x11, .i1⟩
  | 96 => ⟨S_, .f32⟩
  | 97 => ⟨S3200000x11, .f32⟩
  | 98 => ⟨S3200000x11, .f32⟩
  | 99 => ⟨S_, .i32⟩
  | 100 => ⟨S3200000, .i32⟩
  | 101 => ⟨S3200000, .i1⟩
  | 102 => ⟨S_, .i32⟩
  | 103 => ⟨S3200000, .i32⟩
  | 104 => ⟨S3200000, .i32⟩
  | 105 => ⟨S3200000, .i32⟩
  | 106 => ⟨S3200000x1, .i32⟩
  | 107 => ⟨S1, .i32⟩
  | 108 => ⟨S_, .i32⟩
  | 109 => ⟨S3200000x1, .i32⟩
  | 110 => ⟨S3200000x1, .i1⟩
  | 111 => ⟨S1x1, .i32⟩
  | 112 => ⟨S3200000x1, .i32⟩
  | 113 => ⟨S3200000x1, .i1⟩
  | 114 => ⟨S3200000x1, .i1⟩
  | 115 => ⟨S_, .i1⟩
  | 116 => ⟨S3200000, .i1⟩
  | 117 => ⟨S3200000x11, .f32⟩
  | 118 => ⟨S3200000x11, .i1⟩
  | 119 => ⟨S_, .f32⟩
  | 120 => ⟨S3200000x11, .f32⟩
  | 121 => ⟨S3200000x11, .f32⟩
  | 122 => ⟨S1x8, .f32⟩
  | 123 => ⟨S1x1, .f32⟩
  | 124 => ⟨S3200000x1, .f32⟩
  | 125 => ⟨S3200000, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | .local _ .vmem, ⟨0, _⟩ => ⟨S5000x3, .f32⟩
  | .local _ .vmem, ⟨1, _⟩ => ⟨S5000x3, .f32⟩
  | .local _ .vmem, ⟨2, _⟩ => ⟨S3x8, .f32⟩
  | .local _ .vmem, ⟨3, _⟩ => ⟨S1x8, .f32⟩
  | .local _ .vmem, ⟨4, _⟩ => ⟨S5000x11, .f32⟩
  | .local _ .vmem, ⟨5, _⟩ => ⟨S5000x11, .f32⟩
  | .local _ .vmem, ⟨6, _⟩ => ⟨S5120x11, .f32⟩
  | .local _ .vmem, ⟨7, _⟩ => ⟨S5120x11, .f32⟩
  | .local _ .vmem, ⟨8, _⟩ => ⟨S5120x11, .f32⟩
  | .local _ .vmem, ⟨9, _⟩ => ⟨S5120x11, .f32⟩
  | .local _ .vmem, ⟨10, _⟩ => ⟨S22x8, .f32⟩
  | .local _ .vmem, ⟨11, _⟩ => ⟨S1x8, .f32⟩
  | .local _ .vmem, ⟨12, _⟩ => ⟨S8x1, .f32⟩
  | .local _ .vmem, ⟨13, _⟩ => ⟨S1x1, .f32⟩
  | .local _ .vmem, ⟨14, _⟩ => ⟨S5120x1, .f32⟩
  | .local _ .vmem, ⟨15, _⟩ => ⟨S5120x1, .f32⟩
  | .local _ .vmem, ⟨16, _⟩ => ⟨S5120x11, .f32⟩
  | .local _ .vmem, ⟨17, _⟩ => ⟨S5120x11, .f32⟩
  | .local _ .vmem, ⟨18, _⟩ => ⟨S5120x11, .f32⟩
  | .local _ .vmem, ⟨19, _⟩ => ⟨S5120x11, .f32⟩
  | .local _ .vmem, ⟨20, _⟩ => ⟨S5000x11, .f32⟩
  | .local _ .vmem, ⟨21, _⟩ => ⟨S5000x11, .f32⟩
  | .local _ .vmem, ⟨22, _⟩ => ⟨S5000x11, .f32⟩
  | .local _ .vmem, ⟨23, _⟩ => ⟨S5000x11, .f32⟩
  | .local _ .vmem, ⟨24, _⟩ => ⟨S5000x11, .f32⟩
  | .local _ .vmem, ⟨25, _⟩ => ⟨S5000x11, .f32⟩
  | .local _ .vmem, ⟨26, _⟩ => ⟨S5000x3, .f32⟩
  | .local _ .vmem, ⟨27, _⟩ => ⟨S5000x3, .f32⟩
  | .local _ .vmem, ⟨28, _⟩ => ⟨S33x8, .f32⟩
  | .local _ .vmem, ⟨29, _⟩ => ⟨S1x8, .f32⟩
  | .local _ .vmem, ⟨30, _⟩ => ⟨S8x8, .f32⟩
  | .local _ .vmem, ⟨31, _⟩ => ⟨S1x8, .f32⟩
  | .local _ .vmem, ⟨32, _⟩ => ⟨S5000x11, .f32⟩
  | .local _ .vmem, ⟨33, _⟩ => ⟨S5000x11, .f32⟩
  | .local _ .vmem, ⟨34, _⟩ => ⟨S5120x11, .f32⟩
  | .local _ .vmem, ⟨35, _⟩ => ⟨S5120x11, .f32⟩
  | .local _ .vmem, ⟨36, _⟩ => ⟨S5120x11, .f32⟩
  | .local _ .vmem, ⟨37, _⟩ => ⟨S5120x11, .f32⟩
  | .local _ .vmem, ⟨38, _⟩ => ⟨S22x8, .f32⟩
  | .local _ .vmem, ⟨39, _⟩ => ⟨S1x8, .f32⟩
  | .local _ .vmem, ⟨40, _⟩ => ⟨S8x1, .f32⟩
  | .local _ .vmem, ⟨41, _⟩ => ⟨S1x1, .f32⟩
  | .local _ .vmem, ⟨42, _⟩ => ⟨S5120x1, .f32⟩
  | .local _ .vmem, ⟨43, _⟩ => ⟨S5120x1, .f32⟩
  | .local _ .vmem, ⟨44, _⟩ => ⟨S5120x11, .f32⟩
  | .local _ .vmem, ⟨45, _⟩ => ⟨S5120x11, .f32⟩
  | .local _ .vmem, ⟨46, _⟩ => ⟨S5120x11, .f32⟩
  | .local _ .vmem, ⟨47, _⟩ => ⟨S5120x11, .f32⟩
  | .local _ .vmem, ⟨48, _⟩ => ⟨S5000x11, .f32⟩
  | .local _ .vmem, ⟨49, _⟩ => ⟨S5000x11, .f32⟩
  | .local _ .vmem, ⟨50, _⟩ => ⟨S5000x11, .f32⟩
  | .local _ .vmem, ⟨51, _⟩ => ⟨S5000x11, .f32⟩
  | .local _ .vmem, ⟨52, _⟩ => ⟨S5000x11, .f32⟩
  | .local _ .vmem, ⟨53, _⟩ => ⟨S5000x11, .f32⟩
  | .local _ .vmem, ⟨54, _⟩ => ⟨S5000x3, .f32⟩
  | .local _ .vmem, ⟨55, _⟩ => ⟨S5000x3, .f32⟩
  | .local _ .vmem, ⟨56, _⟩ => ⟨S33x8, .f32⟩
  | .local _ .vmem, ⟨57, _⟩ => ⟨S1x8, .f32⟩
  | .local _ .vmem, ⟨58, _⟩ => ⟨S8x8, .f32⟩
  | .local _ .vmem, ⟨59, _⟩ => ⟨S1x8, .f32⟩
  | .local _ .vmem, ⟨60, _⟩ => ⟨S5000x11, .f32⟩
  | .local _ .vmem, ⟨61, _⟩ => ⟨S5000x11, .f32⟩
  | .local _ .vmem, ⟨62, _⟩ => ⟨S5120x11, .f32⟩
  | .local _ .vmem, ⟨63, _⟩ => ⟨S5120x11, .f32⟩
  | .local _ .vmem, ⟨64, _⟩ => ⟨S5120x11, .f32⟩
  | .local _ .vmem, ⟨65, _⟩ => ⟨S5120x11, .f32⟩
  | .local _ .vmem, ⟨66, _⟩ => ⟨S22x8, .f32⟩
  | .local _ .vmem, ⟨67, _⟩ => ⟨S1x8, .f32⟩
  | .local _ .vmem, ⟨68, _⟩ => ⟨S8x1, .f32⟩
  | .local _ .vmem, ⟨69, _⟩ => ⟨S1x1, .f32⟩
  | .local _ .vmem, ⟨70, _⟩ => ⟨S5120x1, .f32⟩
  | .local _ .vmem, ⟨71, _⟩ => ⟨S5120x1, .f32⟩
  | .local _ .vmem, ⟨72, _⟩ => ⟨S5120x11, .f32⟩
  | .local _ .vmem, ⟨73, _⟩ => ⟨S5120x11, .f32⟩
  | .local _ .vmem, ⟨74, _⟩ => ⟨S5120x11, .f32⟩
  | .local _ .vmem, ⟨75, _⟩ => ⟨S5120x11, .f32⟩
  | .local _ .vmem, ⟨76, _⟩ => ⟨S5000x11, .f32⟩
  | .local _ .vmem, ⟨77, _⟩ => ⟨S5000x11, .f32⟩
  | .local _ .vmem, ⟨78, _⟩ => ⟨S5000x11, .f32⟩
  | .local _ .vmem, ⟨79, _⟩ => ⟨S5000x11, .f32⟩
  | .local _ .vmem, ⟨80, _⟩ => ⟨S5000x11, .f32⟩
  | .local _ .vmem, ⟨81, _⟩ => ⟨S5000x11, .f32⟩
  | .local _ .vmem, ⟨82, _⟩ => ⟨S5000x3, .f32⟩
  | .local _ .vmem, ⟨83, _⟩ => ⟨S5000x3, .f32⟩
  | .local _ .vmem, ⟨84, _⟩ => ⟨S33x8, .f32⟩
  | .local _ .vmem, ⟨85, _⟩ => ⟨S1x8, .f32⟩
  | .local _ .vmem, ⟨86, _⟩ => ⟨S8x8, .f32⟩
  | .local _ .vmem, ⟨87, _⟩ => ⟨S1x8, .f32⟩
  | .local _ .vmem, ⟨88, _⟩ => ⟨S5000x11, .f32⟩
  | .local _ .vmem, ⟨89, _⟩ => ⟨S5000x11, .f32⟩
  | .local _ .vmem, ⟨90, _⟩ => ⟨S5120x11, .f32⟩
  | .local _ .vmem, ⟨91, _⟩ => ⟨S5120x11, .f32⟩
  | .local _ .vmem, ⟨92, _⟩ => ⟨S5120x11, .f32⟩
  | .local _ .vmem, ⟨93, _⟩ => ⟨S5120x11, .f32⟩
  | .local _ .vmem, ⟨94, _⟩ => ⟨S22x8, .f32⟩
  | .local _ .vmem, ⟨95, _⟩ => ⟨S1x8, .f32⟩
  | .local _ .vmem, ⟨96, _⟩ => ⟨S8x1, .f32⟩
  | .local _ .vmem, ⟨97, _⟩ => ⟨S1x1, .f32⟩
  | .local _ .vmem, ⟨98, _⟩ => ⟨S5120x1, .f32⟩
  | .local _ .vmem, ⟨99, _⟩ => ⟨S5120x1, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | _, _ => false

abbrev semScoped : Fin 0 → Bool
  | ⟨_, h⟩ => absurd h (Nat.not_lt_zero _)

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  ofTc nBuf bufTy 0 100 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v6 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10_0 : Ref sig .tc := ⟨.hbm, 66, rfl⟩
abbrev main_v10_1 : Ref sig .tc := ⟨.hbm, 67, rfl⟩
abbrev main_v10_2 : Ref sig .tc := ⟨.hbm, 68, rfl⟩
abbrev main_cst : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_cst_0 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_call2_cst : Ref sig .tc := ⟨.hbm, 100, rfl⟩
abbrev main_call2_v15 : Ref sig .tc := ⟨.hbm, 101, rfl⟩
abbrev main_v20 : Ref sig .tc := ⟨.hbm, 102, rfl⟩
abbrev main_call3_c : Ref sig .tc := ⟨.hbm, 103, rfl⟩
abbrev main_call3_v0 : Ref sig .tc := ⟨.hbm, 104, rfl⟩
abbrev main_call3_v1 : Ref sig .tc := ⟨.hbm, 105, rfl⟩
abbrev main_call3_c_0 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_call3_v5 : Ref sig .tc := ⟨.hbm, 110, rfl⟩
abbrev main_call3_c_1 : Ref sig .tc := ⟨.hbm, 111, rfl⟩
abbrev main_call3_c_2 : Ref sig .tc := ⟨.hbm, 112, rfl⟩
abbrev main_call3_v6 : Ref sig .tc := ⟨.hbm, 113, rfl⟩
abbrev main_call3_v7 : Ref sig .tc := ⟨.hbm, 114, rfl⟩
abbrev main_call3_v8 : Ref sig .tc := ⟨.hbm, 115, rfl⟩
abbrev main_call3_v9 : Ref sig .tc := ⟨.hbm, 116, rfl⟩
abbrev main_call3_v10 : Ref sig .tc := ⟨.hbm, 117, rfl⟩
abbrev main_call3_v11 : Ref sig .tc := ⟨.hbm, 118, rfl⟩
abbrev main_call3_c_3 : Ref sig .tc := ⟨.hbm, 119, rfl⟩
abbrev main_call3_v12 : Ref sig .tc := ⟨.hbm, 120, rfl⟩
abbrev main_call3_v13 : Ref sig .tc := ⟨.hbm, 121, rfl⟩
abbrev main_call3_v14 : Ref sig .tc := ⟨.hbm, 122, rfl⟩
abbrev main_call3_cst : Ref sig .tc := ⟨.hbm, 123, rfl⟩
abbrev main_call3_v15 : Ref sig .tc := ⟨.hbm, 124, rfl⟩
abbrev main_v21 : Ref sig .tc := ⟨.hbm, 125, rfl⟩
abbrev main_v22 : Ref sig .tc := ⟨.hbm, 126, rfl⟩
abbrev main_v23 : Ref sig .tc := ⟨.hbm, 127, rfl⟩
abbrev main_v24_0 : Ref sig .tc := ⟨.hbm, 128, rfl⟩
abbrev main_v24_1 : Ref sig .tc := ⟨.hbm, 129, rfl⟩
abbrev main_v24_2 : Ref sig .tc := ⟨.hbm, 130, rfl⟩
abbrev main_cst_1 : Ref sig .tc := ⟨.hbm, 131, rfl⟩
abbrev main_v25 : Ref sig .tc := ⟨.hbm, 132, rfl⟩
abbrev main_v26 : Ref sig .tc := ⟨.hbm, 133, rfl⟩
abbrev main_v27 : Ref sig .tc := ⟨.hbm, 134, rfl⟩
abbrev main_cst_2 : Ref sig .tc := ⟨.hbm, 135, rfl⟩
abbrev main_v28 : Ref sig .tc := ⟨.hbm, 136, rfl⟩
abbrev main_v29 : Ref sig .tc := ⟨.hbm, 137, rfl⟩
abbrev main_v30 : Ref sig .tc := ⟨.hbm, 138, rfl⟩
abbrev main_v31 : Ref sig .tc := ⟨.hbm, 139, rfl⟩
abbrev main_v32 : Ref sig .tc := ⟨.hbm, 140, rfl⟩
abbrev main_v33 : Ref sig .tc := ⟨.hbm, 141, rfl⟩
abbrev main_call4_c : Ref sig .tc := ⟨.hbm, 142, rfl⟩
abbrev main_call4_v0 : Ref sig .tc := ⟨.hbm, 143, rfl⟩
abbrev main_call4_v1 : Ref sig .tc := ⟨.hbm, 144, rfl⟩
abbrev main_call4_c_0 : Ref sig .tc := ⟨.hbm, 145, rfl⟩
abbrev main_call4_v2 : Ref sig .tc := ⟨.hbm, 146, rfl⟩
abbrev main_call4_v3 : Ref sig .tc := ⟨.hbm, 147, rfl⟩
abbrev main_call4_v4 : Ref sig .tc := ⟨.hbm, 148, rfl⟩
abbrev main_call4_v5 : Ref sig .tc := ⟨.hbm, 149, rfl⟩
abbrev main_call4_c_1 : Ref sig .tc := ⟨.hbm, 150, rfl⟩
abbrev main_call4_c_2 : Ref sig .tc := ⟨.hbm, 151, rfl⟩
abbrev main_call4_v6 : Ref sig .tc := ⟨.hbm, 152, rfl⟩
abbrev main_call4_v7 : Ref sig .tc := ⟨.hbm, 153, rfl⟩
abbrev main_call4_v8 : Ref sig .tc := ⟨.hbm, 154, rfl⟩
abbrev main_call4_v9 : Ref sig .tc := ⟨.hbm, 155, rfl⟩
abbrev main_call4_v10 : Ref sig .tc := ⟨.hbm, 156, rfl⟩
abbrev main_call4_v11 : Ref sig .tc := ⟨.hbm, 157, rfl⟩
abbrev main_call4_c_3 : Ref sig .tc := ⟨.hbm, 158, rfl⟩
abbrev main_call4_v12 : Ref sig .tc := ⟨.hbm, 159, rfl⟩
abbrev main_call4_v13 : Ref sig .tc := ⟨.hbm, 160, rfl⟩
abbrev main_call4_v14 : Ref sig .tc := ⟨.hbm, 161, rfl⟩
abbrev main_call4_cst : Ref sig .tc := ⟨.hbm, 162, rfl⟩
abbrev main_call4_v15 : Ref sig .tc := ⟨.hbm, 163, rfl⟩
abbrev main_v34 : Ref sig .tc := ⟨.hbm, 164, rfl⟩
abbrev main_call5_c : Ref sig .tc := ⟨.hbm, 165, rfl⟩
abbrev main_call5_v0 : Ref sig .tc := ⟨.hbm, 166, rfl⟩
abbrev main_call5_v1 : Ref sig .tc := ⟨.hbm, 167, rfl⟩
abbrev main_call5_c_0 : Ref sig .tc := ⟨.hbm, 168, rfl⟩
abbrev main_call5_v2 : Ref sig .tc := ⟨.hbm, 169, rfl⟩
abbrev main_call5_v3 : Ref sig .tc := ⟨.hbm, 170, rfl⟩
abbrev main_call5_v4 : Ref sig .tc := ⟨.hbm, 171, rfl⟩
abbrev main_call5_v5 : Ref sig .tc := ⟨.hbm, 172, rfl⟩
abbrev main_call5_c_1 : Ref sig .tc := ⟨.hbm, 173, rfl⟩
abbrev main_call5_c_2 : Ref sig .tc := ⟨.hbm, 174, rfl⟩
abbrev main_call5_v6 : Ref sig .tc := ⟨.hbm, 175, rfl⟩
abbrev main_call5_v7 : Ref sig .tc := ⟨.hbm, 176, rfl⟩
abbrev main_call5_v8 : Ref sig .tc := ⟨.hbm, 177, rfl⟩
abbrev main_call5_v9 : Ref sig .tc := ⟨.hbm, 178, rfl⟩
abbrev main_call5_v10 : Ref sig .tc := ⟨.hbm, 179, rfl⟩
abbrev main_call5_v11 : Ref sig .tc := ⟨.hbm, 180, rfl⟩
abbrev main_call5_c_3 : Ref sig .tc := ⟨.hbm, 181, rfl⟩
abbrev main_call5_v12 : Ref sig .tc := ⟨.hbm, 182, rfl⟩
abbrev main_call5_v13 : Ref sig .tc := ⟨.hbm, 183, rfl⟩
abbrev main_call5_v14 : Ref sig .tc := ⟨.hbm, 184, rfl⟩
abbrev main_call5_cst : Ref sig .tc := ⟨.hbm, 185, rfl⟩
abbrev main_call5_v15 : Ref sig .tc := ⟨.hbm, 186, rfl⟩
abbrev main_v35 : Ref sig .tc := ⟨.hbm, 187, rfl⟩
abbrev main_v36 : Ref sig .tc := ⟨.hbm, 188, rfl⟩
abbrev main_v37 : Ref sig .tc := ⟨.hbm, 189, rfl⟩
abbrev main_v38_0 : Ref sig .tc := ⟨.hbm, 190, rfl⟩
abbrev main_v38_1 : Ref sig .tc := ⟨.hbm, 191, rfl⟩
abbrev main_v38_2 : Ref sig .tc := ⟨.hbm, 192, rfl⟩
abbrev main_cst_3 : Ref sig .tc := ⟨.hbm, 193, rfl⟩
abbrev main_v39 : Ref sig .tc := ⟨.hbm, 194, rfl⟩
abbrev main_v40 : Ref sig .tc := ⟨.hbm, 195, rfl⟩
abbrev main_v41 : Ref sig .tc := ⟨.hbm, 196, rfl⟩
abbrev main_cst_4 : Ref sig .tc := ⟨.hbm, 197, rfl⟩
abbrev main_v42 : Ref sig .tc := ⟨.hbm, 198, rfl⟩
abbrev main_v43 : Ref sig .tc := ⟨.hbm, 199, rfl⟩
abbrev main_v44 : Ref sig .tc := ⟨.hbm, 200, rfl⟩
abbrev main_v45 : Ref sig .tc := ⟨.hbm, 201, rfl⟩
abbrev main_v46 : Ref sig .tc := ⟨.hbm, 202, rfl⟩
abbrev main_v47 : Ref sig .tc := ⟨.hbm, 203, rfl⟩
abbrev main_call6_c : Ref sig .tc := ⟨.hbm, 204, rfl⟩
abbrev main_call6_v0 : Ref sig .tc := ⟨.hbm, 205, rfl⟩
abbrev main_call6_v1 : Ref sig .tc := ⟨.hbm, 206, rfl⟩
abbrev main_call6_c_0 : Ref sig .tc := ⟨.hbm, 207, rfl⟩
abbrev main_call6_v2 : Ref sig .tc := ⟨.hbm, 208, rfl⟩
abbrev main_call6_v3 : Ref sig .tc := ⟨.hbm, 209, rfl⟩
abbrev main_call6_v4 : Ref sig .tc := ⟨.hbm, 210, rfl⟩
abbrev main_call6_v5 : Ref sig .tc := ⟨.hbm, 211, rfl⟩
abbrev main_call6_c_1 : Ref sig .tc := ⟨.hbm, 212, rfl⟩
abbrev main_call6_c_2 : Ref sig .tc := ⟨.hbm, 213, rfl⟩
abbrev main_call6_v6 : Ref sig .tc := ⟨.hbm, 214, rfl⟩
abbrev main_call6_v7 : Ref sig .tc := ⟨.hbm, 215, rfl⟩
abbrev main_call6_v8 : Ref sig .tc := ⟨.hbm, 216, rfl⟩
abbrev main_call6_v9 : Ref sig .tc := ⟨.hbm, 217, rfl⟩
abbrev main_call6_v10 : Ref sig .tc := ⟨.hbm, 218, rfl⟩
abbrev main_call6_v11 : Ref sig .tc := ⟨.hbm, 219, rfl⟩
abbrev main_call6_c_3 : Ref sig .tc := ⟨.hbm, 220, rfl⟩
abbrev main_call6_v12 : Ref sig .tc := ⟨.hbm, 221, rfl⟩
abbrev main_call6_v13 : Ref sig .tc := ⟨.hbm, 222, rfl⟩
abbrev main_call6_v14 : Ref sig .tc := ⟨.hbm, 223, rfl⟩
abbrev main_call6_cst : Ref sig .tc := ⟨.hbm, 224, rfl⟩
abbrev main_call6_v15 : Ref sig .tc := ⟨.hbm, 225, rfl⟩
abbrev main_v48 : Ref sig .tc := ⟨.hbm, 226, rfl⟩
abbrev main_call7_c : Ref sig .tc := ⟨.hbm, 227, rfl⟩
abbrev main_call7_v0 : Ref sig .tc := ⟨.hbm, 228, rfl⟩
abbrev main_call7_v1 : Ref sig .tc := ⟨.hbm, 229, rfl⟩
abbrev main_call7_c_0 : Ref sig .tc := ⟨.hbm, 230, rfl⟩
abbrev main_call7_v2 : Ref sig .tc := ⟨.hbm, 231, rfl⟩
abbrev main_call7_v3 : Ref sig .tc := ⟨.hbm, 232, rfl⟩
abbrev main_call7_v4 : Ref sig .tc := ⟨.hbm, 233, rfl⟩
abbrev main_call7_v5 : Ref sig .tc := ⟨.hbm, 234, rfl⟩
abbrev main_call7_c_1 : Ref sig .tc := ⟨.hbm, 235, rfl⟩
abbrev main_call7_c_2 : Ref sig .tc := ⟨.hbm, 236, rfl⟩
abbrev main_call7_v6 : Ref sig .tc := ⟨.hbm, 237, rfl⟩
abbrev main_call7_v7 : Ref sig .tc := ⟨.hbm, 238, rfl⟩
abbrev main_call7_v8 : Ref sig .tc := ⟨.hbm, 239, rfl⟩
abbrev main_call7_v9 : Ref sig .tc := ⟨.hbm, 240, rfl⟩
abbrev main_call7_v10 : Ref sig .tc := ⟨.hbm, 241, rfl⟩
abbrev main_call7_v11 : Ref sig .tc := ⟨.hbm, 242, rfl⟩
abbrev main_call7_c_3 : Ref sig .tc := ⟨.hbm, 243, rfl⟩
abbrev main_call7_v12 : Ref sig .tc := ⟨.hbm, 244, rfl⟩
abbrev main_call7_v13 : Ref sig .tc := ⟨.hbm, 245, rfl⟩
abbrev main_call7_v14 : Ref sig .tc := ⟨.hbm, 246, rfl⟩
abbrev main_call7_cst : Ref sig .tc := ⟨.hbm, 247, rfl⟩
abbrev main_call7_v15 : Ref sig .tc := ⟨.hbm, 248, rfl⟩
abbrev main_v49 : Ref sig .tc := ⟨.hbm, 249, rfl⟩
abbrev main_v50 : Ref sig .tc := ⟨.hbm, 250, rfl⟩
abbrev main_v51 : Ref sig .tc := ⟨.hbm, 251, rfl⟩
abbrev main_v52 : Ref sig .tc := ⟨.hbm, 252, rfl⟩
abbrev main_v53 : Ref sig .tc := ⟨.hbm, 253, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg8_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc3_stg7_0 : Ref sig .tc := ⟨.vmem, 44, rfl⟩
abbrev cc3_stg7_1 : Ref sig .tc := ⟨.vmem, 45, rfl⟩
abbrev cc3_stg8_0 : Ref sig .tc := ⟨.vmem, 46, rfl⟩
abbrev cc3_stg8_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg2_1 : Ref sig .tc := ⟨.vmem, 53, rfl⟩
abbrev cc4_stg3_0 : Ref sig .tc := ⟨.vmem, 54, rfl⟩
abbrev cc4_stg3_1 : Ref sig .tc := ⟨.vmem, 55, rfl⟩
abbrev cc4_stg4_0 : Ref sig .tc := ⟨.vmem, 56, rfl⟩
abbrev cc4_stg5_0 : Ref sig .tc := ⟨.vmem, 57, rfl⟩
abbrev cc4_stg6_0 : Ref sig .tc := ⟨.vmem, 58, rfl⟩
abbrev cc4_stg7_0 : Ref sig .tc := ⟨.vmem, 59, rfl⟩
abbrev cc4_stg8_0 : Ref sig .tc := ⟨.vmem, 60, rfl⟩
abbrev cc4_stg8_1 : Ref sig .tc := ⟨.vmem, 61, rfl⟩
abbrev cc5_stg0_0 : Ref sig .tc := ⟨.vmem, 62, rfl⟩
abbrev cc5_stg0_1 : Ref sig .tc := ⟨.vmem, 63, rfl⟩
abbrev cc5_stg1_0 : Ref sig .tc := ⟨.vmem, 64, rfl⟩
abbrev cc5_stg1_1 : Ref sig .tc := ⟨.vmem, 65, rfl⟩
abbrev cc5_stg2_0 : Ref sig .tc := ⟨.vmem, 66, rfl⟩
abbrev cc5_stg3_0 : Ref sig .tc := ⟨.vmem, 67, rfl⟩
abbrev cc5_stg4_0 : Ref sig .tc := ⟨.vmem, 68, rfl⟩
abbrev cc5_stg5_0 : Ref sig .tc := ⟨.vmem, 69, rfl⟩
abbrev cc5_stg6_0 : Ref sig .tc := ⟨.vmem, 70, rfl⟩
abbrev cc5_stg6_1 : Ref sig .tc := ⟨.vmem, 71, rfl⟩
abbrev cc5_stg7_0 : Ref sig .tc := ⟨.vmem, 72, rfl⟩
abbrev cc5_stg7_1 : Ref sig .tc := ⟨.vmem, 73, rfl⟩
abbrev cc5_stg8_0 : Ref sig .tc := ⟨.vmem, 74, rfl⟩
abbrev cc5_stg8_1 : Ref sig .tc := ⟨.vmem, 75, rfl⟩
abbrev cc6_stg0_0 : Ref sig .tc := ⟨.vmem, 76, rfl⟩
abbrev cc6_stg0_1 : Ref sig .tc := ⟨.vmem, 77, rfl⟩
abbrev cc6_stg1_0 : Ref sig .tc := ⟨.vmem, 78, rfl⟩
abbrev cc6_stg1_1 : Ref sig .tc := ⟨.vmem, 79, rfl⟩
abbrev cc6_stg2_0 : Ref sig .tc := ⟨.vmem, 80, rfl⟩
abbrev cc6_stg2_1 : Ref sig .tc := ⟨.vmem, 81, rfl⟩
abbrev cc6_stg3_0 : Ref sig .tc := ⟨.vmem, 82, rfl⟩
abbrev cc6_stg3_1 : Ref sig .tc := ⟨.vmem, 83, rfl⟩
abbrev cc6_stg4_0 : Ref sig .tc := ⟨.vmem, 84, rfl⟩
abbrev cc6_stg5_0 : Ref sig .tc := ⟨.vmem, 85, rfl⟩
abbrev cc6_stg6_0 : Ref sig .tc := ⟨.vmem, 86, rfl⟩
abbrev cc6_stg7_0 : Ref sig .tc := ⟨.vmem, 87, rfl⟩
abbrev cc6_stg8_0 : Ref sig .tc := ⟨.vmem, 88, rfl⟩
abbrev cc6_stg8_1 : Ref sig .tc := ⟨.vmem, 89, rfl⟩
abbrev cc7_stg0_0 : Ref sig .tc := ⟨.vmem, 90, rfl⟩
abbrev cc7_stg0_1 : Ref sig .tc := ⟨.vmem, 91, rfl⟩
abbrev cc7_stg1_0 : Ref sig .tc := ⟨.vmem, 92, rfl⟩
abbrev cc7_stg1_1 : Ref sig .tc := ⟨.vmem, 93, rfl⟩
abbrev cc7_stg2_0 : Ref sig .tc := ⟨.vmem, 94, rfl⟩
abbrev cc7_stg3_0 : Ref sig .tc := ⟨.vmem, 95, rfl⟩
abbrev cc7_stg4_0 : Ref sig .tc := ⟨.vmem, 96, rfl⟩
abbrev cc7_stg5_0 : Ref sig .tc := ⟨.vmem, 97, rfl⟩
abbrev cc7_stg6_0 : Ref sig .tc := ⟨.vmem, 98, rfl⟩
abbrev cc7_stg6_1 : Ref sig .tc := ⟨.vmem, 99, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc1_sem7_1 : DmaSem sig := 17
abbrev cc1_sem8_0 : DmaSem sig := 18
abbrev cc1_sem8_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem8_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc3_sem7_0 : DmaSem sig := 44
abbrev cc3_sem7_1 : DmaSem sig := 45
abbrev cc3_sem8_0 : DmaSem sig := 46
abbrev cc3_sem8_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem2_1 : DmaSem sig := 53
abbrev cc4_sem3_0 : DmaSem sig := 54
abbrev cc4_sem3_1 : DmaSem sig := 55
abbrev cc4_sem4_0 : DmaSem sig := 56
abbrev cc4_sem5_0 : DmaSem sig := 57
abbrev cc4_sem6_0 : DmaSem sig := 58
abbrev cc4_sem7_0 : DmaSem sig := 59
abbrev cc4_sem8_0 : DmaSem sig := 60
abbrev cc4_sem8_1 : DmaSem sig := 61
abbrev cc5_sem0_0 : DmaSem sig := 62
abbrev cc5_sem0_1 : DmaSem sig := 63
abbrev cc5_sem1_0 : DmaSem sig := 64
abbrev cc5_sem1_1 : DmaSem sig := 65
abbrev cc5_sem2_0 : DmaSem sig := 66
abbrev cc5_sem3_0 : DmaSem sig := 67
abbrev cc5_sem4_0 : DmaSem sig := 68
abbrev cc5_sem5_0 : DmaSem sig := 69
abbrev cc5_sem6_0 : DmaSem sig := 70
abbrev cc5_sem6_1 : DmaSem sig := 71
abbrev cc5_sem7_0 : DmaSem sig := 72
abbrev cc5_sem7_1 : DmaSem sig := 73
abbrev cc5_sem8_0 : DmaSem sig := 74
abbrev cc5_sem8_1 : DmaSem sig := 75
abbrev cc6_sem0_0 : DmaSem sig := 76
abbrev cc6_sem0_1 : DmaSem sig := 77
abbrev cc6_sem1_0 : DmaSem sig := 78
abbrev cc6_sem1_1 : DmaSem sig := 79
abbrev cc6_sem2_0 : DmaSem sig := 80
abbrev cc6_sem2_1 : DmaSem sig := 81
abbrev cc6_sem3_0 : DmaSem sig := 82
abbrev cc6_sem3_1 : DmaSem sig := 83
abbrev cc6_sem4_0 : DmaSem sig := 84
abbrev cc6_sem5_0 : DmaSem sig := 85
abbrev cc6_sem6_0 : DmaSem sig := 86
abbrev cc6_sem7_0 : DmaSem sig := 87
abbrev cc6_sem8_0 : DmaSem sig := 88
abbrev cc6_sem8_1 : DmaSem sig := 89
abbrev cc7_sem0_0 : DmaSem sig := 90
abbrev cc7_sem0_1 : DmaSem sig := 91
abbrev cc7_sem1_0 : DmaSem sig := 92
abbrev cc7_sem1_1 : DmaSem sig := 93
abbrev cc7_sem2_0 : DmaSem sig := 94
abbrev cc7_sem3_0 : DmaSem sig := 95
abbrev cc7_sem4_0 : DmaSem sig := 96
abbrev cc7_sem5_0 : DmaSem sig := 97
abbrev cc7_sem6_0 : DmaSem sig := 98
abbrev cc7_sem6_1 : DmaSem sig := 99

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x11 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![625], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5120x11 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5120x11 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S22x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5120x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5120x11 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5120x11 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x11 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x11 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x11 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x3 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S33x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x8 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S8x8 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x8 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x11 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![625], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5120x11 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5120x11 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S22x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x8 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S8x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5120x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S5120x11 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S5120x11 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x11 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x11 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x11 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x3 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S33x8 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x8 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S8x8 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x8 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S5000x11 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![625], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5120x11 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5120x11 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S22x8 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x8 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S8x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5120x1 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S5120x11 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S5120x11 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x11 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x11 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x11 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x3 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S33x8 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x8 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S8x8 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x8 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 2 → Memref sig .tc .vmem S5000x11 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![625], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5120x11 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5120x11 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S22x8 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x8 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S8x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x1 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5120x1 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  shapeCasts_S8_S1x8 : S8.ShapeCasts S1x8
  inb_S5000x3_S5000x3_0_0 : ∀ a, (![0, 0] : Fin 2 → Nat) a + S5000x3.size a ≤ S5000x3.size a
  h_S5000x3 : 0 < S5000x3.numel
  inb_S3x8_S3x8_0_0 : ∀ a, (![0, 0] : Fin 2 → Nat) a + S3x8.size a ≤ S3x8.size a
  h_S3x8 : 0 < S3x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  bitsLt_bf16_f32 : FTy.bits .bf16 < FTy.bits .f32
  broadcasts_S1x8_S5000x8 : S1x8.Broadcasts S5000x8
  concatenates_S5000x8_S5000x3_S5000x11_d1 : Shape.Concatenates [S5000x8, S5000x3] S5000x11 1
  inb_S5000x11_S5000x11_0_0 : ∀ a, (![0, 0] : Fin 2 → Nat) a + S5000x11.size a ≤ S5000x11.size a
  h_S5000x11 : 0 < S5000x11.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x11_0 : S3200000.BroadcastsInDim S3200000x11 (![0] : Fin 1 → Fin S3200000x11.rank)
  bcast_S_S3200000x11 : S_.BroadcastsInDim S3200000x11 (![] : Fin 0 → Fin S3200000x11.rank)
  shapeCasts_S1_S1x1 : S1.ShapeCasts S1x1
  inb_S5120x11_S5120x11_0_0 : ∀ a, (![0, 0] : Fin 2 → Nat) a + S5120x11.size a ≤ S5120x11.size a
  h_S5120x11 : 0 < S5120x11.numel
  shapeCasts_S5120x11_S5120x11 : S5120x11.ShapeCasts S5120x11
  concatenates_S5120x11_S5120x11_S5120x22_d1 : Shape.Concatenates [S5120x11, S5120x11] S5120x22 1
  inb_S22x8_S22x8_0_0 : ∀ a, (![0, 0] : Fin 2 → Nat) a + S22x8.size a ≤ S22x8.size a
  h_S22x8 : 0 < S22x8.numel
  inb_S8x1_S8x1_0_0 : ∀ a, (![0, 0] : Fin 2 → Nat) a + S8x1.size a ≤ S8x1.size a
  h_S8x1 : 0 < S8x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x8_S5120x8 : S1x8.Broadcasts S5120x8
  broadcasts_S1x1_S5120x1 : S1x1.Broadcasts S5120x1
  inb_S5120x1_S5120x1_0_0 : ∀ a, (![0, 0] : Fin 2 → Nat) a + S5120x1.size a ≤ S5120x1.size a
  h_S5120x1 : 0 < S5120x1.numel
  broadcasts_S5120x1_S5120x11 : S5120x1.Broadcasts S5120x11
  bcast_S_S100000x11 : S_.BroadcastsInDim S100000x11 (![] : Fin 0 → Fin S100000x11.rank)
  shapeCasts_S5000x11_S5000x11 : S5000x11.ShapeCasts S5000x11
  concatenates_S5000x11_S5000x11_S5000x11_S5000x33_d1 : Shape.Concatenates [S5000x11, S5000x11, S5000x11] S5000x33 1
  inb_S33x8_S33x8_0_0 : ∀ a, (![0, 0] : Fin 2 → Nat) a + S33x8.size a ≤ S33x8.size a
  h_S33x8 : 0 < S33x8.numel
  inb_S8x8_S8x8_0_0 : ∀ a, (![0, 0] : Fin 2 → Nat) a + S8x8.size a ≤ S8x8.size a
  h_S8x8 : 0 < S8x8.numel
  shapeCasts_S3200000x1_S3200000 : S3200000x1.ShapeCasts S3200000
  dot_S5000x3_S3x8_S5000x8_1_0_0_1_n_n_wf : DotDims.WF S5000x3 S3x8 S5000x8 [1] [0] [0] [1] [] []
  gather_S100000x11_S3200000x1_S3200000x11_1_0_n_n_0_1_111_wf : GatherDims.WF S100000x11 S3200000x1 S3200000x11 [1] [0] [] [0] [] 1 ![1, 11]
  dot_S5120x22_S22x8_S5120x8_1_0_0_1_n_n_wf : DotDims.WF S5120x22 S22x8 S5120x8 [1] [0] [0] [1] [] []
  dot_S5120x8_S8x1_S5120x1_1_0_0_1_n_n_wf : DotDims.WF S5120x8 S8x1 S5120x1 [1] [0] [0] [1] [] []
  scatter_S100000x11_S3200000x1_S3200000x11_1_0_0_1_wf : ScatterDims.WF S100000x11 S3200000x1 S3200000x11 [1] [0] [0] 1
  dot_S5000x33_S33x8_S5000x8_1_0_0_1_n_n_wf : DotDims.WF S5000x33 S33x8 S5000x8 [1] [0] [0] [1] [] []
  dot_S5000x8_S8x8_S5000x8_1_0_0_1_n_n_wf : DotDims.WF S5000x8 S8x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x8.size a ≤ S3x8.size a
  hwx0_1 : ∀ i : grid0.Coords, EltTy.bits .f32 = 32 ∨ (Rect.block (s := S3x8) S3x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x11.size a ≤ S100000x11.size a
  hwx0_3 : ∀ i : grid0.Coords, EltTy.bits .f32 = 32 ∨ (Rect.block (s := S100000x11) S5000x11.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5120x11.size a ≤ S3200000x11.size a
  hwx1_0 : ∀ i : grid1.Coords, EltTy.bits .f32 = 32 ∨ (Rect.block (s := S3200000x11) S5120x11.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5120x11.size a ≤ S3200000x11.size a
  hwx1_1 : ∀ i : grid1.Coords, EltTy.bits .f32 = 32 ∨ (Rect.block (s := S3200000x11) S5120x11.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S22x8.size a ≤ S22x8.size a
  hwx1_2 : ∀ i : grid1.Coords, EltTy.bits .f32 = 32 ∨ (Rect.block (s := S22x8) S22x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8.size a ≤ S1x8.size a
  hwx1_3 : ∀ i : grid1.Coords, EltTy.bits .f32 = 32 ∨ (Rect.block (s := S1x8) S1x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x1.size a ≤ S8x1.size a
  hwx1_4 : ∀ i : grid1.Coords, EltTy.bits .f32 = 32 ∨ (Rect.block (s := S8x1) S8x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5120x1.size a ≤ S3200000x1.size a
  hwx1_6 : ∀ i : grid1.Coords, EltTy.bits .f32 = 32 ∨ (Rect.block (s := S3200000x1) S5120x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5120x11.size a ≤ S3200000x11.size a
  hwx1_7 : ∀ i : grid1.Coords, EltTy.bits .f32 = 32 ∨ (Rect.block (s := S3200000x11) S5120x11.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5120x11.size a ≤ S3200000x11.size a
  hwx1_8 : ∀ i : grid1.Coords, EltTy.bits .f32 = 32 ∨ (Rect.block (s := S3200000x11) S5120x11.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x11.size a ≤ S100000x11.size a
  hwx2_0 : ∀ i : grid2.Coords, EltTy.bits .f32 = 32 ∨ (Rect.block (s := S100000x11) S5000x11.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x11.size a ≤ S100000x11.size a
  hwx2_1 : ∀ i : grid2.Coords, EltTy.bits .f32 = 32 ∨ (Rect.block (s := S100000x11) S5000x11.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x11.size a ≤ S100000x11.size a
  hwx2_2 : ∀ i : grid2.Coords, EltTy.bits .f32 = 32 ∨ (Rect.block (s := S100000x11) S5000x11.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x3.size a ≤ S100000x3.size a
  hwx2_3 : ∀ i : grid2.Coords, EltTy.bits .f32 = 32 ∨ (Rect.block (s := S100000x3) S5000x3.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S33x8.size a ≤ S33x8.size a
  hwx2_4 : ∀ i : grid2.Coords, EltTy.bits .f32 = 32 ∨ (Rect.block (s := S33x8) S33x8.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x8.size a ≤ S1x8.size a
  hwx2_5 : ∀ i : grid2.Coords, EltTy.bits .f32 = 32 ∨ (Rect.block (s := S1x8) S1x8.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S8x8.size a ≤ S8x8.size a
  hwx2_6 : ∀ i : grid2.Coords, EltTy.bits .f32 = 32 ∨ (Rect.block (s := S8x8) S8x8.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x8.size a ≤ S1x8.size a
  hwx2_7 : ∀ i : grid2.Coords, EltTy.bits .f32 = 32 ∨ (Rect.block (s := S1x8) S1x8.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x11.size a ≤ S100000x11.size a
  hwx2_8 : ∀ i : grid2.Coords, EltTy.bits .f32 = 32 ∨ (Rect.block (s := S100000x11) S5000x11.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5120x11.size a ≤ S3200000x11.size a
  hwx3_0 : ∀ i : grid3.Coords, EltTy.bits .f32 = 32 ∨ (Rect.block (s := S3200000x11) S5120x11.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5120x11.size a ≤ S3200000x11.size a
  hwx3_1 : ∀ i : grid3.Coords, EltTy.bits .f32 = 32 ∨ (Rect.block (s := S3200000x11) S5120x11.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S22x8.size a ≤ S22x8.size a
  hwx3_2 : ∀ i : grid3.Coords, EltTy.bits .f32 = 32 ∨ (Rect.block (s := S22x8) S22x8.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x8.size a ≤ S1x8.size a
  hwx3_3 : ∀ i : grid3.Coords, EltTy.bits .f32 = 32 ∨ (Rect.block (s := S1x8) S1x8.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S8x1.size a ≤ S8x1.size a
  hwx3_4 : ∀ i : grid3.Coords, EltTy.bits .f32 = 32 ∨ (Rect.block (s := S8x1) S8x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5120x1.size a ≤ S3200000x1.size a
  hwx3_6 : ∀ i : grid3.Coords, EltTy.bits .f32 = 32 ∨ (Rect.block (s := S3200000x1) S5120x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5120x11.size a ≤ S3200000x11.size a
  hwx3_7 : ∀ i : grid3.Coords, EltTy.bits .f32 = 32 ∨ (Rect.block (s := S3200000x11) S5120x11.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5120x11.size a ≤ S3200000x11.size a
  hwx3_8 : ∀ i : grid3.Coords, EltTy.bits .f32 = 32 ∨ (Rect.block (s := S3200000x11) S5120x11.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x11.size a ≤ S100000x11.size a
  hwx4_0 : ∀ i : grid4.Coords, EltTy.bits .f32 = 32 ∨ (Rect.block (s := S100000x11) S5000x11.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x11.size a ≤ S100000x11.size a
  hwx4_1 : ∀ i : grid4.Coords, EltTy.bits .f32 = 32 ∨ (Rect.block (s := S100000x11) S5000x11.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x11.size a ≤ S100000x11.size a
  hwx4_2 : ∀ i : grid4.Coords, EltTy.bits .f32 = 32 ∨ (Rect.block (s := S100000x11) S5000x11.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x3.size a ≤ S100000x3.size a
  hwx4_3 : ∀ i : grid4.Coords, EltTy.bits .f32 = 32 ∨ (Rect.block (s := S100000x3) S5000x3.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S33x8.size a ≤ S33x8.size a
  hwx4_4 : ∀ i : grid4.Coords, EltTy.bits .f32 = 32 ∨ (Rect.block (s := S33x8) S33x8.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x8.size a ≤ S1x8.size a
  hwx4_5 : ∀ i : grid4.Coords, EltTy.bits .f32 = 32 ∨ (Rect.block (s := S1x8) S1x8.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S8x8.size a ≤ S8x8.size a
  hwx4_6 : ∀ i : grid4.Coords, EltTy.bits .f32 = 32 ∨ (Rect.block (s := S8x8) S8x8.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x8.size a ≤ S1x8.size a
  hwx4_7 : ∀ i : grid4.Coords, EltTy.bits .f32 = 32 ∨ (Rect.block (s := S1x8) S1x8.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S5000x11.size a ≤ S100000x11.size a
  hwx4_8 : ∀ i : grid4.Coords, EltTy.bits .f32 = 32 ∨ (Rect.block (s := S100000x11) S5000x11.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5120x11.size a ≤ S3200000x11.size a
  hwx5_0 : ∀ i : grid5.Coords, EltTy.bits .f32 = 32 ∨ (Rect.block (s := S3200000x11) S5120x11.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5120x11.size a ≤ S3200000x11.size a
  hwx5_1 : ∀ i : grid5.Coords, EltTy.bits .f32 = 32 ∨ (Rect.block (s := S3200000x11) S5120x11.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S22x8.size a ≤ S22x8.size a
  hwx5_2 : ∀ i : grid5.Coords, EltTy.bits .f32 = 32 ∨ (Rect.block (s := S22x8) S22x8.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x8.size a ≤ S1x8.size a
  hwx5_3 : ∀ i : grid5.Coords, EltTy.bits .f32 = 32 ∨ (Rect.block (s := S1x8) S1x8.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S8x1.size a ≤ S8x1.size a
  hwx5_4 : ∀ i : grid5.Coords, EltTy.bits .f32 = 32 ∨ (Rect.block (s := S8x1) S8x1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x1.size a ≤ S1x1.size a
  hwx5_5 : ∀ i : grid5.Coords, EltTy.bits .f32 = 32 ∨ (Rect.block (s := S1x1) S1x1.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5120x1.size a ≤ S3200000x1.size a
  hwx5_6 : ∀ i : grid5.Coords, EltTy.bits .f32 = 32 ∨ (Rect.block (s := S3200000x1) S5120x1.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5120x11.size a ≤ S3200000x11.size a
  hwx5_7 : ∀ i : grid5.Coords, EltTy.bits .f32 = 32 ∨ (Rect.block (s := S3200000x11) S5120x11.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S5120x11.size a ≤ S3200000x11.size a
  hwx5_8 : ∀ i : grid5.Coords, EltTy.bits .f32 = 32 ∨ (Rect.block (s := S3200000x11) S5120x11.size (cc5_transform_8 i) (hinb5_8 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x11.size a ≤ S100000x11.size a
  hwx6_0 : ∀ i : grid6.Coords, EltTy.bits .f32 = 32 ∨ (Rect.block (s := S100000x11) S5000x11.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x11.size a ≤ S100000x11.size a
  hwx6_1 : ∀ i : grid6.Coords, EltTy.bits .f32 = 32 ∨ (Rect.block (s := S100000x11) S5000x11.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x11.size a ≤ S100000x11.size a
  hwx6_2 : ∀ i : grid6.Coords, EltTy.bits .f32 = 32 ∨ (Rect.block (s := S100000x11) S5000x11.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x3.size a ≤ S100000x3.size a
  hwx6_3 : ∀ i : grid6.Coords, EltTy.bits .f32 = 32 ∨ (Rect.block (s := S100000x3) S5000x3.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S33x8.size a ≤ S33x8.size a
  hwx6_4 : ∀ i : grid6.Coords, EltTy.bits .f32 = 32 ∨ (Rect.block (s := S33x8) S33x8.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x8.size a ≤ S1x8.size a
  hwx6_5 : ∀ i : grid6.Coords, EltTy.bits .f32 = 32 ∨ (Rect.block (s := S1x8) S1x8.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S8x8.size a ≤ S8x8.size a
  hwx6_6 : ∀ i : grid6.Coords, EltTy.bits .f32 = 32 ∨ (Rect.block (s := S8x8) S8x8.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x8.size a ≤ S1x8.size a
  hwx6_7 : ∀ i : grid6.Coords, EltTy.bits .f32 = 32 ∨ (Rect.block (s := S1x8) S1x8.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S5000x11.size a ≤ S100000x11.size a
  hwx6_8 : ∀ i : grid6.Coords, EltTy.bits .f32 = 32 ∨ (Rect.block (s := S100000x11) S5000x11.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5120x11.size a ≤ S3200000x11.size a
  hwx7_0 : ∀ i : grid7.Coords, EltTy.bits .f32 = 32 ∨ (Rect.block (s := S3200000x11) S5120x11.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5120x11.size a ≤ S3200000x11.size a
  hwx7_1 : ∀ i : grid7.Coords, EltTy.bits .f32 = 32 ∨ (Rect.block (s := S3200000x11) S5120x11.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S22x8.size a ≤ S22x8.size a
  hwx7_2 : ∀ i : grid7.Coords, EltTy.bits .f32 = 32 ∨ (Rect.block (s := S22x8) S22x8.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x8.size a ≤ S1x8.size a
  hwx7_3 : ∀ i : grid7.Coords, EltTy.bits .f32 = 32 ∨ (Rect.block (s := S1x8) S1x8.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S8x1.size a ≤ S8x1.size a
  hwx7_4 : ∀ i : grid7.Coords, EltTy.bits .f32 = 32 ∨ (Rect.block (s := S8x1) S8x1.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x1.size a ≤ S1x1.size a
  hwx7_5 : ∀ i : grid7.Coords, EltTy.bits .f32 = 32 ∨ (Rect.block (s := S1x1) S1x1.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5120x1.size a ≤ S3200000x1.size a
  hwx7_6 : ∀ i : grid7.Coords, EltTy.bits .f32 = 32 ∨ (Rect.block (s := S3200000x1) S5120x1.size (cc7_transform_6 i) (hinb7_6 i)).WholeWords (EltTy.packing .f32)

variable [Facts₀]

def dot_S5000x3_S3x8_S5000x8_1_0_0_1_n_n : DotDims S5000x3 S3x8 S5000x8 where
  lhsContracting := [1]
  rhsContracting := [0]
  lhsNonContracting := [0]
  rhsNonContracting := [1]
  lhsBatch := []
  rhsBatch := []
  wf := dot_S5000x3_S3x8_S5000x8_1_0_0_1_n_n_wf
def gather_S100000x11_S3200000x1_S3200000x11_1_0_n_n_0_1_111 : GatherDims S100000x11 S3200000x1 S3200000x11 where
  offsetDims := [1]
  collapsedSliceDims := [0]
  operandBatchingDims := []
  startIndicesBatchingDims := []
  startIndexMap := [0]
  indexVectorDim := 1
  sliceSizes := ![1, 11]
  wf := gather_S100000x11_S3200000x1_S3200000x11_1_0_n_n_0_1_111_wf
def dot_S5120x22_S22x8_S5120x8_1_0_0_1_n_n : DotDims S5120x22 S22x8 S5120x8 where
  lhsContracting := [1]
  rhsContracting := [0]
  lhsNonContracting := [0]
  rhsNonContracting := [1]
  lhsBatch := []
  rhsBatch := []
  wf := dot_S5120x22_S22x8_S5120x8_1_0_0_1_n_n_wf
def dot_S5120x8_S8x1_S5120x1_1_0_0_1_n_n : DotDims S5120x8 S8x1 S5120x1 where
  lhsContracting := [1]
  rhsContracting := [0]
  lhsNonContracting := [0]
  rhsNonContracting := [1]
  lhsBatch := []
  rhsBatch := []
  wf := dot_S5120x8_S8x1_S5120x1_1_0_0_1_n_n_wf
def scatter_S100000x11_S3200000x1_S3200000x11_1_0_0_1 : ScatterDims S100000x11 S3200000x1 S3200000x11 where
  updateWindowDims := [1]
  insertedWindowDims := [0]
  scatterDimsToOperandDims := [0]
  indexVectorDim := 1
  wf := scatter_S100000x11_S3200000x1_S3200000x11_1_0_0_1_wf
def dot_S5000x33_S33x8_S5000x8_1_0_0_1_n_n : DotDims S5000x33 S33x8 S5000x8 where
  lhsContracting := [1]
  rhsContracting := [0]
  lhsNonContracting := [0]
  rhsNonContracting := [1]
  lhsBatch := []
  rhsBatch := []
  wf := dot_S5000x33_S33x8_S5000x8_1_0_0_1_n_n_wf
def dot_S5000x8_S8x8_S5000x8_1_0_0_1_n_n : DotDims S5000x8 S8x8 S5000x8 where
  lhsContracting := [1]
  rhsContracting := [0]
  lhsNonContracting := [0]
  rhsNonContracting := [1]
  lhsBatch := []
  rhsBatch := []
  wf := dot_S5000x8_S8x8_S5000x8_1_0_0_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x11.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S5120x11.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S5120x11.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S22x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S8x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10_0) S5120x1.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v10_1) S5120x11.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v10_2) S5120x11.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v13) S5000x11.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S5000x11.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S5000x11.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg0) S5000x3.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S33x8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v17) S1x8.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg10) S8x8.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v18) S1x8.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v19) S5000x11.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v20) S5120x11.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S5120x11.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S22x8.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v22) S1x8.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg6) S8x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v23) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v24_0) S5120x1.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v24_1) S5120x11.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v24_2) S5120x11.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v27) S5000x11.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S5000x11.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v19) S5000x11.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg0) S5000x3.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg8) S33x8.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v31) S1x8.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg10) S8x8.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v32) S1x8.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v33) S5000x11.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v34) S5120x11.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v35) S5120x11.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg4) S22x8.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v36) S1x8.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg6) S8x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v37) S1x1.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v38_0) S5120x1.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v38_1) S5120x11.size cc5_transform_7 reads5_7 true false 2 stage5_7 sem5_7
    hrank5 hreads5_7 hinb5_7 nbuf5_7 (Memref.isWhole_whole _) hwx5_7 hstage5_7

abbrev win5_8 : Pipeline.Window sig grid5 :=
  Pipeline.Window.ofSpec (Memref.whole main_v38_2) S5120x11.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v41) S5000x11.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v44) S5000x11.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v33) S5000x11.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_arg0) S5000x3.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_arg8) S33x8.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v45) S1x8.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_arg10) S8x8.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v46) S1x8.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v47) S5000x11.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v48) S5120x11.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v49) S5120x11.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg4) S22x8.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v50) S1x8.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg6) S8x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v51) S1x1.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v52) S5120x1.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

class Facts : Prop extends Facts₀ where

variable [Facts]
-- ==== ReferenceIdeal.lean ====
abbrev S100000x3 : Shape := ⟨2, ![100000, 3]⟩
abbrev S2x3200000 : Shape := ⟨2, ![2, 3200000]⟩
abbrev S3x8 : Shape := ⟨2, ![3, 8]⟩
abbrev S8 : Shape := ⟨1, ![8]⟩
abbrev S22x8 : Shape := ⟨2, ![22, 8]⟩
abbrev S8x1 : Shape := ⟨2, ![8, 1]⟩
abbrev S1 : Shape := ⟨1, ![1]⟩
abbrev S33x8 : Shape := ⟨2, ![33, 8]⟩
abbrev S8x8 : Shape := ⟨2, ![8, 8]⟩
abbrev S1x3200000 : Shape := ⟨2, ![1, 3200000]⟩
abbrev S3200000 : Shape := ⟨1, ![3200000]⟩
abbrev S100000x8 : Shape := ⟨2, ![100000, 8]⟩
abbrev S1x8 : Shape := ⟨2, ![1, 8]⟩
abbrev S100000x11 : Shape := ⟨2, ![100000, 11]⟩
abbrev S_ : Shape := ⟨0, ![]⟩
abbrev S3200000x1 : Shape := ⟨2, ![3200000, 1]⟩
abbrev S3200000x11 : Shape := ⟨2, ![3200000, 11]⟩
abbrev S3200000x22 : Shape := ⟨2, ![3200000, 22]⟩
abbrev S3200000x8 : Shape := ⟨2, ![3200000, 8]⟩
abbrev S1x1 : Shape := ⟨2, ![1, 1]⟩
abbrev S100000x33 : Shape := ⟨2, ![100000, 33]⟩

abbrev nBuf : Space → Nat
  | .hbm => 293
  | .vmem => 0
  | .smem => 0
  | _ => 0

abbrev hbmTy0_0 (i : Nat) : BufTy := match i % 128 with
  | 0 => ⟨S100000x3, .f32⟩
  | 1 => ⟨S2x3200000, .i32⟩
  | 2 => ⟨S3x8, .f32⟩
  | 3 => ⟨S8, .f32⟩
  | 4 => ⟨S22x8, .f32⟩
  | 5 => ⟨S8, .f32⟩
  | 6 => ⟨S8x1, .f32⟩
  | 7 => ⟨S1, .f32⟩
  | 8 => ⟨S33x8, .f32⟩
  | 9 => ⟨S8, .f32⟩
  | 10 => ⟨S8x8, .f32⟩
  | 11 => ⟨S8, .f32⟩
  | 12 => ⟨S1x3200000, .i32⟩
  | 13 => ⟨S3200000, .i32⟩
  | 14 => ⟨S1x3200000, .i32⟩
  | 15 => ⟨S3200000, .i32⟩
  | 16 => ⟨S100000x8, .f32⟩
  | 17 => ⟨S1x8, .f32⟩
  | 18 => ⟨S100000x8, .f32⟩
  | 19 => ⟨S100000x8, .f32⟩
  | 20 => ⟨S100000x8, .f32⟩
  | 21 => ⟨S100000x11, .f32⟩
  | 22 => ⟨S_, .i32⟩
  | 23 => ⟨S3200000, .i32⟩
  | 24 => ⟨S3200000, .i1⟩
  | 25 => ⟨S_, .i32⟩
  | 26 => ⟨S3200000, .i32⟩
  | 27 => ⟨S3200000, .i32⟩
  | 28 => ⟨S3200000, .i32⟩
  | 29 => ⟨S3200000x1, .i32⟩
  | 30 => ⟨S3200000x11, .f32⟩
  | 31 => ⟨S_, .i32⟩
  | 32 => ⟨S3200000, .i32⟩
  | 33 => ⟨S3200000, .i1⟩
  | 34 => ⟨S_, .i32⟩
  | 35 => ⟨S3200000, .i32⟩
  | 36 => ⟨S3200000, .i32⟩
  | 37 => ⟨S3200000, .i32⟩
  | 38 => ⟨S3200000x1, .i32⟩
  | 39 => ⟨S3200000x11, .f32⟩
  | 40 => ⟨S3200000x22, .f32⟩
  | 41 => ⟨S3200000x8, .f32⟩
  | 42 => ⟨S1x8, .f32⟩
  | 43 => ⟨S3200000x8, .f32⟩
  | 44 => ⟨S3200000x8, .f32⟩
  | 45 => ⟨S3200000x8, .f32⟩
  | 46 => ⟨S3200000x1, .f32⟩
  | 47 => ⟨S1x1, .f32⟩
  | 48 => ⟨S3200000x1, .f32⟩
  | 49 => ⟨S3200000x1, .f32⟩
  | 50 => ⟨S3200000x1, .f32⟩
  | 51 => ⟨S3200000x1, .f32⟩
  | 52 => ⟨S_, .f32⟩
  | 53 => ⟨S3200000x1, .f32⟩
  | 54 => ⟨S3200000x1, .f32⟩
  | 55 => ⟨S_, .f32⟩
  | 56 => ⟨S3200000x1, .f32⟩
  | 57 => ⟨S3200000x1, .f32⟩
  | 58 => ⟨S_, .i32⟩
  | 59 => ⟨S3200000, .i32⟩
  | 60 => ⟨S3200000, .i1⟩
  | 61 => ⟨S_, .i32⟩
  | 62 => ⟨S3200000, .i32⟩
  | 63 => ⟨S3200000, .i32⟩
  | 64 => ⟨S3200000, .i32⟩
  | 65 => ⟨S3200000x1, .i32⟩
  | 66 => ⟨S3200000x11, .f32⟩
  | 67 => ⟨S3200000x11, .f32⟩
  | 68 => ⟨S3200000x11, .f32⟩
  | 69 => ⟨S_, .f32⟩
  | 70 => ⟨S100000x11, .f32⟩
  | 71 => ⟨S3200000x1, .i32⟩
  | 72 => ⟨S100000x11, .f32⟩
  | 73 => ⟨S_, .i32⟩
  | 74 => ⟨S3200000, .i32⟩
  | 75 => ⟨S3200000, .i1⟩
  | 76 => ⟨S_, .i32⟩
  | 77 => ⟨S3200000, .i32⟩
  | 78 => ⟨S3200000, .i32⟩
  | 79 => ⟨S3200000, .i32⟩
  | 80 => ⟨S3200000x1, .i32⟩
  | 81 => ⟨S3200000x11, .f32⟩
  | 82 => ⟨S3200000x11, .f32⟩
  | 83 => ⟨S3200000x11, .f32⟩
  | 84 => ⟨S_, .f32⟩
  | 85 => ⟨S100000x11, .f32⟩
  | 86 => ⟨S3200000x1, .i32⟩
  | 87 => ⟨S100000x11, .f32⟩
  | 88 => ⟨S100000x33, .f32⟩
  | 89 => ⟨S100000x8, .f32⟩
  | 90 => ⟨S1x8, .f32⟩
  | 91 => ⟨S100000x8, .f32⟩
  | 92 => ⟨S100000x8, .f32⟩
  | 93 => ⟨S100000x8, .f32⟩
  | 94 => ⟨S100000x8, .f32⟩
  | 95 => ⟨S1x8, .f32⟩
  | 96 => ⟨S100000x8, .f32⟩
  | 97 => ⟨S100000x8, .f32⟩
  | 98 => ⟨S100000x8, .f32⟩
  | 99 => ⟨S100000x11, .f32⟩
  | 100 => ⟨S_, .i32⟩
  | 101 => ⟨S3200000, .i32⟩
  | 102 => ⟨S3200000, .i1⟩
  | 103 => ⟨S_, .i32⟩
  | 104 => ⟨S3200000, .i32⟩
  | 105 => ⟨S3200000, .i32⟩
  | 106 => ⟨S3200000, .i32⟩
  | 107 => ⟨S3200000x1, .i32⟩
  | 108 => ⟨S3200000x11, .f32⟩
  | 109 => ⟨S_, .i32⟩
  | 110 => ⟨S3200000, .i32⟩
  | 111 => ⟨S3200000, .i1⟩
  | 112 => ⟨S_, .i32⟩
  | 113 => ⟨S3200000, .i32⟩
  | 114 => ⟨S3200000, .i32⟩
  | 115 => ⟨S3200000, .i32⟩
  | 116 => ⟨S3200000x1, .i32⟩
  | 117 => ⟨S3200000x11, .f32⟩
  | 118 => ⟨S3200000x22, .f32⟩
  | 119 => ⟨S3200000x8, .f32⟩
  | 120 => ⟨S1x8, .f32⟩
  | 121 => ⟨S3200000x8, .f32⟩
  | 122 => ⟨S3200000x8, .f32⟩
  | 123 => ⟨S3200000x8, .f32⟩
  | 124 => ⟨S3200000x1, .f32⟩
  | 125 => ⟨S1x1, .f32⟩
  | 126 => ⟨S3200000x1, .f32⟩
  | 127 => ⟨S3200000x1, .f32⟩
  | _ => ⟨S100000x3, .f32⟩

abbrev hbmTy0_1 (i : Nat) : BufTy := match i % 128 with
  | 0 => ⟨S3200000x1, .f32⟩
  | 1 => ⟨S3200000x1, .f32⟩
  | 2 => ⟨S_, .f32⟩
  | 3 => ⟨S3200000x1, .f32⟩
  | 4 => ⟨S3200000x1, .f32⟩
  | 5 => ⟨S_, .f32⟩
  | 6 => ⟨S3200000x1, .f32⟩
  | 7 => ⟨S3200000x1, .f32⟩
  | 8 => ⟨S_, .i32⟩
  | 9 => ⟨S3200000, .i32⟩
  | 10 => ⟨S3200000, .i1⟩
  | 11 => ⟨S_, .i32⟩
  | 12 => ⟨S3200000, .i32⟩
  | 13 => ⟨S3200000, .i32⟩
  | 14 => ⟨S3200000, .i32⟩
  | 15 => ⟨S3200000x1, .i32⟩
  | 16 => ⟨S3200000x11, .f32⟩
  | 17 => ⟨S3200000x11, .f32⟩
  | 18 => ⟨S3200000x11, .f32⟩
  | 19 => ⟨S_, .f32⟩
  | 20 => ⟨S100000x11, .f32⟩
  | 21 => ⟨S3200000x1, .i32⟩
  | 22 => ⟨S100000x11, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000x11, .f32⟩
  | 32 => ⟨S3200000x11, .f32⟩
  | 33 => ⟨S3200000x11, .f32⟩
  | 34 => ⟨S_, .f32⟩
  | 35 => ⟨S100000x11, .f32⟩
  | 36 => ⟨S3200000x1, .i32⟩
  | 37 => ⟨S100000x11, .f32⟩
  | 38 => ⟨S100000x33, .f32⟩
  | 39 => ⟨S100000x8, .f32⟩
  | 40 => ⟨S1x8, .f32⟩
  | 41 => ⟨S100000x8, .f32⟩
  | 42 => ⟨S100000x8, .f32⟩
  | 43 => ⟨S100000x8, .f32⟩
  | 44 => ⟨S100000x8, .f32⟩
  | 45 => ⟨S1x8, .f32⟩
  | 46 => ⟨S100000x8, .f32⟩
  | 47 => ⟨S100000x8, .f32⟩
  | 48 => ⟨S100000x8, .f32⟩
  | 49 => ⟨S100000x11, .f32⟩
  | 50 => ⟨S_, .i32⟩
  | 51 => ⟨S3200000, .i32⟩
  | 52 => ⟨S3200000, .i1⟩
  | 53 => ⟨S_, .i32⟩
  | 54 => ⟨S3200000, .i32⟩
  | 55 => ⟨S3200000, .i32⟩
  | 56 => ⟨S3200000, .i32⟩
  | 57 => ⟨S3200000x1, .i32⟩
  | 58 => ⟨S3200000x11, .f32⟩
  | 59 => ⟨S_, .i32⟩
  | 60 => ⟨S3200000, .i32⟩
  | 61 => ⟨S3200000, .i1⟩
  | 62 => ⟨S_, .i32⟩
  | 63 => ⟨S3200000, .i32⟩
  | 64 => ⟨S3200000, .i32⟩
  | 65 => ⟨S3200000, .i32⟩
  | 66 => ⟨S3200000x1, .i32⟩
  | 67 => ⟨S3200000x11, .f32⟩
  | 68 => ⟨S3200000x22, .f32⟩
  | 69 => ⟨S3200000x8, .f32⟩
  | 70 => ⟨S1x8, .f32⟩
  | 71 => ⟨S3200000x8, .f32⟩
  | 72 => ⟨S3200000x8, .f32⟩
  | 73 => ⟨S3200000x8, .f32⟩
  | 74 => ⟨S3200000x1, .f32⟩
  | 75 => ⟨S1x1, .f32⟩
  | 76 => ⟨S3200000x1, .f32⟩
  | 77 => ⟨S3200000x1, .f32⟩
  | 78 => ⟨S3200000x1, .f32⟩
  | 79 => ⟨S3200000x1, .f32⟩
  | 80 => ⟨S_, .f32⟩
  | 81 => ⟨S3200000x1, .f32⟩
  | 82 => ⟨S3200000x1, .f32⟩
  | 83 => ⟨S_, .f32⟩
  | 84 => ⟨S3200000x1, .f32⟩
  | 85 => ⟨S3200000x1, .f32⟩
  | 86 => ⟨S_, .i32⟩
  | 87 => ⟨S3200000, .i32⟩
  | 88 => ⟨S3200000, .i1⟩
  | 89 => ⟨S_, .i32⟩
  | 90 => ⟨S3200000, .i32⟩
  | 91 => ⟨S3200000, .i32⟩
  | 92 => ⟨S3200000, .i32⟩
  | 93 => ⟨S3200000x1, .i32⟩
  | 94 => ⟨S3200000x11, .f32⟩
  | 95 => ⟨S3200000x11, .f32⟩
  | 96 => ⟨S3200000x11, .f32⟩
  | 97 => ⟨S_, .f32⟩
  | 98 => ⟨S100000x11, .f32⟩
  | 99 => ⟨S3200000x1, .i32⟩
  | 100 => ⟨S100000x11, .f32⟩
  | 101 => ⟨S_, .i32⟩
  | 102 => ⟨S3200000, .i32⟩
  | 103 => ⟨S3200000, .i1⟩
  | 104 => ⟨S_, .i32⟩
  | 105 => ⟨S3200000, .i32⟩
  | 106 => ⟨S3200000, .i32⟩
  | 107 => ⟨S3200000, .i32⟩
  | 108 => ⟨S3200000x1, .i32⟩
  | 109 => ⟨S3200000x11, .f32⟩
  | 110 => ⟨S3200000x11, .f32⟩
  | 111 => ⟨S3200000x11, .f32⟩
  | 112 => ⟨S_, .f32⟩
  | 113 => ⟨S100000x11, .f32⟩
  | 114 => ⟨S3200000x1, .i32⟩
  | 115 => ⟨S100000x11, .f32⟩
  | 116 => ⟨S100000x33, .f32⟩
  | 117 => ⟨S100000x8, .f32⟩
  | 118 => ⟨S1x8, .f32⟩
  | 119 => ⟨S100000x8, .f32⟩
  | 120 => ⟨S100000x8, .f32⟩
  | 121 => ⟨S100000x8, .f32⟩
  | 122 => ⟨S100000x8, .f32⟩
  | 123 => ⟨S1x8, .f32⟩
  | 124 => ⟨S100000x8, .f32⟩
  | 125 => ⟨S100000x8, .f32⟩
  | 126 => ⟨S100000x8, .f32⟩
  | 127 => ⟨S100000x11, .f32⟩
  | _ => ⟨S100000x3, .f32⟩

abbrev hbmTy0_2 (i : Nat) : BufTy := match i % 128 with
  | 0 => ⟨S_, .i32⟩
  | 1 => ⟨S3200000, .i32⟩
  | 2 => ⟨S3200000, .i1⟩
  | 3 => ⟨S_, .i32⟩
  | 4 => ⟨S3200000, .i32⟩
  | 5 => ⟨S3200000, .i32⟩
  | 6 => ⟨S3200000, .i32⟩
  | 7 => ⟨S3200000x1, .i32⟩
  | 8 => ⟨S3200000x11, .f32⟩
  | 9 => ⟨S_, .i32⟩
  | 10 => ⟨S3200000, .i32⟩
  | 11 => ⟨S3200000, .i1⟩
  | 12 => ⟨S_, .i32⟩
  | 13 => ⟨S3200000, .i32⟩
  | 14 => ⟨S3200000, .i32⟩
  | 15 => ⟨S3200000, .i32⟩
  | 16 => ⟨S3200000x1, .i32⟩
  | 17 => ⟨S3200000x11, .f32⟩
  | 18 => ⟨S3200000x22, .f32⟩
  | 19 => ⟨S3200000x8, .f32⟩
  | 20 => ⟨S1x8, .f32⟩
  | 21 => ⟨S3200000x8, .f32⟩
  | 22 => ⟨S3200000x8, .f32⟩
  | 23 => ⟨S3200000x8, .f32⟩
  | 24 => ⟨S3200000x1, .f32⟩
  | 25 => ⟨S1x1, .f32⟩
  | 26 => ⟨S3200000x1, .f32⟩
  | 27 => ⟨S3200000x1, .f32⟩
  | 28 => ⟨S3200000x1, .f32⟩
  | 29 => ⟨S3200000x1, .f32⟩
  | 30 => ⟨S_, .f32⟩
  | 31 => ⟨S3200000x1, .f32⟩
  | 32 => ⟨S3200000x1, .f32⟩
  | 33 => ⟨S_, .f32⟩
  | 34 => ⟨S3200000x1, .f32⟩
  | 35 => ⟨S3200000x1, .f32⟩
  | 36 => ⟨S3200000, .f32⟩
  | _ => ⟨S100000x3, .f32⟩

abbrev hbmTy (i : Nat) : BufTy := match i / 128 with
  | 0 => hbmTy0_0 i
  | 1 => hbmTy0_1 i
  | 2 => hbmTy0_2 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_v39 : Ref sig .tc := ⟨.hbm, 57, rfl⟩
abbrev main_c_4 : Ref sig .tc := ⟨.hbm, 58, rfl⟩
abbrev main_v40 : Ref sig .tc := ⟨.hbm, 59, rfl⟩
abbrev main_v41 : Ref sig .tc := ⟨.hbm, 60, rfl⟩
abbrev main_c_5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_7 : Ref sig .tc := ⟨.hbm, 73, rfl⟩
abbrev main_v52 : Ref sig .tc := ⟨.hbm, 74, rfl⟩
abbrev main_v53 : Ref sig .tc := ⟨.hbm, 75, rfl⟩
abbrev main_c_8 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_9 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_c_10 : Ref sig .tc := ⟨.hbm, 100, rfl⟩
abbrev main_v76 : Ref sig .tc := ⟨.hbm, 101, rfl⟩
abbrev main_v77 : Ref sig .tc := ⟨.hbm, 102, rfl⟩
abbrev main_c_11 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_c_12 : Ref sig .tc := ⟨.hbm, 109, rfl⟩
abbrev main_v83 : Ref sig .tc := ⟨.hbm, 110, rfl⟩
abbrev main_v84 : Ref sig .tc := ⟨.hbm, 111, rfl⟩
abbrev main_c_13 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_14 : Ref sig .tc := ⟨.hbm, 130, rfl⟩
abbrev main_v102 : Ref sig .tc := ⟨.hbm, 131, rfl⟩
abbrev main_v103 : Ref sig .tc := ⟨.hbm, 132, rfl⟩
abbrev main_cst_15 : Ref sig .tc := ⟨.hbm, 133, rfl⟩
abbrev main_v104 : Ref sig .tc := ⟨.hbm, 134, rfl⟩
abbrev main_v105 : Ref sig .tc := ⟨.hbm, 135, rfl⟩
abbrev main_c_16 : Ref sig .tc := ⟨.hbm, 136, rfl⟩
abbrev main_v106 : Ref sig .tc := ⟨.hbm, 137, rfl⟩
abbrev main_v107 : Ref sig .tc := ⟨.hbm, 138, rfl⟩
abbrev main_c_17 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_18 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_c_19 : Ref sig .tc := ⟨.hbm, 151, rfl⟩
abbrev main_v118 : Ref sig .tc := ⟨.hbm, 152, rfl⟩
abbrev main_v119 : Ref sig .tc := ⟨.hbm, 153, rfl⟩
abbrev main_c_20 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_cst_21 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_c_22 : Ref sig .tc := ⟨.hbm, 178, rfl⟩
abbrev main_v142 : Ref sig .tc := ⟨.hbm, 179, rfl⟩
abbrev main_v143 : Ref sig .tc := ⟨.hbm, 180, rfl⟩
abbrev main_c_23 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_c_24 : Ref sig .tc := ⟨.hbm, 187, rfl⟩
abbrev main_v149 : Ref sig .tc := ⟨.hbm, 188, rfl⟩
abbrev main_v150 : Ref sig .tc := ⟨.hbm, 189, rfl⟩
abbrev main_c_25 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_cst_26 : Ref sig .tc := ⟨.hbm, 208, rfl⟩
abbrev main_v168 : Ref sig .tc := ⟨.hbm, 209, rfl⟩
abbrev main_v169 : Ref sig .tc := ⟨.hbm, 210, rfl⟩
abbrev main_cst_27 : Ref sig .tc := ⟨.hbm, 211, rfl⟩
abbrev main_v170 : Ref sig .tc := ⟨.hbm, 212, rfl⟩
abbrev main_v171 : Ref sig .tc := ⟨.hbm, 213, rfl⟩
abbrev main_c_28 : Ref sig .tc := ⟨.hbm, 214, rfl⟩
abbrev main_v172 : Ref sig .tc := ⟨.hbm, 215, rfl⟩
abbrev main_v173 : Ref sig .tc := ⟨.hbm, 216, rfl⟩
abbrev main_c_29 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_cst_30 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_c_31 : Ref sig .tc := ⟨.hbm, 229, rfl⟩
abbrev main_v184 : Ref sig .tc := ⟨.hbm, 230, rfl⟩
abbrev main_v185 : Ref sig .tc := ⟨.hbm, 231, rfl⟩
abbrev main_c_32 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_cst_33 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_c_34 : Ref sig .tc := ⟨.hbm, 256, rfl⟩
abbrev main_v208 : Ref sig .tc := ⟨.hbm, 257, rfl⟩
abbrev main_v209 : Ref sig .tc := ⟨.hbm, 258, rfl⟩
abbrev main_c_35 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_c_36 : Ref sig .tc := ⟨.hbm, 265, rfl⟩
abbrev main_v215 : Ref sig .tc := ⟨.hbm, 266, rfl⟩
abbrev main_v216 : Ref sig .tc := ⟨.hbm, 267, rfl⟩
abbrev main_c_37 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_cst_38 : Ref sig .tc := ⟨.hbm, 286, rfl⟩
abbrev main_v234 : Ref sig .tc := ⟨.hbm, 287, rfl⟩
abbrev main_v235 : Ref sig .tc := ⟨.hbm, 288, rfl⟩
abbrev main_cst_39 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  concatenates_S100000x8_S100000x3_S100000x11_d1 : Shape.Concatenates [S100000x8, S100000x3] S100000x11 1
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x11_S3200000x11_S3200000x22_d1 : Shape.Concatenates [S3200000x11, S3200000x11] S3200000x22 1
  bcast_S1x8_S3200000x8_0_1 : S1x8.BroadcastsInDim S3200000x8 (![0, 1] : Fin 2 → Fin S3200000x8.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  bcast_S_S3200000x1 : S_.BroadcastsInDim S3200000x1 (![] : Fin 0 → Fin S3200000x1.rank)
  bcast_S3200000x1_S3200000x11_0_1 : S3200000x1.BroadcastsInDim S3200000x11 (![0, 1] : Fin 2 → Fin S3200000x11.rank)
  bcast_S_S100000x11 : S_.BroadcastsInDim S100000x11 (![] : Fin 0 → Fin S100000x11.rank)
  concatenates_S100000x11_S100000x11_S100000x11_S100000x33_d1 : Shape.Concatenates [S100000x11, S100000x11, S100000x11] S100000x33 1
  shapeCasts_S3200000x1_S3200000 : S3200000x1.ShapeCasts S3200000
  dot_S100000x3_S3x8_S100000x8_1_0_0_1_n_n_wf : DotDims.WF S100000x3 S3x8 S100000x8 [1] [0] [0] [1] [] []
  gather_S100000x11_S3200000x1_S3200000x11_1_0_n_n_0_1_111_wf : GatherDims.WF S100000x11 S3200000x1 S3200000x11 [1] [0] [] [0] [] 1 ![1, 11]
  dot_S3200000x22_S22x8_S3200000x8_1_0_0_1_n_n_wf : DotDims.WF S3200000x22 S22x8 S3200000x8 [1] [0] [0] [1] [] []
  dot_S3200000x8_S8x1_S3200000x1_1_0_0_1_n_n_wf : DotDims.WF S3200000x8 S8x1 S3200000x1 [1] [0] [0] [1] [] []
  scatter_S100000x11_S3200000x1_S3200000x11_1_0_0_1_wf : ScatterDims.WF S100000x11 S3200000x1 S3200000x11 [1] [0] [0] 1
  dot_S100000x33_S33x8_S100000x8_1_0_0_1_n_n_wf : DotDims.WF S100000x33 S33x8 S100000x8 [1] [0] [0] [1] [] []
  dot_S100000x8_S8x8_S100000x8_1_0_0_1_n_n_wf : DotDims.WF S100000x8 S8x8 S100000x8 [1] [0] [0] [1] [] []

variable [Facts₀]

def dot_S100000x3_S3x8_S100000x8_1_0_0_1_n_n : DotDims S100000x3 S3x8 S100000x8 where
  lhsContracting := [1]
  rhsContracting := [0]
  lhsNonContracting := [0]
  rhsNonContracting := [1]
  lhsBatch := []
  rhsBatch := []
  wf := dot_S100000x3_S3x8_S100000x8_1_0_0_1_n_n_wf
def gather_S100000x11_S3200000x1_S3200000x11_1_0_n_n_0_1_111 : GatherDims S100000x11 S3200000x1 S3200000x11 where
  offsetDims := [1]
  collapsedSliceDims := [0]
  operandBatchingDims := []
  startIndicesBatchingDims := []
  startIndexMap := [0]
  indexVectorDim := 1
  sliceSizes := ![1, 11]
  wf := gather_S100000x11_S3200000x1_S3200000x11_1_0_n_n_0_1_111_wf
def dot_S3200000x22_S22x8_S3200000x8_1_0_0_1_n_n : DotDims S3200000x22 S22x8 S3200000x8 where
  lhsContracting := [1]
  rhsContracting := [0]
  lhsNonContracting := [0]
  rhsNonContracting := [1]
  lhsBatch := []
  rhsBatch := []
  wf := dot_S3200000x22_S22x8_S3200000x8_1_0_0_1_n_n_wf
def dot_S3200000x8_S8x1_S3200000x1_1_0_0_1_n_n : DotDims S3200000x8 S8x1 S3200000x1 where
  lhsContracting := [1]
  rhsContracting := [0]
  lhsNonContracting := [0]
  rhsNonContracting := [1]
  lhsBatch := []
  rhsBatch := []
  wf := dot_S3200000x8_S8x1_S3200000x1_1_0_0_1_n_n_wf
def scatter_S100000x11_S3200000x1_S3200000x11_1_0_0_1 : ScatterDims S100000x11 S3200000x1 S3200000x11 where
  updateWindowDims := [1]
  insertedWindowDims := [0]
  scatterDimsToOperandDims := [0]
  indexVectorDim := 1
  wf := scatter_S100000x11_S3200000x1_S3200000x11_1_0_0_1_wf
def dot_S100000x33_S33x8_S100000x8_1_0_0_1_n_n : DotDims S100000x33 S33x8 S100000x8 where
  lhsContracting := [1]
  rhsContracting := [0]
  lhsNonContracting := [0]
  rhsNonContracting := [1]
  lhsBatch := []
  rhsBatch := []
  wf := dot_S100000x33_S33x8_S100000x8_1_0_0_1_n_n_wf
def dot_S100000x8_S8x8_S100000x8_1_0_0_1_n_n : DotDims S100000x8 S8x8 S100000x8 where
  lhsContracting := [1]
  rhsContracting := [0]
  lhsNonContracting := [0]
  rhsNonContracting := [1]
  lhsBatch := []
  rhsBatch := []
  wf := dot_S100000x8_S8x8_S100000x8_1_0_0_1_n_n_wf

class Facts : Prop extends Facts₀ where

variable [Facts]
-- ==== Proof.Walk.lean ====
/-
  Reading the kernel program's buffer contents back through @main's segments: a host stretch leaves every buffer it does
  not write as it was, a region leaves every buffer that is none of its arrays as it was and each input window's array
  as it found it. One tactic step crosses one segment backwards.
-/
import proofs.«409147_j26182120636657_1_alg».proof.Proof.Gen.KernelIdeal.Frame
import Idealize.ShloMosaic.Lib.StableHlo.Run
import Idealize.ShloMosaic.PureOps.Ideal

set_option maxRecDepth 16384

noncomputable section

namespace Cert.KernelIdeal.Val

open Idealize.ShloMosaic Idealize.ShloMosaic.TcCoe Idealize.SL.Sem Cert.KernelIdeal Cert.KernelIdeal.Gen

/-- Closes 'no operation of this host stretch writes the buffer': the stretch unfolded, each operation's one written
    buffer told apart from the given one. -/
macro "host_no_write" : tactic => `(tactic| (
  simp only [hostOps0, hostOps1, hostOps1_1, hostOps1_2, hostOps2, hostOps3, hostOps3_1, hostOps3_2, hostOps4, hostOps5, hostOps5_1, hostOps5_2, hostOps6, hostOps7, hostOps7_1, hostOps7_2, hostOps8, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- Backwards over ONE host stretch that does not write the buffer: 'W_{k+1} m ρ c b = X' becomes 'W_k m ρ c b = X'. -/
macro "back_h" : tactic => `(tactic|
  refine Eq.trans (StableHlo.after_of_forall_not_mem (b := _) _ _ (List.forall_iff_forall_mem.mp (by host_no_write))) ?_)

/-- Backwards over region 0 (boundary 2 to 1): the buffer is none of its arrays, or an input window's array. -/
macro "back_r0" : tactic => `(tactic| first
  | (refine Eq.trans (W2_of_ne _ _ _ _ (by decide)) ?_)
  | (refine Eq.trans ((W2_arr _ _ _ 0).trans (((dat0 (V1 _ _) _).arrAt_in 0 rfl _).trans (A_eq0 (V1 _ _) _ 0))) ?_)
  | (refine Eq.trans ((W2_arr _ _ _ 1).trans (((dat0 (V1 _ _) _).arrAt_in 1 rfl _).trans (A_eq0 (V1 _ _) _ 1))) ?_)
  | (refine Eq.trans ((W2_arr _ _ _ 2).trans (((dat0 (V1 _ _) _).arrAt_in 2 rfl _).trans (A_eq0 (V1 _ _) _ 2))) ?_))

/-- Backwards over region 1 (boundary 6 to 5): the buffer is none of its arrays, or an input window's array. -/
macro "back_r1" : tactic => `(tactic| first
  | (refine Eq.trans (W6_of_ne _ _ _ _ (by decide)) ?_)
  | (refine Eq.trans ((W6_arr _ _ _ 0).trans (((dat1 (V5 _ _) _).arrAt_in 0 rfl _).trans (A_eq1 (V5 _ _) _ 0))) ?_)
  | (refine Eq.trans ((W6_arr _ _ _ 1).trans (((dat1 (V5 _ _) _).arrAt_in 1 rfl _).trans (A_eq1 (V5 _ _) _ 1))) ?_)
  | (refine Eq.trans ((W6_arr _ _ _ 2).trans (((dat1 (V5 _ _) _).arrAt_in 2 rfl _).trans (A_eq1 (V5 _ _) _ 2))) ?_)
  | (refine Eq.trans ((W6_arr _ _ _ 3).trans (((dat1 (V5 _ _) _).arrAt_in 3 rfl _).trans (A_eq1 (V5 _ _) _ 3))) ?_)
  | (refine Eq.trans ((W6_arr _ _ _ 4).trans (((dat1 (V5 _ _) _).arrAt_in 4 rfl _).trans (A_eq1 (V5 _ _) _ 4))) ?_)
  | (refine Eq.trans ((W6_arr _ _ _ 5).trans (((dat1 (V5 _ _) _).arrAt_in 5 rfl _).trans (A_eq1 (V5 _ _) _ 5))) ?_))

/-- Backwards over region 2 (boundary 8 to 7): the buffer is none of its arrays, or an input window's array. -/
macro "back_r2" : tactic => `(tactic| first
  | (refine Eq.trans (W8_of_ne _ _ _ _ (by decide)) ?_)
  | (refine Eq.trans ((W8_arr _ _ _ 0).trans (((dat2 (V7 _ _) _).arrAt_in 0 rfl _).trans (A_eq2 (V7 _ _) _ 0))) ?_)
  | (refine Eq.trans ((W8_arr _ _ _ 1).trans (((dat2 (V7 _ _) _).arrAt_in 1 rfl _).trans (A_eq2 (V7 _ _) _ 1))) ?_)
  | (refine Eq.trans ((W8_arr _ _ _ 2).trans (((dat2 (V7 _ _) _).arrAt_in 2 rfl _).trans (A_eq2 (V7 _ _) _ 2))) ?_)
  | (refine Eq.trans ((W8_arr _ _ _ 3).trans (((dat2 (V7 _ _) _).arrAt_in 3 rfl _).trans (A_eq2 (V7 _ _) _ 3))) ?_)
  | (refine Eq.trans ((W8_arr _ _ _ 4).trans (((dat2 (V7 _ _) _).arrAt_in 4 rfl _).trans (A_eq2 (V7 _ _) _ 4))) ?_)
  | (refine Eq.trans ((W8_arr _ _ _ 5).trans (((dat2 (V7 _ _) _).arrAt_in 5 rfl _).trans (A_eq2 (V7 _ _) _ 5))) ?_)
  | (refine Eq.trans ((W8_arr _ _ _ 6).trans (((dat2 (V7 _ _) _).arrAt_in 6 rfl _).trans (A_eq2 (V7 _ _) _ 6))) ?_)
  | (refine Eq.trans ((W8_arr _ _ _ 7).trans (((dat2 (V7 _ _) _).arrAt_in 7 rfl _).trans (A_eq2 (V7 _ _) _ 7))) ?_))

/-- Backwards over region 3 (boundary 12 to 11): the buffer is none of its arrays, or an input window's array. -/
macro "back_r3" : tactic => `(tactic| first
  | (refine Eq.trans (W12_of_ne _ _ _ _ (by decide)) ?_)
  | (refine Eq.trans ((W12_arr _ _ _ 0).trans (((dat3 (V11 _ _) _).arrAt_in 0 rfl _).trans (A_eq3 (V11 _ _) _ 0))) ?_)
  | (refine Eq.trans ((W12_arr _ _ _ 1).trans (((dat3 (V11 _ _) _).arrAt_in 1 rfl _).trans (A_eq3 (V11 _ _) _ 1))) ?_)
  | (refine Eq.trans ((W12_arr _ _ _ 2).trans (((dat3 (V11 _ _) _).arrAt_in 2 rfl _).trans (A_eq3 (V11 _ _) _ 2))) ?_)
  | (refine Eq.trans ((W12_arr _ _ _ 3).trans (((dat3 (V11 _ _) _).arrAt_in 3 rfl _).trans (A_eq3 (V11 _ _) _ 3))) ?_)
  | (refine Eq.trans ((W12_arr _ _ _ 4).trans (((dat3 (V11 _ _) _).arrAt_in 4 rfl _).trans (A_eq3 (V11 _ _) _ 4))) ?_)
  | (refine Eq.trans ((W12_arr _ _ _ 5).trans (((dat3 (V11 _ _) _).arrAt_in 5 rfl _).trans (A_eq3 (V11 _ _) _ 5))) ?_))

/-- Backwards over region 4 (boundary 14 to 13): the buffer is none of its arrays, or an input window's array. -/
macro "back_r4" : tactic => `(tactic| first
  | (refine Eq.trans (W14_of_ne _ _ _ _ (by decide)) ?_)
  | (refine Eq.trans ((W14_arr _ _ _ 0).trans (((dat4 (V13 _ _) _).arrAt_in 0 rfl _).trans (A_eq4 (V13 _ _) _ 0))) ?_)
  | (refine Eq.trans ((W14_arr _ _ _ 1).trans (((dat4 (V13 _ _) _).arrAt_in 1 rfl _).trans (A_eq4 (V13 _ _) _ 1))) ?_)
  | (refine Eq.trans ((W14_arr _ _ _ 2).trans (((dat4 (V13 _ _) _).arrAt_in 2 rfl _).trans (A_eq4 (V13 _ _) _ 2))) ?_)
  | (refine Eq.trans ((W14_arr _ _ _ 3).trans (((dat4 (V13 _ _) _).arrAt_in 3 rfl _).trans (A_eq4 (V13 _ _) _ 3))) ?_)
  | (refine Eq.trans ((W14_arr _ _ _ 4).trans (((dat4 (V13 _ _) _).arrAt_in 4 rfl _).trans (A_eq4 (V13 _ _) _ 4))) ?_)
  | (refine Eq.trans ((W14_arr _ _ _ 5).trans (((dat4 (V13 _ _) _).arrAt_in 5 rfl _).trans (A_eq4 (V13 _ _) _ 5))) ?_)
  | (refine Eq.trans ((W14_arr _ _ _ 6).trans (((dat4 (V13 _ _) _).arrAt_in 6 rfl _).trans (A_eq4 (V13 _ _) _ 6))) ?_)
  | (refine Eq.trans ((W14_arr _ _ _ 7).trans (((dat4 (V13 _ _) _).arrAt_in 7 rfl _).trans (A_eq4 (V13 _ _) _ 7))) ?_))

/-- Backwards over region 5 (boundary 18 to 17): the buffer is none of its arrays, or an input window's array. -/
macro "back_r5" : tactic => `(tactic| first
  | (refine Eq.trans (W18_of_ne _ _ _ _ (by decide)) ?_)
  | (refine Eq.trans ((W18_arr _ _ _ 0).trans (((dat5 (V17 _ _) _).arrAt_in 0 rfl _).trans (A_eq5 (V17 _ _) _ 0))) ?_)
  | (refine Eq.trans ((W18_arr _ _ _ 1).trans (((dat5 (V17 _ _) _).arrAt_in 1 rfl _).trans (A_eq5 (V17 _ _) _ 1))) ?_)
  | (refine Eq.trans ((W18_arr _ _ _ 2).trans (((dat5 (V17 _ _) _).arrAt_in 2 rfl _).trans (A_eq5 (V17 _ _) _ 2))) ?_)
  | (refine Eq.trans ((W18_arr _ _ _ 3).trans (((dat5 (V17 _ _) _).arrAt_in 3 rfl _).trans (A_eq5 (V17 _ _) _ 3))) ?_)
  | (refine Eq.trans ((W18_arr _ _ _ 4).trans (((dat5 (V17 _ _) _).arrAt_in 4 rfl _).trans (A_eq5 (V17 _ _) _ 4))) ?_)
  | (refine Eq.trans ((W18_arr _ _ _ 5).trans (((dat5 (V17 _ _) _).arrAt_in 5 rfl _).trans (A_eq5 (V17 _ _) _ 5))) ?_))

/-- Backwards over region 6 (boundary 20 to 19): the buffer is none of its arrays, or an input window's array. -/
macro "back_r6" : tactic => `(tactic| first
  | (refine Eq.trans (W20_of_ne _ _ _ _ (by decide)) ?_)
  | (refine Eq.trans ((W20_arr _ _ _ 0).trans (((dat6 (V19 _ _) _).arrAt_in 0 rfl _).trans (A_eq6 (V19 _ _) _ 0))) ?_)
  | (refine Eq.trans ((W20_arr _ _ _ 1).trans (((dat6 (V19 _ _) _).arrAt_in 1 rfl _).trans (A_eq6 (V19 _ _) _ 1))) ?_)
  | (refine Eq.trans ((W20_arr _ _ _ 2).trans (((dat6 (V19 _ _) _).arrAt_in 2 rfl _).trans (A_eq6 (V19 _ _) _ 2))) ?_)
  | (refine Eq.trans ((W20_arr _ _ _ 3).trans (((dat6 (V19 _ _) _).arrAt_in 3 rfl _).trans (A_eq6 (V19 _ _) _ 3))) ?_)
  | (refine Eq.trans ((W20_arr _ _ _ 4).trans (((dat6 (V19 _ _) _).arrAt_in 4 rfl _).trans (A_eq6 (V19 _ _) _ 4))) ?_)
  | (refine Eq.trans ((W20_arr _ _ _ 5).trans (((dat6 (V19 _ _) _).arrAt_in 5 rfl _).trans (A_eq6 (V19 _ _) _ 5))) ?_)
  | (refine Eq.trans ((W20_arr _ _ _ 6).trans (((dat6 (V19 _ _) _).arrAt_in 6 rfl _).trans (A_eq6 (V19 _ _) _ 6))) ?_)
  | (refine Eq.trans ((W20_arr _ _ _ 7).trans (((dat6 (V19 _ _) _).arrAt_in 7 rfl _).trans (A_eq6 (V19 _ _) _ 7))) ?_))

/-- Backwards over region 7 (boundary 24 to 23): the buffer is none of its arrays, or an input window's array. -/
macro "back_r7" : tactic => `(tactic| first
  | (refine Eq.trans (W24_of_ne _ _ _ _ (by decide)) ?_)
  | (refine Eq.trans ((W24_arr _ _ _ 0).trans (((dat7 (V23 _ _) _).arrAt_in 0 rfl _).trans (A_eq7 (V23 _ _) _ 0))) ?_)
  | (refine Eq.trans ((W24_arr _ _ _ 1).trans (((dat7 (V23 _ _) _).arrAt_in 1 rfl _).trans (A_eq7 (V23 _ _) _ 1))) ?_)
  | (refine Eq.trans ((W24_arr _ _ _ 2).trans (((dat7 (V23 _ _) _).arrAt_in 2 rfl _).trans (A_eq7 (V23 _ _) _ 2))) ?_)
  | (refine Eq.trans ((W24_arr _ _ _ 3).trans (((dat7 (V23 _ _) _).arrAt_in 3 rfl _).trans (A_eq7 (V23 _ _) _ 3))) ?_)
  | (refine Eq.trans ((W24_arr _ _ _ 4).trans (((dat7 (V23 _ _) _).arrAt_in 4 rfl _).trans (A_eq7 (V23 _ _) _ 4))) ?_)
  | (refine Eq.trans ((W24_arr _ _ _ 5).trans (((dat7 (V23 _ _) _).arrAt_in 5 rfl _).trans (A_eq7 (V23 _ _) _ 5))) ?_))

/-- Backwards over a whole message-passing round (boundary 8 to 2, 14 to 8, 20 to 14), for a buffer none of its segments writes. -/
macro "back_round1" : tactic => `(tactic| (back_r2; back_h; back_r1; back_h; back_h; back_h))
macro "back_round2" : tactic => `(tactic| (back_r4; back_h; back_r3; back_h; back_h; back_h))
macro "back_round3" : tactic => `(tactic| (back_r6; back_h; back_r5; back_h; back_h; back_h))

end Cert.KernelIdeal.Val

end
-- ==== Proof.Layers.lean ====
/-
  The network's layers as whole-array functions, in the operations the reference spells them with, at any float
  family: the input embedding h = [tanh(x·W_in + b_in), x]; the row gather h[idx] (negative indices wrapped as jnp
  indexing does); the edge gate e = 1 / (1 + exp(-(tanh([h_col, h_row]·We1 + be1)·We2 + be2))); a message e·h; the
  segment sum of messages into the zero array; the node update h' = [tanh(tanh([mi, mo, h]·Wn1 + bn1)·Wn2 + bn2), x];
  one message-passing round; and the whole network: three rounds and a last edge gate, squeezed to a vector.
-/
import proofs.«409147_j26182120636657_1_alg».proof.ReferenceIdeal

noncomputable section

namespace Cert.Bridge

open Idealize.ShloMosaic Cert.ReferenceIdeal Cert.ReferenceIdeal.Facts₀

variable {F : FTy → Type} [FloatOps F] [Cert.ReferenceIdeal.Facts]

/-- h = [tanh(x·W + b), x], 100000 rows of 8 + 3 columns. -/
def embedL (x : FVec F S100000x3 .f32) (w : FVec F S3x8 .f32) (b : FVec F S8 .f32) : FVec F S100000x11 .f32 :=
  concatenate S100000x11 1
    [⟨S100000x8, Host.tanh (addf (Host.dotGeneral dot_S100000x3_S3x8_S100000x8_1_0_0_1_n_n none x w)
        (broadcastInDim S100000x8 ![0, 1] bcast_S1x8_S100000x8_0_1 (broadcastInDim S1x8 ![1] bcast_S8_S1x8_1 b)))⟩,
     ⟨S100000x3, x⟩] concatenates_S100000x8_S100000x3_S100000x11_d1

/-- An index vector as a gather's index column: a negative index has 100000 added (jnp's wrap), then [E] → [E,1]. -/
def idxL (i : IVec S3200000 32) : IVec S3200000x1 32 :=
  broadcastInDim S3200000x1 ![0] bcast_S3200000_S3200000x1_0
    (select (cmpi .slt i (broadcastInDim S3200000 ![] bcast_S_S3200000 (constantI S_ 32 0#32)))
      (addi i (broadcastInDim S3200000 ![] bcast_S_S3200000 (constantI S_ 32 100000#32))) i)

/-- h[idx]: row idx[e] of h for each edge e. -/
def takeL (h : FVec F S100000x11 .f32) (i : IVec S3200000 32) : FVec F S3200000x11 .f32 :=
  Host.gather gather_S100000x11_S3200000x1_S3200000x11_1_0_n_n_0_1_111 h (idxL i)

/-- The edge gate: 1 / (1 + exp(-(tanh([hc, hr]·w1 + b1)·w2 + b2))), one value per edge. -/
def edgeL (hc hr : FVec F S3200000x11 .f32) (w1 : FVec F S22x8 .f32) (b1 : FVec F S8 .f32) (w2 : FVec F S8x1 .f32)
    (b2 : FVec F S1 .f32) : FVec F S3200000x1 .f32 :=
  Host.divf (broadcastInDim S3200000x1 ![] bcast_S_S3200000x1 (constant S_ .f32 0x3F800000#32))
    (addf (broadcastInDim S3200000x1 ![] bcast_S_S3200000x1 (constant S_ .f32 0x3F800000#32))
      (Host.exp (Host.negf
        (addf (Host.dotGeneral dot_S3200000x8_S8x1_S3200000x1_1_0_0_1_n_n none
            (Host.tanh (addf (Host.dotGeneral dot_S3200000x22_S22x8_S3200000x8_1_0_0_1_n_n none
                (concatenate S3200000x22 1 [⟨S3200000x11, hc⟩, ⟨S3200000x11, hr⟩] concatenates_S3200000x11_S3200000x11_S3200000x22_d1) w1)
              (broadcastInDim S3200000x8 ![0, 1] bcast_S1x8_S3200000x8_0_1 (broadcastInDim S1x8 ![1] bcast_S8_S1x8_1 b1)))) w2)
          (broadcastInDim S3200000x1 ![0, 1] bcast_S1x1_S3200000x1_0_1 (broadcastInDim S1x1 ![1] bcast_S1_S1x1_1 b2))))))

/-- A message: the edge's gate times a gathered row. -/
def msgL (e : FVec F S3200000x1 .f32) (h : FVec F S3200000x11 .f32) : FVec F S3200000x11 .f32 :=
  mulf (broadcastInDim S3200000x11 ![0, 1] bcast_S3200000x1_S3200000x11_0_1 e) h

/-- The segment sum: messages added into the zero array at the rows idx names. -/
def segL (u : FVec F S3200000x11 .f32) (i : IVec S3200000 32) : FVec F S100000x11 .f32 :=
  Host.scatterAdd scatter_S100000x11_S3200000x1_S3200000x11_1_0_0_1
    (broadcastInDim S100000x11 ![] bcast_S_S100000x11 (constant S_ .f32 0x00000000#32))
    (broadcastInDim S3200000x1 ![0] bcast_S3200000_S3200000x1_0 i) u

/-- The node update: [tanh(tanh([mi, mo, h]·w1 + b1)·w2 + b2), x]. -/
def nodeL (mi mo h : FVec F S100000x11 .f32) (x : FVec F S100000x3 .f32) (w1 : FVec F S33x8 .f32) (b1 : FVec F S8 .f32)
    (w2 : FVec F S8x8 .f32) (b2 : FVec F S8 .f32) : FVec F S100000x11 .f32 :=
  concatenate S100000x11 1
    [⟨S100000x8, Host.tanh (addf (Host.dotGeneral dot_S100000x8_S8x8_S100000x8_1_0_0_1_n_n none
        (Host.tanh (addf (Host.dotGeneral dot_S100000x33_S33x8_S100000x8_1_0_0_1_n_n none
            (concatenate S100000x33 1 [⟨S100000x11, mi⟩, ⟨S100000x11, mo⟩, ⟨S100000x11, h⟩] concatenates_S100000x11_S100000x11_S100000x11_S100000x33_d1) w1)
          (broadcastInDim S100000x8 ![0, 1] bcast_S1x8_S100000x8_0_1 (broadcastInDim S1x8 ![1] bcast_S8_S1x8_1 b1)))) w2)
        (broadcastInDim S100000x8 ![0, 1] bcast_S1x8_S100000x8_0_1 (broadcastInDim S1x8 ![1] bcast_S8_S1x8_1 b2)))⟩,
     ⟨S100000x3, x⟩] concatenates_S100000x8_S100000x3_S100000x11_d1

/-- Row 0 of edge_index as a vector of 3200000 indices. -/
def rowL (ei : IVec S2x3200000 32) : IVec S3200000 32 :=
  shapeCast S3200000 (extractStridedSlice S1x3200000 ![0, 0] ei slices_S2x3200000_S1x3200000_0_0) shapeCasts_S1x3200000_S3200000
/-- Row 1 of edge_index. -/
def colL (ei : IVec S2x3200000 32) : IVec S3200000 32 :=
  shapeCast S3200000 (extractStridedSlice S1x3200000 ![1, 0] ei slices_S2x3200000_S1x3200000_1_0) shapeCasts_S1x3200000_S3200000

/-- The edge gate of node features h over the graph's edges: rows of h gathered at col and at row, then the edge layer. -/
def gateL (h : FVec F S100000x11 .f32) (row col : IVec S3200000 32) (w1 : FVec F S22x8 .f32) (b1 : FVec F S8 .f32)
    (w2 : FVec F S8x1 .f32) (b2 : FVec F S1 .f32) : FVec F S3200000x1 .f32 :=
  edgeL (takeL h col) (takeL h row) w1 b1 w2 b2

/-- One message-passing round: gate the edges, sum the gated row-end features into the column-end nodes and the gated
    column-end features into the row-end nodes, update every node from both sums and its own features. -/
def roundL (h : FVec F S100000x11 .f32) (x : FVec F S100000x3 .f32) (row col : IVec S3200000 32)
    (we1 : FVec F S22x8 .f32) (be1 : FVec F S8 .f32) (we2 : FVec F S8x1 .f32) (be2 : FVec F S1 .f32)
    (wn1 : FVec F S33x8 .f32) (bn1 : FVec F S8 .f32) (wn2 : FVec F S8x8 .f32) (bn2 : FVec F S8 .f32) : FVec F S100000x11 .f32 :=
  nodeL (segL (msgL (gateL h row col we1 be1 we2 be2) (takeL h row)) col)
    (segL (msgL (gateL h row col we1 be1 we2 be2) (takeL h col)) row) h x wn1 bn1 wn2 bn2

/-- The whole network: embed, three rounds, the last edge gate as a vector over the edges. -/
def netL (x : FVec F S100000x3 .f32) (ei : IVec S2x3200000 32) (win : FVec F S3x8 .f32) (bin : FVec F S8 .f32)
    (we1 : FVec F S22x8 .f32) (be1 : FVec F S8 .f32) (we2 : FVec F S8x1 .f32) (be2 : FVec F S1 .f32)
    (wn1 : FVec F S33x8 .f32) (bn1 : FVec F S8 .f32) (wn2 : FVec F S8x8 .f32) (bn2 : FVec F S8 .f32) : FVec F S3200000 .f32 :=
  shapeCast S3200000
    (gateL (roundL (roundL (roundL (embedL x win bin) x (rowL ei) (colL ei) we1 be1 we2 be2 wn1 bn1 wn2 bn2)
        x (rowL ei) (colL ei) we1 be1 we2 be2 wn1 bn1 wn2 bn2)
        x (rowL ei) (colL ei) we1 be1 we2 be2 wn1 bn1 wn2 bn2)
      (rowL ei) (colL ei) we1 be1 we2 be2) shapeCasts_S3200000x1_S3200000

end Cert.Bridge

end
-- ==== Proof.KDefs.lean ====
/-
  The kernel program's host-side values as whole-array functions, in the operations its @main spells them with, at any
  float family: the two index vectors (rows 0 and 1 of edge_index); jnp.take's row gather in its fill mode — the index
  wrapped, then a mask 0 ≤ idx ≤ 99999 per edge, the gathered row where the mask holds and the fill pattern elsewhere;
  the segment sum into the zero array; one message-passing round and the whole program over the layers.
-/
import proofs.«409147_j26182120636657_1_alg».proof.KernelIdeal
import proofs.«409147_j26182120636657_1_alg».proof.Proof.Layers
import Idealize.ShloMosaic.Lib.ValueIdx

noncomputable section

namespace Cert.KernelIdeal.Val

open Idealize.ShloMosaic Cert.KernelIdeal Cert.KernelIdeal.Facts₀

variable {F : FTy → Type} [FloatOps F] [Cert.KernelIdeal.Facts] [Cert.ReferenceIdeal.Facts]

/-- Row 0 of edge_index as a vector of 3200000 indices. -/
def rowK (ei : IVec S2x3200000 32) : IVec S3200000 32 :=
  shapeCast S3200000 (extractStridedSlice S1x3200000 ![0, 0] ei slices_S2x3200000_S1x3200000_0_0) shapeCasts_S1x3200000_S3200000
/-- Row 1 of edge_index. -/
def colK (ei : IVec S2x3200000 32) : IVec S3200000 32 :=
  shapeCast S3200000 (extractStridedSlice S1x3200000 ![1, 0] ei slices_S2x3200000_S1x3200000_1_0) shapeCasts_S1x3200000_S3200000

/-- The wrapped index column: a negative index has 100000 added, then [E] → [E,1]. -/
def idxK (i : IVec S3200000 32) : IVec S3200000x1 32 :=
  broadcastInDim S3200000x1 ![0] bcast_S3200000_S3200000x1_0
    (select (cmpi .slt i (broadcastInDim S3200000 ![] bcast_S_S3200000 (constantI S_ 32 0#32)))
      (addi i (broadcastInDim S3200000 ![] bcast_S_S3200000 (constantI S_ 32 100000#32))) i)

/-- The in-bounds mask of a wrapped index column: 0 ≤ idx ∧ idx ≤ 99999, and-reduced over the column's one entry. -/
def maskK (i5 : IVec S3200000x1 32) : IVec S3200000 1 :=
  Host.reduce IntOp.andi
    (andi (cmpi .sge i5 (broadcastInDim S3200000x1 ![] bcast_S_S3200000x1 (constantI S_ 32 0#32)))
      (cmpi .sle i5 (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

/-- jnp.take(h, idx, axis=0) in fill mode: row idx[e] of h where the wrapped index is in bounds, the fill pattern elsewhere. -/
def takeK (h : FVec F S100000x11 .f32) (i : IVec S3200000 32) : FVec F S3200000x11 .f32 :=
  select (broadcastInDim S3200000x11 ![0] bcast_S3200000_S3200000x11_0 (maskK (idxK i)))
    (Host.gather gather_S100000x11_S3200000x1_S3200000x11_1_0_n_n_0_1_111 h (idxK i))
    (broadcastInDim S3200000x11 ![] bcast_S_S3200000x11 (constant S_ .f32 0x7FC00000#32))

/-- The segment sum: messages added into the zero array at the rows idx names. -/
def segK (u : FVec F S3200000x11 .f32) (i : IVec S3200000 32) : FVec F S100000x11 .f32 :=
  Host.scatterAdd scatter_S100000x11_S3200000x1_S3200000x11_1_0_0_1
    (broadcastInDim S100000x11 ![] bcast_S_S100000x11 (constant S_ .f32 0x00000000#32))
    (broadcastInDim S3200000x1 ![0] bcast_S3200000_S3200000x1_0 i) u

/-- Every index of the vector lies in [0, 100000). -/
def InRange (i : IVec S3200000 32) : Prop := ∀ e : Fin 3200000, (i (ValueIdx.ix1 e)).toNat < 100000

/-- The edge gate of node features h over the graph's edges, the rows gathered in fill mode. -/
def gateK (h : FVec F S100000x11 .f32) (row col : IVec S3200000 32) (w1 : FVec F S22x8 .f32) (b1 : FVec F S8 .f32)
    (w2 : FVec F S8x1 .f32) (b2 : FVec F S1 .f32) : FVec F S3200000x1 .f32 :=
  Cert.Bridge.edgeL (takeK h col) (takeK h row) w1 b1 w2 b2

/-- One message-passing round of the kernel program. -/
def roundK (h : FVec F S100000x11 .f32) (x : FVec F S100000x3 .f32) (row col : IVec S3200000 32)
    (we1 : FVec F S22x8 .f32) (be1 : FVec F S8 .f32) (we2 : FVec F S8x1 .f32) (be2 : FVec F S1 .f32)
    (wn1 : FVec F S33x8 .f32) (bn1 : FVec F S8 .f32) (wn2 : FVec F S8x8 .f32) (bn2 : FVec F S8 .f32) : FVec F S100000x11 .f32 :=
  Cert.Bridge.nodeL (segK (Cert.Bridge.msgL (gateK h row col we1 be1 we2 be2) (takeK h row)) col)
    (segK (Cert.Bridge.msgL (gateK h row col we1 be1 we2 be2) (takeK h col)) row) h x wn1 bn1 wn2 bn2

/-- The whole kernel program: embed, three rounds, the last edge gate as a vector over the edges. -/
def netK (x : FVec F S100000x3 .f32) (ei : IVec S2x3200000 32) (win : FVec F S3x8 .f32) (bin : FVec F S8 .f32)
    (we1 : FVec F S22x8 .f32) (be1 : FVec F S8 .f32) (we2 : FVec F S8x1 .f32) (be2 : FVec F S1 .f32)
    (wn1 : FVec F S33x8 .f32) (bn1 : FVec F S8 .f32) (wn2 : FVec F S8x8 .f32) (bn2 : FVec F S8 .f32) : FVec F S3200000 .f32 :=
  shapeCast S3200000
    (gateK (roundK (roundK (roundK (Cert.Bridge.embedL x win bin) x (rowK ei) (colK ei) we1 be1 we2 be2 wn1 bn1 wn2 bn2)
        x (rowK ei) (colK ei) we1 be1 we2 be2 wn1 bn1 wn2 bn2)
        x (rowK ei) (colK ei) we1 be1 we2 be2 wn1 bn1 wn2 bn2)
      (rowK ei) (colK ei) we1 be1 we2 be2) shapeCasts_S3200000x1_S3200000

end Cert.KernelIdeal.Val

end
-- ==== Proof.RegEmbed.lean ====
/- Region 0 (the input embedding): the array its output window ends holding is the embedding layer of the arrays the
   region finds at entry.

   The embedding is a function of rows: row i of the result is [tanh(x_i·W + b), x_i], eight computed columns followed
   by the three input columns. The region walks the 100000 rows in 20 blocks of 5000; at each block the body computes
   the same row function of the block's rows, with W whole and the bias as one row of 8. So block t of the result,
   row p, is row 5000·t + p of the layer, and the 20 blocks tile the rows. -/
import proofs.«409147_j26182120636657_1_alg».proof.Proof.Gen.KernelIdeal.Frame
import proofs.«409147_j26182120636657_1_alg».proof.Proof.Layers
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val.RegEmbed

open Idealize.ShloMosaic Idealize.ShloMosaic.TcCoe Idealize.SL.Sem Cert.KernelIdeal Cert.KernelIdeal.Gen
open Idealize.ShloMosaic.ValueIdx
open scoped BigOperators

variable [Cert.KernelIdeal.Facts] [Cert.ReferenceIdeal.Facts]

/-! ## One row of the embedding -/

/-- Row r of [tanh(x·W + b), x] from row r of x: column j < 8 is tanh(∑ₖ r k · W k j + b j), column j ≥ 8 is r (j − 8). -/
def embedRow (r : Fin 3 → EReal) (w : (⟨2, ![3, 8]⟩ : Shape).Idx → EReal) (b : Fin 8 → EReal) (j : Fin 11) : EReal :=
  if h : j.val < 8 then Ideal.tanh ((∑ k : Fin 3, r k * w (ix2 k (⟨j.val, h⟩ : Fin 8))) + b ⟨j.val, h⟩)
  else r ⟨j.val - 8, by have := j.isLt; omega⟩

/-! ## The layer at an index -/

/-- In x·W the left operand is read at the output's row … -/
theorem xw_lhs_row (i : Cert.ReferenceIdeal.S100000x8.Idx) (q : Cert.ReferenceIdeal.dot_S100000x3_S3x8_S100000x8_1_0_0_1_n_n.contr.Idx) :
    (Cert.ReferenceIdeal.dot_S100000x3_S3x8_S100000x8_1_0_0_1_n_n.lhsIdx i q 0).val = (i 0).val := by
  unfold DotDims.lhsIdx
  rw [dif_neg (show ¬(0 : Fin Cert.ReferenceIdeal.S100000x3.rank) ∈ Cert.ReferenceIdeal.dot_S100000x3_S3x8_S100000x8_1_0_0_1_n_n.lhsBatch from List.not_mem_nil),
    dif_pos (show (0 : Fin Cert.ReferenceIdeal.S100000x3.rank) ∈ Cert.ReferenceIdeal.dot_S100000x3_S3x8_S100000x8_1_0_0_1_n_n.lhsNonContracting from List.mem_singleton.mpr rfl)]
  rfl
/-- … and at the summed column; -/
theorem xw_lhs_col (i : Cert.ReferenceIdeal.S100000x8.Idx) (q : Cert.ReferenceIdeal.dot_S100000x3_S3x8_S100000x8_1_0_0_1_n_n.contr.Idx) :
    (Cert.ReferenceIdeal.dot_S100000x3_S3x8_S100000x8_1_0_0_1_n_n.lhsIdx i q 1).val = (q ⟨0, Nat.one_pos⟩).val :=
  Cert.ReferenceIdeal.dot_S100000x3_S3x8_S100000x8_1_0_0_1_n_n.lhsIdx_val_of_single rfl i q
/-- the right operand at the summed row … -/
theorem xw_rhs_row (i : Cert.ReferenceIdeal.S100000x8.Idx) (q : Cert.ReferenceIdeal.dot_S100000x3_S3x8_S100000x8_1_0_0_1_n_n.contr.Idx) :
    (Cert.ReferenceIdeal.dot_S100000x3_S3x8_S100000x8_1_0_0_1_n_n.rhsIdx i q 0).val = (q ⟨0, Nat.one_pos⟩).val :=
  Cert.ReferenceIdeal.dot_S100000x3_S3x8_S100000x8_1_0_0_1_n_n.rhsIdx_val_of_single rfl i q
/-- … and at the output's column. -/
theorem xw_rhs_col (i : Cert.ReferenceIdeal.S100000x8.Idx) (q : Cert.ReferenceIdeal.dot_S100000x3_S3x8_S100000x8_1_0_0_1_n_n.contr.Idx) :
    (Cert.ReferenceIdeal.dot_S100000x3_S3x8_S100000x8_1_0_0_1_n_n.rhsIdx i q 1).val = (i 1).val := by
  unfold DotDims.rhsIdx
  rw [dif_neg (show ¬(1 : Fin Cert.ReferenceIdeal.S3x8.rank) ∈ Cert.ReferenceIdeal.dot_S100000x3_S3x8_S100000x8_1_0_0_1_n_n.rhsBatch from List.not_mem_nil),
    dif_pos (show (1 : Fin Cert.ReferenceIdeal.S3x8.rank) ∈ Cert.ReferenceIdeal.dot_S100000x3_S3x8_S100000x8_1_0_0_1_n_n.rhsNonContracting from List.mem_singleton.mpr rfl)]
  rfl

/-- x·W at row r and column q: the sum over the three input columns. -/
theorem xw_apply (x : FVec Ideal Cert.ReferenceIdeal.S100000x3 .f32) (w : FVec Ideal Cert.ReferenceIdeal.S3x8 .f32) (r : Fin 100000) (q : Fin 8) :
    Host.dotGeneral Cert.ReferenceIdeal.dot_S100000x3_S3x8_S100000x8_1_0_0_1_n_n none x w (ix2 r q) = ∑ k : Fin 3, x (ix2 r k) * w (ix2 k q) := by
  simp only [Host.dotGeneral]
  rw [Ideal.dotGeneral_apply, ← Equiv.sum_comp (contrEquiv1 Cert.ReferenceIdeal.dot_S100000x3_S3x8_S100000x8_1_0_0_1_n_n 3 rfl rfl).symm]
  refine Finset.sum_congr rfl fun k _ => ?_
  have hk := contrEquiv1_symm_val Cert.ReferenceIdeal.dot_S100000x3_S3x8_S100000x8_1_0_0_1_n_n 3 rfl rfl k
  have el : Cert.ReferenceIdeal.dot_S100000x3_S3x8_S100000x8_1_0_0_1_n_n.lhsIdx (ix2 r q)
      ((contrEquiv1 Cert.ReferenceIdeal.dot_S100000x3_S3x8_S100000x8_1_0_0_1_n_n 3 rfl rfl).symm k) = ix2 r k := funext fun a => Fin.ext (by
    match a with
    | ⟨0, _⟩ => exact xw_lhs_row _ _
    | ⟨1, _⟩ => exact (xw_lhs_col _ _).trans hk)
  have er : Cert.ReferenceIdeal.dot_S100000x3_S3x8_S100000x8_1_0_0_1_n_n.rhsIdx (ix2 r q)
      ((contrEquiv1 Cert.ReferenceIdeal.dot_S100000x3_S3x8_S100000x8_1_0_0_1_n_n 3 rfl rfl).symm k) = ix2 k q := funext fun a => Fin.ext (by
    match a with
    | ⟨0, _⟩ => exact (xw_rhs_row _ _).trans hk
    | ⟨1, _⟩ => exact xw_rhs_col _ _)
  rw [el, er]

/-- The bias vector made a row and repeated down the rows: at row r and column q, entry q. -/
theorem bias_rows_apply (b : FVec Ideal Cert.ReferenceIdeal.S8 .f32) (r : Fin 100000) (q : Fin 8) :
    broadcastInDim Cert.ReferenceIdeal.S100000x8 ![0, 1] Cert.ReferenceIdeal.Facts₀.bcast_S1x8_S100000x8_0_1
      (broadcastInDim Cert.ReferenceIdeal.S1x8 ![1] Cert.ReferenceIdeal.Facts₀.bcast_S8_S1x8_1 b) (ix2 r q) = b (ix1 q) := by
  refine (broadcastInDim_apply _ _ _ (ix2 r q) (ix2 (0 : Fin 1) q) (fun a => ?_)).trans ?_
  · match a with
    | ⟨0, _⟩ => rfl
    | ⟨1, _⟩ => rfl
  · refine broadcastInDim_apply _ _ _ (ix2 (0 : Fin 1) q) (ix1 q) (fun a => ?_)
    match a with
    | ⟨0, _⟩ => rfl

/-- The layer at row r and column j is the row function of row r of x. -/
theorem layer_apply (x : FVec Ideal Cert.ReferenceIdeal.S100000x3 .f32) (w : FVec Ideal Cert.ReferenceIdeal.S3x8 .f32)
    (b : FVec Ideal Cert.ReferenceIdeal.S8 .f32) (r : Fin 100000) (j : Fin 11) :
    Cert.Bridge.embedL (F := Ideal) x w b (ix2 r j) = embedRow (fun k => x (ix2 r k)) w (fun q => b (ix1 q)) j := by
  unfold Cert.Bridge.embedL embedRow
  by_cases h : j.val < 8
  · rw [dif_pos h]
    refine (concatenate_pair_apply_left (1 : Fin Cert.ReferenceIdeal.S100000x11.rank) _ _
      Cert.ReferenceIdeal.Facts₀.concatenates_S100000x8_S100000x3_S100000x11_d1 (ix2 r j) rfl
      (ix2 r (⟨j.val, h⟩ : Fin 8)) (fun a => ?_)).trans ?_
    · match a with
      | ⟨0, _⟩ => rfl
      | ⟨1, _⟩ => rfl
    · show Ideal.tanh (_ + _) = Ideal.tanh (_ + _)
      rw [xw_apply, bias_rows_apply]
  · rw [dif_neg h]
    refine concatenate_pair_apply_right (1 : Fin Cert.ReferenceIdeal.S100000x11.rank) _ _
      Cert.ReferenceIdeal.Facts₀.concatenates_S100000x8_S100000x3_S100000x11_d1 (ix2 r j) rfl rfl
      (ix2 r (⟨j.val - 8, by have := j.isLt; omega⟩ : Fin 3)) (fun a ha => ?_) ?_
    · match a with
      | ⟨0, _⟩ => rfl
      | ⟨1, _⟩ => exact absurd rfl ha
    · show (j.val - 8) + 8 = j.val
      omega

/-! ## The body's arithmetic at an index -/

/-- In the block product the left operand is read at the output's row … -/
theorem mm_lhs_row (i : S5000x8.Idx) (q : dot_S5000x3_S3x8_S5000x8_1_0_0_1_n_n.contr.Idx) :
    (dot_S5000x3_S3x8_S5000x8_1_0_0_1_n_n.lhsIdx i q 0).val = (i 0).val := by
  unfold DotDims.lhsIdx
  rw [dif_neg (show ¬(0 : Fin S5000x3.rank) ∈ dot_S5000x3_S3x8_S5000x8_1_0_0_1_n_n.lhsBatch from List.not_mem_nil),
    dif_pos (show (0 : Fin S5000x3.rank) ∈ dot_S5000x3_S3x8_S5000x8_1_0_0_1_n_n.lhsNonContracting from List.mem_singleton.mpr rfl)]
  rfl
/-- … and at the summed column; -/
theorem mm_lhs_col (i : S5000x8.Idx) (q : dot_S5000x3_S3x8_S5000x8_1_0_0_1_n_n.contr.Idx) :
    (dot_S5000x3_S3x8_S5000x8_1_0_0_1_n_n.lhsIdx i q 1).val = (q ⟨0, Nat.one_pos⟩).val :=
  dot_S5000x3_S3x8_S5000x8_1_0_0_1_n_n.lhsIdx_val_of_single rfl i q
/-- the right operand at the summed row … -/
theorem mm_rhs_row (i : S5000x8.Idx) (q : dot_S5000x3_S3x8_S5000x8_1_0_0_1_n_n.contr.Idx) :
    (dot_S5000x3_S3x8_S5000x8_1_0_0_1_n_n.rhsIdx i q 0).val = (q ⟨0, Nat.one_pos⟩).val :=
  dot_S5000x3_S3x8_S5000x8_1_0_0_1_n_n.rhsIdx_val_of_single rfl i q
/-- … and at the output's column. -/
theorem mm_rhs_col (i : S5000x8.Idx) (q : dot_S5000x3_S3x8_S5000x8_1_0_0_1_n_n.contr.Idx) :
    (dot_S5000x3_S3x8_S5000x8_1_0_0_1_n_n.rhsIdx i q 1).val = (i 1).val := by
  unfold DotDims.rhsIdx
  rw [dif_neg (show ¬(1 : Fin S3x8.rank) ∈ dot_S5000x3_S3x8_S5000x8_1_0_0_1_n_n.rhsBatch from List.not_mem_nil),
    dif_pos (show (1 : Fin S3x8.rank) ∈ dot_S5000x3_S3x8_S5000x8_1_0_0_1_n_n.rhsNonContracting from List.mem_singleton.mpr rfl)]
  rfl

/-- The block product into the zero accumulator, at row p and column q: the sum over the three input columns. -/
theorem mm_apply (a : FVec Ideal S5000x3 .bf16) (w : FVec Ideal S3x8 .bf16) (p : Fin 5000) (q : Fin 8) :
    matmul dot_S5000x3_S3x8_S5000x8_1_0_0_1_n_n none a w (constant (F := Ideal) S5000x8 .f32 0x00000000#32) (ix2 p q)
      = ∑ k : Fin 3, a (ix2 p k) * w (ix2 k q) := by
  simp only [matmul]
  rw [Ideal.matmul_constant_zero_apply, ← Equiv.sum_comp (contrEquiv1 dot_S5000x3_S3x8_S5000x8_1_0_0_1_n_n 3 rfl rfl).symm]
  refine Finset.sum_congr rfl fun k _ => ?_
  have hk := contrEquiv1_symm_val dot_S5000x3_S3x8_S5000x8_1_0_0_1_n_n 3 rfl rfl k
  have el : dot_S5000x3_S3x8_S5000x8_1_0_0_1_n_n.lhsIdx (ix2 p q)
      ((contrEquiv1 dot_S5000x3_S3x8_S5000x8_1_0_0_1_n_n 3 rfl rfl).symm k) = ix2 p k := funext fun a => Fin.ext (by
    match a with
    | ⟨0, _⟩ => exact mm_lhs_row _ _
    | ⟨1, _⟩ => exact (mm_lhs_col _ _).trans hk)
  have er : dot_S5000x3_S3x8_S5000x8_1_0_0_1_n_n.rhsIdx (ix2 p q)
      ((contrEquiv1 dot_S5000x3_S3x8_S5000x8_1_0_0_1_n_n 3 rfl rfl).symm k) = ix2 k q := funext fun a => Fin.ext (by
    match a with
    | ⟨0, _⟩ => exact (mm_rhs_row _ _).trans hk
    | ⟨1, _⟩ => exact mm_rhs_col _ _)
  rw [el, er]

/-- The bias row repeated down the block's rows: at row p and column q, entry q of the one row. -/
theorem bias_block_apply (x2 : Vec Ideal S1x8 .f32) (p : Fin 5000) (q : Fin 8) :
    broadcastTo S5000x8 (shapeCast S1x8 x2 Facts₀.shapeCasts_S1x8_S1x8) Facts₀.broadcasts_S1x8_S5000x8 (ix2 p q) = x2 (ix2 (0 : Fin 1) q) := by
  rw [shapeCast_self]
  exact broadcastTo_1b_ab_apply x2 Facts₀.broadcasts_S1x8_S5000x8 p q

/-- The body's arithmetic at row p and column j of the output block is the row function of row p of the x block. -/
theorem body_apply (x0 : Vec Ideal S5000x3 .f32) (x1 : Vec Ideal S3x8 .f32) (x2 : Vec Ideal S1x8 .f32) (p : Fin 5000) (j : Fin 11) :
    k0_pay1 (F := Ideal) x0 x1 x2 (ix2 p j) = embedRow (fun k => x0 (ix2 p k)) x1 (fun q => x2 (ix2 (0 : Fin 1) q)) j := by
  unfold k0_pay1 embedRow
  dsimp only
  by_cases h : j.val < 8
  · rw [dif_pos h]
    refine (concatenate_pair_apply_left (1 : Fin S5000x11.rank) _ _ Facts₀.concatenates_S5000x8_S5000x3_S5000x11_d1 (ix2 p j) rfl
      (ix2 p (⟨j.val, h⟩ : Fin 8)) (fun a => ?_)).trans ?_
    · match a with
      | ⟨0, _⟩ => rfl
      | ⟨1, _⟩ => rfl
    · show Ideal.tanh (_ + _) = Ideal.tanh (_ + _)
      rw [mm_apply, bias_block_apply]
      rfl
  · rw [dif_neg h]
    refine concatenate_pair_apply_right (1 : Fin S5000x11.rank) _ _ Facts₀.concatenates_S5000x8_S5000x3_S5000x11_d1 (ix2 p j) rfl rfl
      (ix2 p (⟨j.val - 8, by have := j.isLt; omega⟩ : Fin 3)) (fun a ha => ?_) ?_
    · match a with
      | ⟨0, _⟩ => rfl
      | ⟨1, _⟩ => exact absurd rfl ha
    · show (j.val - 8) + 8 = j.val
      omega

/-- So the body's value at (p, j) is the layer's at (r, j) whenever the x block's row p is x's row r, the W block is W and
    the bias block's one row is b. -/
theorem body_eq_layer (X : FVec Ideal Cert.ReferenceIdeal.S100000x3 .f32) (W : FVec Ideal Cert.ReferenceIdeal.S3x8 .f32)
    (b : FVec Ideal Cert.ReferenceIdeal.S8 .f32) (x0 : Vec Ideal S5000x3 .f32) (x1 : Vec Ideal S3x8 .f32) (x2 : Vec Ideal S1x8 .f32)
    (y : S5000x11.Idx) (i : S100000x11.Idx) (p : Fin 5000) (r : Fin 100000) (j : Fin 11)
    (hy0 : (y 0).val = p.val) (hy1 : (y 1).val = j.val) (hi0 : (i 0).val = r.val) (hi1 : (i 1).val = j.val)
    (hrow : ∀ k : Fin 3, x0 (ix2 p k) = X (ix2 r k)) (hw : x1 = W) (hbias : ∀ q : Fin 8, x2 (ix2 (0 : Fin 1) q) = b (ix1 q)) :
    k0_pay1 (F := Ideal) x0 x1 x2 y = Cert.Bridge.embedL (F := Ideal) X W b i := by
  obtain rfl : y = ix2 p j := funext fun a => Fin.ext (match a with | ⟨0, _⟩ => hy0 | ⟨1, _⟩ => hy1)
  obtain rfl : i = ix2 r j := funext fun a => Fin.ext (match a with | ⟨0, _⟩ => hi0 | ⟨1, _⟩ => hi1)
  rw [body_apply, layer_apply, hw, show (fun k => x0 (ix2 p k)) = fun k => X (ix2 r k) from funext hrow,
    show (fun q => x2 (ix2 (0 : Fin 1) q)) = fun q => b (ix1 q) from funext hbias]

/-! ## From the blocks to the array -/

variable (V : (c : Dev nD) → (b : Ref sig .tc) → Buf (Elt Ideal) ((c : Thread nD τ).loc b))

theorem zero_offsets : (![0, 0] : Fin 2 → Nat) = fun _ => 0 := funext fun a => match a with | ⟨0, _⟩ => rfl | ⟨1, _⟩ => rfl

/-- The block indices over the 20 points: the x blocks and the output blocks walk the rows together, W and the bias row stay. -/
theorem block_indices : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  by decide +kernel

/-- Row p of the x block at point t is row 5000·t + p of x. -/
theorem xblock_apply (c : Dev nD) (t : Fin cfg0.N) (p : Fin 5000) (k : Fin 3) (r : Fin 100000) (hr : r.val = 5000 * t.val + p.val) :
    (iblk0 V c 0 t : Vec Ideal S5000x3 .f32) (ix2 p k) = (V c main_arg0 : S100000x3.Idx → EReal) (ix2 r k) := by
  obtain ⟨e00, e01, -⟩ := block_indices t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 3 + 1 * k.val = k.val; omega

/-- The W block at every point is W. -/
theorem wblock_eq (c : Dev nD) (t : Fin cfg0.N) : (iblk0 V c 1 t : Vec Ideal S3x8 .f32) = (V c main_arg2 : S3x8.Idx → EReal) := by
  obtain ⟨-, -, e10, e11, -⟩ := block_indices t
  funext y
  show V c main_arg2 (((cfg0.win 1).blk t).view.emb y) = V c main_arg2 y
  refine congrArg (V c main_arg2) (funext fun a => Fin.ext ?_)
  match a with
  | ⟨0, _⟩ => show win0_1.index t (0 : Fin 2) * 3 + 1 * (y 0).val = (y 0).val; omega
  | ⟨1, _⟩ => show win0_1.index t (1 : Fin 2) * 8 + 1 * (y 1).val = (y 1).val; omega

/-- The bias block at every point is the bias row. -/
theorem bblock_apply (c : Dev nD) (t : Fin cfg0.N) (q : Fin 8) :
    (iblk0 V c 2 t : Vec Ideal S1x8 .f32) (ix2 (0 : Fin 1) q) = (V c main_v4 : S1x8.Idx → EReal) (ix2 (0 : Fin 1) q) := by
  obtain ⟨-, -, -, -, e20, e21, -⟩ := block_indices t
  show V c main_v4 (((cfg0.win 2).blk t).view.emb (ix2 (0 : Fin 1) q)) = V c main_v4 (ix2 (0 : Fin 1) q)
  refine congrArg (V c main_v4) (funext fun a => Fin.ext ?_)
  match a with
  | ⟨0, _⟩ => show win0_2.index t (0 : Fin 2) * 1 + 1 * 0 = 0; omega
  | ⟨1, _⟩ => show win0_2.index t (1 : Fin 2) * 8 + 1 * q.val = q.val; omega

/-- What point t writes back is block t of the layer of the entry arrays. -/
theorem written_eq (c : Dev nD) (b : FVec Ideal Cert.ReferenceIdeal.S8 .f32)
    (hb : ∀ j : Fin 8, V c main_v4 (ix2 (0 : Fin 1) j) = b (ix1 j)) (t : Fin cfg0.N) :
    (dat0 (F := Ideal) V c).flushed 3 t
      = ((cfg0.win 3).blk t).view.read (Elt Ideal) (Cert.Bridge.embedL (F := Ideal) (V c main_arg0) (V c main_arg2) b) := by
  show (cfg0.win 3).cut (grid0.coords t) ((dat0 V c).after 3 t) = _
  rw [after0_3]
  unfold out0_3
  rw [View.canon_unit_zero zero_offsets]
  simp only [View.ld_unit_zero (S := S5000x3) zero_offsets, View.ld_unit_zero (S := S3x8) zero_offsets, View.ld_unit_zero (S := S1x8) zero_offsets]
  obtain ⟨-, -, -, -, -, -, e30, e31⟩ := block_indices t
  have hN : cfg0.N = 20 := N_0
  have ht : t.val < 20 := hN ▸ t.isLt
  refine funext fun (y : S5000x11.Idx) => ?_
  have hp : (y 0).val < 5000 := (y 0).isLt
  have hq : (y 1).val < 11 := (y 1).isLt
  refine body_eq_layer (V c main_arg0) (V c main_arg2) b (iblk0 V c 0 t) (iblk0 V c 1 t) (iblk0 V c 2 t)
    ((cfg0.win 3).xinj (grid0.coords t) y) (((cfg0.win 3).blk t).view.emb y)
    ⟨(y 0).val, hp⟩ ⟨5000 * t.val + (y 0).val, by omega⟩ ⟨(y 1).val, hq⟩ rfl rfl ?_ ?_ ?_ ?_ ?_
  · show win0_3.index t (0 : Fin 2) * 5000 + 1 * (y 0).val = 5000 * t.val + (y 0).val; omega
  · show win0_3.index t (1 : Fin 2) * 11 + 1 * (y 1).val = (y 1).val; omega
  · exact fun k => xblock_apply V c t _ k _ rfl
  · exact wblock_eq V c t
  · exact fun q => (bblock_apply V c t q).trans (hb q)

/-- An index of the array is in point t's block iff each coordinate is in the block's range on its axis. -/
theorem mem_block (t : Fin cfg0.N) (i : S100000x11.Idx) :
    i ∈ ((cfg0.win 3).blk t).view.set
      ↔ ∀ a : Fin 2, win0_3.index t a * S5000x11.size a ≤ (i a).val ∧ (i a).val < win0_3.index t a * S5000x11.size a + S5000x11.size a := by
  show i ∈ ((View.whole main_v5).slice (win0_3.rect t)).set ↔ _
  rw [View.set_slice_whole, Rect.mem_set_unit]
  exact Iff.rfl

/-- Row i lies in block i / 5000: the 20 blocks tile the 100000 rows. -/
theorem rows_covered (i : S100000x11.Idx) : ∃ t : Fin cfg0.N, (cfg0.win 3).flush t = true ∧ i ∈ ((cfg0.win 3).blk t).view.set := by
  have hi0 : (i 0).val < 100000 := (i 0).isLt
  have hi1 : (i 1).val < 11 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, e30, e31⟩ := block_indices t
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 11 ≤ (i 1).val ∧ (i 1).val < win0_3.index t (1 : Fin 2) * 11 + 11; omega

end Cert.KernelIdeal.Val.RegEmbed

namespace Cert.KernelIdeal.Val

open Idealize.ShloMosaic Idealize.ShloMosaic.TcCoe Idealize.SL.Sem Cert.KernelIdeal Cert.KernelIdeal.Gen
open Idealize.ShloMosaic.ValueIdx

variable [Cert.KernelIdeal.Facts] [Cert.ReferenceIdeal.Facts]
variable (V : (c : Dev nD) → (b : Ref sig .tc) → Buf (Elt Ideal) ((c : Thread nD τ).loc b))

/-- Output window 3 of pipeline 0 (buffer main_v5) after the 20 grid points: [tanh(x·W_in + b), x] of the entry arrays,
    where the bias window (main_v4, one row of 8) holds b. -/
theorem reg0_val (c : Dev nD) (b : FVec Ideal Cert.ReferenceIdeal.S8 .f32)
    (hb : ∀ j : Fin 8, V c main_v4 (ix2 (0 : Fin 1) j) = b (ix1 j)) :
    (dat0 (F := Ideal) V c).arrAt 3 cfg0.N = Cert.Bridge.embedL (F := Ideal) (V c main_arg0) (V c main_arg2) b :=
  (dat0 (F := Ideal) V c).arrAt_eq_of_cover 3 (Cert.Bridge.embedL (F := Ideal) (V c main_arg0) (V c main_arg2) b)
    (fun t _ => RegEmbed.written_eq V c b hb t) RegEmbed.rows_covered

end Cert.KernelIdeal.Val

end
-- ==== Proof.ChainStart.lean ====
/- The kernel program's buffers after the embedding region (boundary 2 of @main's 25 segments): the node-feature buffer
   holds the embedding layer of the launched arrays; the arguments are as launched; the two index vectors are rows 0 and 1
   of edge_index. -/
import proofs.«409147_j26182120636657_1_alg».proof.Proof.Walk
import proofs.«409147_j26182120636657_1_alg».proof.Proof.KDefs
import proofs.«409147_j26182120636657_1_alg».proof.Proof.RegEmbed
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Val

open Idealize.ShloMosaic Idealize.ShloMosaic.TcCoe Idealize.SL.Sem Cert.KernelIdeal Cert.KernelIdeal.Gen
open Idealize.ShloMosaic.ValueIdx
open Idealize.ShloMosaic.StableHlo

variable [Cert.KernelIdeal.Facts] [Cert.ReferenceIdeal.Facts]
variable (m : (ℓ : Loc nD τ sig) → Buf (Elt Ideal) ℓ) (ρ : Dev nD → PrngReg) (c : Dev nD)

/-- What every later segment needs of a boundary's contents W: the float arguments as launched, and the two index vectors. -/
structure Args (W : Dev nD → Valuation τ sig (Elt Ideal)) : Prop where
  a0 : W c (Proc.devRef .tc main_arg0) = m ((c : Thread nD τ).loc main_arg0)
  a2 : W c (Proc.devRef .tc main_arg2) = m ((c : Thread nD τ).loc main_arg2)
  a3 : W c (Proc.devRef .tc main_arg3) = m ((c : Thread nD τ).loc main_arg3)
  a4 : W c (Proc.devRef .tc main_arg4) = m ((c : Thread nD τ).loc main_arg4)
  a5 : W c (Proc.devRef .tc main_arg5) = m ((c : Thread nD τ).loc main_arg5)
  a6 : W c (Proc.devRef .tc main_arg6) = m ((c : Thread nD τ).loc main_arg6)
  a7 : W c (Proc.devRef .tc main_arg7) = m ((c : Thread nD τ).loc main_arg7)
  a8 : W c (Proc.devRef .tc main_arg8) = m ((c : Thread nD τ).loc main_arg8)
  a9 : W c (Proc.devRef .tc main_arg9) = m ((c : Thread nD τ).loc main_arg9)
  a10 : W c (Proc.devRef .tc main_arg10) = m ((c : Thread nD τ).loc main_arg10)
  a11 : W c (Proc.devRef .tc main_arg11) = m ((c : Thread nD τ).loc main_arg11)
  row : W c (Proc.devRef .tc main_v1) = rowK (m ((c : Thread nD τ).loc main_arg1))
  col : W c (Proc.devRef .tc main_v3) = colK (m ((c : Thread nD τ).loc main_arg1))

/-- After the first host stretch and the embedding region the arguments are as launched and the index vectors are in place. -/
theorem start_args : Args m c (W2 (F := Ideal) m ρ) where
  a0 := by back_r0; back_h; rfl
  a2 := by back_r0; back_h; rfl
  a3 := by back_r0; back_h; rfl
  a4 := by back_r0; back_h; rfl
  a5 := by back_r0; back_h; rfl
  a6 := by back_r0; back_h; rfl
  a7 := by back_r0; back_h; rfl
  a8 := by back_r0; back_h; rfl
  a9 := by back_r0; back_h; rfl
  a10 := by back_r0; back_h; rfl
  a11 := by back_r0; back_h; rfl
  row := by
    back_r0
    show StableHlo.after hostOps0 (W0 (F := Ideal) m ρ c) (Proc.devRef .tc main_v1) = _
    simp only [hostOps0]
    after_results
    rfl
  col := by
    back_r0
    show StableHlo.after hostOps0 (W0 (F := Ideal) m ρ c) (Proc.devRef .tc main_v3) = _
    simp only [hostOps0]
    after_results
    rfl

/-- The bias window of the embedding region holds the launched bias vector as one row. -/
theorem ChainStart.bias_row (j : Fin 8) :
    V1 (F := Ideal) m ρ c main_v4 (ix2 (0 : Fin 1) j) = (m ((c : Thread nD τ).loc main_arg3) : S8.Idx → EReal) (ix1 j) := by
  have e : (V1 (F := Ideal) m ρ c main_v4 : S1x8.Idx → EReal)
      = shapeCast S1x8 (m ((c : Thread nD τ).loc main_arg3) : S8.Idx → EReal) Facts₀.shapeCasts_S8_S1x8 := by
    show StableHlo.after hostOps0 (W0 (F := Ideal) m ρ c) (Proc.devRef .tc main_v4) = _
    simp only [hostOps0]
    after_results
    rfl
  rw [e]
  exact shapeCast_a_1a_apply _ _ (0 : Fin 1) j

/-- The node-feature buffer after the embedding region. -/
theorem start_h : W2 (F := Ideal) m ρ c (Proc.devRef .tc main_v5)
    = Cert.Bridge.embedL (F := Ideal) (m ((c : Thread nD τ).loc main_arg0)) (m ((c : Thread nD τ).loc main_arg2)) (m ((c : Thread nD τ).loc main_arg3)) := by
  have h0 : V1 (F := Ideal) m ρ c main_arg0 = m ((c : Thread nD τ).loc main_arg0) := by
    show W1 (F := Ideal) m ρ c (Proc.devRef .tc main_arg0) = _
    back_h; rfl
  have h2 : V1 (F := Ideal) m ρ c main_arg2 = m ((c : Thread nD τ).loc main_arg2) := by
    show W1 (F := Ideal) m ρ c (Proc.devRef .tc main_arg2) = _
    back_h; rfl
  refine ((W2_arr m ρ c 3).trans (reg0_val (V1 (F := Ideal) m ρ) c (m ((c : Thread nD τ).loc main_arg3)) (ChainStart.bias_row m ρ c))).trans ?_
  rw [h0, h2]

end Cert.KernelIdeal.Val

end
-- ==== Proof.EdgeRows.lean ====
/-
  The edge gate of one edge, as a function of the edge's two gathered rows and the weights: the 22 entries [c, r] of the
  two rows side by side, the hidden layer tanh([c, r]·W1 + b1) read at one column, and the gate
  1 / (1 + exp(-(hidden·W2 + b2))). Then the array operations both sides spell it with, each read at one row and column:
  two 11-column arrays side by side, a row or a column repeated, a scalar spread, the constant one and the logistic
  function written as a quotient; a block's two matrix products into a zero accumulator (5120 rows, operands changed to
  bf16) and the host's two products (3200000 rows), each the plain sum over the contracted column; the gate a block's
  body computes, over any two blocks of 5120 rows, is the gate of the blocks' rows; and the reference's layers of whole
  arrays read at an edge: the edge gate is the gate of the edge's rows, a message the gate times the gathered entry.
-/
import proofs.«409147_j26182120636657_1_alg».proof.KernelIdeal
import proofs.«409147_j26182120636657_1_alg».proof.Proof.Layers
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.Bridge.Edge

open Idealize.ShloMosaic Idealize.ShloMosaic.ValueIdx
open scoped BigOperators

variable [Cert.KernelIdeal.Facts] [Cert.ReferenceIdeal.Facts]

/-! ## The edge gate of one edge, from the two gathered rows -/

/-- Column `k` of the 22-wide row `[c, r]`. -/
def catRow (c r : Fin 11 → EReal) (k : Fin 22) : EReal :=
  if h : k.val < 11 then c ⟨k.val, h⟩ else r ⟨k.val - 11, by omega⟩

/-- The hidden layer of the gate: `tanh([c, r]·w1 + b1)`, column `j`. -/
def hidRow (c r : Fin 11 → EReal) (w1 : (⟨2, ![22, 8]⟩ : Shape).Idx → EReal) (b1 : Fin 8 → EReal) (j : Fin 8) : EReal :=
  Ideal.tanh ((∑ k : Fin 22, catRow c r k * w1 (ix2 k j)) + b1 j)

/-- The gate: `1 / (1 + exp(-(hid·w2 + b2)))`. -/
def gateRow (c r : Fin 11 → EReal) (w1 : (⟨2, ![22, 8]⟩ : Shape).Idx → EReal) (b1 : Fin 8 → EReal)
    (w2 : (⟨2, ![8, 1]⟩ : Shape).Idx → EReal) (b2 : EReal) : EReal :=
  Ideal.logistic ((∑ k : Fin 8, hidRow c r w1 b1 k * w2 (ix2 k (0 : Fin 1))) + b2)

/-! ## Layout operations at an index -/

section Layout
variable {α : Type}

/-- Two 11-column arrays side by side, read at `(p, k)`: the row `p` of the first for `k < 11`, of the second past it. -/
theorem concat11_apply {n : Nat} (x₁ x₂ : (⟨2, ![n, 11]⟩ : Shape).Idx → EReal)
    (h : Shape.Concatenates [(⟨2, ![n, 11]⟩ : Shape), ⟨2, ![n, 11]⟩] ⟨2, ![n, 22]⟩ 1) (p : Fin n) (k : Fin 22) :
    concatenate (⟨2, ![n, 22]⟩ : Shape) 1 [⟨⟨2, ![n, 11]⟩, x₁⟩, ⟨⟨2, ![n, 11]⟩, x₂⟩] h (ix2 p k)
      = catRow (fun q => x₁ (ix2 p q)) (fun q => x₂ (ix2 p q)) k := by
  unfold catRow
  by_cases hk : k.val < 11
  · rw [dif_pos hk]
    exact concatenate_pair_apply_left 1 x₁ x₂ h (ix2 p k) rfl (ix2 p ⟨k.val, hk⟩)
      (fun b => by match b with | ⟨0, _⟩ => rfl | ⟨1, _⟩ => rfl)
  · rw [dif_neg hk]
    exact concatenate_pair_apply_right 1 x₁ x₂ h (ix2 p k) rfl rfl (ix2 p ⟨k.val - 11, by omega⟩)
      (fun b hb => by match b with | ⟨0, _⟩ => rfl | ⟨1, _⟩ => exact absurd rfl hb)
      (by show (k.val - 11) + 11 = k.val; omega)

/-- A column `[a, 1]` broadcast to `[a, b]` reads, at `(p, q)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[m]` as a row `[1, m]`. -/
theorem broadcastInDim_m_1m_apply {m : ℕ} (v : (⟨1, ![m]⟩ : Shape).Idx → α)
    (h : (⟨1, ![m]⟩ : Shape).BroadcastsInDim ⟨2, ![1, m]⟩ ![1]) (j : Fin m) :
    broadcastInDim ⟨2, ![1, m]⟩ ![1] h v (ix2 (0 : Fin 1) j) = v (ix1 j) := by
  refine broadcastInDim_apply _ h v (ix2 (0 : Fin 1) j) (ix1 j) fun ax => ?_
  match ax with
  | ⟨0, _⟩ =>
    show j.val = if m = 1 then 0 else j.val
    split
    · have := j.isLt; omega
    · rfl

/-- A row `[1, m]` repeated over `n` rows. -/
theorem broadcastInDim_1m_nm_apply {n m : ℕ} (v : (⟨2, ![1, m]⟩ : Shape).Idx → α)
    (h : (⟨2, ![1, m]⟩ : Shape).BroadcastsInDim ⟨2, ![n, m]⟩ ![0, 1]) (p : Fin n) (j : Fin m) :
    broadcastInDim ⟨2, ![n, m]⟩ ![0, 1] h v (ix2 p j) = v (ix2 (0 : Fin 1) j) := by
  refine broadcastInDim_apply _ h v (ix2 p j) (ix2 (0 : Fin 1) j) fun ax => ?_
  match ax with
  | ⟨0, _⟩ => rfl
  | ⟨1, _⟩ =>
    show j.val = if m = 1 then 0 else j.val
    split
    · have := j.isLt; omega
    · rfl

/-- A column `[n, 1]` repeated over `m` columns. -/
theorem broadcastInDim_n1_nm_apply {n m : ℕ} (v : (⟨2, ![n, 1]⟩ : Shape).Idx → α)
    (h : (⟨2, ![n, 1]⟩ : Shape).BroadcastsInDim ⟨2, ![n, m]⟩ ![0, 1]) (p : Fin n) (q : Fin m) :
    broadcastInDim ⟨2, ![n, m]⟩ ![0, 1] h v (ix2 p q) = v (ix2 p (0 : Fin 1)) := by
  refine broadcastInDim_apply _ h v (ix2 p q) (ix2 p (0 : Fin 1)) fun ax => ?_
  match ax with
  | ⟨0, _⟩ =>
    show p.val = if n = 1 then 0 else p.val
    split
    · have := p.isLt; omega
    · rfl
  | ⟨1, _⟩ => rfl

/-- A scalar spread over a shape. -/
theorem broadcastInDim_scalar_apply {t : Shape} (v : (⟨0, ![]⟩ : Shape).Idx → α)
    (h : (⟨0, ![]⟩ : Shape).BroadcastsInDim t ![]) (i : t.Idx) :
    broadcastInDim t ![] h v i = v ix0 :=
  broadcastInDim_apply _ h v i ix0 fun ax => ax.elim0

end Layout

/-! ## The constant one, and the logistic function spelt with a quotient -/

theorem ofBits_one_f32 : Ideal.ofBits .f32 0x3F800000#32 = 1 := by
  simp [Ideal.ofBits, Ideal.ieee, -EReal.coe_mul]; norm_num

/-- `1 / (1 + exp(-x))` with the two ones given as the word of `1.0` is the logistic function. -/
theorem div_one_add_exp_neg (x : EReal) :
    Ideal.div (Ideal.ofBits .f32 0x3F800000#32) (Ideal.ofBits .f32 0x3F800000#32 + Ideal.exp (-x)) = Ideal.logistic x := by
  rw [ofBits_one_f32]; rfl

/-- The gate depends on its six arguments only. -/
theorem gateRow_congr {c c' r r' : Fin 11 → EReal} {w1 w1' : (⟨2, ![22, 8]⟩ : Shape).Idx → EReal} {b1 b1' : Fin 8 → EReal}
    {w2 w2' : (⟨2, ![8, 1]⟩ : Shape).Idx → EReal} {b2 b2' : EReal} (hc : c = c') (hr : r = r') (hw1 : w1 = w1')
    (hb1 : b1 = b1') (hw2 : w2 = w2') (hb2 : b2 = b2') : gateRow c r w1 b1 w2 b2 = gateRow c' r' w1' b1' w2' b2' := by
  subst hc hr hw1 hb1 hw2 hb2; rfl

/-! ## The kernel's two products at an index -/

section KernelProducts
open Cert.KernelIdeal

/-- The first product's operand indices at output `(r, c)` and contraction position `k` are `(r, k)` and `(k, c)`: the four
    coordinates, one by one. -/
theorem lhs_ka_0 (i : S5120x8.Idx) (q : dot_S5120x22_S22x8_S5120x8_1_0_0_1_n_n.contr.Idx) :
    (dot_S5120x22_S22x8_S5120x8_1_0_0_1_n_n.lhsIdx i q 0).val = (i 0).val := by
  unfold DotDims.lhsIdx
  rw [dif_neg (show ¬(0 : Fin S5120x22.rank) ∈ dot_S5120x22_S22x8_S5120x8_1_0_0_1_n_n.lhsBatch from List.not_mem_nil), dif_pos (show (0 : Fin S5120x22.rank) ∈ dot_S5120x22_S22x8_S5120x8_1_0_0_1_n_n.lhsNonContracting from List.mem_singleton.mpr rfl)]
  rfl
theorem lhs_ka_1 (i : S5120x8.Idx) (q : dot_S5120x22_S22x8_S5120x8_1_0_0_1_n_n.contr.Idx) :
    (dot_S5120x22_S22x8_S5120x8_1_0_0_1_n_n.lhsIdx i q 1).val = (q ⟨0, Nat.one_pos⟩).val :=
  dot_S5120x22_S22x8_S5120x8_1_0_0_1_n_n.lhsIdx_val_of_single rfl i q
theorem rhs_ka_0 (i : S5120x8.Idx) (q : dot_S5120x22_S22x8_S5120x8_1_0_0_1_n_n.contr.Idx) :
    (dot_S5120x22_S22x8_S5120x8_1_0_0_1_n_n.rhsIdx i q 0).val = (q ⟨0, Nat.one_pos⟩).val :=
  dot_S5120x22_S22x8_S5120x8_1_0_0_1_n_n.rhsIdx_val_of_single rfl i q
theorem rhs_ka_1 (i : S5120x8.Idx) (q : dot_S5120x22_S22x8_S5120x8_1_0_0_1_n_n.contr.Idx) :
    (dot_S5120x22_S22x8_S5120x8_1_0_0_1_n_n.rhsIdx i q 1).val = (i 1).val := by
  unfold DotDims.rhsIdx
  rw [dif_neg (show ¬(1 : Fin S22x8.rank) ∈ dot_S5120x22_S22x8_S5120x8_1_0_0_1_n_n.rhsBatch from List.not_mem_nil), dif_pos (show (1 : Fin S22x8.rank) ∈ dot_S5120x22_S22x8_S5120x8_1_0_0_1_n_n.rhsNonContracting from List.mem_singleton.mpr rfl)]
  rfl

/-- The first product of the body, into the zero accumulator: row `p` of the left operand against column `j` of the right. -/
theorem kmma_apply (A : FVec Ideal S5120x22 .bf16) (B : FVec Ideal S22x8 .bf16) (p : Fin 5120) (j : Fin 8) :
    matmul dot_S5120x22_S22x8_S5120x8_1_0_0_1_n_n none A B (constant S5120x8 .f32 0x00000000#32) (ix2 p j)
      = ∑ k : Fin 22, A (ix2 p k) * B (ix2 k j) := by
  simp only [matmul]
  rw [Ideal.matmul_constant_zero_apply, ← Equiv.sum_comp (ValueIdx.contrEquiv1 dot_S5120x22_S22x8_S5120x8_1_0_0_1_n_n 22 rfl rfl).symm]
  refine Finset.sum_congr rfl fun k _ => ?_
  have hk := ValueIdx.contrEquiv1_symm_val dot_S5120x22_S22x8_S5120x8_1_0_0_1_n_n 22 rfl rfl k
  have el : dot_S5120x22_S22x8_S5120x8_1_0_0_1_n_n.lhsIdx (ix2 p j) ((ValueIdx.contrEquiv1 dot_S5120x22_S22x8_S5120x8_1_0_0_1_n_n 22 rfl rfl).symm k) = ix2 p k := funext fun a => Fin.ext (by
    match a with
    | ⟨0, _⟩ => exact lhs_ka_0 _ _
    | ⟨1, _⟩ => exact (lhs_ka_1 _ _).trans hk)
  have er : dot_S5120x22_S22x8_S5120x8_1_0_0_1_n_n.rhsIdx (ix2 p j) ((ValueIdx.contrEquiv1 dot_S5120x22_S22x8_S5120x8_1_0_0_1_n_n 22 rfl rfl).symm k) = ix2 k j := funext fun a => Fin.ext (by
    match a with
    | ⟨0, _⟩ => exact (rhs_ka_0 _ _).trans hk
    | ⟨1, _⟩ => exact rhs_ka_1 _ _)
  rw [el, er]

end KernelProducts

section KernelProducts2
open Cert.KernelIdeal

/-- The second product's operand indices, coordinate by coordinate. -/
theorem lhs_kb_0 (i : S5120x1.Idx) (q : dot_S5120x8_S8x1_S5120x1_1_0_0_1_n_n.contr.Idx) :
    (dot_S5120x8_S8x1_S5120x1_1_0_0_1_n_n.lhsIdx i q 0).val = (i 0).val := by
  unfold DotDims.lhsIdx
  rw [dif_neg (show ¬(0 : Fin S5120x8.rank) ∈ dot_S5120x8_S8x1_S5120x1_1_0_0_1_n_n.lhsBatch from List.not_mem_nil), dif_pos (show (0 : Fin S5120x8.rank) ∈ dot_S5120x8_S8x1_S5120x1_1_0_0_1_n_n.lhsNonContracting from List.mem_singleton.mpr rfl)]
  rfl
theorem lhs_kb_1 (i : S5120x1.Idx) (q : dot_S5120x8_S8x1_S5120x1_1_0_0_1_n_n.contr.Idx) :
    (dot_S5120x8_S8x1_S5120x1_1_0_0_1_n_n.lhsIdx i q 1).val = (q ⟨0, Nat.one_pos⟩).val :=
  dot_S5120x8_S8x1_S5120x1_1_0_0_1_n_n.lhsIdx_val_of_single rfl i q
theorem rhs_kb_0 (i : S5120x1.Idx) (q : dot_S5120x8_S8x1_S5120x1_1_0_0_1_n_n.contr.Idx) :
    (dot_S5120x8_S8x1_S5120x1_1_0_0_1_n_n.rhsIdx i q 0).val = (q ⟨0, Nat.one_pos⟩).val :=
  dot_S5120x8_S8x1_S5120x1_1_0_0_1_n_n.rhsIdx_val_of_single rfl i q
theorem rhs_kb_1 (i : S5120x1.Idx) (q : dot_S5120x8_S8x1_S5120x1_1_0_0_1_n_n.contr.Idx) :
    (dot_S5120x8_S8x1_S5120x1_1_0_0_1_n_n.rhsIdx i q 1).val = (i 1).val := by
  unfold DotDims.rhsIdx
  rw [dif_neg (show ¬(1 : Fin S8x1.rank) ∈ dot_S5120x8_S8x1_S5120x1_1_0_0_1_n_n.rhsBatch from List.not_mem_nil), dif_pos (show (1 : Fin S8x1.rank) ∈ dot_S5120x8_S8x1_S5120x1_1_0_0_1_n_n.rhsNonContracting from List.mem_singleton.mpr rfl)]
  rfl

/-- The second product of the body: row `p` of the hidden layer against the one column of the right operand. -/
theorem kmmb_apply (A : FVec Ideal S5120x8 .bf16) (B : FVec Ideal S8x1 .bf16) (p : Fin 5120) (j : Fin 1) :
    matmul dot_S5120x8_S8x1_S5120x1_1_0_0_1_n_n none A B (constant S5120x1 .f32 0x00000000#32) (ix2 p j)
      = ∑ k : Fin 8, A (ix2 p k) * B (ix2 k j) := by
  simp only [matmul]
  rw [Ideal.matmul_constant_zero_apply, ← Equiv.sum_comp (ValueIdx.contrEquiv1 dot_S5120x8_S8x1_S5120x1_1_0_0_1_n_n 8 rfl rfl).symm]
  refine Finset.sum_congr rfl fun k _ => ?_
  have hk := ValueIdx.contrEquiv1_symm_val dot_S5120x8_S8x1_S5120x1_1_0_0_1_n_n 8 rfl rfl k
  have el : dot_S5120x8_S8x1_S5120x1_1_0_0_1_n_n.lhsIdx (ix2 p j) ((ValueIdx.contrEquiv1 dot_S5120x8_S8x1_S5120x1_1_0_0_1_n_n 8 rfl rfl).symm k) = ix2 p k := funext fun a => Fin.ext (by
    match a with
    | ⟨0, _⟩ => exact lhs_kb_0 _ _
    | ⟨1, _⟩ => exact (lhs_kb_1 _ _).trans hk)
  have er : dot_S5120x8_S8x1_S5120x1_1_0_0_1_n_n.rhsIdx (ix2 p j) ((ValueIdx.contrEquiv1 dot_S5120x8_S8x1_S5120x1_1_0_0_1_n_n 8 rfl rfl).symm k) = ix2 k j := funext fun a => Fin.ext (by
    match a with
    | ⟨0, _⟩ => exact (rhs_kb_0 _ _).trans hk
    | ⟨1, _⟩ => exact rhs_kb_1 _ _)
  rw [el, er]

end KernelProducts2

/-! ## The gate a block's body computes -/

section KernelGate
open Cert.KernelIdeal

/-- The body's arithmetic over two blocks of 5120 rows — the two blocks side by side, the first product and bias under
    tanh, the second product and bias under the logistic function, the operands of each product changed to bf16 — read
    at row `p`: the gate of the two blocks' rows `p`. -/
theorem kernel_gate_apply (hcv hrv : FVec Ideal S5120x11 .f32) (v5 : FVec Ideal S22x8 .f32) (v6 : FVec Ideal S1x8 .f32)
    (v8 : FVec Ideal S8x1 .f32) (v9 : FVec Ideal S1x1 .f32)
    (hcat : Shape.Concatenates [S5120x11, S5120x11] S5120x22 1) (hrow8 : S1x8.Broadcasts S5120x8)
    (hrow1 : S1x1.Broadcasts S5120x1) (hlt : FTy.bits .bf16 < FTy.bits .f32) (p : Fin 5120) :
    logistic (addf (matmul dot_S5120x8_S8x1_S5120x1_1_0_0_1_n_n none
        (truncf .bf16 (tanh (addf (matmul dot_S5120x22_S22x8_S5120x8_1_0_0_1_n_n none
            (truncf .bf16 (concatenate S5120x22 1 [⟨S5120x11, hcv⟩, ⟨S5120x11, hrv⟩] hcat) hlt) (truncf .bf16 v5 hlt)
            (constant S5120x8 .f32 0x00000000#32)) (broadcastTo S5120x8 v6 hrow8))) hlt)
        (truncf .bf16 v8 hlt) (constant S5120x1 .f32 0x00000000#32)) (broadcastTo S5120x1 v9 hrow1)) (ix2 p (0 : Fin 1))
      = gateRow (fun q => hcv (ix2 p q)) (fun q => hrv (ix2 p q)) v5 (fun j => v6 (ix2 (0 : Fin 1) j)) v8
          (v9 (ix2 (0 : Fin 1) (0 : Fin 1))) := by
  unfold gateRow hidRow
  refine congrArg Ideal.logistic ?_
  refine congrArg₂ (· + ·) ?_ ?_
  · refine (kmmb_apply _ _ p 0).trans ?_
    refine Finset.sum_congr rfl fun k _ => ?_
    refine congrArg₂ (· * ·) ?_ rfl
    refine congrArg Ideal.tanh ?_
    refine congrArg₂ (· + ·) ?_ ?_
    · refine (kmma_apply _ _ p k).trans ?_
      refine Finset.sum_congr rfl fun k' _ => ?_
      refine congrArg₂ (· * ·) ?_ rfl
      exact concat11_apply hcv hrv hcat p k'
    · exact broadcastTo_1b_ab_apply v6 hrow8 p k
  · exact broadcastTo_1b_ab_apply v9 hrow1 p 0

end KernelGate

/-! ## The reference's two products at an index -/

section ReferenceProducts
open Cert.ReferenceIdeal (dot_S3200000x22_S22x8_S3200000x8_1_0_0_1_n_n dot_S3200000x8_S8x1_S3200000x1_1_0_0_1_n_n)

/-- The host's first product's operand indices at output `(e, c)` and contraction position `k` are `(e, k)` and `(k, c)`. -/
theorem lhs_ra_0 (i : Cert.ReferenceIdeal.S3200000x8.Idx) (q : dot_S3200000x22_S22x8_S3200000x8_1_0_0_1_n_n.contr.Idx) :
    (dot_S3200000x22_S22x8_S3200000x8_1_0_0_1_n_n.lhsIdx i q 0).val = (i 0).val := by
  unfold DotDims.lhsIdx
  rw [dif_neg (show ¬(0 : Fin Cert.ReferenceIdeal.S3200000x22.rank) ∈ dot_S3200000x22_S22x8_S3200000x8_1_0_0_1_n_n.lhsBatch from List.not_mem_nil), dif_pos (show (0 : Fin Cert.ReferenceIdeal.S3200000x22.rank) ∈ dot_S3200000x22_S22x8_S3200000x8_1_0_0_1_n_n.lhsNonContracting from List.mem_singleton.mpr rfl)]
  rfl
theorem lhs_ra_1 (i : Cert.ReferenceIdeal.S3200000x8.Idx) (q : dot_S3200000x22_S22x8_S3200000x8_1_0_0_1_n_n.contr.Idx) :
    (dot_S3200000x22_S22x8_S3200000x8_1_0_0_1_n_n.lhsIdx i q 1).val = (q ⟨0, Nat.one_pos⟩).val :=
  dot_S3200000x22_S22x8_S3200000x8_1_0_0_1_n_n.lhsIdx_val_of_single rfl i q
theorem rhs_ra_0 (i : Cert.ReferenceIdeal.S3200000x8.Idx) (q : dot_S3200000x22_S22x8_S3200000x8_1_0_0_1_n_n.contr.Idx) :
    (dot_S3200000x22_S22x8_S3200000x8_1_0_0_1_n_n.rhsIdx i q 0).val = (q ⟨0, Nat.one_pos⟩).val :=
  dot_S3200000x22_S22x8_S3200000x8_1_0_0_1_n_n.rhsIdx_val_of_single rfl i q
theorem rhs_ra_1 (i : Cert.ReferenceIdeal.S3200000x8.Idx) (q : dot_S3200000x22_S22x8_S3200000x8_1_0_0_1_n_n.contr.Idx) :
    (dot_S3200000x22_S22x8_S3200000x8_1_0_0_1_n_n.rhsIdx i q 1).val = (i 1).val := by
  unfold DotDims.rhsIdx
  rw [dif_neg (show ¬(1 : Fin Cert.ReferenceIdeal.S22x8.rank) ∈ dot_S3200000x22_S22x8_S3200000x8_1_0_0_1_n_n.rhsBatch from List.not_mem_nil), dif_pos (show (1 : Fin Cert.ReferenceIdeal.S22x8.rank) ∈ dot_S3200000x22_S22x8_S3200000x8_1_0_0_1_n_n.rhsNonContracting from List.mem_singleton.mpr rfl)]
  rfl

/-- The reference's first product: row `e` of the left operand against column `j` of the right. -/
theorem rmma_apply (A : FVec Ideal Cert.ReferenceIdeal.S3200000x22 .f32) (B : FVec Ideal Cert.ReferenceIdeal.S22x8 .f32)
    (e : Fin 3200000) (j : Fin 8) :
    Host.dotGeneral dot_S3200000x22_S22x8_S3200000x8_1_0_0_1_n_n none A B (ix2 e j)
      = ∑ k : Fin 22, A (ix2 e k) * B (ix2 k j) := by
  simp only [Host.dotGeneral]
  rw [Ideal.dotGeneral_apply, ← Equiv.sum_comp (ValueIdx.contrEquiv1 dot_S3200000x22_S22x8_S3200000x8_1_0_0_1_n_n 22 rfl rfl).symm]
  refine Finset.sum_congr rfl fun k _ => ?_
  have hk := ValueIdx.contrEquiv1_symm_val dot_S3200000x22_S22x8_S3200000x8_1_0_0_1_n_n 22 rfl rfl k
  have el : dot_S3200000x22_S22x8_S3200000x8_1_0_0_1_n_n.lhsIdx (ix2 e j) ((ValueIdx.contrEquiv1 dot_S3200000x22_S22x8_S3200000x8_1_0_0_1_n_n 22 rfl rfl).symm k) = ix2 e k := funext fun a => Fin.ext (by
    match a with
    | ⟨0, _⟩ => exact lhs_ra_0 _ _
    | ⟨1, _⟩ => exact (lhs_ra_1 _ _).trans hk)
  have er : dot_S3200000x22_S22x8_S3200000x8_1_0_0_1_n_n.rhsIdx (ix2 e j) ((ValueIdx.contrEquiv1 dot_S3200000x22_S22x8_S3200000x8_1_0_0_1_n_n 22 rfl rfl).symm k) = ix2 k j := funext fun a => Fin.ext (by
    match a with
    | ⟨0, _⟩ => exact (rhs_ra_0 _ _).trans hk
    | ⟨1, _⟩ => exact rhs_ra_1 _ _)
  rw [el, er]

/-- The host's second product's operand indices, coordinate by coordinate. -/
theorem lhs_rb_0 (i : Cert.ReferenceIdeal.S3200000x1.Idx) (q : dot_S3200000x8_S8x1_S3200000x1_1_0_0_1_n_n.contr.Idx) :
    (dot_S3200000x8_S8x1_S3200000x1_1_0_0_1_n_n.lhsIdx i q 0).val = (i 0).val := by
  unfold DotDims.lhsIdx
  rw [dif_neg (show ¬(0 : Fin Cert.ReferenceIdeal.S3200000x8.rank) ∈ dot_S3200000x8_S8x1_S3200000x1_1_0_0_1_n_n.lhsBatch from List.not_mem_nil), dif_pos (show (0 : Fin Cert.ReferenceIdeal.S3200000x8.rank) ∈ dot_S3200000x8_S8x1_S3200000x1_1_0_0_1_n_n.lhsNonContracting from List.mem_singleton.mpr rfl)]
  rfl
theorem lhs_rb_1 (i : Cert.ReferenceIdeal.S3200000x1.Idx) (q : dot_S3200000x8_S8x1_S3200000x1_1_0_0_1_n_n.contr.Idx) :
    (dot_S3200000x8_S8x1_S3200000x1_1_0_0_1_n_n.lhsIdx i q 1).val = (q ⟨0, Nat.one_pos⟩).val :=
  dot_S3200000x8_S8x1_S3200000x1_1_0_0_1_n_n.lhsIdx_val_of_single rfl i q
theorem rhs_rb_0 (i : Cert.ReferenceIdeal.S3200000x1.Idx) (q : dot_S3200000x8_S8x1_S3200000x1_1_0_0_1_n_n.contr.Idx) :
    (dot_S3200000x8_S8x1_S3200000x1_1_0_0_1_n_n.rhsIdx i q 0).val = (q ⟨0, Nat.one_pos⟩).val :=
  dot_S3200000x8_S8x1_S3200000x1_1_0_0_1_n_n.rhsIdx_val_of_single rfl i q
theorem rhs_rb_1 (i : Cert.ReferenceIdeal.S3200000x1.Idx) (q : dot_S3200000x8_S8x1_S3200000x1_1_0_0_1_n_n.contr.Idx) :
    (dot_S3200000x8_S8x1_S3200000x1_1_0_0_1_n_n.rhsIdx i q 1).val = (i 1).val := by
  unfold DotDims.rhsIdx
  rw [dif_neg (show ¬(1 : Fin Cert.ReferenceIdeal.S8x1.rank) ∈ dot_S3200000x8_S8x1_S3200000x1_1_0_0_1_n_n.rhsBatch from List.not_mem_nil), dif_pos (show (1 : Fin Cert.ReferenceIdeal.S8x1.rank) ∈ dot_S3200000x8_S8x1_S3200000x1_1_0_0_1_n_n.rhsNonContracting from List.mem_singleton.mpr rfl)]
  rfl

/-- The reference's second product: row `e` of the hidden layer against the one column of the right operand. -/
theorem rmmb_apply (A : FVec Ideal Cert.ReferenceIdeal.S3200000x8 .f32) (B : FVec Ideal Cert.ReferenceIdeal.S8x1 .f32)
    (e : Fin 3200000) (j : Fin 1) :
    Host.dotGeneral dot_S3200000x8_S8x1_S3200000x1_1_0_0_1_n_n none A B (ix2 e j)
      = ∑ k : Fin 8, A (ix2 e k) * B (ix2 k j) := by
  simp only [Host.dotGeneral]
  rw [Ideal.dotGeneral_apply, ← Equiv.sum_comp (ValueIdx.contrEquiv1 dot_S3200000x8_S8x1_S3200000x1_1_0_0_1_n_n 8 rfl rfl).symm]
  refine Finset.sum_congr rfl fun k _ => ?_
  have hk := ValueIdx.contrEquiv1_symm_val dot_S3200000x8_S8x1_S3200000x1_1_0_0_1_n_n 8 rfl rfl k
  have el : dot_S3200000x8_S8x1_S3200000x1_1_0_0_1_n_n.lhsIdx (ix2 e j) ((ValueIdx.contrEquiv1 dot_S3200000x8_S8x1_S3200000x1_1_0_0_1_n_n 8 rfl rfl).symm k) = ix2 e k := funext fun a => Fin.ext (by
    match a with
    | ⟨0, _⟩ => exact lhs_rb_0 _ _
    | ⟨1, _⟩ => exact (lhs_rb_1 _ _).trans hk)
  have er : dot_S3200000x8_S8x1_S3200000x1_1_0_0_1_n_n.rhsIdx (ix2 e j) ((ValueIdx.contrEquiv1 dot_S3200000x8_S8x1_S3200000x1_1_0_0_1_n_n 8 rfl rfl).symm k) = ix2 k j := funext fun a => Fin.ext (by
    match a with
    | ⟨0, _⟩ => exact (rhs_rb_0 _ _).trans hk
    | ⟨1, _⟩ => exact rhs_rb_1 _ _)
  rw [el, er]

end ReferenceProducts

/-! ## The reference's layers at an index -/

section ReferenceLayers

/-- The reference's edge gate at edge `e` is the gate of row `e` of the two gathered arrays. -/
theorem edgeL_apply (hc hr : FVec Ideal Cert.ReferenceIdeal.S3200000x11 .f32) (w1 : FVec Ideal Cert.ReferenceIdeal.S22x8 .f32)
    (b1 : FVec Ideal Cert.ReferenceIdeal.S8 .f32) (w2 : FVec Ideal Cert.ReferenceIdeal.S8x1 .f32)
    (b2 : FVec Ideal Cert.ReferenceIdeal.S1 .f32) (e : Fin 3200000) :
    Cert.Bridge.edgeL (F := Ideal) hc hr w1 b1 w2 b2 (ix2 e (0 : Fin 1))
      = gateRow (fun q => hc (ix2 e q)) (fun q => hr (ix2 e q)) w1 (fun j => b1 (ix1 j)) w2 (b2 (ix1 (0 : Fin 1))) := by
  unfold Cert.Bridge.edgeL gateRow hidRow
  have hone : ∀ i : Cert.ReferenceIdeal.S3200000x1.Idx,
      broadcastInDim Cert.ReferenceIdeal.S3200000x1 ![] Cert.ReferenceIdeal.Facts₀.bcast_S_S3200000x1 (constant (F := Ideal) Cert.ReferenceIdeal.S_ .f32 0x3F800000#32) i
        = Ideal.ofBits .f32 0x3F800000#32 := fun i => broadcastInDim_scalar_apply _ _ i
  refine (congrArg₂ Ideal.div (hone _) (congrArg₂ (· + ·) (hone _) (congrArg Ideal.exp (congrArg Neg.neg ?_)))).trans
    (div_one_add_exp_neg _)
  refine congrArg₂ (· + ·) ?_ ?_
  · refine (rmmb_apply _ _ e 0).trans ?_
    refine Finset.sum_congr rfl fun k _ => ?_
    refine congrArg₂ (· * ·) ?_ rfl
    refine congrArg Ideal.tanh ?_
    refine congrArg₂ (· + ·) ?_ ?_
    · refine (rmma_apply _ _ e k).trans ?_
      refine Finset.sum_congr rfl fun k' _ => ?_
      refine congrArg₂ (· * ·) ?_ rfl
      exact concat11_apply hc hr Cert.ReferenceIdeal.Facts₀.concatenates_S3200000x11_S3200000x11_S3200000x22_d1 e k'
    · exact (broadcastInDim_1m_nm_apply _ Cert.ReferenceIdeal.Facts₀.bcast_S1x8_S3200000x8_0_1 e k).trans (broadcastInDim_m_1m_apply b1 Cert.ReferenceIdeal.Facts₀.bcast_S8_S1x8_1 k)
  · exact (broadcastInDim_1m_nm_apply _ Cert.ReferenceIdeal.Facts₀.bcast_S1x1_S3200000x1_0_1 e 0).trans (broadcastInDim_m_1m_apply b2 Cert.ReferenceIdeal.Facts₀.bcast_S1_S1x1_1 0)

/-- A message at `(e, q)`: the gate of edge `e` times the gathered row's entry. -/
theorem msgL_apply (g : FVec Ideal Cert.ReferenceIdeal.S3200000x1 .f32) (h : FVec Ideal Cert.ReferenceIdeal.S3200000x11 .f32)
    (e : Fin 3200000) (q : Fin 11) :
    Cert.Bridge.msgL (F := Ideal) g h (ix2 e q) = g (ix2 e (0 : Fin 1)) * h (ix2 e q) := by
  unfold Cert.Bridge.msgL
  exact congrArg (· * h (ix2 e q)) (broadcastInDim_n1_nm_apply g Cert.ReferenceIdeal.Facts₀.bcast_S3200000x1_S3200000x11_0_1 e q)

end ReferenceLayers

end Cert.Bridge.Edge

end
-- ==== Proof.RegEdge1.lean ====
/- Region 1 (an edge pass): the arrays its three output windows end holding are the edge gate and the two message
   arrays of the arrays the region finds at entry.
   The grid has 625 points; point t stages rows 5120·t … 5120·t + 5119 of the two gathered arrays (h_row, h_col) and the
   whole weights and biases, and writes back the same rows of the three results. Row p of what the body stores is the gate
   of rows p of the two blocks — the rows of edge 5120·t + p — and that gate times the row's entries; the reference's
   layers read at that edge are the same expressions of the same rows; every edge e is in the block of point e / 5120. -/
import proofs.«409147_j26182120636657_1_alg».proof.Proof.Gen.KernelIdeal.Frame
import proofs.«409147_j26182120636657_1_alg».proof.Proof.Layers
import proofs.«409147_j26182120636657_1_alg».proof.Proof.EdgeRows
import Idealize.ShloMosaic.Lib.ValueIdx
import Idealize.ShloMosaic.Lib.Pipeline.Value
import Idealize.ShloMosaic.PureOps.Ideal.Laws

set_option maxRecDepth 16384

noncomputable section

namespace Cert.KernelIdeal.Val.RegEdge1

open Idealize.ShloMosaic Idealize.ShloMosaic.TcCoe Idealize.SL.Sem Cert.KernelIdeal Cert.KernelIdeal.Gen
open Idealize.ShloMosaic.ValueIdx Cert.Bridge.Edge

variable [Cert.KernelIdeal.Facts] [Cert.ReferenceIdeal.Facts]
variable (V : (c : Dev nD) → (b : Ref sig .tc) → Buf (Elt Ideal) ((c : Thread nD τ).loc b))

/-! ## The body's payloads at an index -/

section Payloads

/-- A block passed through a shape cast to its own shape is the block. -/
theorem pay1_eq (v0 : Vec Ideal S5120x11 .f32) : k1_pay1 (F := Ideal) v0 = v0 := by
  unfold k1_pay1; exact shapeCast_self _ _
theorem pay2_eq (v2 : Vec Ideal S5120x11 .f32) : k1_pay2 (F := Ideal) v2 = v2 := by
  unfold k1_pay2; exact shapeCast_self _ _

/-- The gate the body stores for row `p` of its blocks is the gate of the two blocks' rows `p` (the h_col block first). -/
theorem pay3_apply (v0 v2 : Vec Ideal S5120x11 .f32) (v5 : Vec Ideal S22x8 .f32) (v6 : Vec Ideal S1x8 .f32)
    (v8 : Vec Ideal S8x1 .f32) (v9 : Vec Ideal S1x1 .f32) (p : Fin 5120) :
    k1_pay3 (F := Ideal) v0 v2 v5 v6 v8 v9 (ix2 p (0 : Fin 1))
      = gateRow (fun q => v2 (ix2 p q)) (fun q => v0 (ix2 p q)) v5 (fun j => v6 (ix2 (0 : Fin 1) j)) v8
          (v9 (ix2 (0 : Fin 1) (0 : Fin 1))) := by
  unfold k1_pay3
  simp only [shapeCast_self]
  refine (kernel_gate_apply (k1_pay2 (F := Ideal) v2) (k1_pay1 (F := Ideal) v0) v5 v6 v8 v9 _ _ _ _ p).trans ?_
  rw [pay1_eq, pay2_eq]

/-- The two message payloads: the gate of row `p` times the row's entry. -/
theorem pay4_apply (v0 v2 : Vec Ideal S5120x11 .f32) (v5 : Vec Ideal S22x8 .f32) (v6 : Vec Ideal S1x8 .f32)
    (v8 : Vec Ideal S8x1 .f32) (v9 : Vec Ideal S1x1 .f32) (p : Fin 5120) (q : Fin 11) :
    k1_pay4 (F := Ideal) v0 v2 v5 v6 v8 v9 (ix2 p q)
      = k1_pay3 (F := Ideal) v0 v2 v5 v6 v8 v9 (ix2 p (0 : Fin 1)) * v0 (ix2 p q) := by
  unfold k1_pay4
  rw [pay1_eq]
  exact congrArg (· * v0 (ix2 p q)) (broadcastTo_a1_ab_apply _ _ p q)
theorem pay5_apply (v0 v2 : Vec Ideal S5120x11 .f32) (v5 : Vec Ideal S22x8 .f32) (v6 : Vec Ideal S1x8 .f32)
    (v8 : Vec Ideal S8x1 .f32) (v9 : Vec Ideal S1x1 .f32) (p : Fin 5120) (q : Fin 11) :
    k1_pay5 (F := Ideal) v0 v2 v5 v6 v8 v9 (ix2 p q)
      = k1_pay3 (F := Ideal) v0 v2 v5 v6 v8 v9 (ix2 p (0 : Fin 1)) * v2 (ix2 p q) := by
  unfold k1_pay5
  rw [pay2_eq]
  exact congrArg (· * v2 (ix2 p q)) (broadcastTo_a1_ab_apply _ _ p q)

end Payloads

/-! ## From blocks to the arrays -/

theorem zero_offsets : (![0, 0] : Fin 2 → Nat) = fun _ => 0 := funext fun a => by fin_cases a <;> rfl

/-- The block indices over the grid: at point `t` the two gathered arrays and the three results are at block `(t, 0)`,
    the weights and biases at block `(0, 0)`. -/
theorem idx_facts : ∀ t : Fin grid1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- The edge that row `p` of the blocks at point `t` belongs to. -/
def edgeOf (t : Fin cfg1.N) (p : Fin 5120) : Fin 3200000 :=
  ⟨5120 * t.val + p.val, by have := t.isLt; have hN : cfg1.N = 625 := N_1; have := p.isLt; omega⟩

theorem edgeOf_val (t : Fin cfg1.N) (p : Fin 5120) : (edgeOf t p).val = 5120 * t.val + p.val := rfl

/-- Row `p` of the h_row block at point `t` is row `edgeOf t p` of the array. -/
theorem hrow_blk (c : Dev nD) (t : Fin cfg1.N) (p : Fin 5120) (q : Fin 11) :
    iblk1 V c 0 t (ix2 p q) = V c main_v6 (ix2 (edgeOf t p) q) := by
  obtain ⟨e0, e1, -⟩ := idx_facts t
  show V c main_v6 (((cfg1.win 0).blk t).view.emb (ix2 p q)) = V c main_v6 (ix2 (edgeOf t p) q)
  refine congrArg (V c main_v6) (funext fun a => Fin.ext ?_)
  match a with
  | ⟨0, _⟩ => show win1_0.index t (0 : Fin 2) * 5120 + 1 * p.val = 5120 * t.val + p.val; omega
  | ⟨1, _⟩ => show win1_0.index t (1 : Fin 2) * 11 + 1 * q.val = q.val; omega

/-- Row `p` of the h_col block at point `t` is row `edgeOf t p` of the array. -/
theorem hcol_blk (c : Dev nD) (t : Fin cfg1.N) (p : Fin 5120) (q : Fin 11) :
    iblk1 V c 1 t (ix2 p q) = V c main_v7 (ix2 (edgeOf t p) q) := by
  obtain ⟨-, -, e0, e1, -⟩ := idx_facts t
  show V c main_v7 (((cfg1.win 1).blk t).view.emb (ix2 p q)) = V c main_v7 (ix2 (edgeOf t p) q)
  refine congrArg (V c main_v7) (funext fun a => Fin.ext ?_)
  match a with
  | ⟨0, _⟩ => show win1_1.index t (0 : Fin 2) * 5120 + 1 * p.val = 5120 * t.val + p.val; omega
  | ⟨1, _⟩ => show win1_1.index t (1 : Fin 2) * 11 + 1 * q.val = q.val; omega

/-- The blocks of the two weight matrices and of the two biases are the arrays themselves, at every point. -/
theorem w1_blk (c : Dev nD) (t : Fin cfg1.N) :
    @Eq ((⟨2, ![22, 8]⟩ : Shape).Idx → EReal) (iblk1 V c 2 t) (V c main_arg4) := by
  obtain ⟨-, -, -, -, e0, e1, -⟩ := idx_facts t
  refine funext fun (y : S22x8.Idx) => ?_
  show V c main_arg4 (((cfg1.win 2).blk t).view.emb y) = V c main_arg4 y
  refine congrArg (V c main_arg4) (funext fun a => Fin.ext ?_)
  match a with
  | ⟨0, _⟩ => show win1_2.index t (0 : Fin 2) * 22 + 1 * (y 0).val = (y 0).val; omega
  | ⟨1, _⟩ => show win1_2.index t (1 : Fin 2) * 8 + 1 * (y 1).val = (y 1).val; omega
theorem b1_blk (c : Dev nD) (t : Fin cfg1.N) (j : Fin 8) :
    iblk1 V c 3 t (ix2 (0 : Fin 1) j) = V c main_v8 (ix2 (0 : Fin 1) j) := by
  obtain ⟨-, -, -, -, -, -, e0, e1, -⟩ := idx_facts t
  show V c main_v8 (((cfg1.win 3).blk t).view.emb (ix2 (0 : Fin 1) j)) = V c main_v8 (ix2 (0 : Fin 1) j)
  refine congrArg (V c main_v8) (funext fun a => Fin.ext ?_)
  match a with
  | ⟨0, _⟩ => show win1_3.index t (0 : Fin 2) * 1 + 1 * 0 = 0; omega
  | ⟨1, _⟩ => show win1_3.index t (1 : Fin 2) * 8 + 1 * j.val = j.val; omega
theorem w2_blk (c : Dev nD) (t : Fin cfg1.N) :
    @Eq ((⟨2, ![8, 1]⟩ : Shape).Idx → EReal) (iblk1 V c 4 t) (V c main_arg6) := by
  obtain ⟨-, -, -, -, -, -, -, -, e0, e1, -⟩ := idx_facts t
  refine funext fun (y : S8x1.Idx) => ?_
  show V c main_arg6 (((cfg1.win 4).blk t).view.emb y) = V c main_arg6 y
  refine congrArg (V c main_arg6) (funext fun a => Fin.ext ?_)
  match a with
  | ⟨0, _⟩ => show win1_4.index t (0 : Fin 2) * 8 + 1 * (y 0).val = (y 0).val; omega
  | ⟨1, _⟩ => show win1_4.index t (1 : Fin 2) * 1 + 1 * (y 1).val = (y 1).val; omega
theorem b2_blk (c : Dev nD) (t : Fin cfg1.N) :
    iblk1 V c 5 t (ix2 (0 : Fin 1) (0 : Fin 1)) = V c main_v9 (ix2 (0 : Fin 1) (0 : Fin 1)) := by
  obtain ⟨-, -, -, -, -, -, -, -, -, -, e0, e1, -⟩ := idx_facts t
  show V c main_v9 (((cfg1.win 5).blk t).view.emb (ix2 (0 : Fin 1) (0 : Fin 1))) = V c main_v9 (ix2 (0 : Fin 1) (0 : Fin 1))
  refine congrArg (V c main_v9) (funext fun a => Fin.ext ?_)
  match a with
  | ⟨0, _⟩ => show win1_5.index t (0 : Fin 2) * 1 + 1 * 0 = 0; omega
  | ⟨1, _⟩ => show win1_5.index t (1 : Fin 2) * 1 + 1 * 0 = 0; omega

/-- THE GATE OF A BLOCK ROW: what the body computes for row `p` at point `t` is the reference's gate of edge `edgeOf t p`. -/
theorem gate_blk (c : Dev nD) (b1 : FVec Ideal Cert.ReferenceIdeal.S8 .f32) (b2 : FVec Ideal Cert.ReferenceIdeal.S1 .f32)
    (hb1 : ∀ j : Fin 8, V c main_v8 (ix2 (0 : Fin 1) j) = b1 (ix1 j))
    (hb2 : V c main_v9 (ix2 (0 : Fin 1) (0 : Fin 1)) = b2 (ix1 (0 : Fin 1))) (t : Fin cfg1.N) (p : Fin 5120) :
    k1_pay3 (F := Ideal) (iblk1 V c 0 t) (iblk1 V c 1 t) (iblk1 V c 2 t) (iblk1 V c 3 t) (iblk1 V c 4 t) (iblk1 V c 5 t) (ix2 p (0 : Fin 1))
      = Cert.Bridge.edgeL (F := Ideal) (V c main_v7) (V c main_v6) (V c main_arg4) b1 (V c main_arg6) b2 (ix2 (edgeOf t p) (0 : Fin 1)) := by
  refine (pay3_apply (iblk1 V c 0 t) (iblk1 V c 1 t) (iblk1 V c 2 t) (iblk1 V c 3 t) (iblk1 V c 4 t) (iblk1 V c 5 t) p).trans ?_
  refine Eq.trans ?_ (edgeL_apply (V c main_v7) (V c main_v6) (V c main_arg4) b1 (V c main_arg6) b2 (edgeOf t p)).symm
  exact gateRow_congr (funext fun q => hcol_blk V c t p q) (funext fun q => hrow_blk V c t p q) (w1_blk V c t)
    (funext fun j => (b1_blk V c t j).trans (hb1 j)) (w2_blk V c t) ((b2_blk V c t).trans hb2)

/-- Row `p` of an output block at point `t` sits at row `edgeOf t p` of its array: the gate's column, -/
theorem gate_emb (t : Fin cfg1.N) (p : Fin 5120) (q : Fin 1) :
    ((cfg1.win 6).blk t).view.emb (ix2 p q) = ix2 (edgeOf t p) q := by
  obtain ⟨-, -, -, -, -, -, -, -, -, -, -, -, e0, e1, -⟩ := idx_facts t
  refine funext fun a => Fin.ext ?_
  match a with
  | ⟨0, _⟩ => show win1_6.index t (0 : Fin 2) * 5120 + 1 * p.val = 5120 * t.val + p.val; omega
  | ⟨1, _⟩ => show win1_6.index t (1 : Fin 2) * 1 + 1 * q.val = q.val; omega
/-- and the two message arrays' rows. -/
theorem mi_emb (t : Fin cfg1.N) (p : Fin 5120) (q : Fin 11) :
    ((cfg1.win 7).blk t).view.emb (ix2 p q) = ix2 (edgeOf t p) q := by
  obtain ⟨-, -, -, -, -, -, -, -, -, -, -, -, -, -, e0, e1, -⟩ := idx_facts t
  refine funext fun a => Fin.ext ?_
  match a with
  | ⟨0, _⟩ => show win1_7.index t (0 : Fin 2) * 5120 + 1 * p.val = 5120 * t.val + p.val; omega
  | ⟨1, _⟩ => show win1_7.index t (1 : Fin 2) * 11 + 1 * q.val = q.val; omega
theorem mo_emb (t : Fin cfg1.N) (p : Fin 5120) (q : Fin 11) :
    ((cfg1.win 8).blk t).view.emb (ix2 p q) = ix2 (edgeOf t p) q := by
  obtain ⟨-, -, -, -, -, -, -, -, -, -, -, -, -, -, -, -, e0, e1⟩ := idx_facts t
  refine funext fun a => Fin.ext ?_
  match a with
  | ⟨0, _⟩ => show win1_8.index t (0 : Fin 2) * 5120 + 1 * p.val = 5120 * t.val + p.val; omega
  | ⟨1, _⟩ => show win1_8.index t (1 : Fin 2) * 11 + 1 * q.val = q.val; omega

/-- WHAT POINT `t` WRITES BACK to the gate array is block `t` of the reference's gate. -/
theorem flushed_e (c : Dev nD) (b1 : FVec Ideal Cert.ReferenceIdeal.S8 .f32) (b2 : FVec Ideal Cert.ReferenceIdeal.S1 .f32)
    (hb1 : ∀ j : Fin 8, V c main_v8 (ix2 (0 : Fin 1) j) = b1 (ix1 j))
    (hb2 : V c main_v9 (ix2 (0 : Fin 1) (0 : Fin 1)) = b2 (ix1 (0 : Fin 1))) (t : Fin cfg1.N) :
    (dat1 (F := Ideal) V c).flushed 6 t
      = ((cfg1.win 6).blk t).view.read (Elt Ideal)
          (Cert.Bridge.edgeL (F := Ideal) (V c main_v7) (V c main_v6) (V c main_arg4) b1 (V c main_arg6) b2) := by
  show (cfg1.win 6).cut (grid1.coords t) ((dat1 (F := Ideal) V c).after 6 t) = _
  rw [after1_6]
  unfold out1_6
  rw [View.canon_unit_zero zero_offsets]
  simp only [View.ld_unit_zero (S := S5120x11) zero_offsets, View.ld_unit_zero (S := S22x8) zero_offsets,
    View.ld_unit_zero (S := S1x8) zero_offsets, View.ld_unit_zero (S := S8x1) zero_offsets,
    View.ld_unit_zero (S := S1x1) zero_offsets]
  refine funext fun (y : S5120x1.Idx) => ?_
  obtain ⟨p, q, rfl⟩ : ∃ (p : Fin 5120) (q : Fin 1), y = ix2 p q := ⟨y 0, y 1, eq_ix2 y⟩
  obtain rfl : q = 0 := Subsingleton.elim _ _
  show k1_pay3 (F := Ideal) (iblk1 V c 0 t) (iblk1 V c 1 t) (iblk1 V c 2 t) (iblk1 V c 3 t) (iblk1 V c 4 t) (iblk1 V c 5 t) (ix2 p (0 : Fin 1))
    = Cert.Bridge.edgeL (F := Ideal) (V c main_v7) (V c main_v6) (V c main_arg4) b1 (V c main_arg6) b2
        (((cfg1.win 6).blk t).view.emb (ix2 p (0 : Fin 1)))
  rw [gate_emb]
  exact gate_blk V c b1 b2 hb1 hb2 t p

/-- An index of the gate array is in point `t`'s block iff each coordinate is in the block's range on its axis. -/
theorem mem_blk_e (t : Fin cfg1.N) (i : S3200000x1.Idx) :
    i ∈ ((cfg1.win 6).blk t).view.set ↔ ∀ a : Fin 2, win1_6.index t a * S5120x1.size a ≤ (i a).val ∧ (i a).val < win1_6.index t a * S5120x1.size a + S5120x1.size a := by
  show i ∈ ((View.whole main_v10_0).slice (win1_6.rect t)).set ↔ _
  rw [View.set_slice_whole, Rect.mem_set_unit]
  exact Iff.rfl

/-- Every edge's gate is written back by the point that holds the edge's row: point `e / 5120`. -/
theorem cover_e (i : S3200000x1.Idx) :
    ∃ t : Fin cfg1.N, (cfg1.win 6).flush t = true ∧ i ∈ ((cfg1.win 6).blk t).view.set := by
  have hi0 : (i 0).val < 3200000 := (i 0).isLt
  have hi1 : (i 1).val < 1 := (i 1).isLt
  have hN : cfg1.N = 625 := N_1
  have ht : (i 0).val / 5120 < cfg1.N := by omega
  obtain ⟨-, -, -, -, -, -, -, -, -, -, -, -, e0, e1, -⟩ := idx_facts ⟨(i 0).val / 5120, ht⟩
  refine ⟨⟨(i 0).val / 5120, ht⟩, flush1_6 _, ?_⟩
  rw [mem_blk_e]
  intro a
  match a with
  | ⟨0, _⟩ =>
    show win1_6.index ⟨(i 0).val / 5120, ht⟩ (0 : Fin 2) * 5120 ≤ (i 0).val ∧ (i 0).val < win1_6.index ⟨(i 0).val / 5120, ht⟩ (0 : Fin 2) * 5120 + 5120
    rw [e0]; show (i 0).val / 5120 * 5120 ≤ (i 0).val ∧ (i 0).val < (i 0).val / 5120 * 5120 + 5120; omega
  | ⟨1, _⟩ =>
    show win1_6.index ⟨(i 0).val / 5120, ht⟩ (1 : Fin 2) * 1 ≤ (i 1).val ∧ (i 1).val < win1_6.index ⟨(i 0).val / 5120, ht⟩ (1 : Fin 2) * 1 + 1
    rw [e1]; omega

/-- WHAT POINT `t` WRITES BACK to the first message array is block `t` of the gate times the h_row rows. -/
theorem flushed_mi (c : Dev nD) (b1 : FVec Ideal Cert.ReferenceIdeal.S8 .f32) (b2 : FVec Ideal Cert.ReferenceIdeal.S1 .f32)
    (hb1 : ∀ j : Fin 8, V c main_v8 (ix2 (0 : Fin 1) j) = b1 (ix1 j))
    (hb2 : V c main_v9 (ix2 (0 : Fin 1) (0 : Fin 1)) = b2 (ix1 (0 : Fin 1))) (t : Fin cfg1.N) :
    (dat1 (F := Ideal) V c).flushed 7 t
      = ((cfg1.win 7).blk t).view.read (Elt Ideal)
          (Cert.Bridge.msgL (F := Ideal) (Cert.Bridge.edgeL (F := Ideal) (V c main_v7) (V c main_v6) (V c main_arg4) b1 (V c main_arg6) b2) (V c main_v6)) := by
  show (cfg1.win 7).cut (grid1.coords t) ((dat1 (F := Ideal) V c).after 7 t) = _
  rw [after1_7]
  unfold out1_7
  rw [View.canon_unit_zero zero_offsets]
  simp only [View.ld_unit_zero (S := S5120x11) zero_offsets, View.ld_unit_zero (S := S22x8) zero_offsets,
    View.ld_unit_zero (S := S1x8) zero_offsets, View.ld_unit_zero (S := S8x1) zero_offsets,
    View.ld_unit_zero (S := S1x1) zero_offsets]
  refine funext fun (y : S5120x11.Idx) => ?_
  obtain ⟨p, q, rfl⟩ : ∃ (p : Fin 5120) (q : Fin 11), y = ix2 p q := ⟨y 0, y 1, eq_ix2 y⟩
  show k1_pay4 (F := Ideal) (iblk1 V c 0 t) (iblk1 V c 1 t) (iblk1 V c 2 t) (iblk1 V c 3 t) (iblk1 V c 4 t) (iblk1 V c 5 t) (ix2 p q)
    = Cert.Bridge.msgL (F := Ideal) (Cert.Bridge.edgeL (F := Ideal) (V c main_v7) (V c main_v6) (V c main_arg4) b1 (V c main_arg6) b2) (V c main_v6) (((cfg1.win 7).blk t).view.emb (ix2 p q))
  rw [mi_emb]
  refine (pay4_apply (iblk1 V c 0 t) (iblk1 V c 1 t) (iblk1 V c 2 t) (iblk1 V c 3 t) (iblk1 V c 4 t) (iblk1 V c 5 t) p q).trans ?_
  refine Eq.trans ?_ (msgL_apply (Cert.Bridge.edgeL (F := Ideal) (V c main_v7) (V c main_v6) (V c main_arg4) b1 (V c main_arg6) b2) (V c main_v6) (edgeOf t p) q).symm
  exact congrArg₂ (· * ·) (gate_blk V c b1 b2 hb1 hb2 t p) (hrow_blk V c t p q)

/-- An index of the first message array is in point `t`'s block iff each coordinate is in the block's range on its axis. -/
theorem mem_blk_mi (t : Fin cfg1.N) (i : S3200000x11.Idx) :
    i ∈ ((cfg1.win 7).blk t).view.set ↔ ∀ a : Fin 2, win1_7.index t a * S5120x11.size a ≤ (i a).val ∧ (i a).val < win1_7.index t a * S5120x11.size a + S5120x11.size a := by
  show i ∈ ((View.whole main_v10_1).slice (win1_7.rect t)).set ↔ _
  rw [View.set_slice_whole, Rect.mem_set_unit]
  exact Iff.rfl

/-- Every row of the first message array is written back by point `e / 5120`. -/
theorem cover_mi (i : S3200000x11.Idx) :
    ∃ t : Fin cfg1.N, (cfg1.win 7).flush t = true ∧ i ∈ ((cfg1.win 7).blk t).view.set := by
  have hi0 : (i 0).val < 3200000 := (i 0).isLt
  have hi1 : (i 1).val < 11 := (i 1).isLt
  have hN : cfg1.N = 625 := N_1
  have ht : (i 0).val / 5120 < cfg1.N := by omega
  obtain ⟨-, -, -, -, -, -, -, -, -, -, -, -, -, -, e0, e1, -⟩ := idx_facts ⟨(i 0).val / 5120, ht⟩
  refine ⟨⟨(i 0).val / 5120, ht⟩, flush1_7 _, ?_⟩
  rw [mem_blk_mi]
  intro a
  match a with
  | ⟨0, _⟩ =>
    show win1_7.index ⟨(i 0).val / 5120, ht⟩ (0 : Fin 2) * 5120 ≤ (i 0).val ∧ (i 0).val < win1_7.index ⟨(i 0).val / 5120, ht⟩ (0 : Fin 2) * 5120 + 5120
    rw [e0]; show (i 0).val / 5120 * 5120 ≤ (i 0).val ∧ (i 0).val < (i 0).val / 5120 * 5120 + 5120; omega
  | ⟨1, _⟩ =>
    show win1_7.index ⟨(i 0).val / 5120, ht⟩ (1 : Fin 2) * 11 ≤ (i 1).val ∧ (i 1).val < win1_7.index ⟨(i 0).val / 5120, ht⟩ (1 : Fin 2) * 11 + 11
    rw [e1]; omega

/-- WHAT POINT `t` WRITES BACK to the second message array is block `t` of the gate times the h_col rows. -/
theorem flushed_mo (c : Dev nD) (b1 : FVec Ideal Cert.ReferenceIdeal.S8 .f32) (b2 : FVec Ideal Cert.ReferenceIdeal.S1 .f32)
    (hb1 : ∀ j : Fin 8, V c main_v8 (ix2 (0 : Fin 1) j) = b1 (ix1 j))
    (hb2 : V c main_v9 (ix2 (0 : Fin 1) (0 : Fin 1)) = b2 (ix1 (0 : Fin 1))) (t : Fin cfg1.N) :
    (dat1 (F := Ideal) V c).flushed 8 t
      = ((cfg1.win 8).blk t).view.read (Elt Ideal)
          (Cert.Bridge.msgL (F := Ideal) (Cert.Bridge.edgeL (F := Ideal) (V c main_v7) (V c main_v6) (V c main_arg4) b1 (V c main_arg6) b2) (V c main_v7)) := by
  show (cfg1.win 8).cut (grid1.coords t) ((dat1 (F := Ideal) V c).after 8 t) = _
  rw [after1_8]
  unfold out1_8
  rw [View.canon_unit_zero zero_offsets]
  simp only [View.ld_unit_zero (S := S5120x11) zero_offsets, View.ld_unit_zero (S := S22x8) zero_offsets,
    View.ld_unit_zero (S := S1x8) zero_offsets, View.ld_unit_zero (S := S8x1) zero_offsets,
    View.ld_unit_zero (S := S1x1) zero_offsets]
  refine funext fun (y : S5120x11.Idx) => ?_
  obtain ⟨p, q, rfl⟩ : ∃ (p : Fin 5120) (q : Fin 11), y = ix2 p q := ⟨y 0, y 1, eq_ix2 y⟩
  show k1_pay5 (F := Ideal) (iblk1 V c 0 t) (iblk1 V c 1 t) (iblk1 V c 2 t) (iblk1 V c 3 t) (iblk1 V c 4 t) (iblk1 V c 5 t) (ix2 p q)
    = Cert.Bridge.msgL (F := Ideal) (Cert.Bridge.edgeL (F := Ideal) (V c main_v7) (V c main_v6) (V c main_arg4) b1 (V c main_arg6) b2) (V c main_v7) (((cfg1.win 8).blk t).view.emb (ix2 p q))
  rw [mo_emb]
  refine (pay5_apply (iblk1 V c 0 t) (iblk1 V c 1 t) (iblk1 V c 2 t) (iblk1 V c 3 t) (iblk1 V c 4 t) (iblk1 V c 5 t) p q).trans ?_
  refine Eq.trans ?_ (msgL_apply (Cert.Bridge.edgeL (F := Ideal) (V c main_v7) (V c main_v6) (V c main_arg4) b1 (V c main_arg6) b2) (V c main_v7) (edgeOf t p) q).symm
  exact congrArg₂ (· * ·) (gate_blk V c b1 b2 hb1 hb2 t p) (hcol_blk V c t p q)

/-- An index of the second message array is in point `t`'s block iff each coordinate is in the block's range on its axis. -/
theorem mem_blk_mo (t : Fin cfg1.N) (i : S3200000x11.Idx) :
    i ∈ ((cfg1.win 8).blk t).view.set ↔ ∀ a : Fin 2, win1_8.index t a * S5120x11.size a ≤ (i a).val ∧ (i a).val < win1_8.index t a * S5120x11.size a + S5120x11.size a := by
  show i ∈ ((View.whole main_v10_2).slice (win1_8.rect t)).set ↔ _
  rw [View.set_slice_whole, Rect.mem_set_unit]
  exact Iff.rfl

/-- Every row of the second message array is written back by point `e / 5120`. -/
theorem cover_mo (i : S3200000x11.Idx) :
    ∃ t : Fin cfg1.N, (cfg1.win 8).flush t = true ∧ i ∈ ((cfg1.win 8).blk t).view.set := by
  have hi0 : (i 0).val < 3200000 := (i 0).isLt
  have hi1 : (i 1).val < 11 := (i 1).isLt
  have hN : cfg1.N = 625 := N_1
  have ht : (i 0).val / 5120 < cfg1.N := by omega
  obtain ⟨-, -, -, -, -, -, -, -, -, -, -, -, -, -, -, -, e0, e1⟩ := idx_facts ⟨(i 0).val / 5120, ht⟩
  refine ⟨⟨(i 0).val / 5120, ht⟩, flush1_8 _, ?_⟩
  rw [mem_blk_mo]
  intro a
  match a with
  | ⟨0, _⟩ =>
    show win1_8.index ⟨(i 0).val / 5120, ht⟩ (0 : Fin 2) * 5120 ≤ (i 0).val ∧ (i 0).val < win1_8.index ⟨(i 0).val / 5120, ht⟩ (0 : Fin 2) * 5120 + 5120
    rw [e0]; show (i 0).val / 5120 * 5120 ≤ (i 0).val ∧ (i 0).val < (i 0).val / 5120 * 5120 + 5120; omega
  | ⟨1, _⟩ =>
    show win1_8.index ⟨(i 0).val / 5120, ht⟩ (1 : Fin 2) * 11 ≤ (i 1).val ∧ (i 1).val < win1_8.index ⟨(i 0).val / 5120, ht⟩ (1 : Fin 2) * 11 + 11
    rw [e1]; omega

end Cert.KernelIdeal.Val.RegEdge1

namespace Cert.KernelIdeal.Val

open Idealize.ShloMosaic Idealize.ShloMosaic.TcCoe Idealize.SL.Sem Cert.KernelIdeal Cert.KernelIdeal.Gen
open Idealize.ShloMosaic.ValueIdx

variable [Cert.KernelIdeal.Facts] [Cert.ReferenceIdeal.Facts]
variable (V : (c : Dev nD) → (b : Ref sig .tc) → Buf (Elt Ideal) ((c : Thread nD τ).loc b))

/-- Output window 6 of pipeline 1 (the gate, one value per edge) after the 625 grid points. -/
theorem reg1_e (c : Dev nD) (b1 : FVec Ideal Cert.ReferenceIdeal.S8 .f32) (b2 : FVec Ideal Cert.ReferenceIdeal.S1 .f32)
    (hb1 : ∀ j : Fin 8, V c main_v8 (ix2 (0 : Fin 1) j) = b1 (ix1 j))
    (hb2 : V c main_v9 (ix2 (0 : Fin 1) (0 : Fin 1)) = b2 (ix1 (0 : Fin 1))) :
    (dat1 (F := Ideal) V c).arrAt 6 cfg1.N
      = Cert.Bridge.edgeL (F := Ideal) (V c main_v7) (V c main_v6) (V c main_arg4) b1 (V c main_arg6) b2 := by
  exact (dat1 (F := Ideal) V c).arrAt_eq_of_cover 6 (Cert.Bridge.edgeL (F := Ideal) (V c main_v7) (V c main_v6) (V c main_arg4) b1 (V c main_arg6) b2)
    (fun t _ => RegEdge1.flushed_e V c b1 b2 hb1 hb2 t) RegEdge1.cover_e

/-- Output window 7 (gate times the h_row rows). -/
theorem reg1_mi (c : Dev nD) (b1 : FVec Ideal Cert.ReferenceIdeal.S8 .f32) (b2 : FVec Ideal Cert.ReferenceIdeal.S1 .f32)
    (hb1 : ∀ j : Fin 8, V c main_v8 (ix2 (0 : Fin 1) j) = b1 (ix1 j))
    (hb2 : V c main_v9 (ix2 (0 : Fin 1) (0 : Fin 1)) = b2 (ix1 (0 : Fin 1))) :
    (dat1 (F := Ideal) V c).arrAt 7 cfg1.N
      = Cert.Bridge.msgL (F := Ideal) (Cert.Bridge.edgeL (F := Ideal) (V c main_v7) (V c main_v6) (V c main_arg4) b1 (V c main_arg6) b2) (V c main_v6) := by
  exact (dat1 (F := Ideal) V c).arrAt_eq_of_cover 7 (Cert.Bridge.msgL (F := Ideal) (Cert.Bridge.edgeL (F := Ideal) (V c main_v7) (V c main_v6) (V c main_arg4) b1 (V c main_arg6) b2) (V c main_v6))
    (fun t _ => RegEdge1.flushed_mi V c b1 b2 hb1 hb2 t) RegEdge1.cover_mi

/-- Output window 8 (gate times the h_col rows). -/
theorem reg1_mo (c : Dev nD) (b1 : FVec Ideal Cert.ReferenceIdeal.S8 .f32) (b2 : FVec Ideal Cert.ReferenceIdeal.S1 .f32)
    (hb1 : ∀ j : Fin 8, V c main_v8 (ix2 (0 : Fin 1) j) = b1 (ix1 j))
    (hb2 : V c main_v9 (ix2 (0 : Fin 1) (0 : Fin 1)) = b2 (ix1 (0 : Fin 1))) :
    (dat1 (F := Ideal) V c).arrAt 8 cfg1.N
      = Cert.Bridge.msgL (F := Ideal) (Cert.Bridge.edgeL (F := Ideal) (V c main_v7) (V c main_v6) (V c main_arg4) b1 (V c main_arg6) b2) (V c main_v7) := by
  exact (dat1 (F := Ideal) V c).arrAt_eq_of_cover 8 (Cert.Bridge.msgL (F := Ideal) (Cert.Bridge.edgeL (F := Ideal) (V c main_v7) (V c main_v6) (V c main_arg4) b1 (V c main_arg6) b2) (V c main_v7))
    (fun t _ => RegEdge1.flushed_mo V c b1 b2 hb1 hb2 t) RegEdge1.cover_mo

end Cert.KernelIdeal.Val

end
-- ==== Proof.NodeRows.lean ====
/-
  One row of a node update, as a function of the row's entries and the weights: the 33 entries [mi, mo, h] of the row,
  a dense layer tanh(a·W + b) read at one output column, and the updated row [tanh(tanh([mi, mo, h]·W1 + b1)·W2 + b2), x].
  Then the array operations the update is spelt with, each read at one row and column over any number of rows: the
  three-piece and the two-piece concatenation along the columns, a dense layer as a kernel spells it (a matrix product
  into a zero accumulator of the operands changed to bf16, plus the bias row broadcast down the rows) and as the
  reference spells it (the host's product, plus the bias vector broadcast to a row and then down the rows). Last, the
  reference's node layer of whole arrays read at a row and a column: the updated row of the arrays' rows.
-/
import proofs.«409147_j26182120636657_1_alg».proof.Proof.Layers
import Idealize.ShloMosaic.Lib.ValueIdx
import Idealize.ShloMosaic.Lib.Pipeline.Value
import Idealize.ShloMosaic.Lib.KernelVsHost
import Idealize.ShloMosaic.Lib.StackMember
import Idealize.ShloMosaic.PureOps.Ideal.Laws

noncomputable section

namespace Cert.Bridge.Node

open Idealize.ShloMosaic Idealize.ShloMosaic.ValueIdx
open scoped BigOperators

/-! ## A row of the update, over its entries -/

/-- Column `k` of the row [mi, mo, h]: below 11 it is mi's column `k`, below 22 mo's column `k - 11`, else h's column
    `k - 22`. -/
def catRow (mi mo h : Fin 11 → EReal) (k : Fin 33) : EReal :=
  if h0 : k.val < 11 then mi ⟨k.val, h0⟩
  else if h1 : k.val < 22 then mo ⟨k.val - 11, by omega⟩
  else h ⟨k.val - 22, by omega⟩

/-- Column `l` of a dense layer's output row: tanh(∑ₖ aₖ·W[k, l] + b[l]). -/
def denseRow {K N : Nat} (a : Fin K → EReal) (w : Fin K → Fin N → EReal) (b : Fin N → EReal) (l : Fin N) : EReal :=
  Ideal.tanh (∑ k : Fin K, a k * w k l + b l)

/-- Column `j` of the updated row: below 8 the second dense layer of the first dense layer of [mi, mo, h]; from 8 on
    the row's input features x, column `j - 8`. -/
def updRow (mi mo h : Fin 11 → EReal) (x : Fin 3 → EReal) (w1 : Fin 33 → Fin 8 → EReal) (b1 : Fin 8 → EReal)
    (w2 : Fin 8 → Fin 8 → EReal) (b2 : Fin 8 → EReal) (j : Fin 11) : EReal :=
  if hj : j.val < 8 then denseRow (denseRow (catRow mi mo h) w1 b1) w2 b2 ⟨j.val, hj⟩
  else x ⟨j.val - 8, by omega⟩

/-! ## The concatenations along the columns, at a row and a column -/

section Cat
variable {α : Type} {n : Nat}

/-- [a, b, c] along the columns, three pieces of 11 columns, read at row `p` and a column below 11: a's entry. -/
theorem cat3_fst (hc : Shape.Concatenates [(⟨2, ![n, 11]⟩ : Shape), ⟨2, ![n, 11]⟩, ⟨2, ![n, 11]⟩] ⟨2, ![n, 33]⟩ 1)
    (a b c : (⟨2, ![n, 11]⟩ : Shape).Idx → α) (p : Fin n) (k : Fin 33) (hk : k.val < 11) :
    concatenate ⟨2, ![n, 33]⟩ 1 [⟨⟨2, ![n, 11]⟩, a⟩, ⟨⟨2, ![n, 11]⟩, b⟩, ⟨⟨2, ![n, 11]⟩, c⟩] hc (ix2 p k)
      = a (ix2 p ⟨k.val, hk⟩) := by
  refine concatenate_apply_piece 1 [⟨⟨2, ![n, 11]⟩, a⟩, ⟨⟨2, ![n, 11]⟩, b⟩, ⟨⟨2, ![n, 11]⟩, c⟩] hc (ix2 p k) 0 (by show 0 < 3; omega) ⟨2, ![n, 11]⟩ a rfl rfl 0 rfl (ix2 p ⟨k.val, hk⟩) ?_ ?_
  · intro q hq
    match q with
    | ⟨0, _⟩ => rfl
    | ⟨1, _⟩ => exact absurd rfl hq
  · show 0 + k.val = k.val
    omega

/-- … at a column from 11 and below 22: b's entry, 11 columns back. -/
theorem cat3_snd (hc : Shape.Concatenates [(⟨2, ![n, 11]⟩ : Shape), ⟨2, ![n, 11]⟩, ⟨2, ![n, 11]⟩] ⟨2, ![n, 33]⟩ 1)
    (a b c : (⟨2, ![n, 11]⟩ : Shape).Idx → α) (p : Fin n) (k : Fin 33) (h0 : ¬ k.val < 11) (h1 : k.val < 22) :
    concatenate ⟨2, ![n, 33]⟩ 1 [⟨⟨2, ![n, 11]⟩, a⟩, ⟨⟨2, ![n, 11]⟩, b⟩, ⟨⟨2, ![n, 11]⟩, c⟩] hc (ix2 p k)
      = b (ix2 p ⟨k.val - 11, by omega⟩) := by
  refine concatenate_apply_piece 1 [⟨⟨2, ![n, 11]⟩, a⟩, ⟨⟨2, ![n, 11]⟩, b⟩, ⟨⟨2, ![n, 11]⟩, c⟩] hc (ix2 p k) 1 (by show 1 < 3; omega) ⟨2, ![n, 11]⟩ b rfl rfl 11 rfl
    (ix2 p ⟨k.val - 11, by omega⟩) ?_ ?_
  · intro q hq
    match q with
    | ⟨0, _⟩ => rfl
    | ⟨1, _⟩ => exact absurd rfl hq
  · show 11 + (k.val - 11) = k.val
    omega

/-- … and at a column from 22 on: c's entry, 22 columns back. -/
theorem cat3_thd (hc : Shape.Concatenates [(⟨2, ![n, 11]⟩ : Shape), ⟨2, ![n, 11]⟩, ⟨2, ![n, 11]⟩] ⟨2, ![n, 33]⟩ 1)
    (a b c : (⟨2, ![n, 11]⟩ : Shape).Idx → α) (p : Fin n) (k : Fin 33) (h1 : ¬ k.val < 22) :
    concatenate ⟨2, ![n, 33]⟩ 1 [⟨⟨2, ![n, 11]⟩, a⟩, ⟨⟨2, ![n, 11]⟩, b⟩, ⟨⟨2, ![n, 11]⟩, c⟩] hc (ix2 p k)
      = c (ix2 p ⟨k.val - 22, by omega⟩) := by
  refine concatenate_apply_piece 1 [⟨⟨2, ![n, 11]⟩, a⟩, ⟨⟨2, ![n, 11]⟩, b⟩, ⟨⟨2, ![n, 11]⟩, c⟩] hc (ix2 p k) 2 (by show 2 < 3; omega) ⟨2, ![n, 11]⟩ c rfl rfl 22 rfl
    (ix2 p ⟨k.val - 22, by omega⟩) ?_ ?_
  · intro q hq
    match q with
    | ⟨0, _⟩ => rfl
    | ⟨1, _⟩ => exact absurd rfl hq
  · show 22 + (k.val - 22) = k.val
    have := k.isLt
    omega

end Cat

/-- Row `p` of [a, b, c] along the columns is the row [a's row, b's row, c's row]. -/
theorem cat3_row {n : Nat}
    (hc : Shape.Concatenates [(⟨2, ![n, 11]⟩ : Shape), ⟨2, ![n, 11]⟩, ⟨2, ![n, 11]⟩] ⟨2, ![n, 33]⟩ 1)
    (a b c : (⟨2, ![n, 11]⟩ : Shape).Idx → EReal) (p : Fin n) (k : Fin 33) :
    concatenate ⟨2, ![n, 33]⟩ 1 [⟨⟨2, ![n, 11]⟩, a⟩, ⟨⟨2, ![n, 11]⟩, b⟩, ⟨⟨2, ![n, 11]⟩, c⟩] hc (ix2 p k)
      = catRow (fun q => a (ix2 p q)) (fun q => b (ix2 p q)) (fun q => c (ix2 p q)) k := by
  unfold catRow
  by_cases h0 : k.val < 11
  · rw [dif_pos h0]; exact cat3_fst hc a b c p k h0
  · rw [dif_neg h0]
    by_cases h1 : k.val < 22
    · rw [dif_pos h1]; exact cat3_snd hc a b c p k h0 h1
    · rw [dif_neg h1]; exact cat3_thd hc a b c p k h1

/-! ## The two-piece concatenation along the columns -/

section Cat2
variable {α : Type} {n : Nat}

/-- [a, b] along the columns, 8 columns then 3, read at row `p` and a column below 8: a's entry. -/
theorem cat2_fst (hc : Shape.Concatenates [(⟨2, ![n, 8]⟩ : Shape), ⟨2, ![n, 3]⟩] ⟨2, ![n, 11]⟩ 1)
    (a : (⟨2, ![n, 8]⟩ : Shape).Idx → α) (b : (⟨2, ![n, 3]⟩ : Shape).Idx → α) (p : Fin n) (j : Fin 11) (hj : j.val < 8) :
    concatenate ⟨2, ![n, 11]⟩ 1 [⟨⟨2, ![n, 8]⟩, a⟩, ⟨⟨2, ![n, 3]⟩, b⟩] hc (ix2 p j) = a (ix2 p ⟨j.val, hj⟩) := by
  refine concatenate_pair_apply_left 1 a b hc (ix2 p j) rfl (ix2 p ⟨j.val, hj⟩) ?_
  intro q
  match q with
  | ⟨0, _⟩ => rfl
  | ⟨1, _⟩ => rfl

/-- … and at a column from 8 on: b's entry, 8 columns back. -/
theorem cat2_snd (hc : Shape.Concatenates [(⟨2, ![n, 8]⟩ : Shape), ⟨2, ![n, 3]⟩] ⟨2, ![n, 11]⟩ 1)
    (a : (⟨2, ![n, 8]⟩ : Shape).Idx → α) (b : (⟨2, ![n, 3]⟩ : Shape).Idx → α) (p : Fin n) (j : Fin 11) (hj : ¬ j.val < 8) :
    concatenate ⟨2, ![n, 11]⟩ 1 [⟨⟨2, ![n, 8]⟩, a⟩, ⟨⟨2, ![n, 3]⟩, b⟩] hc (ix2 p j)
      = b (ix2 p ⟨j.val - 8, by have := j.isLt; omega⟩) := by
  refine concatenate_pair_apply_right 1 a b hc (ix2 p j) rfl rfl (ix2 p ⟨j.val - 8, by have := j.isLt; omega⟩) ?_ ?_
  · intro q hq
    match q with
    | ⟨0, _⟩ => rfl
    | ⟨1, _⟩ => exact absurd rfl hq
  · show (j.val - 8) + 8 = j.val
    omega

end Cat2

/-! ## A dense layer, in a kernel's spelling and in the reference's, at a row and a column -/

/-- The kernel's: the operands changed to bf16 (no change of value), their product into the zero accumulator (the sum
    over the contracted column), the one-row bias broadcast down the rows, tanh. -/
theorem kernel_dense {n K N : Nat} (d : DotDims ⟨2, ![n, K]⟩ ⟨2, ![K, N]⟩ ⟨2, ![n, N]⟩) (hd : d = DotDims.plain n K N)
    (hbits : FTy.bits .bf16 < FTy.bits .f32)
    (hsc : (⟨2, ![1, N]⟩ : Shape).ShapeCasts ⟨2, ![1, N]⟩) (hbc : (⟨2, ![1, N]⟩ : Shape).Broadcasts ⟨2, ![n, N]⟩)
    (a : FVec Ideal ⟨2, ![n, K]⟩ .f32) (w : FVec Ideal ⟨2, ![K, N]⟩ .f32) (b : FVec Ideal ⟨2, ![1, N]⟩ .f32)
    (p : Fin n) (l : Fin N) :
    tanh (addf (matmul d none (truncf .bf16 a hbits) (truncf .bf16 w hbits) (constant ⟨2, ![n, N]⟩ .f32 0x00000000#32))
        (broadcastTo ⟨2, ![n, N]⟩ (shapeCast ⟨2, ![1, N]⟩ b hsc) hbc)) (ix2 p l)
      = denseRow (fun k => a (ix2 p k)) (fun k l => w (ix2 k l)) (fun l => b (ix2 (0 : Fin 1) l)) l := by
  subst hd
  have e1 := congrFun (matmul_zero_eq_dotGeneral (DotDims.plain n K N) none (truncf .bf16 a hbits) (truncf .bf16 w hbits))
    (ix2 p l)
  have e2 := StackMember.dotGeneral_plain_apply none (truncf .bf16 a hbits) (truncf .bf16 w hbits) p l
  have e3 : broadcastTo ⟨2, ![n, N]⟩ (shapeCast ⟨2, ![1, N]⟩ b hsc) hbc (ix2 p l) = b (ix2 (0 : Fin 1) l) := by
    rw [shapeCast_self]
    refine broadcastTo_apply b hbc (ix2 p l) (ix2 (0 : Fin 1) l) ?_
    intro q
    match q with
    | ⟨0, _⟩ => rfl
    | ⟨1, _⟩ =>
      show l.val = if N = 1 then 0 else l.val
      split
      · have := l.isLt; omega
      · rfl
  unfold denseRow
  show Ideal.tanh (matmul (DotDims.plain n K N) none (truncf .bf16 a hbits) (truncf .bf16 w hbits)
      (constant ⟨2, ![n, N]⟩ .f32 0x00000000#32) (ix2 p l)
    + broadcastTo ⟨2, ![n, N]⟩ (shapeCast ⟨2, ![1, N]⟩ b hsc) hbc (ix2 p l)) = _
  rw [e1, e2, e3]
  rfl

/-- The reference's: the host's product (the same sum), the bias vector broadcast to one row and then down the rows,
    the host's tanh (the same function). -/
theorem host_dense {n K N : Nat} (d : DotDims ⟨2, ![n, K]⟩ ⟨2, ![K, N]⟩ ⟨2, ![n, N]⟩) (hd : d = DotDims.plain n K N)
    (h1 : (⟨1, ![N]⟩ : Shape).BroadcastsInDim ⟨2, ![1, N]⟩ ![1])
    (h2 : (⟨2, ![1, N]⟩ : Shape).BroadcastsInDim ⟨2, ![n, N]⟩ ![0, 1])
    (a : FVec Ideal ⟨2, ![n, K]⟩ .f32) (w : FVec Ideal ⟨2, ![K, N]⟩ .f32) (b : FVec Ideal ⟨1, ![N]⟩ .f32)
    (p : Fin n) (l : Fin N) :
    Host.tanh (addf (Host.dotGeneral d none a w)
        (broadcastInDim ⟨2, ![n, N]⟩ ![0, 1] h2 (broadcastInDim ⟨2, ![1, N]⟩ ![1] h1 b))) (ix2 p l)
      = denseRow (fun k => a (ix2 p k)) (fun k l => w (ix2 k l)) (fun l => b (ix1 l)) l := by
  subst hd
  have e2 := StackMember.dotGeneral_plain_apply none a w p l
  have e3 : broadcastInDim ⟨2, ![n, N]⟩ ![0, 1] h2 (broadcastInDim ⟨2, ![1, N]⟩ ![1] h1 b) (ix2 p l) = b (ix1 l) := by
    refine (broadcastInDim_oneRow_apply h2 _ p l).trans ?_
    refine broadcastInDim_apply ![1] h1 b (ix2 (0 : Fin 1) l) (ix1 l) ?_
    intro q
    match q with
    | ⟨0, _⟩ =>
      show l.val = if N = 1 then 0 else l.val
      split
      · have := l.isLt; omega
      · rfl
  unfold denseRow
  show Ideal.tanh (Host.dotGeneral (DotDims.plain n K N) none a w (ix2 p l)
    + broadcastInDim ⟨2, ![n, N]⟩ ![0, 1] h2 (broadcastInDim ⟨2, ![1, N]⟩ ![1] h1 b) (ix2 p l)) = _
  rw [e2, e3]

/-! ## The whole update, in a kernel's spelling and in the reference's, at a row and a column -/

/-- A kernel block's update read at row `p` and column `j` is the updated row of the blocks' rows `p`, the weights, and
    the one-row biases. -/
theorem kernelUpd_apply {n : Nat}
    (d1 : DotDims ⟨2, ![n, 33]⟩ ⟨2, ![33, 8]⟩ ⟨2, ![n, 8]⟩) (hd1 : d1 = DotDims.plain n 33 8)
    (d2 : DotDims ⟨2, ![n, 8]⟩ ⟨2, ![8, 8]⟩ ⟨2, ![n, 8]⟩) (hd2 : d2 = DotDims.plain n 8 8)
    (hbits : FTy.bits .bf16 < FTy.bits .f32)
    (hs : (⟨2, ![n, 11]⟩ : Shape).ShapeCasts ⟨2, ![n, 11]⟩)
    (hc3 : Shape.Concatenates [(⟨2, ![n, 11]⟩ : Shape), ⟨2, ![n, 11]⟩, ⟨2, ![n, 11]⟩] ⟨2, ![n, 33]⟩ 1)
    (hsb : (⟨2, ![1, 8]⟩ : Shape).ShapeCasts ⟨2, ![1, 8]⟩) (hbc : (⟨2, ![1, 8]⟩ : Shape).Broadcasts ⟨2, ![n, 8]⟩)
    (hc2 : Shape.Concatenates [(⟨2, ![n, 8]⟩ : Shape), ⟨2, ![n, 3]⟩] ⟨2, ![n, 11]⟩ 1)
    (v0 v2 v4 : FVec Ideal ⟨2, ![n, 11]⟩ .f32) (v6 : FVec Ideal ⟨2, ![n, 3]⟩ .f32) (v8 : FVec Ideal ⟨2, ![33, 8]⟩ .f32)
    (v9 : FVec Ideal ⟨2, ![1, 8]⟩ .f32) (v11 : FVec Ideal ⟨2, ![8, 8]⟩ .f32) (v12 : FVec Ideal ⟨2, ![1, 8]⟩ .f32)
    (p : Fin n) (j : Fin 11) :
    concatenate ⟨2, ![n, 11]⟩ 1
        [⟨⟨2, ![n, 8]⟩, tanh (addf (matmul d2 none
            (truncf .bf16 (tanh (addf (matmul d1 none
                (truncf .bf16 (concatenate ⟨2, ![n, 33]⟩ 1
                  [⟨⟨2, ![n, 11]⟩, shapeCast ⟨2, ![n, 11]⟩ v0 hs⟩, ⟨⟨2, ![n, 11]⟩, shapeCast ⟨2, ![n, 11]⟩ v2 hs⟩,
                    ⟨⟨2, ![n, 11]⟩, shapeCast ⟨2, ![n, 11]⟩ v4 hs⟩] hc3) hbits)
                (truncf .bf16 v8 hbits) (constant ⟨2, ![n, 8]⟩ .f32 0x00000000#32))
              (broadcastTo ⟨2, ![n, 8]⟩ (shapeCast ⟨2, ![1, 8]⟩ v9 hsb) hbc))) hbits)
            (truncf .bf16 v11 hbits) (constant ⟨2, ![n, 8]⟩ .f32 0x00000000#32))
          (broadcastTo ⟨2, ![n, 8]⟩ (shapeCast ⟨2, ![1, 8]⟩ v12 hsb) hbc))⟩,
         ⟨⟨2, ![n, 3]⟩, v6⟩] hc2 (ix2 p j)
      = updRow (fun q => v0 (ix2 p q)) (fun q => v2 (ix2 p q)) (fun q => v4 (ix2 p q)) (fun q => v6 (ix2 p q))
          (fun k l => v8 (ix2 k l)) (fun l => v9 (ix2 (0 : Fin 1) l)) (fun l j => v11 (ix2 l j))
          (fun l => v12 (ix2 (0 : Fin 1) l)) j := by
  rw [shapeCast_self v0 hs, shapeCast_self v2 hs, shapeCast_self v4 hs]
  unfold updRow
  by_cases hj : j.val < 8
  · rw [dif_pos hj]
    refine (cat2_fst hc2 _ v6 p j hj).trans ?_
    refine (kernel_dense d2 hd2 hbits hsb hbc _ v11 v12 p ⟨j.val, hj⟩).trans ?_
    refine congrArg (fun r => denseRow r _ _ _) (funext fun l => ?_)
    refine (kernel_dense d1 hd1 hbits hsb hbc _ v8 v9 p l).trans ?_
    refine congrArg (fun r => denseRow r _ _ _) (funext fun k => ?_)
    exact cat3_row hc3 v0 v2 v4 p k
  · rw [dif_neg hj]
    exact cat2_snd hc2 _ v6 p j hj

/-- The reference's update read at row `p` and column `j` is the updated row of the arrays' rows `p`, the weights, and
    the bias vectors. -/
theorem hostUpd_apply {n : Nat}
    (d1 : DotDims ⟨2, ![n, 33]⟩ ⟨2, ![33, 8]⟩ ⟨2, ![n, 8]⟩) (hd1 : d1 = DotDims.plain n 33 8)
    (d2 : DotDims ⟨2, ![n, 8]⟩ ⟨2, ![8, 8]⟩ ⟨2, ![n, 8]⟩) (hd2 : d2 = DotDims.plain n 8 8)
    (hc3 : Shape.Concatenates [(⟨2, ![n, 11]⟩ : Shape), ⟨2, ![n, 11]⟩, ⟨2, ![n, 11]⟩] ⟨2, ![n, 33]⟩ 1)
    (hb1 : (⟨1, ![8]⟩ : Shape).BroadcastsInDim ⟨2, ![1, 8]⟩ ![1])
    (hb2 : (⟨2, ![1, 8]⟩ : Shape).BroadcastsInDim ⟨2, ![n, 8]⟩ ![0, 1])
    (hc2 : Shape.Concatenates [(⟨2, ![n, 8]⟩ : Shape), ⟨2, ![n, 3]⟩] ⟨2, ![n, 11]⟩ 1)
    (mi mo h : FVec Ideal ⟨2, ![n, 11]⟩ .f32) (x : FVec Ideal ⟨2, ![n, 3]⟩ .f32) (w1 : FVec Ideal ⟨2, ![33, 8]⟩ .f32)
    (b1 : FVec Ideal ⟨1, ![8]⟩ .f32) (w2 : FVec Ideal ⟨2, ![8, 8]⟩ .f32) (b2 : FVec Ideal ⟨1, ![8]⟩ .f32)
    (p : Fin n) (j : Fin 11) :
    concatenate ⟨2, ![n, 11]⟩ 1
        [⟨⟨2, ![n, 8]⟩, Host.tanh (addf (Host.dotGeneral d2 none
            (Host.tanh (addf (Host.dotGeneral d1 none
                (concatenate ⟨2, ![n, 33]⟩ 1 [⟨⟨2, ![n, 11]⟩, mi⟩, ⟨⟨2, ![n, 11]⟩, mo⟩, ⟨⟨2, ![n, 11]⟩, h⟩] hc3) w1)
              (broadcastInDim ⟨2, ![n, 8]⟩ ![0, 1] hb2 (broadcastInDim ⟨2, ![1, 8]⟩ ![1] hb1 b1)))) w2)
          (broadcastInDim ⟨2, ![n, 8]⟩ ![0, 1] hb2 (broadcastInDim ⟨2, ![1, 8]⟩ ![1] hb1 b2)))⟩,
         ⟨⟨2, ![n, 3]⟩, x⟩] hc2 (ix2 p j)
      = updRow (fun q => mi (ix2 p q)) (fun q => mo (ix2 p q)) (fun q => h (ix2 p q)) (fun q => x (ix2 p q))
          (fun k l => w1 (ix2 k l)) (fun l => b1 (ix1 l)) (fun l j => w2 (ix2 l j)) (fun l => b2 (ix1 l)) j := by
  unfold updRow
  by_cases hj : j.val < 8
  · rw [dif_pos hj]
    refine (cat2_fst hc2 _ x p j hj).trans ?_
    refine (host_dense d2 hd2 hb1 hb2 _ w2 b2 p ⟨j.val, hj⟩).trans ?_
    refine congrArg (fun r => denseRow r _ _ _) (funext fun l => ?_)
    refine (host_dense d1 hd1 hb1 hb2 _ w1 b1 p l).trans ?_
    refine congrArg (fun r => denseRow r _ _ _) (funext fun k => ?_)
    exact cat3_row hc3 mi mo h p k
  · rw [dif_neg hj]
    exact cat2_snd hc2 _ x p j hj

/-! ## The reference's node layer, at a row and a column -/

section Layer
variable [Cert.ReferenceIdeal.Facts]
open Cert.ReferenceIdeal Cert.ReferenceIdeal.Facts₀

/-- The node layer of whole arrays, read at row `r` and column `j`, is the updated row of the arrays' rows `r`. -/
theorem nodeL_apply (mi mo h : FVec Ideal S100000x11 .f32) (x : FVec Ideal S100000x3 .f32) (w1 : FVec Ideal S33x8 .f32)
    (b1 : FVec Ideal S8 .f32) (w2 : FVec Ideal S8x8 .f32) (b2 : FVec Ideal S8 .f32) (r : Fin 100000) (j : Fin 11) :
    Cert.Bridge.nodeL (F := Ideal) mi mo h x w1 b1 w2 b2 (ix2 r j)
      = updRow (fun q => mi (ix2 r q)) (fun q => mo (ix2 r q)) (fun q => h (ix2 r q)) (fun q => x (ix2 r q))
          (fun k l => w1 (ix2 k l)) (fun l => b1 (ix1 l)) (fun l j => w2 (ix2 l j)) (fun l => b2 (ix1 l)) j := by
  unfold Cert.Bridge.nodeL
  exact hostUpd_apply dot_S100000x33_S33x8_S100000x8_1_0_0_1_n_n rfl dot_S100000x8_S8x8_S100000x8_1_0_0_1_n_n rfl
    concatenates_S100000x11_S100000x11_S100000x11_S100000x33_d1 bcast_S8_S1x8_1 bcast_S1x8_S100000x8_0_1
    concatenates_S100000x8_S100000x3_S100000x11_d1 mi mo h x w1 b1 w2 b2 r j

end Layer

end Cert.Bridge.Node

end
-- ==== Proof.RegNode2.lean ====
/-
  Region 2 (a node update): the array its output window ends holding is the node layer of the entry arrays.

  The grid has 20 points; point `t` reads rows `5000 t … 5000 t + 4999` of mi, mo, h and x, the two weight matrices and
  the two one-row biases whole, and writes the same rows of the output. Row by row the body and the layer are one
  function of the row's entries (the updated row of Proof/NodeRows.lean): the body's payload at row `p` of the blocks,
  the layer at row `5000 t + p` of the arrays. So what point `t` writes back is block `t` of the layer of the entry
  arrays, and the 20 blocks cover the array.
-/
import proofs.«409147_j26182120636657_1_alg».proof.Proof.Gen.KernelIdeal.Frame
import proofs.«409147_j26182120636657_1_alg».proof.Proof.Layers
import proofs.«409147_j26182120636657_1_alg».proof.Proof.NodeRows
import Idealize.ShloMosaic.Lib.ValueIdx
import Idealize.ShloMosaic.Lib.Pipeline.Value
import Idealize.ShloMosaic.PureOps.Ideal.Laws

set_option maxRecDepth 16384

noncomputable section

namespace Cert.KernelIdeal.Val.RegNode2

open Idealize.ShloMosaic Idealize.ShloMosaic.TcCoe Idealize.SL.Sem Cert.KernelIdeal Cert.KernelIdeal.Gen
open Idealize.ShloMosaic.ValueIdx
open Cert.Bridge

/-- Every window's block starts at zero offsets in its staging buffer. -/
theorem cfg2_zero_off : (![0, 0] : Fin 2 → Nat) = fun _ => 0 := funext fun a => by fin_cases a <;> rfl

/-! The index maps, decided over the 20 points: the row-tiled windows (mi, mo, h, x and the output) are at block `t` of
    the rows and block 0 of the columns; the weights and the biases are whole, at block 0 of both axes. -/

theorem win2_0_index : ∀ t : Fin grid2.N, win2_0.index t (0 : Fin 2) = t.val ∧ win2_0.index t (1 : Fin 2) = 0 :=
  (by decide +kernel : ∀ t : Fin grid2.N, _)
theorem win2_1_index : ∀ t : Fin grid2.N, win2_1.index t (0 : Fin 2) = t.val ∧ win2_1.index t (1 : Fin 2) = 0 :=
  (by decide +kernel : ∀ t : Fin grid2.N, _)
theorem win2_2_index : ∀ t : Fin grid2.N, win2_2.index t (0 : Fin 2) = t.val ∧ win2_2.index t (1 : Fin 2) = 0 :=
  (by decide +kernel : ∀ t : Fin grid2.N, _)
theorem win2_3_index : ∀ t : Fin grid2.N, win2_3.index t (0 : Fin 2) = t.val ∧ win2_3.index t (1 : Fin 2) = 0 :=
  (by decide +kernel : ∀ t : Fin grid2.N, _)
theorem win2_4_index : ∀ t : Fin grid2.N, win2_4.index t (0 : Fin 2) = 0 ∧ win2_4.index t (1 : Fin 2) = 0 :=
  (by decide +kernel : ∀ t : Fin grid2.N, _)
theorem win2_5_index : ∀ t : Fin grid2.N, win2_5.index t (0 : Fin 2) = 0 ∧ win2_5.index t (1 : Fin 2) = 0 :=
  (by decide +kernel : ∀ t : Fin grid2.N, _)
theorem win2_6_index : ∀ t : Fin grid2.N, win2_6.index t (0 : Fin 2) = 0 ∧ win2_6.index t (1 : Fin 2) = 0 :=
  (by decide +kernel : ∀ t : Fin grid2.N, _)
theorem win2_7_index : ∀ t : Fin grid2.N, win2_7.index t (0 : Fin 2) = 0 ∧ win2_7.index t (1 : Fin 2) = 0 :=
  (by decide +kernel : ∀ t : Fin grid2.N, _)
theorem win2_8_index : ∀ t : Fin grid2.N, win2_8.index t (0 : Fin 2) = t.val ∧ win2_8.index t (1 : Fin 2) = 0 :=
  (by decide +kernel : ∀ t : Fin grid2.N, _)

variable [Cert.KernelIdeal.Facts] [Cert.ReferenceIdeal.Facts]
variable (V : (c : Dev nD) → (b : Ref sig .tc) → Buf (Elt Ideal) ((c : Thread nD τ).loc b))

/-- The body's payload at row `p` and column `j` of its blocks is the updated row of the blocks' rows `p`. -/
theorem k2_pay1_apply (v0 v2 v4 : Vec Ideal S5000x11 .f32) (v6 : Vec Ideal S5000x3 .f32) (v8 : Vec Ideal S33x8 .f32)
    (v9 : Vec Ideal S1x8 .f32) (v11 : Vec Ideal S8x8 .f32) (v12 : Vec Ideal S1x8 .f32) (p : Fin 5000) (j : Fin 11) :
    k2_pay1 v0 v2 v4 v6 v8 v9 v11 v12 (ix2 p j)
      = Node.updRow (fun q => v0 (ix2 p q)) (fun q => v2 (ix2 p q)) (fun q => v4 (ix2 p q)) (fun q => v6 (ix2 p q))
          (fun k l => v8 (ix2 k l)) (fun l => v9 (ix2 (0 : Fin 1) l)) (fun l j => v11 (ix2 l j))
          (fun l => v12 (ix2 (0 : Fin 1) l)) j := by
  unfold k2_pay1
  exact Node.kernelUpd_apply dot_S5000x33_S33x8_S5000x8_1_0_0_1_n_n rfl dot_S5000x8_S8x8_S5000x8_1_0_0_1_n_n rfl
    bitsLt_bf16_f32 shapeCasts_S5000x11_S5000x11 concatenates_S5000x11_S5000x11_S5000x11_S5000x33_d1
    shapeCasts_S1x8_S1x8 broadcasts_S1x8_S5000x8 concatenates_S5000x8_S5000x3_S5000x11_d1
    v0 v2 v4 v6 v8 v9 v11 v12 p j

/-- Row `p` of mi's block at point `t` is row `5000 t + p` of the array. -/
theorem iblk2_0_row (c : Dev nD) (t : Fin cfg2.N) (p : Fin 5000) (q : Fin 11) (hr : 5000 * t.val + p.val < 100000) :
    iblk2 V c 0 t (ix2 p q) = V c main_v13 (ix2 (⟨5000 * t.val + p.val, hr⟩ : Fin 100000) q) := by
  obtain ⟨e0, e1⟩ := win2_0_index t
  show V c main_v13 (((cfg2.win 0).blk t).view.emb (ix2 p q)) = _
  refine congrArg (V c main_v13) (funext fun a => Fin.ext ?_)
  match a with
  | ⟨0, _⟩ => show win2_0.index t (0 : Fin 2) * 5000 + 1 * p.val = 5000 * t.val + p.val; omega
  | ⟨1, _⟩ => show win2_0.index t (1 : Fin 2) * 11 + 1 * q.val = q.val; omega

/-- Row `p` of mo's block at point `t` is row `5000 t + p` of the array. -/
theorem iblk2_1_row (c : Dev nD) (t : Fin cfg2.N) (p : Fin 5000) (q : Fin 11) (hr : 5000 * t.val + p.val < 100000) :
    iblk2 V c 1 t (ix2 p q) = V c main_v16 (ix2 (⟨5000 * t.val + p.val, hr⟩ : Fin 100000) q) := by
  obtain ⟨e0, e1⟩ := win2_1_index t
  show V c main_v16 (((cfg2.win 1).blk t).view.emb (ix2 p q)) = _
  refine congrArg (V c main_v16) (funext fun a => Fin.ext ?_)
  match a with
  | ⟨0, _⟩ => show win2_1.index t (0 : Fin 2) * 5000 + 1 * p.val = 5000 * t.val + p.val; omega
  | ⟨1, _⟩ => show win2_1.index t (1 : Fin 2) * 11 + 1 * q.val = q.val; omega

/-- Row `p` of h's block at point `t` is row `5000 t + p` of the array. -/
theorem iblk2_2_row (c : Dev nD) (t : Fin cfg2.N) (p : Fin 5000) (q : Fin 11) (hr : 5000 * t.val + p.val < 100000) :
    iblk2 V c 2 t (ix2 p q) = V c main_v5 (ix2 (⟨5000 * t.val + p.val, hr⟩ : Fin 100000) q) := by
  obtain ⟨e0, e1⟩ := win2_2_index t
  show V c main_v5 (((cfg2.win 2).blk t).view.emb (ix2 p q)) = _
  refine congrArg (V c main_v5) (funext fun a => Fin.ext ?_)
  match a with
  | ⟨0, _⟩ => show win2_2.index t (0 : Fin 2) * 5000 + 1 * p.val = 5000 * t.val + p.val; omega
  | ⟨1, _⟩ => show win2_2.index t (1 : Fin 2) * 11 + 1 * q.val = q.val; omega

/-- Row `p` of x's block at point `t` is row `5000 t + p` of the array. -/
theorem iblk2_3_row (c : Dev nD) (t : Fin cfg2.N) (p : Fin 5000) (q : Fin 3) (hr : 5000 * t.val + p.val < 100000) :
    iblk2 V c 3 t (ix2 p q) = V c main_arg0 (ix2 (⟨5000 * t.val + p.val, hr⟩ : Fin 100000) q) := by
  obtain ⟨e0, e1⟩ := win2_3_index t
  show V c main_arg0 (((cfg2.win 3).blk t).view.emb (ix2 p q)) = _
  refine congrArg (V c main_arg0) (funext fun a => Fin.ext ?_)
  match a with
  | ⟨0, _⟩ => show win2_3.index t (0 : Fin 2) * 5000 + 1 * p.val = 5000 * t.val + p.val; omega
  | ⟨1, _⟩ => show win2_3.index t (1 : Fin 2) * 3 + 1 * q.val = q.val; omega

/-- The first weight matrix's block at any point is the whole array. -/
theorem iblk2_4_whole (c : Dev nD) (t : Fin cfg2.N) (k : Fin 33) (l : Fin 8) :
    iblk2 V c 4 t (ix2 k l) = V c main_arg8 (ix2 k l) := by
  obtain ⟨e0, e1⟩ := win2_4_index t
  show V c main_arg8 (((cfg2.win 4).blk t).view.emb (ix2 k l)) = _
  refine congrArg (V c main_arg8) (funext fun a => Fin.ext ?_)
  match a with
  | ⟨0, _⟩ => show win2_4.index t (0 : Fin 2) * 33 + 1 * k.val = k.val; omega
  | ⟨1, _⟩ => show win2_4.index t (1 : Fin 2) * 8 + 1 * l.val = l.val; omega

/-- The first bias row's block at any point is the whole array. -/
theorem iblk2_5_whole (c : Dev nD) (t : Fin cfg2.N) (k : Fin 1) (l : Fin 8) :
    iblk2 V c 5 t (ix2 k l) = V c main_v17 (ix2 k l) := by
  obtain ⟨e0, e1⟩ := win2_5_index t
  show V c main_v17 (((cfg2.win 5).blk t).view.emb (ix2 k l)) = _
  refine congrArg (V c main_v17) (funext fun a => Fin.ext ?_)
  match a with
  | ⟨0, _⟩ => show win2_5.index t (0 : Fin 2) * 1 + 1 * k.val = k.val; omega
  | ⟨1, _⟩ => show win2_5.index t (1 : Fin 2) * 8 + 1 * l.val = l.val; omega

/-- The second weight matrix's block at any point is the whole array. -/
theorem iblk2_6_whole (c : Dev nD) (t : Fin cfg2.N) (k : Fin 8) (l : Fin 8) :
    iblk2 V c 6 t (ix2 k l) = V c main_arg10 (ix2 k l) := by
  obtain ⟨e0, e1⟩ := win2_6_index t
  show V c main_arg10 (((cfg2.win 6).blk t).view.emb (ix2 k l)) = _
  refine congrArg (V c main_arg10) (funext fun a => Fin.ext ?_)
  match a with
  | ⟨0, _⟩ => show win2_6.index t (0 : Fin 2) * 8 + 1 * k.val = k.val; omega
  | ⟨1, _⟩ => show win2_6.index t (1 : Fin 2) * 8 + 1 * l.val = l.val; omega

/-- The second bias row's block at any point is the whole array. -/
theorem iblk2_7_whole (c : Dev nD) (t : Fin cfg2.N) (k : Fin 1) (l : Fin 8) :
    iblk2 V c 7 t (ix2 k l) = V c main_v18 (ix2 k l) := by
  obtain ⟨e0, e1⟩ := win2_7_index t
  show V c main_v18 (((cfg2.win 7).blk t).view.emb (ix2 k l)) = _
  refine congrArg (V c main_v18) (funext fun a => Fin.ext ?_)
  match a with
  | ⟨0, _⟩ => show win2_7.index t (0 : Fin 2) * 1 + 1 * k.val = k.val; omega
  | ⟨1, _⟩ => show win2_7.index t (1 : Fin 2) * 8 + 1 * l.val = l.val; omega

/-- What point `t` writes back is block `t` of the node layer of the entry arrays: the block's row `p` is the updated row
    of the input blocks' rows `p`, which are the arrays' rows `5000 t + p`; the weights are read whole, and the one-row
    biases are the bias vectors. -/
theorem dat2_flushed8 (c : Dev nD) (b1 b2 : FVec Ideal Cert.ReferenceIdeal.S8 .f32)
    (hb1 : ∀ j : Fin 8, V c main_v17 (ix2 (0 : Fin 1) j) = b1 (ix1 j))
    (hb2 : ∀ j : Fin 8, V c main_v18 (ix2 (0 : Fin 1) j) = b2 (ix1 j)) (t : Fin cfg2.N) :
    (dat2 (F := Ideal) V c).flushed 8 t = ((cfg2.win 8).blk t).view.read (Elt Ideal)
      (Cert.Bridge.nodeL (F := Ideal) (V c main_v13) (V c main_v16) (V c main_v5) (V c main_arg0) (V c main_arg8) b1
        (V c main_arg10) b2) := by
  show (cfg2.win 8).cut (grid2.coords t) ((dat2 V c).after 8 t) = _
  rw [after2_8]
  unfold out2_8
  rw [View.canon_unit_zero cfg2_zero_off]
  simp only [View.ld_unit_zero (S := S5000x11) cfg2_zero_off, View.ld_unit_zero (S := S5000x3) cfg2_zero_off,
    View.ld_unit_zero (S := S33x8) cfg2_zero_off, View.ld_unit_zero (S := S1x8) cfg2_zero_off,
    View.ld_unit_zero (S := S8x8) cfg2_zero_off]
  refine funext fun (y : S5000x11.Idx) => ?_
  obtain ⟨p, q, rfl⟩ : ∃ (p : Fin 5000) (q : Fin 11), y = ix2 p q := ⟨y 0, y 1, eq_ix2 y⟩
  obtain ⟨e80, e81⟩ := win2_8_index t
  have ht : t.val < 20 := t.isLt
  have hp : p.val < 5000 := p.isLt
  have hr : 5000 * t.val + p.val < 100000 := by omega
  have hemb : ((cfg2.win 8).blk t).view.emb (ix2 p q) = ix2 (⟨5000 * t.val + p.val, hr⟩ : Fin 100000) q := by
    funext a; apply Fin.ext
    match a with
    | ⟨0, _⟩ => show win2_8.index t (0 : Fin 2) * 5000 + 1 * p.val = 5000 * t.val + p.val; omega
    | ⟨1, _⟩ => show win2_8.index t (1 : Fin 2) * 11 + 1 * q.val = q.val; omega
  show k2_pay1 (iblk2 V c 0 t) (iblk2 V c 1 t) (iblk2 V c 2 t) (iblk2 V c 3 t) (iblk2 V c 4 t) (iblk2 V c 5 t)
      (iblk2 V c 6 t) (iblk2 V c 7 t) (ix2 p q)
    = Cert.Bridge.nodeL (F := Ideal) (V c main_v13) (V c main_v16) (V c main_v5) (V c main_arg0) (V c main_arg8) b1
        (V c main_arg10) b2 (((cfg2.win 8).blk t).view.emb (ix2 p q))
  rw [hemb, Node.nodeL_apply]
  refine (k2_pay1_apply (iblk2 V c 0 t) (iblk2 V c 1 t) (iblk2 V c 2 t) (iblk2 V c 3 t) (iblk2 V c 4 t) (iblk2 V c 5 t)
      (iblk2 V c 6 t) (iblk2 V c 7 t) p q).trans ?_
  have r0 : (fun q' : Fin 11 => iblk2 V c 0 t (ix2 p q'))
      = fun q' => V c main_v13 (ix2 (⟨5000 * t.val + p.val, hr⟩ : Fin 100000) q') :=
    funext fun q' => iblk2_0_row V c t p q' hr
  have r1 : (fun q' : Fin 11 => iblk2 V c 1 t (ix2 p q'))
      = fun q' => V c main_v16 (ix2 (⟨5000 * t.val + p.val, hr⟩ : Fin 100000) q') :=
    funext fun q' => iblk2_1_row V c t p q' hr
  have r2 : (fun q' : Fin 11 => iblk2 V c 2 t (ix2 p q'))
      = fun q' => V c main_v5 (ix2 (⟨5000 * t.val + p.val, hr⟩ : Fin 100000) q') :=
    funext fun q' => iblk2_2_row V c t p q' hr
  have r3 : (fun q' : Fin 3 => iblk2 V c 3 t (ix2 p q'))
      = fun q' => V c main_arg0 (ix2 (⟨5000 * t.val + p.val, hr⟩ : Fin 100000) q') :=
    funext fun q' => iblk2_3_row V c t p q' hr
  have r4 : (fun (k : Fin 33) (l : Fin 8) => iblk2 V c 4 t (ix2 k l)) = fun k l => V c main_arg8 (ix2 k l) :=
    funext fun k => funext fun l => iblk2_4_whole V c t k l
  have r5 : (fun l : Fin 8 => iblk2 V c 5 t (ix2 (0 : Fin 1) l)) = fun l => b1 (ix1 l) :=
    funext fun l => (iblk2_5_whole V c t 0 l).trans (hb1 l)
  have r6 : (fun (k : Fin 8) (l : Fin 8) => iblk2 V c 6 t (ix2 k l)) = fun k l => V c main_arg10 (ix2 k l) :=
    funext fun k => funext fun l => iblk2_6_whole V c t k l
  have r7 : (fun l : Fin 8 => iblk2 V c 7 t (ix2 (0 : Fin 1) l)) = fun l => b2 (ix1 l) :=
    funext fun l => (iblk2_7_whole V c t 0 l).trans (hb2 l)
  rw [r0, r1, r2, r3, r4, r5, r6, r7]

/-- Row `r` of the output array is in the block of point `r / 5000`, at the block's row `r % 5000`: the 20 blocks of 5000
    rows cover the 100000 rows. -/
theorem cfg2_cover8 (i : S100000x11.Idx) :
    ∃ t : Fin cfg2.N, (cfg2.win 8).flush t = true ∧ i ∈ ((cfg2.win 8).blk t).view.set := by
  have hi0 : (i 0).val < 100000 := (i 0).isLt
  have hlt : (i 0).val / 5000 < 20 := by omega
  have hm : (i 0).val % 5000 < 5000 := Nat.mod_lt _ (by omega)
  obtain ⟨t, ht⟩ : ∃ t : Fin cfg2.N, t.val = (i 0).val / 5000 := ⟨⟨(i 0).val / 5000, hlt⟩, rfl⟩
  obtain ⟨e80, e81⟩ := win2_8_index t
  refine ⟨t, flush2_8 t, ?_⟩
  have he : ((cfg2.win 8).blk t).view.emb (ix2 (⟨(i 0).val % 5000, hm⟩ : Fin 5000) (i 1 : Fin 11)) = i := by
    funext a; apply Fin.ext
    match a with
    | ⟨0, _⟩ => show win2_8.index t (0 : Fin 2) * 5000 + 1 * ((i 0).val % 5000) = (i 0).val; omega
    | ⟨1, _⟩ => show win2_8.index t (1 : Fin 2) * 11 + 1 * (i 1).val = (i 1).val; omega
  have h := ((cfg2.win 8).blk t).view.emb_mem_set (ix2 (⟨(i 0).val % 5000, hm⟩ : Fin 5000) (i 1 : Fin 11))
  rw [he] at h
  exact h

end Cert.KernelIdeal.Val.RegNode2

namespace Cert.KernelIdeal.Val

open Idealize.ShloMosaic Idealize.ShloMosaic.TcCoe Idealize.SL.Sem Cert.KernelIdeal Cert.KernelIdeal.Gen
open Idealize.ShloMosaic.ValueIdx
open Cert.Bridge

variable [Cert.KernelIdeal.Facts] [Cert.ReferenceIdeal.Facts]
variable (V : (c : Dev nD) → (b : Ref sig .tc) → Buf (Elt Ideal) ((c : Thread nD τ).loc b))

/-- Output window 8 of pipeline 2 after the 20 grid points. -/
theorem reg2_val (c : Dev nD) (b1 b2 : FVec Ideal Cert.ReferenceIdeal.S8 .f32)
    (hb1 : ∀ j : Fin 8, V c main_v17 (ix2 (0 : Fin 1) j) = b1 (ix1 j))
    (hb2 : ∀ j : Fin 8, V c main_v18 (ix2 (0 : Fin 1) j) = b2 (ix1 j)) :
    (dat2 (F := Ideal) V c).arrAt 8 cfg2.N
      = Cert.Bridge.nodeL (F := Ideal) (V c main_v13) (V c main_v16) (V c main_v5) (V c main_arg0) (V c main_arg8) b1 (V c main_arg10) b2 :=
  (dat2 (F := Ideal) V c).arrAt_eq_of_cover 8 _ (fun t _ => RegNode2.dat2_flushed8 V c b1 b2 hb1 hb2 t)
    RegNode2.cfg2_cover8

end Cert.KernelIdeal.Val

end
-- ==== Proof.ChainRound1.lean ====
/- Round 1 of message passing in the kernel program: @main's segments from boundary 2 to boundary 8 (two fill-mode
   gathers and two bias reshapes on the host, the edge region, two segment sums and two bias reshapes on the host, the node
   region) take node features h in buffer main_v5 to one round of h in buffer main_v19, and leave the arguments and the index
   vectors alone. -/
import proofs.«409147_j26182120636657_1_alg».proof.Proof.Walk
import proofs.«409147_j26182120636657_1_alg».proof.Proof.KDefs
import proofs.«409147_j26182120636657_1_alg».proof.Proof.ChainStart
import proofs.«409147_j26182120636657_1_alg».proof.Proof.RegEdge1
import proofs.«409147_j26182120636657_1_alg».proof.Proof.RegNode2
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Val.ChainRound1

open Idealize.ShloMosaic Idealize.ShloMosaic.TcCoe Idealize.SL.Sem Cert.KernelIdeal Cert.KernelIdeal.Gen
open Idealize.ShloMosaic.ValueIdx Idealize.ShloMosaic.StableHlo Cert.KernelIdeal.Val

variable [Cert.KernelIdeal.Facts] [Cert.ReferenceIdeal.Facts]

/-! ## The host stretches of the round as functions of the contents they start from

Each host stretch is read over arbitrary starting contents V and at any float family: the buffer it writes holds the
named function of the buffers it reads. -/

section Stretches

variable {F : FTy → Type} [FloatOps F]

/-- A value written at a typed reference and read back at the same reference is the value. -/
theorem ofBuf_toBuf {T : BufTy} (r : Ref sig .tc) (p p' : r.ty = T) (q q' : r.space ≠ .host) (s s' : r.isScoped = false)
    (v : T.Contents (Elt F)) :
    (TRef.of r p q s : TRef sig T).ofBuf ((TRef.of r p' q' s' : TRef sig T).toBuf v) = v := by
  subst p; rfl

/-- The first gather: rows of the node features at the row-end indices, in fill mode. -/
theorem take_row (V : Valuation τ sig (Elt F)) :
    StableHlo.after hostOps1 V (Proc.devRef .tc main_v6)
      = takeK (F := F) (V (Proc.devRef .tc main_v5)) (V (Proc.devRef .tc main_v1)) := by
  simp only [hostOps1]
  after_results_simp
  generalize V (Proc.devRef .tc main_v5) = h
  generalize V (Proc.devRef .tc main_v1) = i
  simp only [ofBuf_toBuf]
  have ei : ∀ p q s, (TRef.of main_v1 p q s : TRef sig ⟨S3200000, .i32⟩).ofBuf i = i := fun _ _ _ => rfl
  have eh : ∀ p q s, (TRef.of main_v5 p q s : TRef sig ⟨S100000x11, .f32⟩).ofBuf h = h := fun _ _ _ => rfl
  have eo : ∀ p q s (X : (⟨S3200000x11, .f32⟩ : BufTy).Contents (Elt F)),
      (TRef.of main_v6 p q s : TRef sig ⟨S3200000x11, .f32⟩).toBuf X = X := fun _ _ _ _ => rfl
  simp only [ei, eh, eo]
  rfl

/-- The second gather: rows of the node features at the column-end indices. -/
theorem take_col (V : Valuation τ sig (Elt F)) :
    StableHlo.after hostOps1_1 V (Proc.devRef .tc main_v7)
      = takeK (F := F) (V (Proc.devRef .tc main_v5)) (V (Proc.devRef .tc main_v3)) := by
  simp only [hostOps1_1]
  after_results_simp
  generalize V (Proc.devRef .tc main_v5) = h
  generalize V (Proc.devRef .tc main_v3) = i
  simp only [ofBuf_toBuf]
  have ei : ∀ p q s, (TRef.of main_v3 p q s : TRef sig ⟨S3200000, .i32⟩).ofBuf i = i := fun _ _ _ => rfl
  have eh : ∀ p q s, (TRef.of main_v5 p q s : TRef sig ⟨S100000x11, .f32⟩).ofBuf h = h := fun _ _ _ => rfl
  have eo : ∀ p q s (X : (⟨S3200000x11, .f32⟩ : BufTy).Contents (Elt F)),
      (TRef.of main_v7 p q s : TRef sig ⟨S3200000x11, .f32⟩).toBuf X = X := fun _ _ _ _ => rfl
  simp only [ei, eh, eo]
  rfl

/-- The edge layer's first bias as a one-row matrix. -/
theorem bias_e1 (V : Valuation τ sig (Elt F)) (j : Fin 8) :
    StableHlo.after hostOps1_2 V (Proc.devRef .tc main_v8) (ix2 (0 : Fin 1) j) = V (Proc.devRef .tc main_arg5) (ix1 j) := by
  simp only [hostOps1_2]
  after_results_simp
  exact shapeCast_a_1a_apply _ _ _ _

/-- The edge layer's second bias as a one-by-one matrix. -/
theorem bias_e2 (V : Valuation τ sig (Elt F)) :
    StableHlo.after hostOps1_2 V (Proc.devRef .tc main_v9) (ix2 (0 : Fin 1) (0 : Fin 1))
      = V (Proc.devRef .tc main_arg7) (ix1 (0 : Fin 1)) := by
  simp only [hostOps1_2]
  after_results_simp
  exact shapeCast_a_1a_apply _ _ _ _

/-- The segment sum of the first message array at the column-end indices. -/
theorem seg_col (V : Valuation τ sig (Elt F)) :
    StableHlo.after hostOps2 V (Proc.devRef .tc main_v13)
      = segK (F := F) (V (Proc.devRef .tc main_v10_1)) (V (Proc.devRef .tc main_v3)) := by
  simp only [hostOps2]
  after_results_simp
  rfl

/-- The segment sum of the second message array at the row-end indices. -/
theorem seg_row (V : Valuation τ sig (Elt F)) :
    StableHlo.after hostOps2 V (Proc.devRef .tc main_v16)
      = segK (F := F) (V (Proc.devRef .tc main_v10_2)) (V (Proc.devRef .tc main_v1)) := by
  simp only [hostOps2]
  after_results_simp
  rfl

/-- The node layer's first bias as a one-row matrix. -/
theorem bias_n1 (V : Valuation τ sig (Elt F)) (j : Fin 8) :
    StableHlo.after hostOps2 V (Proc.devRef .tc main_v17) (ix2 (0 : Fin 1) j) = V (Proc.devRef .tc main_arg9) (ix1 j) := by
  simp only [hostOps2]
  after_results_simp
  exact shapeCast_a_1a_apply _ _ _ _

/-- The node layer's second bias as a one-row matrix. -/
theorem bias_n2 (V : Valuation τ sig (Elt F)) (j : Fin 8) :
    StableHlo.after hostOps2 V (Proc.devRef .tc main_v18) (ix2 (0 : Fin 1) j) = V (Proc.devRef .tc main_arg11) (ix1 j) := by
  simp only [hostOps2]
  after_results_simp
  exact shapeCast_a_1a_apply _ _ _ _

end Stretches

/-! ## The buffers at the edge region's entry, at its exit, and at the node region's entry -/

section Boundaries

variable (m : (ℓ : Loc nD τ sig) → Buf (Elt Ideal) ℓ) (ρ : Dev nD → PrngReg) (c : Dev nD)

/-- The rows gathered at the row-end indices, at the edge region's entry. -/
theorem edge_hrow (A : Args m c (W2 (F := Ideal) m ρ)) (h : FVec Ideal S100000x11 .f32) (hh : W2 (F := Ideal) m ρ c (Proc.devRef .tc main_v5) = h) : V5 (F := Ideal) m ρ c main_v6 = takeK (F := Ideal) h (rowK (m ((c : Thread nD τ).loc main_arg1))) := by
  show W5 (F := Ideal) m ρ c (Proc.devRef .tc main_v6) = _
  back_h; back_h
  refine (take_row (W2 (F := Ideal) m ρ c)).trans ?_
  rw [hh, A.row]

/-- The rows gathered at the column-end indices, at the edge region's entry. -/
theorem edge_hcol (A : Args m c (W2 (F := Ideal) m ρ)) (h : FVec Ideal S100000x11 .f32) (hh : W2 (F := Ideal) m ρ c (Proc.devRef .tc main_v5) = h) : V5 (F := Ideal) m ρ c main_v7 = takeK (F := Ideal) h (colK (m ((c : Thread nD τ).loc main_arg1))) := by
  show W5 (F := Ideal) m ρ c (Proc.devRef .tc main_v7) = _
  back_h
  refine (take_col (W3 (F := Ideal) m ρ c)).trans ?_
  have eh : W3 (F := Ideal) m ρ c (Proc.devRef .tc main_v5) = h := by back_h; exact hh
  have ei : W3 (F := Ideal) m ρ c (Proc.devRef .tc main_v3) = colK (m ((c : Thread nD τ).loc main_arg1)) := by
    back_h; exact A.col
  rw [eh, ei]

/-- The edge layer's first bias window at the edge region's entry. -/
theorem edge_bias1 (A : Args m c (W2 (F := Ideal) m ρ)) (j : Fin 8) :
    V5 (F := Ideal) m ρ c main_v8 (ix2 (0 : Fin 1) j) = m ((c : Thread nD τ).loc main_arg5) (ix1 j) := by
  show W5 (F := Ideal) m ρ c (Proc.devRef .tc main_v8) (ix2 (0 : Fin 1) j) = _
  refine (bias_e1 (W4 (F := Ideal) m ρ c) j).trans ?_
  have e : W4 (F := Ideal) m ρ c (Proc.devRef .tc main_arg5) = m ((c : Thread nD τ).loc main_arg5) := by
    back_h; back_h; exact A.a5
  rw [e]

/-- The edge layer's second bias window at the edge region's entry. -/
theorem edge_bias2 (A : Args m c (W2 (F := Ideal) m ρ)) :
    V5 (F := Ideal) m ρ c main_v9 (ix2 (0 : Fin 1) (0 : Fin 1)) = m ((c : Thread nD τ).loc main_arg7) (ix1 (0 : Fin 1)) := by
  show W5 (F := Ideal) m ρ c (Proc.devRef .tc main_v9) (ix2 (0 : Fin 1) (0 : Fin 1)) = _
  refine (bias_e2 (W4 (F := Ideal) m ρ c)).trans ?_
  have e : W4 (F := Ideal) m ρ c (Proc.devRef .tc main_arg7) = m ((c : Thread nD τ).loc main_arg7) := by
    back_h; back_h; exact A.a7
  rw [e]

/-- The edge layer's first weight at the edge region's entry. -/
theorem edge_w1 (A : Args m c (W2 (F := Ideal) m ρ)) : V5 (F := Ideal) m ρ c main_arg4 = m ((c : Thread nD τ).loc main_arg4) := by
  show W5 (F := Ideal) m ρ c (Proc.devRef .tc main_arg4) = _
  back_h; back_h; back_h; exact A.a4

/-- The edge layer's second weight at the edge region's entry. -/
theorem edge_w2 (A : Args m c (W2 (F := Ideal) m ρ)) : V5 (F := Ideal) m ρ c main_arg6 = m ((c : Thread nD τ).loc main_arg6) := by
  show W5 (F := Ideal) m ρ c (Proc.devRef .tc main_arg6) = _
  back_h; back_h; back_h; exact A.a6

/-- The first message array (the gate times the row-end rows) at the edge region's exit. -/
theorem msg_in (A : Args m c (W2 (F := Ideal) m ρ)) (h : FVec Ideal S100000x11 .f32) (hh : W2 (F := Ideal) m ρ c (Proc.devRef .tc main_v5) = h) : W6 (F := Ideal) m ρ c (Proc.devRef .tc main_v10_1)
    = Cert.Bridge.msgL (F := Ideal)
        (gateK (F := Ideal) h (rowK (m ((c : Thread nD τ).loc main_arg1))) (colK (m ((c : Thread nD τ).loc main_arg1)))
          (m ((c : Thread nD τ).loc main_arg4)) (m ((c : Thread nD τ).loc main_arg5)) (m ((c : Thread nD τ).loc main_arg6))
          (m ((c : Thread nD τ).loc main_arg7)))
        (takeK (F := Ideal) h (rowK (m ((c : Thread nD τ).loc main_arg1)))) := by
  refine (W6_arr (F := Ideal) m ρ c 7).trans ?_
  refine (reg1_mi (V5 (F := Ideal) m ρ) c (m ((c : Thread nD τ).loc main_arg5)) (m ((c : Thread nD τ).loc main_arg7))
    (edge_bias1 m ρ c A) (edge_bias2 m ρ c A)).trans ?_
  rw [edge_hrow m ρ c A h hh, edge_hcol m ρ c A h hh, edge_w1 m ρ c A, edge_w2 m ρ c A]
  rfl

/-- The second message array (the gate times the column-end rows) at the edge region's exit. -/
theorem msg_out (A : Args m c (W2 (F := Ideal) m ρ)) (h : FVec Ideal S100000x11 .f32) (hh : W2 (F := Ideal) m ρ c (Proc.devRef .tc main_v5) = h) : W6 (F := Ideal) m ρ c (Proc.devRef .tc main_v10_2)
    = Cert.Bridge.msgL (F := Ideal)
        (gateK (F := Ideal) h (rowK (m ((c : Thread nD τ).loc main_arg1))) (colK (m ((c : Thread nD τ).loc main_arg1)))
          (m ((c : Thread nD τ).loc main_arg4)) (m ((c : Thread nD τ).loc main_arg5)) (m ((c : Thread nD τ).loc main_arg6))
          (m ((c : Thread nD τ).loc main_arg7)))
        (takeK (F := Ideal) h (colK (m ((c : Thread nD τ).loc main_arg1)))) := by
  refine (W6_arr (F := Ideal) m ρ c 8).trans ?_
  refine (reg1_mo (V5 (F := Ideal) m ρ) c (m ((c : Thread nD τ).loc main_arg5)) (m ((c : Thread nD τ).loc main_arg7))
    (edge_bias1 m ρ c A) (edge_bias2 m ρ c A)).trans ?_
  rw [edge_hrow m ρ c A h hh, edge_hcol m ρ c A h hh, edge_w1 m ρ c A, edge_w2 m ρ c A]
  rfl

/-- The first segment sum at the node region's entry. -/
theorem node_mi (A : Args m c (W2 (F := Ideal) m ρ)) (h : FVec Ideal S100000x11 .f32) (hh : W2 (F := Ideal) m ρ c (Proc.devRef .tc main_v5) = h) : V7 (F := Ideal) m ρ c main_v13
    = segK (F := Ideal) (Cert.Bridge.msgL (F := Ideal)
        (gateK (F := Ideal) h (rowK (m ((c : Thread nD τ).loc main_arg1))) (colK (m ((c : Thread nD τ).loc main_arg1)))
          (m ((c : Thread nD τ).loc main_arg4)) (m ((c : Thread nD τ).loc main_arg5)) (m ((c : Thread nD τ).loc main_arg6))
          (m ((c : Thread nD τ).loc main_arg7)))
        (takeK (F := Ideal) h (rowK (m ((c : Thread nD τ).loc main_arg1))))) (colK (m ((c : Thread nD τ).loc main_arg1))) := by
  show W7 (F := Ideal) m ρ c (Proc.devRef .tc main_v13) = _
  refine (seg_col (W6 (F := Ideal) m ρ c)).trans ?_
  have ei : W6 (F := Ideal) m ρ c (Proc.devRef .tc main_v3) = colK (m ((c : Thread nD τ).loc main_arg1)) := by
    back_r1; back_h; back_h; back_h; exact A.col
  rw [msg_in m ρ c A h hh, ei]

/-- The second segment sum at the node region's entry. -/
theorem node_mo (A : Args m c (W2 (F := Ideal) m ρ)) (h : FVec Ideal S100000x11 .f32) (hh : W2 (F := Ideal) m ρ c (Proc.devRef .tc main_v5) = h) : V7 (F := Ideal) m ρ c main_v16
    = segK (F := Ideal) (Cert.Bridge.msgL (F := Ideal)
        (gateK (F := Ideal) h (rowK (m ((c : Thread nD τ).loc main_arg1))) (colK (m ((c : Thread nD τ).loc main_arg1)))
          (m ((c : Thread nD τ).loc main_arg4)) (m ((c : Thread nD τ).loc main_arg5)) (m ((c : Thread nD τ).loc main_arg6))
          (m ((c : Thread nD τ).loc main_arg7)))
        (takeK (F := Ideal) h (colK (m ((c : Thread nD τ).loc main_arg1))))) (rowK (m ((c : Thread nD τ).loc main_arg1))) := by
  show W7 (F := Ideal) m ρ c (Proc.devRef .tc main_v16) = _
  refine (seg_row (W6 (F := Ideal) m ρ c)).trans ?_
  have ei : W6 (F := Ideal) m ρ c (Proc.devRef .tc main_v1) = rowK (m ((c : Thread nD τ).loc main_arg1)) := by
    back_r1; back_h; back_h; back_h; exact A.row
  rw [msg_out m ρ c A h hh, ei]

/-- The node layer's first bias window at the node region's entry. -/
theorem node_bias1 (A : Args m c (W2 (F := Ideal) m ρ)) (j : Fin 8) :
    V7 (F := Ideal) m ρ c main_v17 (ix2 (0 : Fin 1) j) = m ((c : Thread nD τ).loc main_arg9) (ix1 j) := by
  show W7 (F := Ideal) m ρ c (Proc.devRef .tc main_v17) (ix2 (0 : Fin 1) j) = _
  refine (bias_n1 (W6 (F := Ideal) m ρ c) j).trans ?_
  have e : W6 (F := Ideal) m ρ c (Proc.devRef .tc main_arg9) = m ((c : Thread nD τ).loc main_arg9) := by
    back_r1; back_h; back_h; back_h; exact A.a9
  rw [e]

/-- The node layer's second bias window at the node region's entry. -/
theorem node_bias2 (A : Args m c (W2 (F := Ideal) m ρ)) (j : Fin 8) :
    V7 (F := Ideal) m ρ c main_v18 (ix2 (0 : Fin 1) j) = m ((c : Thread nD τ).loc main_arg11) (ix1 j) := by
  show W7 (F := Ideal) m ρ c (Proc.devRef .tc main_v18) (ix2 (0 : Fin 1) j) = _
  refine (bias_n2 (W6 (F := Ideal) m ρ c) j).trans ?_
  have e : W6 (F := Ideal) m ρ c (Proc.devRef .tc main_arg11) = m ((c : Thread nD τ).loc main_arg11) := by
    back_r1; back_h; back_h; back_h; exact A.a11
  rw [e]

/-- The node features at the node region's entry are the round's input. -/
theorem node_h (h : FVec Ideal S100000x11 .f32) (hh : W2 (F := Ideal) m ρ c (Proc.devRef .tc main_v5) = h) : V7 (F := Ideal) m ρ c main_v5 = h := by
  show W7 (F := Ideal) m ρ c (Proc.devRef .tc main_v5) = _
  back_h; back_r1; back_h; back_h; back_h; exact hh

/-- The raw node inputs at the node region's entry. -/
theorem node_x (A : Args m c (W2 (F := Ideal) m ρ)) : V7 (F := Ideal) m ρ c main_arg0 = m ((c : Thread nD τ).loc main_arg0) := by
  show W7 (F := Ideal) m ρ c (Proc.devRef .tc main_arg0) = _
  back_h; back_r1; back_h; back_h; back_h; exact A.a0

/-- The node layer's first weight at the node region's entry. -/
theorem node_w1 (A : Args m c (W2 (F := Ideal) m ρ)) : V7 (F := Ideal) m ρ c main_arg8 = m ((c : Thread nD τ).loc main_arg8) := by
  show W7 (F := Ideal) m ρ c (Proc.devRef .tc main_arg8) = _
  back_h; back_r1; back_h; back_h; back_h; exact A.a8

/-- The node layer's second weight at the node region's entry. -/
theorem node_w2 (A : Args m c (W2 (F := Ideal) m ρ)) : V7 (F := Ideal) m ρ c main_arg10 = m ((c : Thread nD τ).loc main_arg10) := by
  show W7 (F := Ideal) m ρ c (Proc.devRef .tc main_arg10) = _
  back_h; back_r1; back_h; back_h; back_h; exact A.a10

/-! ## The arguments and the index vectors: no segment of the round writes them -/

theorem keep_a0 : W8 (F := Ideal) m ρ c (Proc.devRef .tc main_arg0) = W2 (F := Ideal) m ρ c (Proc.devRef .tc main_arg0) := by
  back_round1; rfl
theorem keep_a2 : W8 (F := Ideal) m ρ c (Proc.devRef .tc main_arg2) = W2 (F := Ideal) m ρ c (Proc.devRef .tc main_arg2) := by
  back_round1; rfl
theorem keep_a3 : W8 (F := Ideal) m ρ c (Proc.devRef .tc main_arg3) = W2 (F := Ideal) m ρ c (Proc.devRef .tc main_arg3) := by
  back_round1; rfl
theorem keep_a4 : W8 (F := Ideal) m ρ c (Proc.devRef .tc main_arg4) = W2 (F := Ideal) m ρ c (Proc.devRef .tc main_arg4) := by
  back_round1; rfl
theorem keep_a5 : W8 (F := Ideal) m ρ c (Proc.devRef .tc main_arg5) = W2 (F := Ideal) m ρ c (Proc.devRef .tc main_arg5) := by
  back_round1; rfl
theorem keep_a6 : W8 (F := Ideal) m ρ c (Proc.devRef .tc main_arg6) = W2 (F := Ideal) m ρ c (Proc.devRef .tc main_arg6) := by
  back_round1; rfl
theorem keep_a7 : W8 (F := Ideal) m ρ c (Proc.devRef .tc main_arg7) = W2 (F := Ideal) m ρ c (Proc.devRef .tc main_arg7) := by
  back_round1; rfl
theorem keep_a8 : W8 (F := Ideal) m ρ c (Proc.devRef .tc main_arg8) = W2 (F := Ideal) m ρ c (Proc.devRef .tc main_arg8) := by
  back_round1; rfl
theorem keep_a9 : W8 (F := Ideal) m ρ c (Proc.devRef .tc main_arg9) = W2 (F := Ideal) m ρ c (Proc.devRef .tc main_arg9) := by
  back_round1; rfl
theorem keep_a10 : W8 (F := Ideal) m ρ c (Proc.devRef .tc main_arg10) = W2 (F := Ideal) m ρ c (Proc.devRef .tc main_arg10) := by
  back_round1; rfl
theorem keep_a11 : W8 (F := Ideal) m ρ c (Proc.devRef .tc main_arg11) = W2 (F := Ideal) m ρ c (Proc.devRef .tc main_arg11) := by
  back_round1; rfl
theorem keep_row : W8 (F := Ideal) m ρ c (Proc.devRef .tc main_v1) = W2 (F := Ideal) m ρ c (Proc.devRef .tc main_v1) := by
  back_round1; rfl
theorem keep_col : W8 (F := Ideal) m ρ c (Proc.devRef .tc main_v3) = W2 (F := Ideal) m ρ c (Proc.devRef .tc main_v3) := by
  back_round1; rfl

end Boundaries

end Cert.KernelIdeal.Val.ChainRound1

namespace Cert.KernelIdeal.Val

open Idealize.ShloMosaic Idealize.ShloMosaic.TcCoe Idealize.SL.Sem Cert.KernelIdeal Cert.KernelIdeal.Gen
open Idealize.ShloMosaic.ValueIdx

variable [Cert.KernelIdeal.Facts] [Cert.ReferenceIdeal.Facts]
variable (m : (ℓ : Loc nD τ sig) → Buf (Elt Ideal) ℓ) (ρ : Dev nD → PrngReg) (c : Dev nD)

/-- The arguments and index vectors are untouched by round 1's segments. -/
theorem round1_args (A : Args m c (W2 (F := Ideal) m ρ)) : Args m c (W8 (F := Ideal) m ρ) where
  a0 := (ChainRound1.keep_a0 m ρ c).trans A.a0
  a2 := (ChainRound1.keep_a2 m ρ c).trans A.a2
  a3 := (ChainRound1.keep_a3 m ρ c).trans A.a3
  a4 := (ChainRound1.keep_a4 m ρ c).trans A.a4
  a5 := (ChainRound1.keep_a5 m ρ c).trans A.a5
  a6 := (ChainRound1.keep_a6 m ρ c).trans A.a6
  a7 := (ChainRound1.keep_a7 m ρ c).trans A.a7
  a8 := (ChainRound1.keep_a8 m ρ c).trans A.a8
  a9 := (ChainRound1.keep_a9 m ρ c).trans A.a9
  a10 := (ChainRound1.keep_a10 m ρ c).trans A.a10
  a11 := (ChainRound1.keep_a11 m ρ c).trans A.a11
  row := (ChainRound1.keep_row m ρ c).trans A.row
  col := (ChainRound1.keep_col m ρ c).trans A.col

open Cert.KernelIdeal.Val.ChainRound1 in
/-- The node-feature buffer after round 1. -/
theorem round1_h (A : Args m c (W2 (F := Ideal) m ρ)) (h : FVec Ideal S100000x11 .f32)
    (hh : W2 (F := Ideal) m ρ c (Proc.devRef .tc main_v5) = h) :
    W8 (F := Ideal) m ρ c (Proc.devRef .tc main_v19) = roundK (F := Ideal) h (m ((c : Thread nD τ).loc main_arg0)) (rowK (m ((c : Thread nD τ).loc main_arg1))) (colK (m ((c : Thread nD τ).loc main_arg1))) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W8_arr (F := Ideal) m ρ c 8).trans ?_
  refine (reg2_val (V7 (F := Ideal) m ρ) c (m ((c : Thread nD τ).loc main_arg9)) (m ((c : Thread nD τ).loc main_arg11))
    (node_bias1 m ρ c A) (node_bias2 m ρ c A)).trans ?_
  rw [node_mi m ρ c A h hh, node_mo m ρ c A h hh, node_h m ρ c h hh, node_x m ρ c A, node_w1 m ρ c A, node_w2 m ρ c A]
  rfl

end Cert.KernelIdeal.Val

end
-- ==== Proof.RegEdge3.lean ====
/- Region 3 (an edge pass): the arrays its three output windows end holding are the edge gate and the two message
   arrays of the arrays the region finds at entry.
   The grid has 625 points; point t stages rows 5120·t … 5120·t + 5119 of the two gathered arrays (h_row, h_col) and the
   whole weights and biases, and writes back the same rows of the three results. Row p of what the body stores is the gate
   of rows p of the two blocks — the rows of edge 5120·t + p — and that gate times the row's entries; the reference's
   layers read at that edge are the same expressions of the same rows; every edge e is in the block of point e / 5120. -/
import proofs.«409147_j26182120636657_1_alg».proof.Proof.Gen.KernelIdeal.Frame
import proofs.«409147_j26182120636657_1_alg».proof.Proof.Layers
import proofs.«409147_j26182120636657_1_alg».proof.Proof.EdgeRows
import Idealize.ShloMosaic.Lib.ValueIdx
import Idealize.ShloMosaic.Lib.Pipeline.Value
import Idealize.ShloMosaic.PureOps.Ideal.Laws

set_option maxRecDepth 16384

noncomputable section

namespace Cert.KernelIdeal.Val.RegEdge3

open Idealize.ShloMosaic Idealize.ShloMosaic.TcCoe Idealize.SL.Sem Cert.KernelIdeal Cert.KernelIdeal.Gen
open Idealize.ShloMosaic.ValueIdx Cert.Bridge.Edge

variable [Cert.KernelIdeal.Facts] [Cert.ReferenceIdeal.Facts]
variable (V : (c : Dev nD) → (b : Ref sig .tc) → Buf (Elt Ideal) ((c : Thread nD τ).loc b))

/-! ## The body's payloads at an index -/

section Payloads

/-- A block passed through a shape cast to its own shape is the block. -/
theorem pay1_eq (v0 : Vec Ideal S5120x11 .f32) : k3_pay1 (F := Ideal) v0 = v0 := by
  unfold k3_pay1; exact shapeCast_self _ _
theorem pay2_eq (v2 : Vec Ideal S5120x11 .f32) : k3_pay2 (F := Ideal) v2 = v2 := by
  unfold k3_pay2; exact shapeCast_self _ _

/-- The gate the body stores for row `p` of its blocks is the gate of the two blocks' rows `p` (the h_col block first). -/
theorem pay3_apply (v0 v2 : Vec Ideal S5120x11 .f32) (v5 : Vec Ideal S22x8 .f32) (v6 : Vec Ideal S1x8 .f32)
    (v8 : Vec Ideal S8x1 .f32) (v9 : Vec Ideal S1x1 .f32) (p : Fin 5120) :
    k3_pay3 (F := Ideal) v0 v2 v5 v6 v8 v9 (ix2 p (0 : Fin 1))
      = gateRow (fun q => v2 (ix2 p q)) (fun q => v0 (ix2 p q)) v5 (fun j => v6 (ix2 (0 : Fin 1) j)) v8
          (v9 (ix2 (0 : Fin 1) (0 : Fin 1))) := by
  unfold k3_pay3
  simp only [shapeCast_self]
  refine (kernel_gate_apply (k3_pay2 (F := Ideal) v2) (k3_pay1 (F := Ideal) v0) v5 v6 v8 v9 _ _ _ _ p).trans ?_
  rw [pay1_eq, pay2_eq]

/-- The two message payloads: the gate of row `p` times the row's entry. -/
theorem pay4_apply (v0 v2 : Vec Ideal S5120x11 .f32) (v5 : Vec Ideal S22x8 .f32) (v6 : Vec Ideal S1x8 .f32)
    (v8 : Vec Ideal S8x1 .f32) (v9 : Vec Ideal S1x1 .f32) (p : Fin 5120) (q : Fin 11) :
    k3_pay4 (F := Ideal) v0 v2 v5 v6 v8 v9 (ix2 p q)
      = k3_pay3 (F := Ideal) v0 v2 v5 v6 v8 v9 (ix2 p (0 : Fin 1)) * v0 (ix2 p q) := by
  unfold k3_pay4
  rw [pay1_eq]
  exact congrArg (· * v0 (ix2 p q)) (broadcastTo_a1_ab_apply _ _ p q)
theorem pay5_apply (v0 v2 : Vec Ideal S5120x11 .f32) (v5 : Vec Ideal S22x8 .f32) (v6 : Vec Ideal S1x8 .f32)
    (v8 : Vec Ideal S8x1 .f32) (v9 : Vec Ideal S1x1 .f32) (p : Fin 5120) (q : Fin 11) :
    k3_pay5 (F := Ideal) v0 v2 v5 v6 v8 v9 (ix2 p q)
      = k3_pay3 (F := Ideal) v0 v2 v5 v6 v8 v9 (ix2 p (0 : Fin 1)) * v2 (ix2 p q) := by
  unfold k3_pay5
  rw [pay2_eq]
  exact congrArg (· * v2 (ix2 p q)) (broadcastTo_a1_ab_apply _ _ p q)

end Payloads

/-! ## From blocks to the arrays -/

theorem zero_offsets : (![0, 0] : Fin 2 → Nat) = fun _ => 0 := funext fun a => by fin_cases a <;> rfl

/-- The block indices over the grid: at point `t` the two gathered arrays and the three results are at block `(t, 0)`,
    the weights and biases at block `(0, 0)`. -/
theorem idx_facts : ∀ t : Fin grid3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0
    ∧ win3_7.index t (0 : Fin 2) = t.val ∧ win3_7.index t (1 : Fin 2) = 0
    ∧ win3_8.index t (0 : Fin 2) = t.val ∧ win3_8.index t (1 : Fin 2) = 0 :=
  (by decide +kernel : ∀ t : Fin grid3.N, _)

/-- The edge that row `p` of the blocks at point `t` belongs to. -/
def edgeOf (t : Fin cfg3.N) (p : Fin 5120) : Fin 3200000 :=
  ⟨5120 * t.val + p.val, by have := t.isLt; have hN : cfg3.N = 625 := N_3; have := p.isLt; omega⟩

theorem edgeOf_val (t : Fin cfg3.N) (p : Fin 5120) : (edgeOf t p).val = 5120 * t.val + p.val := rfl

/-- Row `p` of the h_row block at point `t` is row `edgeOf t p` of the array. -/
theorem hrow_blk (c : Dev nD) (t : Fin cfg3.N) (p : Fin 5120) (q : Fin 11) :
    iblk3 V c 0 t (ix2 p q) = V c main_v20 (ix2 (edgeOf t p) q) := by
  obtain ⟨e0, e1, -⟩ := idx_facts t
  show V c main_v20 (((cfg3.win 0).blk t).view.emb (ix2 p q)) = V c main_v20 (ix2 (edgeOf t p) q)
  refine congrArg (V c main_v20) (funext fun a => Fin.ext ?_)
  match a with
  | ⟨0, _⟩ => show win3_0.index t (0 : Fin 2) * 5120 + 1 * p.val = 5120 * t.val + p.val; omega
  | ⟨1, _⟩ => show win3_0.index t (1 : Fin 2) * 11 + 1 * q.val = q.val; omega

/-- Row `p` of the h_col block at point `t` is row `edgeOf t p` of the array. -/
theorem hcol_blk (c : Dev nD) (t : Fin cfg3.N) (p : Fin 5120) (q : Fin 11) :
    iblk3 V c 1 t (ix2 p q) = V c main_v21 (ix2 (edgeOf t p) q) := by
  obtain ⟨-, -, e0, e1, -⟩ := idx_facts t
  show V c main_v21 (((cfg3.win 1).blk t).view.emb (ix2 p q)) = V c main_v21 (ix2 (edgeOf t p) q)
  refine congrArg (V c main_v21) (funext fun a => Fin.ext ?_)
  match a with
  | ⟨0, _⟩ => show win3_1.index t (0 : Fin 2) * 5120 + 1 * p.val = 5120 * t.val + p.val; omega
  | ⟨1, _⟩ => show win3_1.index t (1 : Fin 2) * 11 + 1 * q.val = q.val; omega

/-- The blocks of the two weight matrices and of the two biases are the arrays themselves, at every point. -/
theorem w1_blk (c : Dev nD) (t : Fin cfg3.N) :
    @Eq ((⟨2, ![22, 8]⟩ : Shape).Idx → EReal) (iblk3 V c 2 t) (V c main_arg4) := by
  obtain ⟨-, -, -, -, e0, e1, -⟩ := idx_facts t
  refine funext fun (y : S22x8.Idx) => ?_
  show V c main_arg4 (((cfg3.win 2).blk t).view.emb y) = V c main_arg4 y
  refine congrArg (V c main_arg4) (funext fun a => Fin.ext ?_)
  match a with
  | ⟨0, _⟩ => show win3_2.index t (0 : Fin 2) * 22 + 1 * (y 0).val = (y 0).val; omega
  | ⟨1, _⟩ => show win3_2.index t (1 : Fin 2) * 8 + 1 * (y 1).val = (y 1).val; omega
theorem b1_blk (c : Dev nD) (t : Fin cfg3.N) (j : Fin 8) :
    iblk3 V c 3 t (ix2 (0 : Fin 1) j) = V c main_v22 (ix2 (0 : Fin 1) j) := by
  obtain ⟨-, -, -, -, -, -, e0, e1, -⟩ := idx_facts t
  show V c main_v22 (((cfg3.win 3).blk t).view.emb (ix2 (0 : Fin 1) j)) = V c main_v22 (ix2 (0 : Fin 1) j)
  refine congrArg (V c main_v22) (funext fun a => Fin.ext ?_)
  match a with
  | ⟨0, _⟩ => show win3_3.index t (0 : Fin 2) * 1 + 1 * 0 = 0; omega
  | ⟨1, _⟩ => show win3_3.index t (1 : Fin 2) * 8 + 1 * j.val = j.val; omega
theorem w2_blk (c : Dev nD) (t : Fin cfg3.N) :
    @Eq ((⟨2, ![8, 1]⟩ : Shape).Idx → EReal) (iblk3 V c 4 t) (V c main_arg6) := by
  obtain ⟨-, -, -, -, -, -, -, -, e0, e1, -⟩ := idx_facts t
  refine funext fun (y : S8x1.Idx) => ?_
  show V c main_arg6 (((cfg3.win 4).blk t).view.emb y) = V c main_arg6 y
  refine congrArg (V c main_arg6) (funext fun a => Fin.ext ?_)
  match a with
  | ⟨0, _⟩ => show win3_4.index t (0 : Fin 2) * 8 + 1 * (y 0).val = (y 0).val; omega
  | ⟨1, _⟩ => show win3_4.index t (1 : Fin 2) * 1 + 1 * (y 1).val = (y 1).val; omega
theorem b2_blk (c : Dev nD) (t : Fin cfg3.N) :
    iblk3 V c 5 t (ix2 (0 : Fin 1) (0 : Fin 1)) = V c main_v23 (ix2 (0 : Fin 1) (0 : Fin 1)) := by
  obtain ⟨-, -, -, -, -, -, -, -, -, -, e0, e1, -⟩ := idx_facts t
  show V c main_v23 (((cfg3.win 5).blk t).view.emb (ix2 (0 : Fin 1) (0 : Fin 1))) = V c main_v23 (ix2 (0 : Fin 1) (0 : Fin 1))
  refine congrArg (V c main_v23) (funext fun a => Fin.ext ?_)
  match a with
  | ⟨0, _⟩ => show win3_5.index t (0 : Fin 2) * 1 + 1 * 0 = 0; omega
  | ⟨1, _⟩ => show win3_5.index t (1 : Fin 2) * 1 + 1 * 0 = 0; omega

/-- THE GATE OF A BLOCK ROW: what the body computes for row `p` at point `t` is the reference's gate of edge `edgeOf t p`. -/
theorem gate_blk (c : Dev nD) (b1 : FVec Ideal Cert.ReferenceIdeal.S8 .f32) (b2 : FVec Ideal Cert.ReferenceIdeal.S1 .f32)
    (hb1 : ∀ j : Fin 8, V c main_v22 (ix2 (0 : Fin 1) j) = b1 (ix1 j))
    (hb2 : V c main_v23 (ix2 (0 : Fin 1) (0 : Fin 1)) = b2 (ix1 (0 : Fin 1))) (t : Fin cfg3.N) (p : Fin 5120) :
    k3_pay3 (F := Ideal) (iblk3 V c 0 t) (iblk3 V c 1 t) (iblk3 V c 2 t) (iblk3 V c 3 t) (iblk3 V c 4 t) (iblk3 V c 5 t) (ix2 p (0 : Fin 1))
      = Cert.Bridge.edgeL (F := Ideal) (V c main_v21) (V c main_v20) (V c main_arg4) b1 (V c main_arg6) b2 (ix2 (edgeOf t p) (0 : Fin 1)) := by
  refine (pay3_apply (iblk3 V c 0 t) (iblk3 V c 1 t) (iblk3 V c 2 t) (iblk3 V c 3 t) (iblk3 V c 4 t) (iblk3 V c 5 t) p).trans ?_
  refine Eq.trans ?_ (edgeL_apply (V c main_v21) (V c main_v20) (V c main_arg4) b1 (V c main_arg6) b2 (edgeOf t p)).symm
  exact gateRow_congr (funext fun q => hcol_blk V c t p q) (funext fun q => hrow_blk V c t p q) (w1_blk V c t)
    (funext fun j => (b1_blk V c t j).trans (hb1 j)) (w2_blk V c t) ((b2_blk V c t).trans hb2)

/-- Row `p` of an output block at point `t` sits at row `edgeOf t p` of its array: the gate's column, -/
theorem gate_emb (t : Fin cfg3.N) (p : Fin 5120) (q : Fin 1) :
    ((cfg3.win 6).blk t).view.emb (ix2 p q) = ix2 (edgeOf t p) q := by
  obtain ⟨-, -, -, -, -, -, -, -, -, -, -, -, e0, e1, -⟩ := idx_facts t
  refine funext fun a => Fin.ext ?_
  match a with
  | ⟨0, _⟩ => show win3_6.index t (0 : Fin 2) * 5120 + 1 * p.val = 5120 * t.val + p.val; omega
  | ⟨1, _⟩ => show win3_6.index t (1 : Fin 2) * 1 + 1 * q.val = q.val; omega
/-- and the two message arrays' rows. -/
theorem mi_emb (t : Fin cfg3.N) (p : Fin 5120) (q : Fin 11) :
    ((cfg3.win 7).blk t).view.emb (ix2 p q) = ix2 (edgeOf t p) q := by
  obtain ⟨-, -, -, -, -, -, -, -, -, -, -, -, -, -, e0, e1, -⟩ := idx_facts t
  refine funext fun a => Fin.ext ?_
  match a with
  | ⟨0, _⟩ => show win3_7.index t (0 : Fin 2) * 5120 + 1 * p.val = 5120 * t.val + p.val; omega
  | ⟨1, _⟩ => show win3_7.index t (1 : Fin 2) * 11 + 1 * q.val = q.val; omega
theorem mo_emb (t : Fin cfg3.N) (p : Fin 5120) (q : Fin 11) :
    ((cfg3.win 8).blk t).view.emb (ix2 p q) = ix2 (edgeOf t p) q := by
  obtain ⟨-, -, -, -, -, -, -, -, -, -, -, -, -, -, -, -, e0, e1⟩ := idx_facts t
  refine funext fun a => Fin.ext ?_
  match a with
  | ⟨0, _⟩ => show win3_8.index t (0 : Fin 2) * 5120 + 1 * p.val = 5120 * t.val + p.val; omega
  | ⟨1, _⟩ => show win3_8.index t (1 : Fin 2) * 11 + 1 * q.val = q.val; omega

/-- WHAT POINT `t` WRITES BACK to the gate array is block `t` of the reference's gate. -/
theorem flushed_e (c : Dev nD) (b1 : FVec Ideal Cert.ReferenceIdeal.S8 .f32) (b2 : FVec Ideal Cert.ReferenceIdeal.S1 .f32)
    (hb1 : ∀ j : Fin 8, V c main_v22 (ix2 (0 : Fin 1) j) = b1 (ix1 j))
    (hb2 : V c main_v23 (ix2 (0 : Fin 1) (0 : Fin 1)) = b2 (ix1 (0 : Fin 1))) (t : Fin cfg3.N) :
    (dat3 (F := Ideal) V c).flushed 6 t
      = ((cfg3.win 6).blk t).view.read (Elt Ideal)
          (Cert.Bridge.edgeL (F := Ideal) (V c main_v21) (V c main_v20) (V c main_arg4) b1 (V c main_arg6) b2) := by
  show (cfg3.win 6).cut (grid3.coords t) ((dat3 (F := Ideal) V c).after 6 t) = _
  rw [after3_6]
  unfold out3_6
  rw [View.canon_unit_zero zero_offsets]
  simp only [View.ld_unit_zero (S := S5120x11) zero_offsets, View.ld_unit_zero (S := S22x8) zero_offsets,
    View.ld_unit_zero (S := S1x8) zero_offsets, View.ld_unit_zero (S := S8x1) zero_offsets,
    View.ld_unit_zero (S := S1x1) zero_offsets]
  refine funext fun (y : S5120x1.Idx) => ?_
  obtain ⟨p, q, rfl⟩ : ∃ (p : Fin 5120) (q : Fin 1), y = ix2 p q := ⟨y 0, y 1, eq_ix2 y⟩
  obtain rfl : q = 0 := Subsingleton.elim _ _
  show k3_pay3 (F := Ideal) (iblk3 V c 0 t) (iblk3 V c 1 t) (iblk3 V c 2 t) (iblk3 V c 3 t) (iblk3 V c 4 t) (iblk3 V c 5 t) (ix2 p (0 : Fin 1))
    = Cert.Bridge.edgeL (F := Ideal) (V c main_v21) (V c main_v20) (V c main_arg4) b1 (V c main_arg6) b2
        (((cfg3.win 6).blk t).view.emb (ix2 p (0 : Fin 1)))
  rw [gate_emb]
  exact gate_blk V c b1 b2 hb1 hb2 t p

/-- An index of the gate array is in point `t`'s block iff each coordinate is in the block's range on its axis. -/
theorem mem_blk_e (t : Fin cfg3.N) (i : S3200000x1.Idx) :
    i ∈ ((cfg3.win 6).blk t).view.set ↔ ∀ a : Fin 2, win3_6.index t a * S5120x1.size a ≤ (i a).val ∧ (i a).val < win3_6.index t a * S5120x1.size a + S5120x1.size a := by
  show i ∈ ((View.whole main_v24_0).slice (win3_6.rect t)).set ↔ _
  rw [View.set_slice_whole, Rect.mem_set_unit]
  exact Iff.rfl

/-- Every edge's gate is written back by the point that holds the edge's row: point `e / 5120`. -/
theorem cover_e (i : S3200000x1.Idx) :
    ∃ t : Fin cfg3.N, (cfg3.win 6).flush t = true ∧ i ∈ ((cfg3.win 6).blk t).view.set := by
  have hi0 : (i 0).val < 3200000 := (i 0).isLt
  have hi1 : (i 1).val < 1 := (i 1).isLt
  have hN : cfg3.N = 625 := N_3
  have ht : (i 0).val / 5120 < cfg3.N := by omega
  obtain ⟨-, -, -, -, -, -, -, -, -, -, -, -, e0, e1, -⟩ := idx_facts ⟨(i 0).val / 5120, ht⟩
  refine ⟨⟨(i 0).val / 5120, ht⟩, flush3_6 _, ?_⟩
  rw [mem_blk_e]
  intro a
  match a with
  | ⟨0, _⟩ =>
    show win3_6.index ⟨(i 0).val / 5120, ht⟩ (0 : Fin 2) * 5120 ≤ (i 0).val ∧ (i 0).val < win3_6.index ⟨(i 0).val / 5120, ht⟩ (0 : Fin 2) * 5120 + 5120
    rw [e0]; show (i 0).val / 5120 * 5120 ≤ (i 0).val ∧ (i 0).val < (i 0).val / 5120 * 5120 + 5120; omega
  | ⟨1, _⟩ =>
    show win3_6.index ⟨(i 0).val / 5120, ht⟩ (1 : Fin 2) * 1 ≤ (i 1).val ∧ (i 1).val < win3_6.index ⟨(i 0).val / 5120, ht⟩ (1 : Fin 2) * 1 + 1
    rw [e1]; omega

/-- WHAT POINT `t` WRITES BACK to the first message array is block `t` of the gate times the h_row rows. -/
theorem flushed_mi (c : Dev nD) (b1 : FVec Ideal Cert.ReferenceIdeal.S8 .f32) (b2 : FVec Ideal Cert.ReferenceIdeal.S1 .f32)
    (hb1 : ∀ j : Fin 8, V c main_v22 (ix2 (0 : Fin 1) j) = b1 (ix1 j))
    (hb2 : V c main_v23 (ix2 (0 : Fin 1) (0 : Fin 1)) = b2 (ix1 (0 : Fin 1))) (t : Fin cfg3.N) :
    (dat3 (F := Ideal) V c).flushed 7 t
      = ((cfg3.win 7).blk t).view.read (Elt Ideal)
          (Cert.Bridge.msgL (F := Ideal) (Cert.Bridge.edgeL (F := Ideal) (V c main_v21) (V c main_v20) (V c main_arg4) b1 (V c main_arg6) b2) (V c main_v20)) := by
  show (cfg3.win 7).cut (grid3.coords t) ((dat3 (F := Ideal) V c).after 7 t) = _
  rw [after3_7]
  unfold out3_7
  rw [View.canon_unit_zero zero_offsets]
  simp only [View.ld_unit_zero (S := S5120x11) zero_offsets, View.ld_unit_zero (S := S22x8) zero_offsets,
    View.ld_unit_zero (S := S1x8) zero_offsets, View.ld_unit_zero (S := S8x1) zero_offsets,
    View.ld_unit_zero (S := S1x1) zero_offsets]
  refine funext fun (y : S5120x11.Idx) => ?_
  obtain ⟨p, q, rfl⟩ : ∃ (p : Fin 5120) (q : Fin 11), y = ix2 p q := ⟨y 0, y 1, eq_ix2 y⟩
  show k3_pay4 (F := Ideal) (iblk3 V c 0 t) (iblk3 V c 1 t) (iblk3 V c 2 t) (iblk3 V c 3 t) (iblk3 V c 4 t) (iblk3 V c 5 t) (ix2 p q)
    = Cert.Bridge.msgL (F := Ideal) (Cert.Bridge.edgeL (F := Ideal) (V c main_v21) (V c main_v20) (V c main_arg4) b1 (V c main_arg6) b2) (V c main_v20) (((cfg3.win 7).blk t).view.emb (ix2 p q))
  rw [mi_emb]
  refine (pay4_apply (iblk3 V c 0 t) (iblk3 V c 1 t) (iblk3 V c 2 t) (iblk3 V c 3 t) (iblk3 V c 4 t) (iblk3 V c 5 t) p q).trans ?_
  refine Eq.trans ?_ (msgL_apply (Cert.Bridge.edgeL (F := Ideal) (V c main_v21) (V c main_v20) (V c main_arg4) b1 (V c main_arg6) b2) (V c main_v20) (edgeOf t p) q).symm
  exact congrArg₂ (· * ·) (gate_blk V c b1 b2 hb1 hb2 t p) (hrow_blk V c t p q)

/-- An index of the first message array is in point `t`'s block iff each coordinate is in the block's range on its axis. -/
theorem mem_blk_mi (t : Fin cfg3.N) (i : S3200000x11.Idx) :
    i ∈ ((cfg3.win 7).blk t).view.set ↔ ∀ a : Fin 2, win3_7.index t a * S5120x11.size a ≤ (i a).val ∧ (i a).val < win3_7.index t a * S5120x11.size a + S5120x11.size a := by
  show i ∈ ((View.whole main_v24_1).slice (win3_7.rect t)).set ↔ _
  rw [View.set_slice_whole, Rect.mem_set_unit]
  exact Iff.rfl

/-- Every row of the first message array is written back by point `e / 5120`. -/
theorem cover_mi (i : S3200000x11.Idx) :
    ∃ t : Fin cfg3.N, (cfg3.win 7).flush t = true ∧ i ∈ ((cfg3.win 7).blk t).view.set := by
  have hi0 : (i 0).val < 3200000 := (i 0).isLt
  have hi1 : (i 1).val < 11 := (i 1).isLt
  have hN : cfg3.N = 625 := N_3
  have ht : (i 0).val / 5120 < cfg3.N := by omega
  obtain ⟨-, -, -, -, -, -, -, -, -, -, -, -, -, -, e0, e1, -⟩ := idx_facts ⟨(i 0).val / 5120, ht⟩
  refine ⟨⟨(i 0).val / 5120, ht⟩, flush3_7 _, ?_⟩
  rw [mem_blk_mi]
  intro a
  match a with
  | ⟨0, _⟩ =>
    show win3_7.index ⟨(i 0).val / 5120, ht⟩ (0 : Fin 2) * 5120 ≤ (i 0).val ∧ (i 0).val < win3_7.index ⟨(i 0).val / 5120, ht⟩ (0 : Fin 2) * 5120 + 5120
    rw [e0]; show (i 0).val / 5120 * 5120 ≤ (i 0).val ∧ (i 0).val < (i 0).val / 5120 * 5120 + 5120; omega
  | ⟨1, _⟩ =>
    show win3_7.index ⟨(i 0).val / 5120, ht⟩ (1 : Fin 2) * 11 ≤ (i 1).val ∧ (i 1).val < win3_7.index ⟨(i 0).val / 5120, ht⟩ (1 : Fin 2) * 11 + 11
    rw [e1]; omega

/-- WHAT POINT `t` WRITES BACK to the second message array is block `t` of the gate times the h_col rows. -/
theorem flushed_mo (c : Dev nD) (b1 : FVec Ideal Cert.ReferenceIdeal.S8 .f32) (b2 : FVec Ideal Cert.ReferenceIdeal.S1 .f32)
    (hb1 : ∀ j : Fin 8, V c main_v22 (ix2 (0 : Fin 1) j) = b1 (ix1 j))
    (hb2 : V c main_v23 (ix2 (0 : Fin 1) (0 : Fin 1)) = b2 (ix1 (0 : Fin 1))) (t : Fin cfg3.N) :
    (dat3 (F := Ideal) V c).flushed 8 t
      = ((cfg3.win 8).blk t).view.read (Elt Ideal)
          (Cert.Bridge.msgL (F := Ideal) (Cert.Bridge.edgeL (F := Ideal) (V c main_v21) (V c main_v20) (V c main_arg4) b1 (V c main_arg6) b2) (V c main_v21)) := by
  show (cfg3.win 8).cut (grid3.coords t) ((dat3 (F := Ideal) V c).after 8 t) = _
  rw [after3_8]
  unfold out3_8
  rw [View.canon_unit_zero zero_offsets]
  simp only [View.ld_unit_zero (S := S5120x11) zero_offsets, View.ld_unit_zero (S := S22x8) zero_offsets,
    View.ld_unit_zero (S := S1x8) zero_offsets, View.ld_unit_zero (S := S8x1) zero_offsets,
    View.ld_unit_zero (S := S1x1) zero_offsets]
  refine funext fun (y : S5120x11.Idx) => ?_
  obtain ⟨p, q, rfl⟩ : ∃ (p : Fin 5120) (q : Fin 11), y = ix2 p q := ⟨y 0, y 1, eq_ix2 y⟩
  show k3_pay5 (F := Ideal) (iblk3 V c 0 t) (iblk3 V c 1 t) (iblk3 V c 2 t) (iblk3 V c 3 t) (iblk3 V c 4 t) (iblk3 V c 5 t) (ix2 p q)
    = Cert.Bridge.msgL (F := Ideal) (Cert.Bridge.edgeL (F := Ideal) (V c main_v21) (V c main_v20) (V c main_arg4) b1 (V c main_arg6) b2) (V c main_v21) (((cfg3.win 8).blk t).view.emb (ix2 p q))
  rw [mo_emb]
  refine (pay5_apply (iblk3 V c 0 t) (iblk3 V c 1 t) (iblk3 V c 2 t) (iblk3 V c 3 t) (iblk3 V c 4 t) (iblk3 V c 5 t) p q).trans ?_
  refine Eq.trans ?_ (msgL_apply (Cert.Bridge.edgeL (F := Ideal) (V c main_v21) (V c main_v20) (V c main_arg4) b1 (V c main_arg6) b2) (V c main_v21) (edgeOf t p) q).symm
  exact congrArg₂ (· * ·) (gate_blk V c b1 b2 hb1 hb2 t p) (hcol_blk V c t p q)

/-- An index of the second message array is in point `t`'s block iff each coordinate is in the block's range on its axis. -/
theorem mem_blk_mo (t : Fin cfg3.N) (i : S3200000x11.Idx) :
    i ∈ ((cfg3.win 8).blk t).view.set ↔ ∀ a : Fin 2, win3_8.index t a * S5120x11.size a ≤ (i a).val ∧ (i a).val < win3_8.index t a * S5120x11.size a + S5120x11.size a := by
  show i ∈ ((View.whole main_v24_2).slice (win3_8.rect t)).set ↔ _
  rw [View.set_slice_whole, Rect.mem_set_unit]
  exact Iff.rfl

/-- Every row of the second message array is written back by point `e / 5120`. -/
theorem cover_mo (i : S3200000x11.Idx) :
    ∃ t : Fin cfg3.N, (cfg3.win 8).flush t = true ∧ i ∈ ((cfg3.win 8).blk t).view.set := by
  have hi0 : (i 0).val < 3200000 := (i 0).isLt
  have hi1 : (i 1).val < 11 := (i 1).isLt
  have hN : cfg3.N = 625 := N_3
  have ht : (i 0).val / 5120 < cfg3.N := by omega
  obtain ⟨-, -, -, -, -, -, -, -, -, -, -, -, -, -, -, -, e0, e1⟩ := idx_facts ⟨(i 0).val / 5120, ht⟩
  refine ⟨⟨(i 0).val / 5120, ht⟩, flush3_8 _, ?_⟩
  rw [mem_blk_mo]
  intro a
  match a with
  | ⟨0, _⟩ =>
    show win3_8.index ⟨(i 0).val / 5120, ht⟩ (0 : Fin 2) * 5120 ≤ (i 0).val ∧ (i 0).val < win3_8.index ⟨(i 0).val / 5120, ht⟩ (0 : Fin 2) * 5120 + 5120
    rw [e0]; show (i 0).val / 5120 * 5120 ≤ (i 0).val ∧ (i 0).val < (i 0).val / 5120 * 5120 + 5120; omega
  | ⟨1, _⟩ =>
    show win3_8.index ⟨(i 0).val / 5120, ht⟩ (1 : Fin 2) * 11 ≤ (i 1).val ∧ (i 1).val < win3_8.index ⟨(i 0).val / 5120, ht⟩ (1 : Fin 2) * 11 + 11
    rw [e1]; omega

end Cert.KernelIdeal.Val.RegEdge3

namespace Cert.KernelIdeal.Val

open Idealize.ShloMosaic Idealize.ShloMosaic.TcCoe Idealize.SL.Sem Cert.KernelIdeal Cert.KernelIdeal.Gen
open Idealize.ShloMosaic.ValueIdx

variable [Cert.KernelIdeal.Facts] [Cert.ReferenceIdeal.Facts]
variable (V : (c : Dev nD) → (b : Ref sig .tc) → Buf (Elt Ideal) ((c : Thread nD τ).loc b))

/-- Output window 6 of pipeline 3 (the gate, one value per edge) after the 625 grid points. -/
theorem reg3_e (c : Dev nD) (b1 : FVec Ideal Cert.ReferenceIdeal.S8 .f32) (b2 : FVec Ideal Cert.ReferenceIdeal.S1 .f32)
    (hb1 : ∀ j : Fin 8, V c main_v22 (ix2 (0 : Fin 1) j) = b1 (ix1 j))
    (hb2 : V c main_v23 (ix2 (0 : Fin 1) (0 : Fin 1)) = b2 (ix1 (0 : Fin 1))) :
    (dat3 (F := Ideal) V c).arrAt 6 cfg3.N
      = Cert.Bridge.edgeL (F := Ideal) (V c main_v21) (V c main_v20) (V c main_arg4) b1 (V c main_arg6) b2 := by
  exact (dat3 (F := Ideal) V c).arrAt_eq_of_cover 6 (Cert.Bridge.edgeL (F := Ideal) (V c main_v21) (V c main_v20) (V c main_arg4) b1 (V c main_arg6) b2)
    (fun t _ => RegEdge3.flushed_e V c b1 b2 hb1 hb2 t) RegEdge3.cover_e

/-- Output window 7 (gate times the h_row rows). -/
theorem reg3_mi (c : Dev nD) (b1 : FVec Ideal Cert.ReferenceIdeal.S8 .f32) (b2 : FVec Ideal Cert.ReferenceIdeal.S1 .f32)
    (hb1 : ∀ j : Fin 8, V c main_v22 (ix2 (0 : Fin 1) j) = b1 (ix1 j))
    (hb2 : V c main_v23 (ix2 (0 : Fin 1) (0 : Fin 1)) = b2 (ix1 (0 : Fin 1))) :
    (dat3 (F := Ideal) V c).arrAt 7 cfg3.N
      = Cert.Bridge.msgL (F := Ideal) (Cert.Bridge.edgeL (F := Ideal) (V c main_v21) (V c main_v20) (V c main_arg4) b1 (V c main_arg6) b2) (V c main_v20) := by
  exact (dat3 (F := Ideal) V c).arrAt_eq_of_cover 7 (Cert.Bridge.msgL (F := Ideal) (Cert.Bridge.edgeL (F := Ideal) (V c main_v21) (V c main_v20) (V c main_arg4) b1 (V c main_arg6) b2) (V c main_v20))
    (fun t _ => RegEdge3.flushed_mi V c b1 b2 hb1 hb2 t) RegEdge3.cover_mi

/-- Output window 8 (gate times the h_col rows). -/
theorem reg3_mo (c : Dev nD) (b1 : FVec Ideal Cert.ReferenceIdeal.S8 .f32) (b2 : FVec Ideal Cert.ReferenceIdeal.S1 .f32)
    (hb1 : ∀ j : Fin 8, V c main_v22 (ix2 (0 : Fin 1) j) = b1 (ix1 j))
    (hb2 : V c main_v23 (ix2 (0 : Fin 1) (0 : Fin 1)) = b2 (ix1 (0 : Fin 1))) :
    (dat3 (F := Ideal) V c).arrAt 8 cfg3.N
      = Cert.Bridge.msgL (F := Ideal) (Cert.Bridge.edgeL (F := Ideal) (V c main_v21) (V c main_v20) (V c main_arg4) b1 (V c main_arg6) b2) (V c main_v21) := by
  exact (dat3 (F := Ideal) V c).arrAt_eq_of_cover 8 (Cert.Bridge.msgL (F := Ideal) (Cert.Bridge.edgeL (F := Ideal) (V c main_v21) (V c main_v20) (V c main_arg4) b1 (V c main_arg6) b2) (V c main_v21))
    (fun t _ => RegEdge3.flushed_mo V c b1 b2 hb1 hb2 t) RegEdge3.cover_mo

end Cert.KernelIdeal.Val

end
-- ==== Proof.RegNode4.lean ====
/-
  Region 4 (a node update): the array its output window ends holding is the node layer of the entry arrays.

  The grid has 20 points; point `t` reads rows `5000 t … 5000 t + 4999` of mi, mo, h and x, the two weight matrices and
  the two one-row biases whole, and writes the same rows of the output. Row by row the body and the layer are one
  function of the row's entries (the updated row of Proof/NodeRows.lean): the body's payload at row `p` of the blocks,
  the layer at row `5000 t + p` of the arrays. So what point `t` writes back is block `t` of the layer of the entry
  arrays, and the 20 blocks cover the array.
-/
import proofs.«409147_j26182120636657_1_alg».proof.Proof.Gen.KernelIdeal.Frame
import proofs.«409147_j26182120636657_1_alg».proof.Proof.Layers
import proofs.«409147_j26182120636657_1_alg».proof.Proof.NodeRows
import Idealize.ShloMosaic.Lib.ValueIdx
import Idealize.ShloMosaic.Lib.Pipeline.Value
import Idealize.ShloMosaic.PureOps.Ideal.Laws

set_option maxRecDepth 16384

noncomputable section

namespace Cert.KernelIdeal.Val.RegNode4

open Idealize.ShloMosaic Idealize.ShloMosaic.TcCoe Idealize.SL.Sem Cert.KernelIdeal Cert.KernelIdeal.Gen
open Idealize.ShloMosaic.ValueIdx
open Cert.Bridge

/-- Every window's block starts at zero offsets in its staging buffer. -/
theorem cfg4_zero_off : (![0, 0] : Fin 2 → Nat) = fun _ => 0 := funext fun a => by fin_cases a <;> rfl

/-! The index maps, decided over the 20 points: the row-tiled windows (mi, mo, h, x and the output) are at block `t` of
    the rows and block 0 of the columns; the weights and the biases are whole, at block 0 of both axes. -/

theorem win4_0_index : ∀ t : Fin grid4.N, win4_0.index t (0 : Fin 2) = t.val ∧ win4_0.index t (1 : Fin 2) = 0 :=
  (by decide +kernel : ∀ t : Fin grid4.N, _)
theorem win4_1_index : ∀ t : Fin grid4.N, win4_1.index t (0 : Fin 2) = t.val ∧ win4_1.index t (1 : Fin 2) = 0 :=
  (by decide +kernel : ∀ t : Fin grid4.N, _)
theorem win4_2_index : ∀ t : Fin grid4.N, win4_2.index t (0 : Fin 2) = t.val ∧ win4_2.index t (1 : Fin 2) = 0 :=
  (by decide +kernel : ∀ t : Fin grid4.N, _)
theorem win4_3_index : ∀ t : Fin grid4.N, win4_3.index t (0 : Fin 2) = t.val ∧ win4_3.index t (1 : Fin 2) = 0 :=
  (by decide +kernel : ∀ t : Fin grid4.N, _)
theorem win4_4_index : ∀ t : Fin grid4.N, win4_4.index t (0 : Fin 2) = 0 ∧ win4_4.index t (1 : Fin 2) = 0 :=
  (by decide +kernel : ∀ t : Fin grid4.N, _)
theorem win4_5_index : ∀ t : Fin grid4.N, win4_5.index t (0 : Fin 2) = 0 ∧ win4_5.index t (1 : Fin 2) = 0 :=
  (by decide +kernel : ∀ t : Fin grid4.N, _)
theorem win4_6_index : ∀ t : Fin grid4.N, win4_6.index t (0 : Fin 2) = 0 ∧ win4_6.index t (1 : Fin 2) = 0 :=
  (by decide +kernel : ∀ t : Fin grid4.N, _)
theorem win4_7_index : ∀ t : Fin grid4.N, win4_7.index t (0 : Fin 2) = 0 ∧ win4_7.index t (1 : Fin 2) = 0 :=
  (by decide +kernel : ∀ t : Fin grid4.N, _)
theorem win4_8_index : ∀ t : Fin grid4.N, win4_8.index t (0 : Fin 2) = t.val ∧ win4_8.index t (1 : Fin 2) = 0 :=
  (by decide +kernel : ∀ t : Fin grid4.N, _)

variable [Cert.KernelIdeal.Facts] [Cert.ReferenceIdeal.Facts]
variable (V : (c : Dev nD) → (b : Ref sig .tc) → Buf (Elt Ideal) ((c : Thread nD τ).loc b))

/-- The body's payload at row `p` and column `j` of its blocks is the updated row of the blocks' rows `p`. -/
theorem k4_pay1_apply (v0 v2 v4 : Vec Ideal S5000x11 .f32) (v6 : Vec Ideal S5000x3 .f32) (v8 : Vec Ideal S33x8 .f32)
    (v9 : Vec Ideal S1x8 .f32) (v11 : Vec Ideal S8x8 .f32) (v12 : Vec Ideal S1x8 .f32) (p : Fin 5000) (j : Fin 11) :
    k4_pay1 v0 v2 v4 v6 v8 v9 v11 v12 (ix2 p j)
      = Node.updRow (fun q => v0 (ix2 p q)) (fun q => v2 (ix2 p q)) (fun q => v4 (ix2 p q)) (fun q => v6 (ix2 p q))
          (fun k l => v8 (ix2 k l)) (fun l => v9 (ix2 (0 : Fin 1) l)) (fun l j => v11 (ix2 l j))
          (fun l => v12 (ix2 (0 : Fin 1) l)) j := by
  unfold k4_pay1
  exact Node.kernelUpd_apply dot_S5000x33_S33x8_S5000x8_1_0_0_1_n_n rfl dot_S5000x8_S8x8_S5000x8_1_0_0_1_n_n rfl
    bitsLt_bf16_f32 shapeCasts_S5000x11_S5000x11 concatenates_S5000x11_S5000x11_S5000x11_S5000x33_d1
    shapeCasts_S1x8_S1x8 broadcasts_S1x8_S5000x8 concatenates_S5000x8_S5000x3_S5000x11_d1
    v0 v2 v4 v6 v8 v9 v11 v12 p j

/-- Row `p` of mi's block at point `t` is row `5000 t + p` of the array. -/
theorem iblk4_0_row (c : Dev nD) (t : Fin cfg4.N) (p : Fin 5000) (q : Fin 11) (hr : 5000 * t.val + p.val < 100000) :
    iblk4 V c 0 t (ix2 p q) = V c main_v27 (ix2 (⟨5000 * t.val + p.val, hr⟩ : Fin 100000) q) := by
  obtain ⟨e0, e1⟩ := win4_0_index t
  show V c main_v27 (((cfg4.win 0).blk t).view.emb (ix2 p q)) = _
  refine congrArg (V c main_v27) (funext fun a => Fin.ext ?_)
  match a with
  | ⟨0, _⟩ => show win4_0.index t (0 : Fin 2) * 5000 + 1 * p.val = 5000 * t.val + p.val; omega
  | ⟨1, _⟩ => show win4_0.index t (1 : Fin 2) * 11 + 1 * q.val = q.val; omega

/-- Row `p` of mo's block at point `t` is row `5000 t + p` of the array. -/
theorem iblk4_1_row (c : Dev nD) (t : Fin cfg4.N) (p : Fin 5000) (q : Fin 11) (hr : 5000 * t.val + p.val < 100000) :
    iblk4 V c 1 t (ix2 p q) = V c main_v30 (ix2 (⟨5000 * t.val + p.val, hr⟩ : Fin 100000) q) := by
  obtain ⟨e0, e1⟩ := win4_1_index t
  show V c main_v30 (((cfg4.win 1).blk t).view.emb (ix2 p q)) = _
  refine congrArg (V c main_v30) (funext fun a => Fin.ext ?_)
  match a with
  | ⟨0, _⟩ => show win4_1.index t (0 : Fin 2) * 5000 + 1 * p.val = 5000 * t.val + p.val; omega
  | ⟨1, _⟩ => show win4_1.index t (1 : Fin 2) * 11 + 1 * q.val = q.val; omega

/-- Row `p` of h's block at point `t` is row `5000 t + p` of the array. -/
theorem iblk4_2_row (c : Dev nD) (t : Fin cfg4.N) (p : Fin 5000) (q : Fin 11) (hr : 5000 * t.val + p.val < 100000) :
    iblk4 V c 2 t (ix2 p q) = V c main_v19 (ix2 (⟨5000 * t.val + p.val, hr⟩ : Fin 100000) q) := by
  obtain ⟨e0, e1⟩ := win4_2_index t
  show V c main_v19 (((cfg4.win 2).blk t).view.emb (ix2 p q)) = _
  refine congrArg (V c main_v19) (funext fun a => Fin.ext ?_)
  match a with
  | ⟨0, _⟩ => show win4_2.index t (0 : Fin 2) * 5000 + 1 * p.val = 5000 * t.val + p.val; omega
  | ⟨1, _⟩ => show win4_2.index t (1 : Fin 2) * 11 + 1 * q.val = q.val; omega

/-- Row `p` of x's block at point `t` is row `5000 t + p` of the array. -/
theorem iblk4_3_row (c : Dev nD) (t : Fin cfg4.N) (p : Fin 5000) (q : Fin 3) (hr : 5000 * t.val + p.val < 100000) :
    iblk4 V c 3 t (ix2 p q) = V c main_arg0 (ix2 (⟨5000 * t.val + p.val, hr⟩ : Fin 100000) q) := by
  obtain ⟨e0, e1⟩ := win4_3_index t
  show V c main_arg0 (((cfg4.win 3).blk t).view.emb (ix2 p q)) = _
  refine congrArg (V c main_arg0) (funext fun a => Fin.ext ?_)
  match a with
  | ⟨0, _⟩ => show win4_3.index t (0 : Fin 2) * 5000 + 1 * p.val = 5000 * t.val + p.val; omega
  | ⟨1, _⟩ => show win4_3.index t (1 : Fin 2) * 3 + 1 * q.val = q.val; omega

/-- The first weight matrix's block at any point is the whole array. -/
theorem iblk4_4_whole (c : Dev nD) (t : Fin cfg4.N) (k : Fin 33) (l : Fin 8) :
    iblk4 V c 4 t (ix2 k l) = V c main_arg8 (ix2 k l) := by
  obtain ⟨e0, e1⟩ := win4_4_index t
  show V c main_arg8 (((cfg4.win 4).blk t).view.emb (ix2 k l)) = _
  refine congrArg (V c main_arg8) (funext fun a => Fin.ext ?_)
  match a with
  | ⟨0, _⟩ => show win4_4.index t (0 : Fin 2) * 33 + 1 * k.val = k.val; omega
  | ⟨1, _⟩ => show win4_4.index t (1 : Fin 2) * 8 + 1 * l.val = l.val; omega

/-- The first bias row's block at any point is the whole array. -/
theorem iblk4_5_whole (c : Dev nD) (t : Fin cfg4.N) (k : Fin 1) (l : Fin 8) :
    iblk4 V c 5 t (ix2 k l) = V c main_v31 (ix2 k l) := by
  obtain ⟨e0, e1⟩ := win4_5_index t
  show V c main_v31 (((cfg4.win 5).blk t).view.emb (ix2 k l)) = _
  refine congrArg (V c main_v31) (funext fun a => Fin.ext ?_)
  match a with
  | ⟨0, _⟩ => show win4_5.index t (0 : Fin 2) * 1 + 1 * k.val = k.val; omega
  | ⟨1, _⟩ => show win4_5.index t (1 : Fin 2) * 8 + 1 * l.val = l.val; omega

/-- The second weight matrix's block at any point is the whole array. -/
theorem iblk4_6_whole (c : Dev nD) (t : Fin cfg4.N) (k : Fin 8) (l : Fin 8) :
    iblk4 V c 6 t (ix2 k l) = V c main_arg10 (ix2 k l) := by
  obtain ⟨e0, e1⟩ := win4_6_index t
  show V c main_arg10 (((cfg4.win 6).blk t).view.emb (ix2 k l)) = _
  refine congrArg (V c main_arg10) (funext fun a => Fin.ext ?_)
  match a with
  | ⟨0, _⟩ => show win4_6.index t (0 : Fin 2) * 8 + 1 * k.val = k.val; omega
  | ⟨1, _⟩ => show win4_6.index t (1 : Fin 2) * 8 + 1 * l.val = l.val; omega

/-- The second bias row's block at any point is the whole array. -/
theorem iblk4_7_whole (c : Dev nD) (t : Fin cfg4.N) (k : Fin 1) (l : Fin 8) :
    iblk4 V c 7 t (ix2 k l) = V c main_v32 (ix2 k l) := by
  obtain ⟨e0, e1⟩ := win4_7_index t
  show V c main_v32 (((cfg4.win 7).blk t).view.emb (ix2 k l)) = _
  refine congrArg (V c main_v32) (funext fun a => Fin.ext ?_)
  match a with
  | ⟨0, _⟩ => show win4_7.index t (0 : Fin 2) * 1 + 1 * k.val = k.val; omega
  | ⟨1, _⟩ => show win4_7.index t (1 : Fin 2) * 8 + 1 * l.val = l.val; omega

/-- What point `t` writes back is block `t` of the node layer of the entry arrays: the block's row `p` is the updated row
    of the input blocks' rows `p`, which are the arrays' rows `5000 t + p`; the weights are read whole, and the one-row
    biases are the bias vectors. -/
theorem dat4_flushed8 (c : Dev nD) (b1 b2 : FVec Ideal Cert.ReferenceIdeal.S8 .f32)
    (hb1 : ∀ j : Fin 8, V c main_v31 (ix2 (0 : Fin 1) j) = b1 (ix1 j))
    (hb2 : ∀ j : Fin 8, V c main_v32 (ix2 (0 : Fin 1) j) = b2 (ix1 j)) (t : Fin cfg4.N) :
    (dat4 (F := Ideal) V c).flushed 8 t = ((cfg4.win 8).blk t).view.read (Elt Ideal)
      (Cert.Bridge.nodeL (F := Ideal) (V c main_v27) (V c main_v30) (V c main_v19) (V c main_arg0) (V c main_arg8) b1
        (V c main_arg10) b2) := by
  show (cfg4.win 8).cut (grid4.coords t) ((dat4 V c).after 8 t) = _
  rw [after4_8]
  unfold out4_8
  rw [View.canon_unit_zero cfg4_zero_off]
  simp only [View.ld_unit_zero (S := S5000x11) cfg4_zero_off, View.ld_unit_zero (S := S5000x3) cfg4_zero_off,
    View.ld_unit_zero (S := S33x8) cfg4_zero_off, View.ld_unit_zero (S := S1x8) cfg4_zero_off,
    View.ld_unit_zero (S := S8x8) cfg4_zero_off]
  refine funext fun (y : S5000x11.Idx) => ?_
  obtain ⟨p, q, rfl⟩ : ∃ (p : Fin 5000) (q : Fin 11), y = ix2 p q := ⟨y 0, y 1, eq_ix2 y⟩
  obtain ⟨e80, e81⟩ := win4_8_index t
  have ht : t.val < 20 := t.isLt
  have hp : p.val < 5000 := p.isLt
  have hr : 5000 * t.val + p.val < 100000 := by omega
  have hemb : ((cfg4.win 8).blk t).view.emb (ix2 p q) = ix2 (⟨5000 * t.val + p.val, hr⟩ : Fin 100000) q := by
    funext a; apply Fin.ext
    match a with
    | ⟨0, _⟩ => show win4_8.index t (0 : Fin 2) * 5000 + 1 * p.val = 5000 * t.val + p.val; omega
    | ⟨1, _⟩ => show win4_8.index t (1 : Fin 2) * 11 + 1 * q.val = q.val; omega
  show k4_pay1 (iblk4 V c 0 t) (iblk4 V c 1 t) (iblk4 V c 2 t) (iblk4 V c 3 t) (iblk4 V c 4 t) (iblk4 V c 5 t)
      (iblk4 V c 6 t) (iblk4 V c 7 t) (ix2 p q)
    = Cert.Bridge.nodeL (F := Ideal) (V c main_v27) (V c main_v30) (V c main_v19) (V c main_arg0) (V c main_arg8) b1
        (V c main_arg10) b2 (((cfg4.win 8).blk t).view.emb (ix2 p q))
  rw [hemb, Node.nodeL_apply]
  refine (k4_pay1_apply (iblk4 V c 0 t) (iblk4 V c 1 t) (iblk4 V c 2 t) (iblk4 V c 3 t) (iblk4 V c 4 t) (iblk4 V c 5 t)
      (iblk4 V c 6 t) (iblk4 V c 7 t) p q).trans ?_
  have r0 : (fun q' : Fin 11 => iblk4 V c 0 t (ix2 p q'))
      = fun q' => V c main_v27 (ix2 (⟨5000 * t.val + p.val, hr⟩ : Fin 100000) q') :=
    funext fun q' => iblk4_0_row V c t p q' hr
  have r1 : (fun q' : Fin 11 => iblk4 V c 1 t (ix2 p q'))
      = fun q' => V c main_v30 (ix2 (⟨5000 * t.val + p.val, hr⟩ : Fin 100000) q') :=
    funext fun q' => iblk4_1_row V c t p q' hr
  have r2 : (fun q' : Fin 11 => iblk4 V c 2 t (ix2 p q'))
      = fun q' => V c main_v19 (ix2 (⟨5000 * t.val + p.val, hr⟩ : Fin 100000) q') :=
    funext fun q' => iblk4_2_row V c t p q' hr
  have r3 : (fun q' : Fin 3 => iblk4 V c 3 t (ix2 p q'))
      = fun q' => V c main_arg0 (ix2 (⟨5000 * t.val + p.val, hr⟩ : Fin 100000) q') :=
    funext fun q' => iblk4_3_row V c t p q' hr
  have r4 : (fun (k : Fin 33) (l : Fin 8) => iblk4 V c 4 t (ix2 k l)) = fun k l => V c main_arg8 (ix2 k l) :=
    funext fun k => funext fun l => iblk4_4_whole V c t k l
  have r5 : (fun l : Fin 8 => iblk4 V c 5 t (ix2 (0 : Fin 1) l)) = fun l => b1 (ix1 l) :=
    funext fun l => (iblk4_5_whole V c t 0 l).trans (hb1 l)
  have r6 : (fun (k : Fin 8) (l : Fin 8) => iblk4 V c 6 t (ix2 k l)) = fun k l => V c main_arg10 (ix2 k l) :=
    funext fun k => funext fun l => iblk4_6_whole V c t k l
  have r7 : (fun l : Fin 8 => iblk4 V c 7 t (ix2 (0 : Fin 1) l)) = fun l => b2 (ix1 l) :=
    funext fun l => (iblk4_7_whole V c t 0 l).trans (hb2 l)
  rw [r0, r1, r2, r3, r4, r5, r6, r7]

/-- Row `r` of the output array is in the block of point `r / 5000`, at the block's row `r % 5000`: the 20 blocks of 5000
    rows cover the 100000 rows. -/
theorem cfg4_cover8 (i : S100000x11.Idx) :
    ∃ t : Fin cfg4.N, (cfg4.win 8).flush t = true ∧ i ∈ ((cfg4.win 8).blk t).view.set := by
  have hi0 : (i 0).val < 100000 := (i 0).isLt
  have hlt : (i 0).val / 5000 < 20 := by omega
  have hm : (i 0).val % 5000 < 5000 := Nat.mod_lt _ (by omega)
  obtain ⟨t, ht⟩ : ∃ t : Fin cfg4.N, t.val = (i 0).val / 5000 := ⟨⟨(i 0).val / 5000, hlt⟩, rfl⟩
  obtain ⟨e80, e81⟩ := win4_8_index t
  refine ⟨t, flush4_8 t, ?_⟩
  have he : ((cfg4.win 8).blk t).view.emb (ix2 (⟨(i 0).val % 5000, hm⟩ : Fin 5000) (i 1 : Fin 11)) = i := by
    funext a; apply Fin.ext
    match a with
    | ⟨0, _⟩ => show win4_8.index t (0 : Fin 2) * 5000 + 1 * ((i 0).val % 5000) = (i 0).val; omega
    | ⟨1, _⟩ => show win4_8.index t (1 : Fin 2) * 11 + 1 * (i 1).val = (i 1).val; omega
  have h := ((cfg4.win 8).blk t).view.emb_mem_set (ix2 (⟨(i 0).val % 5000, hm⟩ : Fin 5000) (i 1 : Fin 11))
  rw [he] at h
  exact h

end Cert.KernelIdeal.Val.RegNode4

namespace Cert.KernelIdeal.Val

open Idealize.ShloMosaic Idealize.ShloMosaic.TcCoe Idealize.SL.Sem Cert.KernelIdeal Cert.KernelIdeal.Gen
open Idealize.ShloMosaic.ValueIdx
open Cert.Bridge

variable [Cert.KernelIdeal.Facts] [Cert.ReferenceIdeal.Facts]
variable (V : (c : Dev nD) → (b : Ref sig .tc) → Buf (Elt Ideal) ((c : Thread nD τ).loc b))

/-- Output window 8 of pipeline 4 after the 20 grid points. -/
theorem reg4_val (c : Dev nD) (b1 b2 : FVec Ideal Cert.ReferenceIdeal.S8 .f32)
    (hb1 : ∀ j : Fin 8, V c main_v31 (ix2 (0 : Fin 1) j) = b1 (ix1 j))
    (hb2 : ∀ j : Fin 8, V c main_v32 (ix2 (0 : Fin 1) j) = b2 (ix1 j)) :
    (dat4 (F := Ideal) V c).arrAt 8 cfg4.N
      = Cert.Bridge.nodeL (F := Ideal) (V c main_v27) (V c main_v30) (V c main_v19) (V c main_arg0) (V c main_arg8) b1 (V c main_arg10) b2 :=
  (dat4 (F := Ideal) V c).arrAt_eq_of_cover 8 _ (fun t _ => RegNode4.dat4_flushed8 V c b1 b2 hb1 hb2 t)
    RegNode4.cfg4_cover8

end Cert.KernelIdeal.Val

end
-- ==== Proof.ChainRound2.lean ====
/- Round 2 of message passing in the kernel program: @main's segments from boundary 2 to boundary 8 (two fill-mode
   gathers and two bias reshapes on the host, the edge region, two segment sums and two bias reshapes on the host, the node
   region) take node features h in buffer main_v19 to one round of h in buffer main_v33, and leave the arguments and the index
   vectors alone. -/
import proofs.«409147_j26182120636657_1_alg».proof.Proof.Walk
import proofs.«409147_j26182120636657_1_alg».proof.Proof.KDefs
import proofs.«409147_j26182120636657_1_alg».proof.Proof.ChainStart
import proofs.«409147_j26182120636657_1_alg».proof.Proof.RegEdge3
import proofs.«409147_j26182120636657_1_alg».proof.Proof.RegNode4
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Val.ChainRound2

open Idealize.ShloMosaic Idealize.ShloMosaic.TcCoe Idealize.SL.Sem Cert.KernelIdeal Cert.KernelIdeal.Gen
open Idealize.ShloMosaic.ValueIdx Idealize.ShloMosaic.StableHlo Cert.KernelIdeal.Val

variable [Cert.KernelIdeal.Facts] [Cert.ReferenceIdeal.Facts]

/-! ## The host stretches of the round as functions of the contents they start from

Each host stretch is read over arbitrary starting contents V and at any float family: the buffer it writes holds the
named function of the buffers it reads. -/

section Stretches

variable {F : FTy → Type} [FloatOps F]

/-- A value written at a typed reference and read back at the same reference is the value. -/
theorem ofBuf_toBuf {T : BufTy} (r : Ref sig .tc) (p p' : r.ty = T) (q q' : r.space ≠ .host) (s s' : r.isScoped = false)
    (v : T.Contents (Elt F)) :
    (TRef.of r p q s : TRef sig T).ofBuf ((TRef.of r p' q' s' : TRef sig T).toBuf v) = v := by
  subst p; rfl

/-- The first gather: rows of the node features at the row-end indices, in fill mode. -/
theorem take_row (V : Valuation τ sig (Elt F)) :
    StableHlo.after hostOps3 V (Proc.devRef .tc main_v20)
      = takeK (F := F) (V (Proc.devRef .tc main_v19)) (V (Proc.devRef .tc main_v1)) := by
  simp only [hostOps3]
  after_results_simp
  generalize V (Proc.devRef .tc main_v19) = h
  generalize V (Proc.devRef .tc main_v1) = i
  simp only [ofBuf_toBuf]
  have ei : ∀ p q s, (TRef.of main_v1 p q s : TRef sig ⟨S3200000, .i32⟩).ofBuf i = i := fun _ _ _ => rfl
  have eh : ∀ p q s, (TRef.of main_v19 p q s : TRef sig ⟨S100000x11, .f32⟩).ofBuf h = h := fun _ _ _ => rfl
  have eo : ∀ p q s (X : (⟨S3200000x11, .f32⟩ : BufTy).Contents (Elt F)),
      (TRef.of main_v20 p q s : TRef sig ⟨S3200000x11, .f32⟩).toBuf X = X := fun _ _ _ _ => rfl
  simp only [ei, eh, eo]
  rfl

/-- The second gather: rows of the node features at the column-end indices. -/
theorem take_col (V : Valuation τ sig (Elt F)) :
    StableHlo.after hostOps3_1 V (Proc.devRef .tc main_v21)
      = takeK (F := F) (V (Proc.devRef .tc main_v19)) (V (Proc.devRef .tc main_v3)) := by
  simp only [hostOps3_1]
  after_results_simp
  generalize V (Proc.devRef .tc main_v19) = h
  generalize V (Proc.devRef .tc main_v3) = i
  simp only [ofBuf_toBuf]
  have ei : ∀ p q s, (TRef.of main_v3 p q s : TRef sig ⟨S3200000, .i32⟩).ofBuf i = i := fun _ _ _ => rfl
  have eh : ∀ p q s, (TRef.of main_v19 p q s : TRef sig ⟨S100000x11, .f32⟩).ofBuf h = h := fun _ _ _ => rfl
  have eo : ∀ p q s (X : (⟨S3200000x11, .f32⟩ : BufTy).Contents (Elt F)),
      (TRef.of main_v21 p q s : TRef sig ⟨S3200000x11, .f32⟩).toBuf X = X := fun _ _ _ _ => rfl
  simp only [ei, eh, eo]
  rfl

/-- The edge layer's first bias as a one-row matrix. -/
theorem bias_e1 (V : Valuation τ sig (Elt F)) (j : Fin 8) :
    StableHlo.after hostOps3_2 V (Proc.devRef .tc main_v22) (ix2 (0 : Fin 1) j) = V (Proc.devRef .tc main_arg5) (ix1 j) := by
  simp only [hostOps3_2]
  after_results_simp
  exact shapeCast_a_1a_apply _ _ _ _

/-- The edge layer's second bias as a one-by-one matrix. -/
theorem bias_e2 (V : Valuation τ sig (Elt F)) :
    StableHlo.after hostOps3_2 V (Proc.devRef .tc main_v23) (ix2 (0 : Fin 1) (0 : Fin 1))
      = V (Proc.devRef .tc main_arg7) (ix1 (0 : Fin 1)) := by
  simp only [hostOps3_2]
  after_results_simp
  exact shapeCast_a_1a_apply _ _ _ _

/-- The segment sum of the first message array at the column-end indices. -/
theorem seg_col (V : Valuation τ sig (Elt F)) :
    StableHlo.after hostOps4 V (Proc.devRef .tc main_v27)
      = segK (F := F) (V (Proc.devRef .tc main_v24_1)) (V (Proc.devRef .tc main_v3)) := by
  simp only [hostOps4]
  after_results_simp
  rfl

/-- The segment sum of the second message array at the row-end indices. -/
theorem seg_row (V : Valuation τ sig (Elt F)) :
    StableHlo.after hostOps4 V (Proc.devRef .tc main_v30)
      = segK (F := F) (V (Proc.devRef .tc main_v24_2)) (V (Proc.devRef .tc main_v1)) := by
  simp only [hostOps4]
  after_results_simp
  rfl

/-- The node layer's first bias as a one-row matrix. -/
theorem bias_n1 (V : Valuation τ sig (Elt F)) (j : Fin 8) :
    StableHlo.after hostOps4 V (Proc.devRef .tc main_v31) (ix2 (0 : Fin 1) j) = V (Proc.devRef .tc main_arg9) (ix1 j) := by
  simp only [hostOps4]
  after_results_simp
  exact shapeCast_a_1a_apply _ _ _ _

/-- The node layer's second bias as a one-row matrix. -/
theorem bias_n2 (V : Valuation τ sig (Elt F)) (j : Fin 8) :
    StableHlo.after hostOps4 V (Proc.devRef .tc main_v32) (ix2 (0 : Fin 1) j) = V (Proc.devRef .tc main_arg11) (ix1 j) := by
  simp only [hostOps4]
  after_results_simp
  exact shapeCast_a_1a_apply _ _ _ _

end Stretches

/-! ## The buffers at the edge region's entry, at its exit, and at the node region's entry -/

section Boundaries

variable (m : (ℓ : Loc nD τ sig) → Buf (Elt Ideal) ℓ) (ρ : Dev nD → PrngReg) (c : Dev nD)

/-- The rows gathered at the row-end indices, at the edge region's entry. -/
theorem edge_hrow (A : Args m c (W8 (F := Ideal) m ρ)) (h : FVec Ideal S100000x11 .f32) (hh : W8 (F := Ideal) m ρ c (Proc.devRef .tc main_v19) = h) : V11 (F := Ideal) m ρ c main_v20 = takeK (F := Ideal) h (rowK (m ((c : Thread nD τ).loc main_arg1))) := by
  show W11 (F := Ideal) m ρ c (Proc.devRef .tc main_v20) = _
  back_h; back_h
  refine (take_row (W8 (F := Ideal) m ρ c)).trans ?_
  rw [hh, A.row]

/-- The rows gathered at the column-end indices, at the edge region's entry. -/
theorem edge_hcol (A : Args m c (W8 (F := Ideal) m ρ)) (h : FVec Ideal S100000x11 .f32) (hh : W8 (F := Ideal) m ρ c (Proc.devRef .tc main_v19) = h) : V11 (F := Ideal) m ρ c main_v21 = takeK (F := Ideal) h (colK (m ((c : Thread nD τ).loc main_arg1))) := by
  show W11 (F := Ideal) m ρ c (Proc.devRef .tc main_v21) = _
  back_h
  refine (take_col (W9 (F := Ideal) m ρ c)).trans ?_
  have eh : W9 (F := Ideal) m ρ c (Proc.devRef .tc main_v19) = h := by back_h; exact hh
  have ei : W9 (F := Ideal) m ρ c (Proc.devRef .tc main_v3) = colK (m ((c : Thread nD τ).loc main_arg1)) := by
    back_h; exact A.col
  rw [eh, ei]

/-- The edge layer's first bias window at the edge region's entry. -/
theorem edge_bias1 (A : Args m c (W8 (F := Ideal) m ρ)) (j : Fin 8) :
    V11 (F := Ideal) m ρ c main_v22 (ix2 (0 : Fin 1) j) = m ((c : Thread nD τ).loc main_arg5) (ix1 j) := by
  show W11 (F := Ideal) m ρ c (Proc.devRef .tc main_v22) (ix2 (0 : Fin 1) j) = _
  refine (bias_e1 (W10 (F := Ideal) m ρ c) j).trans ?_
  have e : W10 (F := Ideal) m ρ c (Proc.devRef .tc main_arg5) = m ((c : Thread nD τ).loc main_arg5) := by
    back_h; back_h; exact A.a5
  rw [e]

/-- The edge layer's second bias window at the edge region's entry. -/
theorem edge_bias2 (A : Args m c (W8 (F := Ideal) m ρ)) :
    V11 (F := Ideal) m ρ c main_v23 (ix2 (0 : Fin 1) (0 : Fin 1)) = m ((c : Thread nD τ).loc main_arg7) (ix1 (0 : Fin 1)) := by
  show W11 (F := Ideal) m ρ c (Proc.devRef .tc main_v23) (ix2 (0 : Fin 1) (0 : Fin 1)) = _
  refine (bias_e2 (W10 (F := Ideal) m ρ c)).trans ?_
  have e : W10 (F := Ideal) m ρ c (Proc.devRef .tc main_arg7) = m ((c : Thread nD τ).loc main_arg7) := by
    back_h; back_h; exact A.a7
  rw [e]

/-- The edge layer's first weight at the edge region's entry. -/
theorem edge_w1 (A : Args m c (W8 (F := Ideal) m ρ)) : V11 (F := Ideal) m ρ c main_arg4 = m ((c : Thread nD τ).loc main_arg4) := by
  show W11 (F := Ideal) m ρ c (Proc.devRef .tc main_arg4) = _
  back_h; back_h; back_h; exact A.a4

/-- The edge layer's second weight at the edge region's entry. -/
theorem edge_w2 (A : Args m c (W8 (F := Ideal) m ρ)) : V11 (F := Ideal) m ρ c main_arg6 = m ((c : Thread nD τ).loc main_arg6) := by
  show W11 (F := Ideal) m ρ c (Proc.devRef .tc main_arg6) = _
  back_h; back_h; back_h; exact A.a6

/-- The first message array (the gate times the row-end rows) at the edge region's exit. -/
theorem msg_in (A : Args m c (W8 (F := Ideal) m ρ)) (h : FVec Ideal S100000x11 .f32) (hh : W8 (F := Ideal) m ρ c (Proc.devRef .tc main_v19) = h) : W12 (F := Ideal) m ρ c (Proc.devRef .tc main_v24_1)
    = Cert.Bridge.msgL (F := Ideal)
        (gateK (F := Ideal) h (rowK (m ((c : Thread nD τ).loc main_arg1))) (colK (m ((c : Thread nD τ).loc main_arg1)))
          (m ((c : Thread nD τ).loc main_arg4)) (m ((c : Thread nD τ).loc main_arg5)) (m ((c : Thread nD τ).loc main_arg6))
          (m ((c : Thread nD τ).loc main_arg7)))
        (takeK (F := Ideal) h (rowK (m ((c : Thread nD τ).loc main_arg1)))) := by
  refine (W12_arr (F := Ideal) m ρ c 7).trans ?_
  refine (reg3_mi (V11 (F := Ideal) m ρ) c (m ((c : Thread nD τ).loc main_arg5)) (m ((c : Thread nD τ).loc main_arg7))
    (edge_bias1 m ρ c A) (edge_bias2 m ρ c A)).trans ?_
  rw [edge_hrow m ρ c A h hh, edge_hcol m ρ c A h hh, edge_w1 m ρ c A, edge_w2 m ρ c A]
  rfl

/-- The second message array (the gate times the column-end rows) at the edge region's exit. -/
theorem msg_out (A : Args m c (W8 (F := Ideal) m ρ)) (h : FVec Ideal S100000x11 .f32) (hh : W8 (F := Ideal) m ρ c (Proc.devRef .tc main_v19) = h) : W12 (F := Ideal) m ρ c (Proc.devRef .tc main_v24_2)
    = Cert.Bridge.msgL (F := Ideal)
        (gateK (F := Ideal) h (rowK (m ((c : Thread nD τ).loc main_arg1))) (colK (m ((c : Thread nD τ).loc main_arg1)))
          (m ((c : Thread nD τ).loc main_arg4)) (m ((c : Thread nD τ).loc main_arg5)) (m ((c : Thread nD τ).loc main_arg6))
          (m ((c : Thread nD τ).loc main_arg7)))
        (takeK (F := Ideal) h (colK (m ((c : Thread nD τ).loc main_arg1)))) := by
  refine (W12_arr (F := Ideal) m ρ c 8).trans ?_
  refine (reg3_mo (V11 (F := Ideal) m ρ) c (m ((c : Thread nD τ).loc main_arg5)) (m ((c : Thread nD τ).loc main_arg7))
    (edge_bias1 m ρ c A) (edge_bias2 m ρ c A)).trans ?_
  rw [edge_hrow m ρ c A h hh, edge_hcol m ρ c A h hh, edge_w1 m ρ c A, edge_w2 m ρ c A]
  rfl

/-- The first segment sum at the node region's entry. -/
theorem node_mi (A : Args m c (W8 (F := Ideal) m ρ)) (h : FVec Ideal S100000x11 .f32) (hh : W8 (F := Ideal) m ρ c (Proc.devRef .tc main_v19) = h) : V13 (F := Ideal) m ρ c main_v27
    = segK (F := Ideal) (Cert.Bridge.msgL (F := Ideal)
        (gateK (F := Ideal) h (rowK (m ((c : Thread nD τ).loc main_arg1))) (colK (m ((c : Thread nD τ).loc main_arg1)))
          (m ((c : Thread nD τ).loc main_arg4)) (m ((c : Thread nD τ).loc main_arg5)) (m ((c : Thread nD τ).loc main_arg6))
          (m ((c : Thread nD τ).loc main_arg7)))
        (takeK (F := Ideal) h (rowK (m ((c : Thread nD τ).loc main_arg1))))) (colK (m ((c : Thread nD τ).loc main_arg1))) := by
  show W13 (F := Ideal) m ρ c (Proc.devRef .tc main_v27) = _
  refine (seg_col (W12 (F := Ideal) m ρ c)).trans ?_
  have ei : W12 (F := Ideal) m ρ c (Proc.devRef .tc main_v3) = colK (m ((c : Thread nD τ).loc main_arg1)) := by
    back_r3; back_h; back_h; back_h; exact A.col
  rw [msg_in m ρ c A h hh, ei]

/-- The second segment sum at the node region's entry. -/
theorem node_mo (A : Args m c (W8 (F := Ideal) m ρ)) (h : FVec Ideal S100000x11 .f32) (hh : W8 (F := Ideal) m ρ c (Proc.devRef .tc main_v19) = h) : V13 (F := Ideal) m ρ c main_v30
    = segK (F := Ideal) (Cert.Bridge.msgL (F := Ideal)
        (gateK (F := Ideal) h (rowK (m ((c : Thread nD τ).loc main_arg1))) (colK (m ((c : Thread nD τ).loc main_arg1)))
          (m ((c : Thread nD τ).loc main_arg4)) (m ((c : Thread nD τ).loc main_arg5)) (m ((c : Thread nD τ).loc main_arg6))
          (m ((c : Thread nD τ).loc main_arg7)))
        (takeK (F := Ideal) h (colK (m ((c : Thread nD τ).loc main_arg1))))) (rowK (m ((c : Thread nD τ).loc main_arg1))) := by
  show W13 (F := Ideal) m ρ c (Proc.devRef .tc main_v30) = _
  refine (seg_row (W12 (F := Ideal) m ρ c)).trans ?_
  have ei : W12 (F := Ideal) m ρ c (Proc.devRef .tc main_v1) = rowK (m ((c : Thread nD τ).loc main_arg1)) := by
    back_r3; back_h; back_h; back_h; exact A.row
  rw [msg_out m ρ c A h hh, ei]

/-- The node layer's first bias window at the node region's entry. -/
theorem node_bias1 (A : Args m c (W8 (F := Ideal) m ρ)) (j : Fin 8) :
    V13 (F := Ideal) m ρ c main_v31 (ix2 (0 : Fin 1) j) = m ((c : Thread nD τ).loc main_arg9) (ix1 j) := by
  show W13 (F := Ideal) m ρ c (Proc.devRef .tc main_v31) (ix2 (0 : Fin 1) j) = _
  refine (bias_n1 (W12 (F := Ideal) m ρ c) j).trans ?_
  have e : W12 (F := Ideal) m ρ c (Proc.devRef .tc main_arg9) = m ((c : Thread nD τ).loc main_arg9) := by
    back_r3; back_h; back_h; back_h; exact A.a9
  rw [e]

/-- The node layer's second bias window at the node region's entry. -/
theorem node_bias2 (A : Args m c (W8 (F := Ideal) m ρ)) (j : Fin 8) :
    V13 (F := Ideal) m ρ c main_v32 (ix2 (0 : Fin 1) j) = m ((c : Thread nD τ).loc main_arg11) (ix1 j) := by
  show W13 (F := Ideal) m ρ c (Proc.devRef .tc main_v32) (ix2 (0 : Fin 1) j) = _
  refine (bias_n2 (W12 (F := Ideal) m ρ c) j).trans ?_
  have e : W12 (F := Ideal) m ρ c (Proc.devRef .tc main_arg11) = m ((c : Thread nD τ).loc main_arg11) := by
    back_r3; back_h; back_h; back_h; exact A.a11
  rw [e]

/-- The node features at the node region's entry are the round's input. -/
theorem node_h (h : FVec Ideal S100000x11 .f32) (hh : W8 (F := Ideal) m ρ c (Proc.devRef .tc main_v19) = h) : V13 (F := Ideal) m ρ c main_v19 = h := by
  show W13 (F := Ideal) m ρ c (Proc.devRef .tc main_v19) = _
  back_h; back_r3; back_h; back_h; back_h; exact hh

/-- The raw node inputs at the node region's entry. -/
theorem node_x (A : Args m c (W8 (F := Ideal) m ρ)) : V13 (F := Ideal) m ρ c main_arg0 = m ((c : Thread nD τ).loc main_arg0) := by
  show W13 (F := Ideal) m ρ c (Proc.devRef .tc main_arg0) = _
  back_h; back_r3; back_h; back_h; back_h; exact A.a0

/-- The node layer's first weight at the node region's entry. -/
theorem node_w1 (A : Args m c (W8 (F := Ideal) m ρ)) : V13 (F := Ideal) m ρ c main_arg8 = m ((c : Thread nD τ).loc main_arg8) := by
  show W13 (F := Ideal) m ρ c (Proc.devRef .tc main_arg8) = _
  back_h; back_r3; back_h; back_h; back_h; exact A.a8

/-- The node layer's second weight at the node region's entry. -/
theorem node_w2 (A : Args m c (W8 (F := Ideal) m ρ)) : V13 (F := Ideal) m ρ c main_arg10 = m ((c : Thread nD τ).loc main_arg10) := by
  show W13 (F := Ideal) m ρ c (Proc.devRef .tc main_arg10) = _
  back_h; back_r3; back_h; back_h; back_h; exact A.a10

/-! ## The arguments and the index vectors: no segment of the round writes them -/

theorem keep_a0 : W14 (F := Ideal) m ρ c (Proc.devRef .tc main_arg0) = W8 (F := Ideal) m ρ c (Proc.devRef .tc main_arg0) := by
  back_round2; rfl
theorem keep_a2 : W14 (F := Ideal) m ρ c (Proc.devRef .tc main_arg2) = W8 (F := Ideal) m ρ c (Proc.devRef .tc main_arg2) := by
  back_round2; rfl
theorem keep_a3 : W14 (F := Ideal) m ρ c (Proc.devRef .tc main_arg3) = W8 (F := Ideal) m ρ c (Proc.devRef .tc main_arg3) := by
  back_round2; rfl
theorem keep_a4 : W14 (F := Ideal) m ρ c (Proc.devRef .tc main_arg4) = W8 (F := Ideal) m ρ c (Proc.devRef .tc main_arg4) := by
  back_round2; rfl
theorem keep_a5 : W14 (F := Ideal) m ρ c (Proc.devRef .tc main_arg5) = W8 (F := Ideal) m ρ c (Proc.devRef .tc main_arg5) := by
  back_round2; rfl
theorem keep_a6 : W14 (F := Ideal) m ρ c (Proc.devRef .tc main_arg6) = W8 (F := Ideal) m ρ c (Proc.devRef .tc main_arg6) := by
  back_round2; rfl
theorem keep_a7 : W14 (F := Ideal) m ρ c (Proc.devRef .tc main_arg7) = W8 (F := Ideal) m ρ c (Proc.devRef .tc main_arg7) := by
  back_round2; rfl
theorem keep_a8 : W14 (F := Ideal) m ρ c (Proc.devRef .tc main_arg8) = W8 (F := Ideal) m ρ c (Proc.devRef .tc main_arg8) := by
  back_round2; rfl
theorem keep_a9 : W14 (F := Ideal) m ρ c (Proc.devRef .tc main_arg9) = W8 (F := Ideal) m ρ c (Proc.devRef .tc main_arg9) := by
  back_round2; rfl
theorem keep_a10 : W14 (F := Ideal) m ρ c (Proc.devRef .tc main_arg10) = W8 (F := Ideal) m ρ c (Proc.devRef .tc main_arg10) := by
  back_round2; rfl
theorem keep_a11 : W14 (F := Ideal) m ρ c (Proc.devRef .tc main_arg11) = W8 (F := Ideal) m ρ c (Proc.devRef .tc main_arg11) := by
  back_round2; rfl
theorem keep_row : W14 (F := Ideal) m ρ c (Proc.devRef .tc main_v1) = W8 (F := Ideal) m ρ c (Proc.devRef .tc main_v1) := by
  back_round2; rfl
theorem keep_col : W14 (F := Ideal) m ρ c (Proc.devRef .tc main_v3) = W8 (F := Ideal) m ρ c (Proc.devRef .tc main_v3) := by
  back_round2; rfl

end Boundaries

end Cert.KernelIdeal.Val.ChainRound2

namespace Cert.KernelIdeal.Val

open Idealize.ShloMosaic Idealize.ShloMosaic.TcCoe Idealize.SL.Sem Cert.KernelIdeal Cert.KernelIdeal.Gen
open Idealize.ShloMosaic.ValueIdx

variable [Cert.KernelIdeal.Facts] [Cert.ReferenceIdeal.Facts]
variable (m : (ℓ : Loc nD τ sig) → Buf (Elt Ideal) ℓ) (ρ : Dev nD → PrngReg) (c : Dev nD)

/-- The arguments and index vectors are untouched by round 2's segments. -/
theorem round2_args (A : Args m c (W8 (F := Ideal) m ρ)) : Args m c (W14 (F := Ideal) m ρ) where
  a0 := (ChainRound2.keep_a0 m ρ c).trans A.a0
  a2 := (ChainRound2.keep_a2 m ρ c).trans A.a2
  a3 := (ChainRound2.keep_a3 m ρ c).trans A.a3
  a4 := (ChainRound2.keep_a4 m ρ c).trans A.a4
  a5 := (ChainRound2.keep_a5 m ρ c).trans A.a5
  a6 := (ChainRound2.keep_a6 m ρ c).trans A.a6
  a7 := (ChainRound2.keep_a7 m ρ c).trans A.a7
  a8 := (ChainRound2.keep_a8 m ρ c).trans A.a8
  a9 := (ChainRound2.keep_a9 m ρ c).trans A.a9
  a10 := (ChainRound2.keep_a10 m ρ c).trans A.a10
  a11 := (ChainRound2.keep_a11 m ρ c).trans A.a11
  row := (ChainRound2.keep_row m ρ c).trans A.row
  col := (ChainRound2.keep_col m ρ c).trans A.col

open Cert.KernelIdeal.Val.ChainRound2 in
/-- The node-feature buffer after round 2. -/
theorem round2_h (A : Args m c (W8 (F := Ideal) m ρ)) (h : FVec Ideal S100000x11 .f32)
    (hh : W8 (F := Ideal) m ρ c (Proc.devRef .tc main_v19) = h) :
    W14 (F := Ideal) m ρ c (Proc.devRef .tc main_v33) = roundK (F := Ideal) h (m ((c : Thread nD τ).loc main_arg0)) (rowK (m ((c : Thread nD τ).loc main_arg1))) (colK (m ((c : Thread nD τ).loc main_arg1))) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W14_arr (F := Ideal) m ρ c 8).trans ?_
  refine (reg4_val (V13 (F := Ideal) m ρ) c (m ((c : Thread nD τ).loc main_arg9)) (m ((c : Thread nD τ).loc main_arg11))
    (node_bias1 m ρ c A) (node_bias2 m ρ c A)).trans ?_
  rw [node_mi m ρ c A h hh, node_mo m ρ c A h hh, node_h m ρ c h hh, node_x m ρ c A, node_w1 m ρ c A, node_w2 m ρ c A]
  rfl

end Cert.KernelIdeal.Val

end
-- ==== Proof.RegEdge5.lean ====
/- Region 5 (an edge pass): the arrays its three output windows end holding are the edge gate and the two message
   arrays of the arrays the region finds at entry.
   The grid has 625 points; point t stages rows 5120·t … 5120·t + 5119 of the two gathered arrays (h_row, h_col) and the
   whole weights and biases, and writes back the same rows of the three results. Row p of what the body stores is the gate
   of rows p of the two blocks — the rows of edge 5120·t + p — and that gate times the row's entries; the reference's
   layers read at that edge are the same expressions of the same rows; every edge e is in the block of point e / 5120. -/
import proofs.«409147_j26182120636657_1_alg».proof.Proof.Gen.KernelIdeal.Frame
import proofs.«409147_j26182120636657_1_alg».proof.Proof.Layers
import proofs.«409147_j26182120636657_1_alg».proof.Proof.EdgeRows
import Idealize.ShloMosaic.Lib.ValueIdx
import Idealize.ShloMosaic.Lib.Pipeline.Value
import Idealize.ShloMosaic.PureOps.Ideal.Laws

set_option maxRecDepth 16384

noncomputable section

namespace Cert.KernelIdeal.Val.RegEdge5

open Idealize.ShloMosaic Idealize.ShloMosaic.TcCoe Idealize.SL.Sem Cert.KernelIdeal Cert.KernelIdeal.Gen
open Idealize.ShloMosaic.ValueIdx Cert.Bridge.Edge

variable [Cert.KernelIdeal.Facts] [Cert.ReferenceIdeal.Facts]
variable (V : (c : Dev nD) → (b : Ref sig .tc) → Buf (Elt Ideal) ((c : Thread nD τ).loc b))

/-! ## The body's payloads at an index -/

section Payloads

/-- A block passed through a shape cast to its own shape is the block. -/
theorem pay1_eq (v0 : Vec Ideal S5120x11 .f32) : k5_pay1 (F := Ideal) v0 = v0 := by
  unfold k5_pay1; exact shapeCast_self _ _
theorem pay2_eq (v2 : Vec Ideal S5120x11 .f32) : k5_pay2 (F := Ideal) v2 = v2 := by
  unfold k5_pay2; exact shapeCast_self _ _

/-- The gate the body stores for row `p` of its blocks is the gate of the two blocks' rows `p` (the h_col block first). -/
theorem pay3_apply (v0 v2 : Vec Ideal S5120x11 .f32) (v5 : Vec Ideal S22x8 .f32) (v6 : Vec Ideal S1x8 .f32)
    (v8 : Vec Ideal S8x1 .f32) (v9 : Vec Ideal S1x1 .f32) (p : Fin 5120) :
    k5_pay3 (F := Ideal) v0 v2 v5 v6 v8 v9 (ix2 p (0 : Fin 1))
      = gateRow (fun q => v2 (ix2 p q)) (fun q => v0 (ix2 p q)) v5 (fun j => v6 (ix2 (0 : Fin 1) j)) v8
          (v9 (ix2 (0 : Fin 1) (0 : Fin 1))) := by
  unfold k5_pay3
  simp only [shapeCast_self]
  refine (kernel_gate_apply (k5_pay2 (F := Ideal) v2) (k5_pay1 (F := Ideal) v0) v5 v6 v8 v9 _ _ _ _ p).trans ?_
  rw [pay1_eq, pay2_eq]

/-- The two message payloads: the gate of row `p` times the row's entry. -/
theorem pay4_apply (v0 v2 : Vec Ideal S5120x11 .f32) (v5 : Vec Ideal S22x8 .f32) (v6 : Vec Ideal S1x8 .f32)
    (v8 : Vec Ideal S8x1 .f32) (v9 : Vec Ideal S1x1 .f32) (p : Fin 5120) (q : Fin 11) :
    k5_pay4 (F := Ideal) v0 v2 v5 v6 v8 v9 (ix2 p q)
      = k5_pay3 (F := Ideal) v0 v2 v5 v6 v8 v9 (ix2 p (0 : Fin 1)) * v0 (ix2 p q) := by
  unfold k5_pay4
  rw [pay1_eq]
  exact congrArg (· * v0 (ix2 p q)) (broadcastTo_a1_ab_apply _ _ p q)
theorem pay5_apply (v0 v2 : Vec Ideal S5120x11 .f32) (v5 : Vec Ideal S22x8 .f32) (v6 : Vec Ideal S1x8 .f32)
    (v8 : Vec Ideal S8x1 .f32) (v9 : Vec Ideal S1x1 .f32) (p : Fin 5120) (q : Fin 11) :
    k5_pay5 (F := Ideal) v0 v2 v5 v6 v8 v9 (ix2 p q)
      = k5_pay3 (F := Ideal) v0 v2 v5 v6 v8 v9 (ix2 p (0 : Fin 1)) * v2 (ix2 p q) := by
  unfold k5_pay5
  rw [pay2_eq]
  exact congrArg (· * v2 (ix2 p q)) (broadcastTo_a1_ab_apply _ _ p q)

end Payloads

/-! ## From blocks to the arrays -/

theorem zero_offsets : (![0, 0] : Fin 2 → Nat) = fun _ => 0 := funext fun a => by fin_cases a <;> rfl

/-- The block indices over the grid: at point `t` the two gathered arrays and the three results are at block `(t, 0)`,
    the weights and biases at block `(0, 0)`. -/
theorem idx_facts : ∀ t : Fin grid5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0
    ∧ win5_7.index t (0 : Fin 2) = t.val ∧ win5_7.index t (1 : Fin 2) = 0
    ∧ win5_8.index t (0 : Fin 2) = t.val ∧ win5_8.index t (1 : Fin 2) = 0 :=
  (by decide +kernel : ∀ t : Fin grid5.N, _)

/-- The edge that row `p` of the blocks at point `t` belongs to. -/
def edgeOf (t : Fin cfg5.N) (p : Fin 5120) : Fin 3200000 :=
  ⟨5120 * t.val + p.val, by have := t.isLt; have hN : cfg5.N = 625 := N_5; have := p.isLt; omega⟩

theorem edgeOf_val (t : Fin cfg5.N) (p : Fin 5120) : (edgeOf t p).val = 5120 * t.val + p.val := rfl

/-- Row `p` of the h_row block at point `t` is row `edgeOf t p` of the array. -/
theorem hrow_blk (c : Dev nD) (t : Fin cfg5.N) (p : Fin 5120) (q : Fin 11) :
    iblk5 V c 0 t (ix2 p q) = V c main_v34 (ix2 (edgeOf t p) q) := by
  obtain ⟨e0, e1, -⟩ := idx_facts t
  show V c main_v34 (((cfg5.win 0).blk t).view.emb (ix2 p q)) = V c main_v34 (ix2 (edgeOf t p) q)
  refine congrArg (V c main_v34) (funext fun a => Fin.ext ?_)
  match a with
  | ⟨0, _⟩ => show win5_0.index t (0 : Fin 2) * 5120 + 1 * p.val = 5120 * t.val + p.val; omega
  | ⟨1, _⟩ => show win5_0.index t (1 : Fin 2) * 11 + 1 * q.val = q.val; omega

/-- Row `p` of the h_col block at point `t` is row `edgeOf t p` of the array. -/
theorem hcol_blk (c : Dev nD) (t : Fin cfg5.N) (p : Fin 5120) (q : Fin 11) :
    iblk5 V c 1 t (ix2 p q) = V c main_v35 (ix2 (edgeOf t p) q) := by
  obtain ⟨-, -, e0, e1, -⟩ := idx_facts t
  show V c main_v35 (((cfg5.win 1).blk t).view.emb (ix2 p q)) = V c main_v35 (ix2 (edgeOf t p) q)
  refine congrArg (V c main_v35) (funext fun a => Fin.ext ?_)
  match a with
  | ⟨0, _⟩ => show win5_1.index t (0 : Fin 2) * 5120 + 1 * p.val = 5120 * t.val + p.val; omega
  | ⟨1, _⟩ => show win5_1.index t (1 : Fin 2) * 11 + 1 * q.val = q.val; omega

/-- The blocks of the two weight matrices and of the two biases are the arrays themselves, at every point. -/
theorem w1_blk (c : Dev nD) (t : Fin cfg5.N) :
    @Eq ((⟨2, ![22, 8]⟩ : Shape).Idx → EReal) (iblk5 V c 2 t) (V c main_arg4) := by
  obtain ⟨-, -, -, -, e0, e1, -⟩ := idx_facts t
  refine funext fun (y : S22x8.Idx) => ?_
  show V c main_arg4 (((cfg5.win 2).blk t).view.emb y) = V c main_arg4 y
  refine congrArg (V c main_arg4) (funext fun a => Fin.ext ?_)
  match a with
  | ⟨0, _⟩ => show win5_2.index t (0 : Fin 2) * 22 + 1 * (y 0).val = (y 0).val; omega
  | ⟨1, _⟩ => show win5_2.index t (1 : Fin 2) * 8 + 1 * (y 1).val = (y 1).val; omega
theorem b1_blk (c : Dev nD) (t : Fin cfg5.N) (j : Fin 8) :
    iblk5 V c 3 t (ix2 (0 : Fin 1) j) = V c main_v36 (ix2 (0 : Fin 1) j) := by
  obtain ⟨-, -, -, -, -, -, e0, e1, -⟩ := idx_facts t
  show V c main_v36 (((cfg5.win 3).blk t).view.emb (ix2 (0 : Fin 1) j)) = V c main_v36 (ix2 (0 : Fin 1) j)
  refine congrArg (V c main_v36) (funext fun a => Fin.ext ?_)
  match a with
  | ⟨0, _⟩ => show win5_3.index t (0 : Fin 2) * 1 + 1 * 0 = 0; omega
  | ⟨1, _⟩ => show win5_3.index t (1 : Fin 2) * 8 + 1 * j.val = j.val; omega
theorem w2_blk (c : Dev nD) (t : Fin cfg5.N) :
    @Eq ((⟨2, ![8, 1]⟩ : Shape).Idx → EReal) (iblk5 V c 4 t) (V c main_arg6) := by
  obtain ⟨-, -, -, -, -, -, -, -, e0, e1, -⟩ := idx_facts t
  refine funext fun (y : S8x1.Idx) => ?_
  show V c main_arg6 (((cfg5.win 4).blk t).view.emb y) = V c main_arg6 y
  refine congrArg (V c main_arg6) (funext fun a => Fin.ext ?_)
  match a with
  | ⟨0, _⟩ => show win5_4.index t (0 : Fin 2) * 8 + 1 * (y 0).val = (y 0).val; omega
  | ⟨1, _⟩ => show win5_4.index t (1 : Fin 2) * 1 + 1 * (y 1).val = (y 1).val; omega
theorem b2_blk (c : Dev nD) (t : Fin cfg5.N) :
    iblk5 V c 5 t (ix2 (0 : Fin 1) (0 : Fin 1)) = V c main_v37 (ix2 (0 : Fin 1) (0 : Fin 1)) := by
  obtain ⟨-, -, -, -, -, -, -, -, -, -, e0, e1, -⟩ := idx_facts t
  show V c main_v37 (((cfg5.win 5).blk t).view.emb (ix2 (0 : Fin 1) (0 : Fin 1))) = V c main_v37 (ix2 (0 : Fin 1) (0 : Fin 1))
  refine congrArg (V c main_v37) (funext fun a => Fin.ext ?_)
  match a with
  | ⟨0, _⟩ => show win5_5.index t (0 : Fin 2) * 1 + 1 * 0 = 0; omega
  | ⟨1, _⟩ => show win5_5.index t (1 : Fin 2) * 1 + 1 * 0 = 0; omega

/-- THE GATE OF A BLOCK ROW: what the body computes for row `p` at point `t` is the reference's gate of edge `edgeOf t p`. -/
theorem gate_blk (c : Dev nD) (b1 : FVec Ideal Cert.ReferenceIdeal.S8 .f32) (b2 : FVec Ideal Cert.ReferenceIdeal.S1 .f32)
    (hb1 : ∀ j : Fin 8, V c main_v36 (ix2 (0 : Fin 1) j) = b1 (ix1 j))
    (hb2 : V c main_v37 (ix2 (0 : Fin 1) (0 : Fin 1)) = b2 (ix1 (0 : Fin 1))) (t : Fin cfg5.N) (p : Fin 5120) :
    k5_pay3 (F := Ideal) (iblk5 V c 0 t) (iblk5 V c 1 t) (iblk5 V c 2 t) (iblk5 V c 3 t) (iblk5 V c 4 t) (iblk5 V c 5 t) (ix2 p (0 : Fin 1))
      = Cert.Bridge.edgeL (F := Ideal) (V c main_v35) (V c main_v34) (V c main_arg4) b1 (V c main_arg6) b2 (ix2 (edgeOf t p) (0 : Fin 1)) := by
  refine (pay3_apply (iblk5 V c 0 t) (iblk5 V c 1 t) (iblk5 V c 2 t) (iblk5 V c 3 t) (iblk5 V c 4 t) (iblk5 V c 5 t) p).trans ?_
  refine Eq.trans ?_ (edgeL_apply (V c main_v35) (V c main_v34) (V c main_arg4) b1 (V c main_arg6) b2 (edgeOf t p)).symm
  exact gateRow_congr (funext fun q => hcol_blk V c t p q) (funext fun q => hrow_blk V c t p q) (w1_blk V c t)
    (funext fun j => (b1_blk V c t j).trans (hb1 j)) (w2_blk V c t) ((b2_blk V c t).trans hb2)

/-- Row `p` of an output block at point `t` sits at row `edgeOf t p` of its array: the gate's column, -/
theorem gate_emb (t : Fin cfg5.N) (p : Fin 5120) (q : Fin 1) :
    ((cfg5.win 6).blk t).view.emb (ix2 p q) = ix2 (edgeOf t p) q := by
  obtain ⟨-, -, -, -, -, -, -, -, -, -, -, -, e0, e1, -⟩ := idx_facts t
  refine funext fun a => Fin.ext ?_
  match a with
  | ⟨0, _⟩ => show win5_6.index t (0 : Fin 2) * 5120 + 1 * p.val = 5120 * t.val + p.val; omega
  | ⟨1, _⟩ => show win5_6.index t (1 : Fin 2) * 1 + 1 * q.val = q.val; omega
/-- and the two message arrays' rows. -/
theorem mi_emb (t : Fin cfg5.N) (p : Fin 5120) (q : Fin 11) :
    ((cfg5.win 7).blk t).view.emb (ix2 p q) = ix2 (edgeOf t p) q := by
  obtain ⟨-, -, -, -, -, -, -, -, -, -, -, -, -, -, e0, e1, -⟩ := idx_facts t
  refine funext fun a => Fin.ext ?_
  match a with
  | ⟨0, _⟩ => show win5_7.index t (0 : Fin 2) * 5120 + 1 * p.val = 5120 * t.val + p.val; omega
  | ⟨1, _⟩ => show win5_7.index t (1 : Fin 2) * 11 + 1 * q.val = q.val; omega
theorem mo_emb (t : Fin cfg5.N) (p : Fin 5120) (q : Fin 11) :
    ((cfg5.win 8).blk t).view.emb (ix2 p q) = ix2 (edgeOf t p) q := by
  obtain ⟨-, -, -, -, -, -, -, -, -, -, -, -, -, -, -, -, e0, e1⟩ := idx_facts t
  refine funext fun a => Fin.ext ?_
  match a with
  | ⟨0, _⟩ => show win5_8.index t (0 : Fin 2) * 5120 + 1 * p.val = 5120 * t.val + p.val; omega
  | ⟨1, _⟩ => show win5_8.index t (1 : Fin 2) * 11 + 1 * q.val = q.val; omega

/-- WHAT POINT `t` WRITES BACK to the gate array is block `t` of the reference's gate. -/
theorem flushed_e (c : Dev nD) (b1 : FVec Ideal Cert.ReferenceIdeal.S8 .f32) (b2 : FVec Ideal Cert.ReferenceIdeal.S1 .f32)
    (hb1 : ∀ j : Fin 8, V c main_v36 (ix2 (0 : Fin 1) j) = b1 (ix1 j))
    (hb2 : V c main_v37 (ix2 (0 : Fin 1) (0 : Fin 1)) = b2 (ix1 (0 : Fin 1))) (t : Fin cfg5.N) :
    (dat5 (F := Ideal) V c).flushed 6 t
      = ((cfg5.win 6).blk t).view.read (Elt Ideal)
          (Cert.Bridge.edgeL (F := Ideal) (V c main_v35) (V c main_v34) (V c main_arg4) b1 (V c main_arg6) b2) := by
  show (cfg5.win 6).cut (grid5.coords t) ((dat5 (F := Ideal) V c).after 6 t) = _
  rw [after5_6]
  unfold out5_6
  rw [View.canon_unit_zero zero_offsets]
  simp only [View.ld_unit_zero (S := S5120x11) zero_offsets, View.ld_unit_zero (S := S22x8) zero_offsets,
    View.ld_unit_zero (S := S1x8) zero_offsets, View.ld_unit_zero (S := S8x1) zero_offsets,
    View.ld_unit_zero (S := S1x1) zero_offsets]
  refine funext fun (y : S5120x1.Idx) => ?_
  obtain ⟨p, q, rfl⟩ : ∃ (p : Fin 5120) (q : Fin 1), y = ix2 p q := ⟨y 0, y 1, eq_ix2 y⟩
  obtain rfl : q = 0 := Subsingleton.elim _ _
  show k5_pay3 (F := Ideal) (iblk5 V c 0 t) (iblk5 V c 1 t) (iblk5 V c 2 t) (iblk5 V c 3 t) (iblk5 V c 4 t) (iblk5 V c 5 t) (ix2 p (0 : Fin 1))
    = Cert.Bridge.edgeL (F := Ideal) (V c main_v35) (V c main_v34) (V c main_arg4) b1 (V c main_arg6) b2
        (((cfg5.win 6).blk t).view.emb (ix2 p (0 : Fin 1)))
  rw [gate_emb]
  exact gate_blk V c b1 b2 hb1 hb2 t p

/-- An index of the gate array is in point `t`'s block iff each coordinate is in the block's range on its axis. -/
theorem mem_blk_e (t : Fin cfg5.N) (i : S3200000x1.Idx) :
    i ∈ ((cfg5.win 6).blk t).view.set ↔ ∀ a : Fin 2, win5_6.index t a * S5120x1.size a ≤ (i a).val ∧ (i a).val < win5_6.index t a * S5120x1.size a + S5120x1.size a := by
  show i ∈ ((View.whole main_v38_0).slice (win5_6.rect t)).set ↔ _
  rw [View.set_slice_whole, Rect.mem_set_unit]
  exact Iff.rfl

/-- Every edge's gate is written back by the point that holds the edge's row: point `e / 5120`. -/
theorem cover_e (i : S3200000x1.Idx) :
    ∃ t : Fin cfg5.N, (cfg5.win 6).flush t = true ∧ i ∈ ((cfg5.win 6).blk t).view.set := by
  have hi0 : (i 0).val < 3200000 := (i 0).isLt
  have hi1 : (i 1).val < 1 := (i 1).isLt
  have hN : cfg5.N = 625 := N_5
  have ht : (i 0).val / 5120 < cfg5.N := by omega
  obtain ⟨-, -, -, -, -, -, -, -, -, -, -, -, e0, e1, -⟩ := idx_facts ⟨(i 0).val / 5120, ht⟩
  refine ⟨⟨(i 0).val / 5120, ht⟩, flush5_6 _, ?_⟩
  rw [mem_blk_e]
  intro a
  match a with
  | ⟨0, _⟩ =>
    show win5_6.index ⟨(i 0).val / 5120, ht⟩ (0 : Fin 2) * 5120 ≤ (i 0).val ∧ (i 0).val < win5_6.index ⟨(i 0).val / 5120, ht⟩ (0 : Fin 2) * 5120 + 5120
    rw [e0]; show (i 0).val / 5120 * 5120 ≤ (i 0).val ∧ (i 0).val < (i 0).val / 5120 * 5120 + 5120; omega
  | ⟨1, _⟩ =>
    show win5_6.index ⟨(i 0).val / 5120, ht⟩ (1 : Fin 2) * 1 ≤ (i 1).val ∧ (i 1).val < win5_6.index ⟨(i 0).val / 5120, ht⟩ (1 : Fin 2) * 1 + 1
    rw [e1]; omega

/-- WHAT POINT `t` WRITES BACK to the first message array is block `t` of the gate times the h_row rows. -/
theorem flushed_mi (c : Dev nD) (b1 : FVec Ideal Cert.ReferenceIdeal.S8 .f32) (b2 : FVec Ideal Cert.ReferenceIdeal.S1 .f32)
    (hb1 : ∀ j : Fin 8, V c main_v36 (ix2 (0 : Fin 1) j) = b1 (ix1 j))
    (hb2 : V c main_v37 (ix2 (0 : Fin 1) (0 : Fin 1)) = b2 (ix1 (0 : Fin 1))) (t : Fin cfg5.N) :
    (dat5 (F := Ideal) V c).flushed 7 t
      = ((cfg5.win 7).blk t).view.read (Elt Ideal)
          (Cert.Bridge.msgL (F := Ideal) (Cert.Bridge.edgeL (F := Ideal) (V c main_v35) (V c main_v34) (V c main_arg4) b1 (V c main_arg6) b2) (V c main_v34)) := by
  show (cfg5.win 7).cut (grid5.coords t) ((dat5 (F := Ideal) V c).after 7 t) = _
  rw [after5_7]
  unfold out5_7
  rw [View.canon_unit_zero zero_offsets]
  simp only [View.ld_unit_zero (S := S5120x11) zero_offsets, View.ld_unit_zero (S := S22x8) zero_offsets,
    View.ld_unit_zero (S := S1x8) zero_offsets, View.ld_unit_zero (S := S8x1) zero_offsets,
    View.ld_unit_zero (S := S1x1) zero_offsets]
  refine funext fun (y : S5120x11.Idx) => ?_
  obtain ⟨p, q, rfl⟩ : ∃ (p : Fin 5120) (q : Fin 11), y = ix2 p q := ⟨y 0, y 1, eq_ix2 y⟩
  show k5_pay4 (F := Ideal) (iblk5 V c 0 t) (iblk5 V c 1 t) (iblk5 V c 2 t) (iblk5 V c 3 t) (iblk5 V c 4 t) (iblk5 V c 5 t) (ix2 p q)
    = Cert.Bridge.msgL (F := Ideal) (Cert.Bridge.edgeL (F := Ideal) (V c main_v35) (V c main_v34) (V c main_arg4) b1 (V c main_arg6) b2) (V c main_v34) (((cfg5.win 7).blk t).view.emb (ix2 p q))
  rw [mi_emb]
  refine (pay4_apply (iblk5 V c 0 t) (iblk5 V c 1 t) (iblk5 V c 2 t) (iblk5 V c 3 t) (iblk5 V c 4 t) (iblk5 V c 5 t) p q).trans ?_
  refine Eq.trans ?_ (msgL_apply (Cert.Bridge.edgeL (F := Ideal) (V c main_v35) (V c main_v34) (V c main_arg4) b1 (V c main_arg6) b2) (V c main_v34) (edgeOf t p) q).symm
  exact congrArg₂ (· * ·) (gate_blk V c b1 b2 hb1 hb2 t p) (hrow_blk V c t p q)

/-- An index of the first message array is in point `t`'s block iff each coordinate is in the block's range on its axis. -/
theorem mem_blk_mi (t : Fin cfg5.N) (i : S3200000x11.Idx) :
    i ∈ ((cfg5.win 7).blk t).view.set ↔ ∀ a : Fin 2, win5_7.index t a * S5120x11.size a ≤ (i a).val ∧ (i a).val < win5_7.index t a * S5120x11.size a + S5120x11.size a := by
  show i ∈ ((View.whole main_v38_1).slice (win5_7.rect t)).set ↔ _
  rw [View.set_slice_whole, Rect.mem_set_unit]
  exact Iff.rfl

/-- Every row of the first message array is written back by point `e / 5120`. -/
theorem cover_mi (i : S3200000x11.Idx) :
    ∃ t : Fin cfg5.N, (cfg5.win 7).flush t = true ∧ i ∈ ((cfg5.win 7).blk t).view.set := by
  have hi0 : (i 0).val < 3200000 := (i 0).isLt
  have hi1 : (i 1).val < 11 := (i 1).isLt
  have hN : cfg5.N = 625 := N_5
  have ht : (i 0).val / 5120 < cfg5.N := by omega
  obtain ⟨-, -, -, -, -, -, -, -, -, -, -, -, -, -, e0, e1, -⟩ := idx_facts ⟨(i 0).val / 5120, ht⟩
  refine ⟨⟨(i 0).val / 5120, ht⟩, flush5_7 _, ?_⟩
  rw [mem_blk_mi]
  intro a
  match a with
  | ⟨0, _⟩ =>
    show win5_7.index ⟨(i 0).val / 5120, ht⟩ (0 : Fin 2) * 5120 ≤ (i 0).val ∧ (i 0).val < win5_7.index ⟨(i 0).val / 5120, ht⟩ (0 : Fin 2) * 5120 + 5120
    rw [e0]; show (i 0).val / 5120 * 5120 ≤ (i 0).val ∧ (i 0).val < (i 0).val / 5120 * 5120 + 5120; omega
  | ⟨1, _⟩ =>
    show win5_7.index ⟨(i 0).val / 5120, ht⟩ (1 : Fin 2) * 11 ≤ (i 1).val ∧ (i 1).val < win5_7.index ⟨(i 0).val / 5120, ht⟩ (1 : Fin 2) * 11 + 11
    rw [e1]; omega

/-- WHAT POINT `t` WRITES BACK to the second message array is block `t` of the gate times the h_col rows. -/
theorem flushed_mo (c : Dev nD) (b1 : FVec Ideal Cert.ReferenceIdeal.S8 .f32) (b2 : FVec Ideal Cert.ReferenceIdeal.S1 .f32)
    (hb1 : ∀ j : Fin 8, V c main_v36 (ix2 (0 : Fin 1) j) = b1 (ix1 j))
    (hb2 : V c main_v37 (ix2 (0 : Fin 1) (0 : Fin 1)) = b2 (ix1 (0 : Fin 1))) (t : Fin cfg5.N) :
    (dat5 (F := Ideal) V c).flushed 8 t
      = ((cfg5.win 8).blk t).view.read (Elt Ideal)
          (Cert.Bridge.msgL (F := Ideal) (Cert.Bridge.edgeL (F := Ideal) (V c main_v35) (V c main_v34) (V c main_arg4) b1 (V c main_arg6) b2) (V c main_v35)) := by
  show (cfg5.win 8).cut (grid5.coords t) ((dat5 (F := Ideal) V c).after 8 t) = _
  rw [after5_8]
  unfold out5_8
  rw [View.canon_unit_zero zero_offsets]
  simp only [View.ld_unit_zero (S := S5120x11) zero_offsets, View.ld_unit_zero (S := S22x8) zero_offsets,
    View.ld_unit_zero (S := S1x8) zero_offsets, View.ld_unit_zero (S := S8x1) zero_offsets,
    View.ld_unit_zero (S := S1x1) zero_offsets]
  refine funext fun (y : S5120x11.Idx) => ?_
  obtain ⟨p, q, rfl⟩ : ∃ (p : Fin 5120) (q : Fin 11), y = ix2 p q := ⟨y 0, y 1, eq_ix2 y⟩
  show k5_pay5 (F := Ideal) (iblk5 V c 0 t) (iblk5 V c 1 t) (iblk5 V c 2 t) (iblk5 V c 3 t) (iblk5 V c 4 t) (iblk5 V c 5 t) (ix2 p q)
    = Cert.Bridge.msgL (F := Ideal) (Cert.Bridge.edgeL (F := Ideal) (V c main_v35) (V c main_v34) (V c main_arg4) b1 (V c main_arg6) b2) (V c main_v35) (((cfg5.win 8).blk t).view.emb (ix2 p q))
  rw [mo_emb]
  refine (pay5_apply (iblk5 V c 0 t) (iblk5 V c 1 t) (iblk5 V c 2 t) (iblk5 V c 3 t) (iblk5 V c 4 t) (iblk5 V c 5 t) p q).trans ?_
  refine Eq.trans ?_ (msgL_apply (Cert.Bridge.edgeL (F := Ideal) (V c main_v35) (V c main_v34) (V c main_arg4) b1 (V c main_arg6) b2) (V c main_v35) (edgeOf t p) q).symm
  exact congrArg₂ (· * ·) (gate_blk V c b1 b2 hb1 hb2 t p) (hcol_blk V c t p q)

/-- An index of the second message array is in point `t`'s block iff each coordinate is in the block's range on its axis. -/
theorem mem_blk_mo (t : Fin cfg5.N) (i : S3200000x11.Idx) :
    i ∈ ((cfg5.win 8).blk t).view.set ↔ ∀ a : Fin 2, win5_8.index t a * S5120x11.size a ≤ (i a).val ∧ (i a).val < win5_8.index t a * S5120x11.size a + S5120x11.size a := by
  show i ∈ ((View.whole main_v38_2).slice (win5_8.rect t)).set ↔ _
  rw [View.set_slice_whole, Rect.mem_set_unit]
  exact Iff.rfl

/-- Every row of the second message array is written back by point `e / 5120`. -/
theorem cover_mo (i : S3200000x11.Idx) :
    ∃ t : Fin cfg5.N, (cfg5.win 8).flush t = true ∧ i ∈ ((cfg5.win 8).blk t).view.set := by
  have hi0 : (i 0).val < 3200000 := (i 0).isLt
  have hi1 : (i 1).val < 11 := (i 1).isLt
  have hN : cfg5.N = 625 := N_5
  have ht : (i 0).val / 5120 < cfg5.N := by omega
  obtain ⟨-, -, -, -, -, -, -, -, -, -, -, -, -, -, -, -, e0, e1⟩ := idx_facts ⟨(i 0).val / 5120, ht⟩
  refine ⟨⟨(i 0).val / 5120, ht⟩, flush5_8 _, ?_⟩
  rw [mem_blk_mo]
  intro a
  match a with
  | ⟨0, _⟩ =>
    show win5_8.index ⟨(i 0).val / 5120, ht⟩ (0 : Fin 2) * 5120 ≤ (i 0).val ∧ (i 0).val < win5_8.index ⟨(i 0).val / 5120, ht⟩ (0 : Fin 2) * 5120 + 5120
    rw [e0]; show (i 0).val / 5120 * 5120 ≤ (i 0).val ∧ (i 0).val < (i 0).val / 5120 * 5120 + 5120; omega
  | ⟨1, _⟩ =>
    show win5_8.index ⟨(i 0).val / 5120, ht⟩ (1 : Fin 2) * 11 ≤ (i 1).val ∧ (i 1).val < win5_8.index ⟨(i 0).val / 5120, ht⟩ (1 : Fin 2) * 11 + 11
    rw [e1]; omega

end Cert.KernelIdeal.Val.RegEdge5

namespace Cert.KernelIdeal.Val

open Idealize.ShloMosaic Idealize.ShloMosaic.TcCoe Idealize.SL.Sem Cert.KernelIdeal Cert.KernelIdeal.Gen
open Idealize.ShloMosaic.ValueIdx

variable [Cert.KernelIdeal.Facts] [Cert.ReferenceIdeal.Facts]
variable (V : (c : Dev nD) → (b : Ref sig .tc) → Buf (Elt Ideal) ((c : Thread nD τ).loc b))

/-- Output window 6 of pipeline 5 (the gate, one value per edge) after the 625 grid points. -/
theorem reg5_e (c : Dev nD) (b1 : FVec Ideal Cert.ReferenceIdeal.S8 .f32) (b2 : FVec Ideal Cert.ReferenceIdeal.S1 .f32)
    (hb1 : ∀ j : Fin 8, V c main_v36 (ix2 (0 : Fin 1) j) = b1 (ix1 j))
    (hb2 : V c main_v37 (ix2 (0 : Fin 1) (0 : Fin 1)) = b2 (ix1 (0 : Fin 1))) :
    (dat5 (F := Ideal) V c).arrAt 6 cfg5.N
      = Cert.Bridge.edgeL (F := Ideal) (V c main_v35) (V c main_v34) (V c main_arg4) b1 (V c main_arg6) b2 := by
  exact (dat5 (F := Ideal) V c).arrAt_eq_of_cover 6 (Cert.Bridge.edgeL (F := Ideal) (V c main_v35) (V c main_v34) (V c main_arg4) b1 (V c main_arg6) b2)
    (fun t _ => RegEdge5.flushed_e V c b1 b2 hb1 hb2 t) RegEdge5.cover_e

/-- Output window 7 (gate times the h_row rows). -/
theorem reg5_mi (c : Dev nD) (b1 : FVec Ideal Cert.ReferenceIdeal.S8 .f32) (b2 : FVec Ideal Cert.ReferenceIdeal.S1 .f32)
    (hb1 : ∀ j : Fin 8, V c main_v36 (ix2 (0 : Fin 1) j) = b1 (ix1 j))
    (hb2 : V c main_v37 (ix2 (0 : Fin 1) (0 : Fin 1)) = b2 (ix1 (0 : Fin 1))) :
    (dat5 (F := Ideal) V c).arrAt 7 cfg5.N
      = Cert.Bridge.msgL (F := Ideal) (Cert.Bridge.edgeL (F := Ideal) (V c main_v35) (V c main_v34) (V c main_arg4) b1 (V c main_arg6) b2) (V c main_v34) := by
  exact (dat5 (F := Ideal) V c).arrAt_eq_of_cover 7 (Cert.Bridge.msgL (F := Ideal) (Cert.Bridge.edgeL (F := Ideal) (V c main_v35) (V c main_v34) (V c main_arg4) b1 (V c main_arg6) b2) (V c main_v34))
    (fun t _ => RegEdge5.flushed_mi V c b1 b2 hb1 hb2 t) RegEdge5.cover_mi

/-- Output window 8 (gate times the h_col rows). -/
theorem reg5_mo (c : Dev nD) (b1 : FVec Ideal Cert.ReferenceIdeal.S8 .f32) (b2 : FVec Ideal Cert.ReferenceIdeal.S1 .f32)
    (hb1 : ∀ j : Fin 8, V c main_v36 (ix2 (0 : Fin 1) j) = b1 (ix1 j))
    (hb2 : V c main_v37 (ix2 (0 : Fin 1) (0 : Fin 1)) = b2 (ix1 (0 : Fin 1))) :
    (dat5 (F := Ideal) V c).arrAt 8 cfg5.N
      = Cert.Bridge.msgL (F := Ideal) (Cert.Bridge.edgeL (F := Ideal) (V c main_v35) (V c main_v34) (V c main_arg4) b1 (V c main_arg6) b2) (V c main_v35) := by
  exact (dat5 (F := Ideal) V c).arrAt_eq_of_cover 8 (Cert.Bridge.msgL (F := Ideal) (Cert.Bridge.edgeL (F := Ideal) (V c main_v35) (V c main_v34) (V c main_arg4) b1 (V c main_arg6) b2) (V c main_v35))
    (fun t _ => RegEdge5.flushed_mo V c b1 b2 hb1 hb2 t) RegEdge5.cover_mo

end Cert.KernelIdeal.Val

end
-- ==== Proof.RegNode6.lean ====
/-
  Region 6 (a node update): the array its output window ends holding is the node layer of the entry arrays.

  The grid has 20 points; point `t` reads rows `5000 t … 5000 t + 4999` of mi, mo, h and x, the two weight matrices and
  the two one-row biases whole, and writes the same rows of the output. Row by row the body and the layer are one
  function of the row's entries (the updated row of Proof/NodeRows.lean): the body's payload at row `p` of the blocks,
  the layer at row `5000 t + p` of the arrays. So what point `t` writes back is block `t` of the layer of the entry
  arrays, and the 20 blocks cover the array.
-/
import proofs.«409147_j26182120636657_1_alg».proof.Proof.Gen.KernelIdeal.Frame
import proofs.«409147_j26182120636657_1_alg».proof.Proof.Layers
import proofs.«409147_j26182120636657_1_alg».proof.Proof.NodeRows
import Idealize.ShloMosaic.Lib.ValueIdx
import Idealize.ShloMosaic.Lib.Pipeline.Value
import Idealize.ShloMosaic.PureOps.Ideal.Laws

set_option maxRecDepth 16384

noncomputable section

namespace Cert.KernelIdeal.Val.RegNode6

open Idealize.ShloMosaic Idealize.ShloMosaic.TcCoe Idealize.SL.Sem Cert.KernelIdeal Cert.KernelIdeal.Gen
open Idealize.ShloMosaic.ValueIdx
open Cert.Bridge

/-- Every window's block starts at zero offsets in its staging buffer. -/
theorem cfg6_zero_off : (![0, 0] : Fin 2 → Nat) = fun _ => 0 := funext fun a => by fin_cases a <;> rfl

/-! The index maps, decided over the 20 points: the row-tiled windows (mi, mo, h, x and the output) are at block `t` of
    the rows and block 0 of the columns; the weights and the biases are whole, at block 0 of both axes. -/

theorem win6_0_index : ∀ t : Fin grid6.N, win6_0.index t (0 : Fin 2) = t.val ∧ win6_0.index t (1 : Fin 2) = 0 :=
  (by decide +kernel : ∀ t : Fin grid6.N, _)
theorem win6_1_index : ∀ t : Fin grid6.N, win6_1.index t (0 : Fin 2) = t.val ∧ win6_1.index t (1 : Fin 2) = 0 :=
  (by decide +kernel : ∀ t : Fin grid6.N, _)
theorem win6_2_index : ∀ t : Fin grid6.N, win6_2.index t (0 : Fin 2) = t.val ∧ win6_2.index t (1 : Fin 2) = 0 :=
  (by decide +kernel : ∀ t : Fin grid6.N, _)
theorem win6_3_index : ∀ t : Fin grid6.N, win6_3.index t (0 : Fin 2) = t.val ∧ win6_3.index t (1 : Fin 2) = 0 :=
  (by decide +kernel : ∀ t : Fin grid6.N, _)
theorem win6_4_index : ∀ t : Fin grid6.N, win6_4.index t (0 : Fin 2) = 0 ∧ win6_4.index t (1 : Fin 2) = 0 :=
  (by decide +kernel : ∀ t : Fin grid6.N, _)
theorem win6_5_index : ∀ t : Fin grid6.N, win6_5.index t (0 : Fin 2) = 0 ∧ win6_5.index t (1 : Fin 2) = 0 :=
  (by decide +kernel : ∀ t : Fin grid6.N, _)
theorem win6_6_index : ∀ t : Fin grid6.N, win6_6.index t (0 : Fin 2) = 0 ∧ win6_6.index t (1 : Fin 2) = 0 :=
  (by decide +kernel : ∀ t : Fin grid6.N, _)
theorem win6_7_index : ∀ t : Fin grid6.N, win6_7.index t (0 : Fin 2) = 0 ∧ win6_7.index t (1 : Fin 2) = 0 :=
  (by decide +kernel : ∀ t : Fin grid6.N, _)
theorem win6_8_index : ∀ t : Fin grid6.N, win6_8.index t (0 : Fin 2) = t.val ∧ win6_8.index t (1 : Fin 2) = 0 :=
  (by decide +kernel : ∀ t : Fin grid6.N, _)

variable [Cert.KernelIdeal.Facts] [Cert.ReferenceIdeal.Facts]
variable (V : (c : Dev nD) → (b : Ref sig .tc) → Buf (Elt Ideal) ((c : Thread nD τ).loc b))

/-- The body's payload at row `p` and column `j` of its blocks is the updated row of the blocks' rows `p`. -/
theorem k6_pay1_apply (v0 v2 v4 : Vec Ideal S5000x11 .f32) (v6 : Vec Ideal S5000x3 .f32) (v8 : Vec Ideal S33x8 .f32)
    (v9 : Vec Ideal S1x8 .f32) (v11 : Vec Ideal S8x8 .f32) (v12 : Vec Ideal S1x8 .f32) (p : Fin 5000) (j : Fin 11) :
    k6_pay1 v0 v2 v4 v6 v8 v9 v11 v12 (ix2 p j)
      = Node.updRow (fun q => v0 (ix2 p q)) (fun q => v2 (ix2 p q)) (fun q => v4 (ix2 p q)) (fun q => v6 (ix2 p q))
          (fun k l => v8 (ix2 k l)) (fun l => v9 (ix2 (0 : Fin 1) l)) (fun l j => v11 (ix2 l j))
          (fun l => v12 (ix2 (0 : Fin 1) l)) j := by
  unfold k6_pay1
  exact Node.kernelUpd_apply dot_S5000x33_S33x8_S5000x8_1_0_0_1_n_n rfl dot_S5000x8_S8x8_S5000x8_1_0_0_1_n_n rfl
    bitsLt_bf16_f32 shapeCasts_S5000x11_S5000x11 concatenates_S5000x11_S5000x11_S5000x11_S5000x33_d1
    shapeCasts_S1x8_S1x8 broadcasts_S1x8_S5000x8 concatenates_S5000x8_S5000x3_S5000x11_d1
    v0 v2 v4 v6 v8 v9 v11 v12 p j

/-- Row `p` of mi's block at point `t` is row `5000 t + p` of the array. -/
theorem iblk6_0_row (c : Dev nD) (t : Fin cfg6.N) (p : Fin 5000) (q : Fin 11) (hr : 5000 * t.val + p.val < 100000) :
    iblk6 V c 0 t (ix2 p q) = V c main_v41 (ix2 (⟨5000 * t.val + p.val, hr⟩ : Fin 100000) q) := by
  obtain ⟨e0, e1⟩ := win6_0_index t
  show V c main_v41 (((cfg6.win 0).blk t).view.emb (ix2 p q)) = _
  refine congrArg (V c main_v41) (funext fun a => Fin.ext ?_)
  match a with
  | ⟨0, _⟩ => show win6_0.index t (0 : Fin 2) * 5000 + 1 * p.val = 5000 * t.val + p.val; omega
  | ⟨1, _⟩ => show win6_0.index t (1 : Fin 2) * 11 + 1 * q.val = q.val; omega

/-- Row `p` of mo's block at point `t` is row `5000 t + p` of the array. -/
theorem iblk6_1_row (c : Dev nD) (t : Fin cfg6.N) (p : Fin 5000) (q : Fin 11) (hr : 5000 * t.val + p.val < 100000) :
    iblk6 V c 1 t (ix2 p q) = V c main_v44 (ix2 (⟨5000 * t.val + p.val, hr⟩ : Fin 100000) q) := by
  obtain ⟨e0, e1⟩ := win6_1_index t
  show V c main_v44 (((cfg6.win 1).blk t).view.emb (ix2 p q)) = _
  refine congrArg (V c main_v44) (funext fun a => Fin.ext ?_)
  match a with
  | ⟨0, _⟩ => show win6_1.index t (0 : Fin 2) * 5000 + 1 * p.val = 5000 * t.val + p.val; omega
  | ⟨1, _⟩ => show win6_1.index t (1 : Fin 2) * 11 + 1 * q.val = q.val; omega

/-- Row `p` of h's block at point `t` is row `5000 t + p` of the array. -/
theorem iblk6_2_row (c : Dev nD) (t : Fin cfg6.N) (p : Fin 5000) (q : Fin 11) (hr : 5000 * t.val + p.val < 100000) :
    iblk6 V c 2 t (ix2 p q) = V c main_v33 (ix2 (⟨5000 * t.val + p.val, hr⟩ : Fin 100000) q) := by
  obtain ⟨e0, e1⟩ := win6_2_index t
  show V c main_v33 (((cfg6.win 2).blk t).view.emb (ix2 p q)) = _
  refine congrArg (V c main_v33) (funext fun a => Fin.ext ?_)
  match a with
  | ⟨0, _⟩ => show win6_2.index t (0 : Fin 2) * 5000 + 1 * p.val = 5000 * t.val + p.val; omega
  | ⟨1, _⟩ => show win6_2.index t (1 : Fin 2) * 11 + 1 * q.val = q.val; omega

/-- Row `p` of x's block at point `t` is row `5000 t + p` of the array. -/
theorem iblk6_3_row (c : Dev nD) (t : Fin cfg6.N) (p : Fin 5000) (q : Fin 3) (hr : 5000 * t.val + p.val < 100000) :
    iblk6 V c 3 t (ix2 p q) = V c main_arg0 (ix2 (⟨5000 * t.val + p.val, hr⟩ : Fin 100000) q) := by
  obtain ⟨e0, e1⟩ := win6_3_index t
  show V c main_arg0 (((cfg6.win 3).blk t).view.emb (ix2 p q)) = _
  refine congrArg (V c main_arg0) (funext fun a => Fin.ext ?_)
  match a with
  | ⟨0, _⟩ => show win6_3.index t (0 : Fin 2) * 5000 + 1 * p.val = 5000 * t.val + p.val; omega
  | ⟨1, _⟩ => show win6_3.index t (1 : Fin 2) * 3 + 1 * q.val = q.val; omega

/-- The first weight matrix's block at any point is the whole array. -/
theorem iblk6_4_whole (c : Dev nD) (t : Fin cfg6.N) (k : Fin 33) (l : Fin 8) :
    iblk6 V c 4 t (ix2 k l) = V c main_arg8 (ix2 k l) := by
  obtain ⟨e0, e1⟩ := win6_4_index t
  show V c main_arg8 (((cfg6.win 4).blk t).view.emb (ix2 k l)) = _
  refine congrArg (V c main_arg8) (funext fun a => Fin.ext ?_)
  match a with
  | ⟨0, _⟩ => show win6_4.index t (0 : Fin 2) * 33 + 1 * k.val = k.val; omega
  | ⟨1, _⟩ => show win6_4.index t (1 : Fin 2) * 8 + 1 * l.val = l.val; omega

/-- The first bias row's block at any point is the whole array. -/
theorem iblk6_5_whole (c : Dev nD) (t : Fin cfg6.N) (k : Fin 1) (l : Fin 8) :
    iblk6 V c 5 t (ix2 k l) = V c main_v45 (ix2 k l) := by
  obtain ⟨e0, e1⟩ := win6_5_index t
  show V c main_v45 (((cfg6.win 5).blk t).view.emb (ix2 k l)) = _
  refine congrArg (V c main_v45) (funext fun a => Fin.ext ?_)
  match a with
  | ⟨0, _⟩ => show win6_5.index t (0 : Fin 2) * 1 + 1 * k.val = k.val; omega
  | ⟨1, _⟩ => show win6_5.index t (1 : Fin 2) * 8 + 1 * l.val = l.val; omega

/-- The second weight matrix's block at any point is the whole array. -/
theorem iblk6_6_whole (c : Dev nD) (t : Fin cfg6.N) (k : Fin 8) (l : Fin 8) :
    iblk6 V c 6 t (ix2 k l) = V c main_arg10 (ix2 k l) := by
  obtain ⟨e0, e1⟩ := win6_6_index t
  show V c main_arg10 (((cfg6.win 6).blk t).view.emb (ix2 k l)) = _
  refine congrArg (V c main_arg10) (funext fun a => Fin.ext ?_)
  match a with
  | ⟨0, _⟩ => show win6_6.index t (0 : Fin 2) * 8 + 1 * k.val = k.val; omega
  | ⟨1, _⟩ => show win6_6.index t (1 : Fin 2) * 8 + 1 * l.val = l.val; omega

/-- The second bias row's block at any point is the whole array. -/
theorem iblk6_7_whole (c : Dev nD) (t : Fin cfg6.N) (k : Fin 1) (l : Fin 8) :
    iblk6 V c 7 t (ix2 k l) = V c main_v46 (ix2 k l) := by
  obtain ⟨e0, e1⟩ := win6_7_index t
  show V c main_v46 (((cfg6.win 7).blk t).view.emb (ix2 k l)) = _
  refine congrArg (V c main_v46) (funext fun a => Fin.ext ?_)
  match a with
  | ⟨0, _⟩ => show win6_7.index t (0 : Fin 2) * 1 + 1 * k.val = k.val; omega
  | ⟨1, _⟩ => show win6_7.index t (1 : Fin 2) * 8 + 1 * l.val = l.val; omega

/-- What point `t` writes back is block `t` of the node layer of the entry arrays: the block's row `p` is the updated row
    of the input blocks' rows `p`, which are the arrays' rows `5000 t + p`; the weights are read whole, and the one-row
    biases are the bias vectors. -/
theorem dat6_flushed8 (c : Dev nD) (b1 b2 : FVec Ideal Cert.ReferenceIdeal.S8 .f32)
    (hb1 : ∀ j : Fin 8, V c main_v45 (ix2 (0 : Fin 1) j) = b1 (ix1 j))
    (hb2 : ∀ j : Fin 8, V c main_v46 (ix2 (0 : Fin 1) j) = b2 (ix1 j)) (t : Fin cfg6.N) :
    (dat6 (F := Ideal) V c).flushed 8 t = ((cfg6.win 8).blk t).view.read (Elt Ideal)
      (Cert.Bridge.nodeL (F := Ideal) (V c main_v41) (V c main_v44) (V c main_v33) (V c main_arg0) (V c main_arg8) b1
        (V c main_arg10) b2) := by
  show (cfg6.win 8).cut (grid6.coords t) ((dat6 V c).after 8 t) = _
  rw [after6_8]
  unfold out6_8
  rw [View.canon_unit_zero cfg6_zero_off]
  simp only [View.ld_unit_zero (S := S5000x11) cfg6_zero_off, View.ld_unit_zero (S := S5000x3) cfg6_zero_off,
    View.ld_unit_zero (S := S33x8) cfg6_zero_off, View.ld_unit_zero (S := S1x8) cfg6_zero_off,
    View.ld_unit_zero (S := S8x8) cfg6_zero_off]
  refine funext fun (y : S5000x11.Idx) => ?_
  obtain ⟨p, q, rfl⟩ : ∃ (p : Fin 5000) (q : Fin 11), y = ix2 p q := ⟨y 0, y 1, eq_ix2 y⟩
  obtain ⟨e80, e81⟩ := win6_8_index t
  have ht : t.val < 20 := t.isLt
  have hp : p.val < 5000 := p.isLt
  have hr : 5000 * t.val + p.val < 100000 := by omega
  have hemb : ((cfg6.win 8).blk t).view.emb (ix2 p q) = ix2 (⟨5000 * t.val + p.val, hr⟩ : Fin 100000) q := by
    funext a; apply Fin.ext
    match a with
    | ⟨0, _⟩ => show win6_8.index t (0 : Fin 2) * 5000 + 1 * p.val = 5000 * t.val + p.val; omega
    | ⟨1, _⟩ => show win6_8.index t (1 : Fin 2) * 11 + 1 * q.val = q.val; omega
  show k6_pay1 (iblk6 V c 0 t) (iblk6 V c 1 t) (iblk6 V c 2 t) (iblk6 V c 3 t) (iblk6 V c 4 t) (iblk6 V c 5 t)
      (iblk6 V c 6 t) (iblk6 V c 7 t) (ix2 p q)
    = Cert.Bridge.nodeL (F := Ideal) (V c main_v41) (V c main_v44) (V c main_v33) (V c main_arg0) (V c main_arg8) b1
        (V c main_arg10) b2 (((cfg6.win 8).blk t).view.emb (ix2 p q))
  rw [hemb, Node.nodeL_apply]
  refine (k6_pay1_apply (iblk6 V c 0 t) (iblk6 V c 1 t) (iblk6 V c 2 t) (iblk6 V c 3 t) (iblk6 V c 4 t) (iblk6 V c 5 t)
      (iblk6 V c 6 t) (iblk6 V c 7 t) p q).trans ?_
  have r0 : (fun q' : Fin 11 => iblk6 V c 0 t (ix2 p q'))
      = fun q' => V c main_v41 (ix2 (⟨5000 * t.val + p.val, hr⟩ : Fin 100000) q') :=
    funext fun q' => iblk6_0_row V c t p q' hr
  have r1 : (fun q' : Fin 11 => iblk6 V c 1 t (ix2 p q'))
      = fun q' => V c main_v44 (ix2 (⟨5000 * t.val + p.val, hr⟩ : Fin 100000) q') :=
    funext fun q' => iblk6_1_row V c t p q' hr
  have r2 : (fun q' : Fin 11 => iblk6 V c 2 t (ix2 p q'))
      = fun q' => V c main_v33 (ix2 (⟨5000 * t.val + p.val, hr⟩ : Fin 100000) q') :=
    funext fun q' => iblk6_2_row V c t p q' hr
  have r3 : (fun q' : Fin 3 => iblk6 V c 3 t (ix2 p q'))
      = fun q' => V c main_arg0 (ix2 (⟨5000 * t.val + p.val, hr⟩ : Fin 100000) q') :=
    funext fun q' => iblk6_3_row V c t p q' hr
  have r4 : (fun (k : Fin 33) (l : Fin 8) => iblk6 V c 4 t (ix2 k l)) = fun k l => V c main_arg8 (ix2 k l) :=
    funext fun k => funext fun l => iblk6_4_whole V c t k l
  have r5 : (fun l : Fin 8 => iblk6 V c 5 t (ix2 (0 : Fin 1) l)) = fun l => b1 (ix1 l) :=
    funext fun l => (iblk6_5_whole V c t 0 l).trans (hb1 l)
  have r6 : (fun (k : Fin 8) (l : Fin 8) => iblk6 V c 6 t (ix2 k l)) = fun k l => V c main_arg10 (ix2 k l) :=
    funext fun k => funext fun l => iblk6_6_whole V c t k l
  have r7 : (fun l : Fin 8 => iblk6 V c 7 t (ix2 (0 : Fin 1) l)) = fun l => b2 (ix1 l) :=
    funext fun l => (iblk6_7_whole V c t 0 l).trans (hb2 l)
  rw [r0, r1, r2, r3, r4, r5, r6, r7]

/-- Row `r` of the output array is in the block of point `r / 5000`, at the block's row `r % 5000`: the 20 blocks of 5000
    rows cover the 100000 rows. -/
theorem cfg6_cover8 (i : S100000x11.Idx) :
    ∃ t : Fin cfg6.N, (cfg6.win 8).flush t = true ∧ i ∈ ((cfg6.win 8).blk t).view.set := by
  have hi0 : (i 0).val < 100000 := (i 0).isLt
  have hlt : (i 0).val / 5000 < 20 := by omega
  have hm : (i 0).val % 5000 < 5000 := Nat.mod_lt _ (by omega)
  obtain ⟨t, ht⟩ : ∃ t : Fin cfg6.N, t.val = (i 0).val / 5000 := ⟨⟨(i 0).val / 5000, hlt⟩, rfl⟩
  obtain ⟨e80, e81⟩ := win6_8_index t
  refine ⟨t, flush6_8 t, ?_⟩
  have he : ((cfg6.win 8).blk t).view.emb (ix2 (⟨(i 0).val % 5000, hm⟩ : Fin 5000) (i 1 : Fin 11)) = i := by
    funext a; apply Fin.ext
    match a with
    | ⟨0, _⟩ => show win6_8.index t (0 : Fin 2) * 5000 + 1 * ((i 0).val % 5000) = (i 0).val; omega
    | ⟨1, _⟩ => show win6_8.index t (1 : Fin 2) * 11 + 1 * (i 1).val = (i 1).val; omega
  have h := ((cfg6.win 8).blk t).view.emb_mem_set (ix2 (⟨(i 0).val % 5000, hm⟩ : Fin 5000) (i 1 : Fin 11))
  rw [he] at h
  exact h

end Cert.KernelIdeal.Val.RegNode6

namespace Cert.KernelIdeal.Val

open Idealize.ShloMosaic Idealize.ShloMosaic.TcCoe Idealize.SL.Sem Cert.KernelIdeal Cert.KernelIdeal.Gen
open Idealize.ShloMosaic.ValueIdx
open Cert.Bridge

variable [Cert.KernelIdeal.Facts] [Cert.ReferenceIdeal.Facts]
variable (V : (c : Dev nD) → (b : Ref sig .tc) → Buf (Elt Ideal) ((c : Thread nD τ).loc b))

/-- Output window 8 of pipeline 6 after the 20 grid points. -/
theorem reg6_val (c : Dev nD) (b1 b2 : FVec Ideal Cert.ReferenceIdeal.S8 .f32)
    (hb1 : ∀ j : Fin 8, V c main_v45 (ix2 (0 : Fin 1) j) = b1 (ix1 j))
    (hb2 : ∀ j : Fin 8, V c main_v46 (ix2 (0 : Fin 1) j) = b2 (ix1 j)) :
    (dat6 (F := Ideal) V c).arrAt 8 cfg6.N
      = Cert.Bridge.nodeL (F := Ideal) (V c main_v41) (V c main_v44) (V c main_v33) (V c main_arg0) (V c main_arg8) b1 (V c main_arg10) b2 :=
  (dat6 (F := Ideal) V c).arrAt_eq_of_cover 8 _ (fun t _ => RegNode6.dat6_flushed8 V c b1 b2 hb1 hb2 t)
    RegNode6.cfg6_cover8

end Cert.KernelIdeal.Val

end
-- ==== Proof.ChainRound3.lean ====
/- Round 3 of message passing in the kernel program: @main's segments from boundary 2 to boundary 8 (two fill-mode
   gathers and two bias reshapes on the host, the edge region, two segment sums and two bias reshapes on the host, the node
   region) take node features h in buffer main_v33 to one round of h in buffer main_v47, and leave the arguments and the index
   vectors alone. -/
import proofs.«409147_j26182120636657_1_alg».proof.Proof.Walk
import proofs.«409147_j26182120636657_1_alg».proof.Proof.KDefs
import proofs.«409147_j26182120636657_1_alg».proof.Proof.ChainStart
import proofs.«409147_j26182120636657_1_alg».proof.Proof.RegEdge5
import proofs.«409147_j26182120636657_1_alg».proof.Proof.RegNode6
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Val.ChainRound3

open Idealize.ShloMosaic Idealize.ShloMosaic.TcCoe Idealize.SL.Sem Cert.KernelIdeal Cert.KernelIdeal.Gen
open Idealize.ShloMosaic.ValueIdx Idealize.ShloMosaic.StableHlo Cert.KernelIdeal.Val

variable [Cert.KernelIdeal.Facts] [Cert.ReferenceIdeal.Facts]

/-! ## The host stretches of the round as functions of the contents they start from

Each host stretch is read over arbitrary starting contents V and at any float family: the buffer it writes holds the
named function of the buffers it reads. -/

section Stretches

variable {F : FTy → Type} [FloatOps F]

/-- A value written at a typed reference and read back at the same reference is the value. -/
theorem ofBuf_toBuf {T : BufTy} (r : Ref sig .tc) (p p' : r.ty = T) (q q' : r.space ≠ .host) (s s' : r.isScoped = false)
    (v : T.Contents (Elt F)) :
    (TRef.of r p q s : TRef sig T).ofBuf ((TRef.of r p' q' s' : TRef sig T).toBuf v) = v := by
  subst p; rfl

/-- The first gather: rows of the node features at the row-end indices, in fill mode. -/
theorem take_row (V : Valuation τ sig (Elt F)) :
    StableHlo.after hostOps5 V (Proc.devRef .tc main_v34)
      = takeK (F := F) (V (Proc.devRef .tc main_v33)) (V (Proc.devRef .tc main_v1)) := by
  simp only [hostOps5]
  after_results_simp
  generalize V (Proc.devRef .tc main_v33) = h
  generalize V (Proc.devRef .tc main_v1) = i
  simp only [ofBuf_toBuf]
  have ei : ∀ p q s, (TRef.of main_v1 p q s : TRef sig ⟨S3200000, .i32⟩).ofBuf i = i := fun _ _ _ => rfl
  have eh : ∀ p q s, (TRef.of main_v33 p q s : TRef sig ⟨S100000x11, .f32⟩).ofBuf h = h := fun _ _ _ => rfl
  have eo : ∀ p q s (X : (⟨S3200000x11, .f32⟩ : BufTy).Contents (Elt F)),
      (TRef.of main_v34 p q s : TRef sig ⟨S3200000x11, .f32⟩).toBuf X = X := fun _ _ _ _ => rfl
  simp only [ei, eh, eo]
  rfl

/-- The second gather: rows of the node features at the column-end indices. -/
theorem take_col (V : Valuation τ sig (Elt F)) :
    StableHlo.after hostOps5_1 V (Proc.devRef .tc main_v35)
      = takeK (F := F) (V (Proc.devRef .tc main_v33)) (V (Proc.devRef .tc main_v3)) := by
  simp only [hostOps5_1]
  after_results_simp
  generalize V (Proc.devRef .tc main_v33) = h
  generalize V (Proc.devRef .tc main_v3) = i
  simp only [ofBuf_toBuf]
  have ei : ∀ p q s, (TRef.of main_v3 p q s : TRef sig ⟨S3200000, .i32⟩).ofBuf i = i := fun _ _ _ => rfl
  have eh : ∀ p q s, (TRef.of main_v33 p q s : TRef sig ⟨S100000x11, .f32⟩).ofBuf h = h := fun _ _ _ => rfl
  have eo : ∀ p q s (X : (⟨S3200000x11, .f32⟩ : BufTy).Contents (Elt F)),
      (TRef.of main_v35 p q s : TRef sig ⟨S3200000x11, .f32⟩).toBuf X = X := fun _ _ _ _ => rfl
  simp only [ei, eh, eo]
  rfl

/-- The edge layer's first bias as a one-row matrix. -/
theorem bias_e1 (V : Valuation τ sig (Elt F)) (j : Fin 8) :
    StableHlo.after hostOps5_2 V (Proc.devRef .tc main_v36) (ix2 (0 : Fin 1) j) = V (Proc.devRef .tc main_arg5) (ix1 j) := by
  simp only [hostOps5_2]
  after_results_simp
  exact shapeCast_a_1a_apply _ _ _ _

/-- The edge layer's second bias as a one-by-one matrix. -/
theorem bias_e2 (V : Valuation τ sig (Elt F)) :
    StableHlo.after hostOps5_2 V (Proc.devRef .tc main_v37) (ix2 (0 : Fin 1) (0 : Fin 1))
      = V (Proc.devRef .tc main_arg7) (ix1 (0 : Fin 1)) := by
  simp only [hostOps5_2]
  after_results_simp
  exact shapeCast_a_1a_apply _ _ _ _

/-- The segment sum of the first message array at the column-end indices. -/
theorem seg_col (V : Valuation τ sig (Elt F)) :
    StableHlo.after hostOps6 V (Proc.devRef .tc main_v41)
      = segK (F := F) (V (Proc.devRef .tc main_v38_1)) (V (Proc.devRef .tc main_v3)) := by
  simp only [hostOps6]
  after_results_simp
  rfl

/-- The segment sum of the second message array at the row-end indices. -/
theorem seg_row (V : Valuation τ sig (Elt F)) :
    StableHlo.after hostOps6 V (Proc.devRef .tc main_v44)
      = segK (F := F) (V (Proc.devRef .tc main_v38_2)) (V (Proc.devRef .tc main_v1)) := by
  simp only [hostOps6]
  after_results_simp
  rfl

/-- The node layer's first bias as a one-row matrix. -/
theorem bias_n1 (V : Valuation τ sig (Elt F)) (j : Fin 8) :
    StableHlo.after hostOps6 V (Proc.devRef .tc main_v45) (ix2 (0 : Fin 1) j) = V (Proc.devRef .tc main_arg9) (ix1 j) := by
  simp only [hostOps6]
  after_results_simp
  exact shapeCast_a_1a_apply _ _ _ _

/-- The node layer's second bias as a one-row matrix. -/
theorem bias_n2 (V : Valuation τ sig (Elt F)) (j : Fin 8) :
    StableHlo.after hostOps6 V (Proc.devRef .tc main_v46) (ix2 (0 : Fin 1) j) = V (Proc.devRef .tc main_arg11) (ix1 j) := by
  simp only [hostOps6]
  after_results_simp
  exact shapeCast_a_1a_apply _ _ _ _

end Stretches

/-! ## The buffers at the edge region's entry, at its exit, and at the node region's entry -/

section Boundaries

variable (m : (ℓ : Loc nD τ sig) → Buf (Elt Ideal) ℓ) (ρ : Dev nD → PrngReg) (c : Dev nD)

/-- The rows gathered at the row-end indices, at the edge region's entry. -/
theorem edge_hrow (A : Args m c (W14 (F := Ideal) m ρ)) (h : FVec Ideal S100000x11 .f32) (hh : W14 (F := Ideal) m ρ c (Proc.devRef .tc main_v33) = h) : V17 (F := Ideal) m ρ c main_v34 = takeK (F := Ideal) h (rowK (m ((c : Thread nD τ).loc main_arg1))) := by
  show W17 (F := Ideal) m ρ c (Proc.devRef .tc main_v34) = _
  back_h; back_h
  refine (take_row (W14 (F := Ideal) m ρ c)).trans ?_
  rw [hh, A.row]

/-- The rows gathered at the column-end indices, at the edge region's entry. -/
theorem edge_hcol (A : Args m c (W14 (F := Ideal) m ρ)) (h : FVec Ideal S100000x11 .f32) (hh : W14 (F := Ideal) m ρ c (Proc.devRef .tc main_v33) = h) : V17 (F := Ideal) m ρ c main_v35 = takeK (F := Ideal) h (colK (m ((c : Thread nD τ).loc main_arg1))) := by
  show W17 (F := Ideal) m ρ c (Proc.devRef .tc main_v35) = _
  back_h
  refine (take_col (W15 (F := Ideal) m ρ c)).trans ?_
  have eh : W15 (F := Ideal) m ρ c (Proc.devRef .tc main_v33) = h := by back_h; exact hh
  have ei : W15 (F := Ideal) m ρ c (Proc.devRef .tc main_v3) = colK (m ((c : Thread nD τ).loc main_arg1)) := by
    back_h; exact A.col
  rw [eh, ei]

/-- The edge layer's first bias window at the edge region's entry. -/
theorem edge_bias1 (A : Args m c (W14 (F := Ideal) m ρ)) (j : Fin 8) :
    V17 (F := Ideal) m ρ c main_v36 (ix2 (0 : Fin 1) j) = m ((c : Thread nD τ).loc main_arg5) (ix1 j) := by
  show W17 (F := Ideal) m ρ c (Proc.devRef .tc main_v36) (ix2 (0 : Fin 1) j) = _
  refine (bias_e1 (W16 (F := Ideal) m ρ c) j).trans ?_
  have e : W16 (F := Ideal) m ρ c (Proc.devRef .tc main_arg5) = m ((c : Thread nD τ).loc main_arg5) := by
    back_h; back_h; exact A.a5
  rw [e]

/-- The edge layer's second bias window at the edge region's entry. -/
theorem edge_bias2 (A : Args m c (W14 (F := Ideal) m ρ)) :
    V17 (F := Ideal) m ρ c main_v37 (ix2 (0 : Fin 1) (0 : Fin 1)) = m ((c : Thread nD τ).loc main_arg7) (ix1 (0 : Fin 1)) := by
  show W17 (F := Ideal) m ρ c (Proc.devRef .tc main_v37) (ix2 (0 : Fin 1) (0 : Fin 1)) = _
  refine (bias_e2 (W16 (F := Ideal) m ρ c)).trans ?_
  have e : W16 (F := Ideal) m ρ c (Proc.devRef .tc main_arg7) = m ((c : Thread nD τ).loc main_arg7) := by
    back_h; back_h; exact A.a7
  rw [e]

/-- The edge layer's first weight at the edge region's entry. -/
theorem edge_w1 (A : Args m c (W14 (F := Ideal) m ρ)) : V17 (F := Ideal) m ρ c main_arg4 = m ((c : Thread nD τ).loc main_arg4) := by
  show W17 (F := Ideal) m ρ c (Proc.devRef .tc main_arg4) = _
  back_h; back_h; back_h; exact A.a4

/-- The edge layer's second weight at the edge region's entry. -/
theorem edge_w2 (A : Args m c (W14 (F := Ideal) m ρ)) : V17 (F := Ideal) m ρ c main_arg6 = m ((c : Thread nD τ).loc main_arg6) := by
  show W17 (F := Ideal) m ρ c (Proc.devRef .tc main_arg6) = _
  back_h; back_h; back_h; exact A.a6

/-- The first message array (the gate times the row-end rows) at the edge region's exit. -/
theorem msg_in (A : Args m c (W14 (F := Ideal) m ρ)) (h : FVec Ideal S100000x11 .f32) (hh : W14 (F := Ideal) m ρ c (Proc.devRef .tc main_v33) = h) : W18 (F := Ideal) m ρ c (Proc.devRef .tc main_v38_1)
    = Cert.Bridge.msgL (F := Ideal)
        (gateK (F := Ideal) h (rowK (m ((c : Thread nD τ).loc main_arg1))) (colK (m ((c : Thread nD τ).loc main_arg1)))
          (m ((c : Thread nD τ).loc main_arg4)) (m ((c : Thread nD τ).loc main_arg5)) (m ((c : Thread nD τ).loc main_arg6))
          (m ((c : Thread nD τ).loc main_arg7)))
        (takeK (F := Ideal) h (rowK (m ((c : Thread nD τ).loc main_arg1)))) := by
  refine (W18_arr (F := Ideal) m ρ c 7).trans ?_
  refine (reg5_mi (V17 (F := Ideal) m ρ) c (m ((c : Thread nD τ).loc main_arg5)) (m ((c : Thread nD τ).loc main_arg7))
    (edge_bias1 m ρ c A) (edge_bias2 m ρ c A)).trans ?_
  rw [edge_hrow m ρ c A h hh, edge_hcol m ρ c A h hh, edge_w1 m ρ c A, edge_w2 m ρ c A]
  rfl

/-- The second message array (the gate times the column-end rows) at the edge region's exit. -/
theorem msg_out (A : Args m c (W14 (F := Ideal) m ρ)) (h : FVec Ideal S100000x11 .f32) (hh : W14 (F := Ideal) m ρ c (Proc.devRef .tc main_v33) = h) : W18 (F := Ideal) m ρ c (Proc.devRef .tc main_v38_2)
    = Cert.Bridge.msgL (F := Ideal)
        (gateK (F := Ideal) h (rowK (m ((c : Thread nD τ).loc main_arg1))) (colK (m ((c : Thread nD τ).loc main_arg1)))
          (m ((c : Thread nD τ).loc main_arg4)) (m ((c : Thread nD τ).loc main_arg5)) (m ((c : Thread nD τ).loc main_arg6))
          (m ((c : Thread nD τ).loc main_arg7)))
        (takeK (F := Ideal) h (colK (m ((c : Thread nD τ).loc main_arg1)))) := by
  refine (W18_arr (F := Ideal) m ρ c 8).trans ?_
  refine (reg5_mo (V17 (F := Ideal) m ρ) c (m ((c : Thread nD τ).loc main_arg5)) (m ((c : Thread nD τ).loc main_arg7))
    (edge_bias1 m ρ c A) (edge_bias2 m ρ c A)).trans ?_
  rw [edge_hrow m ρ c A h hh, edge_hcol m ρ c A h hh, edge_w1 m ρ c A, edge_w2 m ρ c A]
  rfl

/-- The first segment sum at the node region's entry. -/
theorem node_mi (A : Args m c (W14 (F := Ideal) m ρ)) (h : FVec Ideal S100000x11 .f32) (hh : W14 (F := Ideal) m ρ c (Proc.devRef .tc main_v33) = h) : V19 (F := Ideal) m ρ c main_v41
    = segK (F := Ideal) (Cert.Bridge.msgL (F := Ideal)
        (gateK (F := Ideal) h (rowK (m ((c : Thread nD τ).loc main_arg1))) (colK (m ((c : Thread nD τ).loc main_arg1)))
          (m ((c : Thread nD τ).loc main_arg4)) (m ((c : Thread nD τ).loc main_arg5)) (m ((c : Thread nD τ).loc main_arg6))
          (m ((c : Thread nD τ).loc main_arg7)))
        (takeK (F := Ideal) h (rowK (m ((c : Thread nD τ).loc main_arg1))))) (colK (m ((c : Thread nD τ).loc main_arg1))) := by
  show W19 (F := Ideal) m ρ c (Proc.devRef .tc main_v41) = _
  refine (seg_col (W18 (F := Ideal) m ρ c)).trans ?_
  have ei : W18 (F := Ideal) m ρ c (Proc.devRef .tc main_v3) = colK (m ((c : Thread nD τ).loc main_arg1)) := by
    back_r5; back_h; back_h; back_h; exact A.col
  rw [msg_in m ρ c A h hh, ei]

/-- The second segment sum at the node region's entry. -/
theorem node_mo (A : Args m c (W14 (F := Ideal) m ρ)) (h : FVec Ideal S100000x11 .f32) (hh : W14 (F := Ideal) m ρ c (Proc.devRef .tc main_v33) = h) : V19 (F := Ideal) m ρ c main_v44
    = segK (F := Ideal) (Cert.Bridge.msgL (F := Ideal)
        (gateK (F := Ideal) h (rowK (m ((c : Thread nD τ).loc main_arg1))) (colK (m ((c : Thread nD τ).loc main_arg1)))
          (m ((c : Thread nD τ).loc main_arg4)) (m ((c : Thread nD τ).loc main_arg5)) (m ((c : Thread nD τ).loc main_arg6))
          (m ((c : Thread nD τ).loc main_arg7)))
        (takeK (F := Ideal) h (colK (m ((c : Thread nD τ).loc main_arg1))))) (rowK (m ((c : Thread nD τ).loc main_arg1))) := by
  show W19 (F := Ideal) m ρ c (Proc.devRef .tc main_v44) = _
  refine (seg_row (W18 (F := Ideal) m ρ c)).trans ?_
  have ei : W18 (F := Ideal) m ρ c (Proc.devRef .tc main_v1) = rowK (m ((c : Thread nD τ).loc main_arg1)) := by
    back_r5; back_h; back_h; back_h; exact A.row
  rw [msg_out m ρ c A h hh, ei]

/-- The node layer's first bias window at the node region's entry. -/
theorem node_bias1 (A : Args m c (W14 (F := Ideal) m ρ)) (j : Fin 8) :
    V19 (F := Ideal) m ρ c main_v45 (ix2 (0 : Fin 1) j) = m ((c : Thread nD τ).loc main_arg9) (ix1 j) := by
  show W19 (F := Ideal) m ρ c (Proc.devRef .tc main_v45) (ix2 (0 : Fin 1) j) = _
  refine (bias_n1 (W18 (F := Ideal) m ρ c) j).trans ?_
  have e : W18 (F := Ideal) m ρ c (Proc.devRef .tc main_arg9) = m ((c : Thread nD τ).loc main_arg9) := by
    back_r5; back_h; back_h; back_h; exact A.a9
  rw [e]

/-- The node layer's second bias window at the node region's entry. -/
theorem node_bias2 (A : Args m c (W14 (F := Ideal) m ρ)) (j : Fin 8) :
    V19 (F := Ideal) m ρ c main_v46 (ix2 (0 : Fin 1) j) = m ((c : Thread nD τ).loc main_arg11) (ix1 j) := by
  show W19 (F := Ideal) m ρ c (Proc.devRef .tc main_v46) (ix2 (0 : Fin 1) j) = _
  refine (bias_n2 (W18 (F := Ideal) m ρ c) j).trans ?_
  have e : W18 (F := Ideal) m ρ c (Proc.devRef .tc main_arg11) = m ((c : Thread nD τ).loc main_arg11) := by
    back_r5; back_h; back_h; back_h; exact A.a11
  rw [e]

/-- The node features at the node region's entry are the round's input. -/
theorem node_h (h : FVec Ideal S100000x11 .f32) (hh : W14 (F := Ideal) m ρ c (Proc.devRef .tc main_v33) = h) : V19 (F := Ideal) m ρ c main_v33 = h := by
  show W19 (F := Ideal) m ρ c (Proc.devRef .tc main_v33) = _
  back_h; back_r5; back_h; back_h; back_h; exact hh

/-- The raw node inputs at the node region's entry. -/
theorem node_x (A : Args m c (W14 (F := Ideal) m ρ)) : V19 (F := Ideal) m ρ c main_arg0 = m ((c : Thread nD τ).loc main_arg0) := by
  show W19 (F := Ideal) m ρ c (Proc.devRef .tc main_arg0) = _
  back_h; back_r5; back_h; back_h; back_h; exact A.a0

/-- The node layer's first weight at the node region's entry. -/
theorem node_w1 (A : Args m c (W14 (F := Ideal) m ρ)) : V19 (F := Ideal) m ρ c main_arg8 = m ((c : Thread nD τ).loc main_arg8) := by
  show W19 (F := Ideal) m ρ c (Proc.devRef .tc main_arg8) = _
  back_h; back_r5; back_h; back_h; back_h; exact A.a8

/-- The node layer's second weight at the node region's entry. -/
theorem node_w2 (A : Args m c (W14 (F := Ideal) m ρ)) : V19 (F := Ideal) m ρ c main_arg10 = m ((c : Thread nD τ).loc main_arg10) := by
  show W19 (F := Ideal) m ρ c (Proc.devRef .tc main_arg10) = _
  back_h; back_r5; back_h; back_h; back_h; exact A.a10

/-! ## The arguments and the index vectors: no segment of the round writes them -/

theorem keep_a0 : W20 (F := Ideal) m ρ c (Proc.devRef .tc main_arg0) = W14 (F := Ideal) m ρ c (Proc.devRef .tc main_arg0) := by
  back_round3; rfl
theorem keep_a2 : W20 (F := Ideal) m ρ c (Proc.devRef .tc main_arg2) = W14 (F := Ideal) m ρ c (Proc.devRef .tc main_arg2) := by
  back_round3; rfl
theorem keep_a3 : W20 (F := Ideal) m ρ c (Proc.devRef .tc main_arg3) = W14 (F := Ideal) m ρ c (Proc.devRef .tc main_arg3) := by
  back_round3; rfl
theorem keep_a4 : W20 (F := Ideal) m ρ c (Proc.devRef .tc main_arg4) = W14 (F := Ideal) m ρ c (Proc.devRef .tc main_arg4) := by
  back_round3; rfl
theorem keep_a5 : W20 (F := Ideal) m ρ c (Proc.devRef .tc main_arg5) = W14 (F := Ideal) m ρ c (Proc.devRef .tc main_arg5) := by
  back_round3; rfl
theorem keep_a6 : W20 (F := Ideal) m ρ c (Proc.devRef .tc main_arg6) = W14 (F := Ideal) m ρ c (Proc.devRef .tc main_arg6) := by
  back_round3; rfl
theorem keep_a7 : W20 (F := Ideal) m ρ c (Proc.devRef .tc main_arg7) = W14 (F := Ideal) m ρ c (Proc.devRef .tc main_arg7) := by
  back_round3; rfl
theorem keep_a8 : W20 (F := Ideal) m ρ c (Proc.devRef .tc main_arg8) = W14 (F := Ideal) m ρ c (Proc.devRef .tc main_arg8) := by
  back_round3; rfl
theorem keep_a9 : W20 (F := Ideal) m ρ c (Proc.devRef .tc main_arg9) = W14 (F := Ideal) m ρ c (Proc.devRef .tc main_arg9) := by
  back_round3; rfl
theorem keep_a10 : W20 (F := Ideal) m ρ c (Proc.devRef .tc main_arg10) = W14 (F := Ideal) m ρ c (Proc.devRef .tc main_arg10) := by
  back_round3; rfl
theorem keep_a11 : W20 (F := Ideal) m ρ c (Proc.devRef .tc main_arg11) = W14 (F := Ideal) m ρ c (Proc.devRef .tc main_arg11) := by
  back_round3; rfl
theorem keep_row : W20 (F := Ideal) m ρ c (Proc.devRef .tc main_v1) = W14 (F := Ideal) m ρ c (Proc.devRef .tc main_v1) := by
  back_round3; rfl
theorem keep_col : W20 (F := Ideal) m ρ c (Proc.devRef .tc main_v3) = W14 (F := Ideal) m ρ c (Proc.devRef .tc main_v3) := by
  back_round3; rfl

end Boundaries

end Cert.KernelIdeal.Val.ChainRound3

namespace Cert.KernelIdeal.Val

open Idealize.ShloMosaic Idealize.ShloMosaic.TcCoe Idealize.SL.Sem Cert.KernelIdeal Cert.KernelIdeal.Gen
open Idealize.ShloMosaic.ValueIdx

variable [Cert.KernelIdeal.Facts] [Cert.ReferenceIdeal.Facts]
variable (m : (ℓ : Loc nD τ sig) → Buf (Elt Ideal) ℓ) (ρ : Dev nD → PrngReg) (c : Dev nD)

/-- The arguments and index vectors are untouched by round 3's segments. -/
theorem round3_args (A : Args m c (W14 (F := Ideal) m ρ)) : Args m c (W20 (F := Ideal) m ρ) where
  a0 := (ChainRound3.keep_a0 m ρ c).trans A.a0
  a2 := (ChainRound3.keep_a2 m ρ c).trans A.a2
  a3 := (ChainRound3.keep_a3 m ρ c).trans A.a3
  a4 := (ChainRound3.keep_a4 m ρ c).trans A.a4
  a5 := (ChainRound3.keep_a5 m ρ c).trans A.a5
  a6 := (ChainRound3.keep_a6 m ρ c).trans A.a6
  a7 := (ChainRound3.keep_a7 m ρ c).trans A.a7
  a8 := (ChainRound3.keep_a8 m ρ c).trans A.a8
  a9 := (ChainRound3.keep_a9 m ρ c).trans A.a9
  a10 := (ChainRound3.keep_a10 m ρ c).trans A.a10
  a11 := (ChainRound3.keep_a11 m ρ c).trans A.a11
  row := (ChainRound3.keep_row m ρ c).trans A.row
  col := (ChainRound3.keep_col m ρ c).trans A.col

open Cert.KernelIdeal.Val.ChainRound3 in
/-- The node-feature buffer after round 3. -/
theorem round3_h (A : Args m c (W14 (F := Ideal) m ρ)) (h : FVec Ideal S100000x11 .f32)
    (hh : W14 (F := Ideal) m ρ c (Proc.devRef .tc main_v33) = h) :
    W20 (F := Ideal) m ρ c (Proc.devRef .tc main_v47) = roundK (F := Ideal) h (m ((c : Thread nD τ).loc main_arg0)) (rowK (m ((c : Thread nD τ).loc main_arg1))) (colK (m ((c : Thread nD τ).loc main_arg1))) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W20_arr (F := Ideal) m ρ c 8).trans ?_
  refine (reg6_val (V19 (F := Ideal) m ρ) c (m ((c : Thread nD τ).loc main_arg9)) (m ((c : Thread nD τ).loc main_arg11))
    (node_bias1 m ρ c A) (node_bias2 m ρ c A)).trans ?_
  rw [node_mi m ρ c A h hh, node_mo m ρ c A h hh, node_h m ρ c h hh, node_x m ρ c A, node_w1 m ρ c A, node_w2 m ρ c A]
  rfl

end Cert.KernelIdeal.Val

end
-- ==== Proof.RegEonly7.lean ====
/-
  Region 7 (the last edge pass, gate only): the array its one output window ends holding is the edge gate of the entry
  arrays.

  The grid has 625 points; point `t` reads rows `5120 t … 5120 t + 5119` of the two gathered arrays, the two weight
  matrices and the two one-row biases whole, and writes the same rows of the gate's column. Row by row the body and the
  layer are one function of the edge's two rows and the weights (the gate of Proof/EdgeRows.lean): the body's payload at
  row `p` of the blocks, the layer at row `5120 t + p` of the arrays. So what point `t` writes back is block `t` of the
  edge gate of the entry arrays, and the 625 blocks cover the 3200000 rows.
-/
import proofs.«409147_j26182120636657_1_alg».proof.Proof.Gen.KernelIdeal.Frame
import proofs.«409147_j26182120636657_1_alg».proof.Proof.Layers
import proofs.«409147_j26182120636657_1_alg».proof.Proof.EdgeRows
import Idealize.ShloMosaic.Lib.ValueIdx
import Idealize.ShloMosaic.Lib.Pipeline.Value
import Idealize.ShloMosaic.PureOps.Ideal.Laws

set_option maxRecDepth 16384

noncomputable section

namespace Cert.KernelIdeal.Val.RegEonly7

open Idealize.ShloMosaic Idealize.ShloMosaic.TcCoe Idealize.SL.Sem Cert.KernelIdeal Cert.KernelIdeal.Gen
open Idealize.ShloMosaic.ValueIdx
open Cert.Bridge

/-- Every window's block starts at zero offsets in its staging buffer. -/
theorem zero_off : (![0, 0] : Fin 2 → Nat) = fun _ => 0 := funext fun a => by fin_cases a <;> rfl

/-! The index maps, decided over the 625 points: the row-tiled windows (the two gathered arrays and the gate) are at block
    `t` of the rows and block 0 of the columns; the weights and the biases are whole, at block 0 of both axes. -/

theorem win0_index : ∀ t : Fin grid7.N, win7_0.index t (0 : Fin 2) = t.val ∧ win7_0.index t (1 : Fin 2) = 0 :=
  (by decide +kernel : ∀ t : Fin grid7.N, _)
theorem win1_index : ∀ t : Fin grid7.N, win7_1.index t (0 : Fin 2) = t.val ∧ win7_1.index t (1 : Fin 2) = 0 :=
  (by decide +kernel : ∀ t : Fin grid7.N, _)
theorem win2_index : ∀ t : Fin grid7.N, win7_2.index t (0 : Fin 2) = 0 ∧ win7_2.index t (1 : Fin 2) = 0 :=
  (by decide +kernel : ∀ t : Fin grid7.N, _)
theorem win3_index : ∀ t : Fin grid7.N, win7_3.index t (0 : Fin 2) = 0 ∧ win7_3.index t (1 : Fin 2) = 0 :=
  (by decide +kernel : ∀ t : Fin grid7.N, _)
theorem win4_index : ∀ t : Fin grid7.N, win7_4.index t (0 : Fin 2) = 0 ∧ win7_4.index t (1 : Fin 2) = 0 :=
  (by decide +kernel : ∀ t : Fin grid7.N, _)
theorem win5_index : ∀ t : Fin grid7.N, win7_5.index t (0 : Fin 2) = 0 ∧ win7_5.index t (1 : Fin 2) = 0 :=
  (by decide +kernel : ∀ t : Fin grid7.N, _)
theorem win6_index : ∀ t : Fin grid7.N, win7_6.index t (0 : Fin 2) = t.val ∧ win7_6.index t (1 : Fin 2) = 0 :=
  (by decide +kernel : ∀ t : Fin grid7.N, _)

variable [Cert.KernelIdeal.Facts] [Cert.ReferenceIdeal.Facts]
variable (V : (c : Dev nD) → (b : Ref sig .tc) → Buf (Elt Ideal) ((c : Thread nD τ).loc b))

/-- Row `p` of the h_row block at point `t` is row `5120 t + p` of the array. -/
theorem blk0_row (c : Dev nD) (t : Fin cfg7.N) (p : Fin 5120) (q : Fin 11) (hr : 5120 * t.val + p.val < 3200000) :
    iblk7 V c 0 t (ix2 p q) = V c main_v48 (ix2 (⟨5120 * t.val + p.val, hr⟩ : Fin 3200000) q) := by
  obtain ⟨e0, e1⟩ := win0_index t
  show V c main_v48 (((cfg7.win 0).blk t).view.emb (ix2 p q)) = _
  refine congrArg (V c main_v48) (funext fun a => Fin.ext ?_)
  match a with
  | ⟨0, _⟩ => show win7_0.index t (0 : Fin 2) * 5120 + 1 * p.val = 5120 * t.val + p.val; omega
  | ⟨1, _⟩ => show win7_0.index t (1 : Fin 2) * 11 + 1 * q.val = q.val; omega

/-- Row `p` of the h_col block at point `t` is row `5120 t + p` of the array. -/
theorem blk1_row (c : Dev nD) (t : Fin cfg7.N) (p : Fin 5120) (q : Fin 11) (hr : 5120 * t.val + p.val < 3200000) :
    iblk7 V c 1 t (ix2 p q) = V c main_v49 (ix2 (⟨5120 * t.val + p.val, hr⟩ : Fin 3200000) q) := by
  obtain ⟨e0, e1⟩ := win1_index t
  show V c main_v49 (((cfg7.win 1).blk t).view.emb (ix2 p q)) = _
  refine congrArg (V c main_v49) (funext fun a => Fin.ext ?_)
  match a with
  | ⟨0, _⟩ => show win7_1.index t (0 : Fin 2) * 5120 + 1 * p.val = 5120 * t.val + p.val; omega
  | ⟨1, _⟩ => show win7_1.index t (1 : Fin 2) * 11 + 1 * q.val = q.val; omega

/-- The first weight matrix's block at any point is the whole array. -/
theorem blk2_whole (c : Dev nD) (t : Fin cfg7.N) (k : Fin 22) (l : Fin 8) :
    iblk7 V c 2 t (ix2 k l) = V c main_arg4 (ix2 k l) := by
  obtain ⟨e0, e1⟩ := win2_index t
  show V c main_arg4 (((cfg7.win 2).blk t).view.emb (ix2 k l)) = _
  refine congrArg (V c main_arg4) (funext fun a => Fin.ext ?_)
  match a with
  | ⟨0, _⟩ => show win7_2.index t (0 : Fin 2) * 22 + 1 * k.val = k.val; omega
  | ⟨1, _⟩ => show win7_2.index t (1 : Fin 2) * 8 + 1 * l.val = l.val; omega

/-- The first bias row's block at any point is the whole array. -/
theorem blk3_whole (c : Dev nD) (t : Fin cfg7.N) (k : Fin 1) (l : Fin 8) :
    iblk7 V c 3 t (ix2 k l) = V c main_v50 (ix2 k l) := by
  obtain ⟨e0, e1⟩ := win3_index t
  show V c main_v50 (((cfg7.win 3).blk t).view.emb (ix2 k l)) = _
  refine congrArg (V c main_v50) (funext fun a => Fin.ext ?_)
  match a with
  | ⟨0, _⟩ => show win7_3.index t (0 : Fin 2) * 1 + 1 * k.val = k.val; omega
  | ⟨1, _⟩ => show win7_3.index t (1 : Fin 2) * 8 + 1 * l.val = l.val; omega

/-- The second weight matrix's block at any point is the whole array. -/
theorem blk4_whole (c : Dev nD) (t : Fin cfg7.N) (k : Fin 8) (l : Fin 1) :
    iblk7 V c 4 t (ix2 k l) = V c main_arg6 (ix2 k l) := by
  obtain ⟨e0, e1⟩ := win4_index t
  show V c main_arg6 (((cfg7.win 4).blk t).view.emb (ix2 k l)) = _
  refine congrArg (V c main_arg6) (funext fun a => Fin.ext ?_)
  match a with
  | ⟨0, _⟩ => show win7_4.index t (0 : Fin 2) * 8 + 1 * k.val = k.val; omega
  | ⟨1, _⟩ => show win7_4.index t (1 : Fin 2) * 1 + 1 * l.val = l.val; omega

/-- The second bias's block at any point is the whole one-entry array. -/
theorem blk5_whole (c : Dev nD) (t : Fin cfg7.N) (k : Fin 1) (l : Fin 1) :
    iblk7 V c 5 t (ix2 k l) = V c main_v51 (ix2 k l) := by
  obtain ⟨e0, e1⟩ := win5_index t
  show V c main_v51 (((cfg7.win 5).blk t).view.emb (ix2 k l)) = _
  refine congrArg (V c main_v51) (funext fun a => Fin.ext ?_)
  match a with
  | ⟨0, _⟩ => show win7_5.index t (0 : Fin 2) * 1 + 1 * k.val = k.val; omega
  | ⟨1, _⟩ => show win7_5.index t (1 : Fin 2) * 1 + 1 * l.val = l.val; omega

/-- Row `r` of the gate's column is in the block of point `r / 5120`, at the block's row `r % 5120`: the 625 blocks of 5120
    rows cover the 3200000 rows. -/
theorem cover6 (i : S3200000x1.Idx) :
    ∃ t : Fin cfg7.N, (cfg7.win 6).flush t = true ∧ i ∈ ((cfg7.win 6).blk t).view.set := by
  have hi0 : (i 0).val < 3200000 := (i 0).isLt
  have hlt : (i 0).val / 5120 < 625 := by omega
  have hm : (i 0).val % 5120 < 5120 := Nat.mod_lt _ (by omega)
  obtain ⟨t, ht⟩ : ∃ t : Fin cfg7.N, t.val = (i 0).val / 5120 := ⟨⟨(i 0).val / 5120, hlt⟩, rfl⟩
  obtain ⟨e60, e61⟩ := win6_index t
  refine ⟨t, flush7_6 t, ?_⟩
  have he : ((cfg7.win 6).blk t).view.emb (ix2 (⟨(i 0).val % 5120, hm⟩ : Fin 5120) (i 1 : Fin 1)) = i := by
    funext a; apply Fin.ext
    match a with
    | ⟨0, _⟩ => show win7_6.index t (0 : Fin 2) * 5120 + 1 * ((i 0).val % 5120) = (i 0).val; omega
    | ⟨1, _⟩ => show win7_6.index t (1 : Fin 2) * 1 + 1 * (i 1).val = (i 1).val; omega
  have h := ((cfg7.win 6).blk t).view.emb_mem_set (ix2 (⟨(i 0).val % 5120, hm⟩ : Fin 5120) (i 1 : Fin 1))
  rw [he] at h
  exact h

/-- The body's payload at row `p` of its blocks is the gate of the blocks' rows `p`: the h_col block's row first, the
    h_row block's second, as the body lays them side by side. -/
theorem pay_apply (v0 v2 : Vec Ideal S5120x11 .f32) (v5 : Vec Ideal S22x8 .f32) (v6 : Vec Ideal S1x8 .f32)
    (v8 : Vec Ideal S8x1 .f32) (v9 : Vec Ideal S1x1 .f32) (p : Fin 5120) :
    k7_pay1 v0 v2 v5 v6 v8 v9 (ix2 p (0 : Fin 1))
      = Edge.gateRow (fun q => v2 (ix2 p q)) (fun q => v0 (ix2 p q)) v5 (fun j => v6 (ix2 (0 : Fin 1) j)) v8
          (v9 (ix2 (0 : Fin 1) (0 : Fin 1))) := by
  unfold k7_pay1
  simp only [shapeCast_self]
  refine (Edge.kernel_gate_apply (shapeCast S5120x11 v2 _) (shapeCast S5120x11 v0 _) v5 v6 v8 v9 _ _ _ _ p).trans ?_
  simp only [shapeCast_self]

/-- What point `t` writes back is block `t` of the edge gate of the entry arrays: the block's row `p` is the gate of the
    input blocks' rows `p`, which are the arrays' rows `5120 t + p`; the weights are read whole, and the one-row biases
    are the bias vectors. -/
theorem flushed6 (c : Dev nD) (b1 : FVec Ideal Cert.ReferenceIdeal.S8 .f32) (b2 : FVec Ideal Cert.ReferenceIdeal.S1 .f32)
    (hb1 : ∀ j : Fin 8, V c main_v50 (ix2 (0 : Fin 1) j) = b1 (ix1 j))
    (hb2 : V c main_v51 (ix2 (0 : Fin 1) (0 : Fin 1)) = b2 (ix1 (0 : Fin 1))) (t : Fin cfg7.N) :
    (dat7 (F := Ideal) V c).flushed 6 t = ((cfg7.win 6).blk t).view.read (Elt Ideal)
      (Cert.Bridge.edgeL (F := Ideal) (V c main_v49) (V c main_v48) (V c main_arg4) b1 (V c main_arg6) b2) := by
  show (cfg7.win 6).cut (grid7.coords t) ((dat7 V c).after 6 t) = _
  rw [after7_6]
  unfold out7_6
  rw [View.canon_unit_zero zero_off]
  simp only [View.ld_unit_zero (S := S5120x11) zero_off, View.ld_unit_zero (S := S22x8) zero_off,
    View.ld_unit_zero (S := S1x8) zero_off, View.ld_unit_zero (S := S8x1) zero_off,
    View.ld_unit_zero (S := S1x1) zero_off]
  refine funext fun (y : S5120x1.Idx) => ?_
  obtain ⟨p, u, rfl⟩ : ∃ (p : Fin 5120) (u : Fin 1), y = ix2 p u := ⟨y 0, y 1, eq_ix2 y⟩
  obtain rfl : u = 0 := Subsingleton.elim _ _
  obtain ⟨e60, e61⟩ := win6_index t
  have ht : t.val < 625 := t.isLt
  have hp : p.val < 5120 := p.isLt
  have hr : 5120 * t.val + p.val < 3200000 := by omega
  have hemb : ((cfg7.win 6).blk t).view.emb (ix2 p (0 : Fin 1)) = ix2 (⟨5120 * t.val + p.val, hr⟩ : Fin 3200000) (0 : Fin 1) := by
    funext a; apply Fin.ext
    match a with
    | ⟨0, _⟩ => show win7_6.index t (0 : Fin 2) * 5120 + 1 * p.val = 5120 * t.val + p.val; omega
    | ⟨1, _⟩ => show win7_6.index t (1 : Fin 2) * 1 + 1 * 0 = 0; omega
  show k7_pay1 (iblk7 V c 0 t) (iblk7 V c 1 t) (iblk7 V c 2 t) (iblk7 V c 3 t) (iblk7 V c 4 t) (iblk7 V c 5 t)
      (ix2 p (0 : Fin 1))
    = Cert.Bridge.edgeL (F := Ideal) (V c main_v49) (V c main_v48) (V c main_arg4) b1 (V c main_arg6) b2
        (((cfg7.win 6).blk t).view.emb (ix2 p (0 : Fin 1)))
  rw [hemb, Edge.edgeL_apply]
  refine (pay_apply (iblk7 V c 0 t) (iblk7 V c 1 t) (iblk7 V c 2 t) (iblk7 V c 3 t) (iblk7 V c 4 t) (iblk7 V c 5 t) p).trans ?_
  exact Edge.gateRow_congr
    (funext fun q => blk1_row V c t p q hr)
    (funext fun q => blk0_row V c t p q hr)
    (funext fun (i : S22x8.Idx) => by
      obtain ⟨k, l, rfl⟩ : ∃ (k : Fin 22) (l : Fin 8), i = ix2 k l := ⟨i 0, i 1, eq_ix2 i⟩
      exact blk2_whole V c t k l)
    (funext fun j => (blk3_whole V c t 0 j).trans (hb1 j))
    (funext fun (i : S8x1.Idx) => by
      obtain ⟨k, l, rfl⟩ : ∃ (k : Fin 8) (l : Fin 1), i = ix2 k l := ⟨i 0, i 1, eq_ix2 i⟩
      exact blk4_whole V c t k l)
    ((blk5_whole V c t 0 0).trans hb2)

end Cert.KernelIdeal.Val.RegEonly7

namespace Cert.KernelIdeal.Val

open Idealize.ShloMosaic Idealize.ShloMosaic.TcCoe Idealize.SL.Sem Cert.KernelIdeal Cert.KernelIdeal.Gen
open Idealize.ShloMosaic.ValueIdx

variable [Cert.KernelIdeal.Facts] [Cert.ReferenceIdeal.Facts]
variable (V : (c : Dev nD) → (b : Ref sig .tc) → Buf (Elt Ideal) ((c : Thread nD τ).loc b))

/-- Output window 6 of pipeline 7 (the gate, one value per edge) after the 625 grid points. -/
theorem reg7_e (c : Dev nD) (b1 : FVec Ideal Cert.ReferenceIdeal.S8 .f32) (b2 : FVec Ideal Cert.ReferenceIdeal.S1 .f32)
    (hb1 : ∀ j : Fin 8, V c main_v50 (ix2 (0 : Fin 1) j) = b1 (ix1 j))
    (hb2 : V c main_v51 (ix2 (0 : Fin 1) (0 : Fin 1)) = b2 (ix1 (0 : Fin 1))) :
    (dat7 (F := Ideal) V c).arrAt 6 cfg7.N
      = Cert.Bridge.edgeL (F := Ideal) (V c main_v49) (V c main_v48) (V c main_arg4) b1 (V c main_arg6) b2 :=
  (dat7 (F := Ideal) V c).arrAt_eq_of_cover 6 _ (fun t _ => RegEonly7.flushed6 V c b1 b2 hb1 hb2 t) RegEonly7.cover6

end Cert.KernelIdeal.Val

end
-- ==== Proof.ChainFinal.lean ====
/- The kernel program's last segments (boundary 20 to 25): two fill-mode gathers and two bias reshapes on the host, the
   gate-only edge region, and the squeeze of its [E,1] output to a vector. -/
import proofs.«409147_j26182120636657_1_alg».proof.Proof.Walk
import proofs.«409147_j26182120636657_1_alg».proof.Proof.KDefs
import proofs.«409147_j26182120636657_1_alg».proof.Proof.ChainStart
import proofs.«409147_j26182120636657_1_alg».proof.Proof.RegEonly7
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Val

open Idealize.ShloMosaic Idealize.ShloMosaic.TcCoe Idealize.SL.Sem Cert.KernelIdeal Cert.KernelIdeal.Gen
open Idealize.ShloMosaic.ValueIdx
open Idealize.ShloMosaic.StableHlo

variable [Cert.KernelIdeal.Facts] [Cert.ReferenceIdeal.Facts]
section AnyFamily

variable {F : FTy → Type} [FloatOps F]

/-- Contents carried to a buffer's own type and back are the contents. -/
theorem ChainFinal.ofBuf_toBuf {T : BufTy} (r : Ref sig .tc) (p p' : r.ty = T) (q q' : r.space ≠ .host) (s s' : r.isScoped = false)
    (v : T.Contents (Elt F)) : (TRef.of r p q s : TRef sig T).ofBuf ((TRef.of r p' q' s' : TRef sig T).toBuf v) = v := by
  subst p; rfl

/-- The gather stretch at the row indices, from any contents W: main_v48 ends holding the rows of main_v47 that the
    index vector main_v1 names, taken in fill mode. -/
theorem ChainFinal.take_row (W : Valuation τ sig (Elt F)) :
    StableHlo.after hostOps7 W (Proc.devRef .tc main_v48)
      = takeK (F := F) (W (Proc.devRef .tc main_v47)) (W (Proc.devRef .tc main_v1)) := by
  simp only [hostOps7]
  after_results_simp
  generalize W (Proc.devRef .tc main_v47) = h
  generalize W (Proc.devRef .tc main_v1) = i
  simp only [ChainFinal.ofBuf_toBuf]
  have ei : ∀ p q s, (TRef.of main_v1 p q s : TRef sig ⟨S3200000, .i32⟩).ofBuf i = i := fun _ _ _ => rfl
  have eh : ∀ p q s, (TRef.of main_v47 p q s : TRef sig ⟨S100000x11, .f32⟩).ofBuf h = h := fun _ _ _ => rfl
  have eo : ∀ p q s (X : (⟨S3200000x11, .f32⟩ : BufTy).Contents (Elt F)),
      (TRef.of main_v48 p q s : TRef sig ⟨S3200000x11, .f32⟩).toBuf X = X := fun _ _ _ _ => rfl
  simp only [ei, eh, eo]
  rfl

/-- The gather stretch at the column indices: main_v49 ends holding the rows of main_v47 that main_v3 names. -/
theorem ChainFinal.take_col (W : Valuation τ sig (Elt F)) :
    StableHlo.after hostOps7_1 W (Proc.devRef .tc main_v49)
      = takeK (F := F) (W (Proc.devRef .tc main_v47)) (W (Proc.devRef .tc main_v3)) := by
  simp only [hostOps7_1]
  after_results_simp
  generalize W (Proc.devRef .tc main_v47) = h
  generalize W (Proc.devRef .tc main_v3) = i
  simp only [ChainFinal.ofBuf_toBuf]
  have ei : ∀ p q s, (TRef.of main_v3 p q s : TRef sig ⟨S3200000, .i32⟩).ofBuf i = i := fun _ _ _ => rfl
  have eh : ∀ p q s, (TRef.of main_v47 p q s : TRef sig ⟨S100000x11, .f32⟩).ofBuf h = h := fun _ _ _ => rfl
  have eo : ∀ p q s (X : (⟨S3200000x11, .f32⟩ : BufTy).Contents (Elt F)),
      (TRef.of main_v49 p q s : TRef sig ⟨S3200000x11, .f32⟩).toBuf X = X := fun _ _ _ _ => rfl
  simp only [ei, eh, eo]
  rfl

/-- The two bias reshapes, from any contents: the vector of 8 as one row … -/
theorem ChainFinal.bias_row8 (W : Valuation τ sig (Elt F)) :
    StableHlo.after hostOps7_2 W (Proc.devRef .tc main_v50)
      = shapeCast S1x8 (W (Proc.devRef .tc main_arg5) : S8.Idx → F .f32) Facts₀.shapeCasts_S8_S1x8 := by
  simp only [hostOps7_2]
  after_results
  rfl

/-- … and the vector of 1 as a 1 × 1 array. -/
theorem ChainFinal.bias_row1 (W : Valuation τ sig (Elt F)) :
    StableHlo.after hostOps7_2 W (Proc.devRef .tc main_v51)
      = shapeCast S1x1 (W (Proc.devRef .tc main_arg7) : S1.Idx → F .f32) Facts₀.shapeCasts_S1_S1x1 := by
  simp only [hostOps7_2]
  after_results
  rfl

/-- The last host operation, from any contents: the [E, 1] gate column as a vector. -/
theorem ChainFinal.squeeze (W : Valuation τ sig (Elt F)) :
    StableHlo.after hostOps8 W (Proc.devRef .tc main_v53)
      = shapeCast S3200000 (W (Proc.devRef .tc main_v52) : S3200000x1.Idx → F .f32) Facts₀.shapeCasts_S3200000x1_S3200000 := by
  simp only [hostOps8]
  after_results
  rfl

end AnyFamily

variable (m : (ℓ : Loc nD τ sig) → Buf (Elt Ideal) ℓ) (ρ : Dev nD → PrngReg) (c : Dev nD)

/-- The result buffer at the end of @main, from node features h in buffer main_v47 at boundary 20. -/
theorem final_val (A : Args m c (W20 (F := Ideal) m ρ)) (h : FVec Ideal S100000x11 .f32)
    (hh : W20 (F := Ideal) m ρ c (Proc.devRef .tc main_v47) = h) :
    W25 (F := Ideal) m ρ c (Proc.devRef .tc main_v53)
      = shapeCast S3200000 (gateK (F := Ideal) h (rowK (m ((c : Thread nD τ).loc main_arg1))) (colK (m ((c : Thread nD τ).loc main_arg1)))
          (m ((c : Thread nD τ).loc main_arg4)) (m ((c : Thread nD τ).loc main_arg5)) (m ((c : Thread nD τ).loc main_arg6)) (m ((c : Thread nD τ).loc main_arg7)))
          Cert.KernelIdeal.Facts₀.shapeCasts_S3200000x1_S3200000 := by
  -- what the gate-only region finds at its entry (boundary 23)
  have h48 : V23 (F := Ideal) m ρ c main_v48 = takeK (F := Ideal) h (rowK (m ((c : Thread nD τ).loc main_arg1))) := by
    show W23 (F := Ideal) m ρ c (Proc.devRef .tc main_v48) = _
    back_h; back_h
    show StableHlo.after hostOps7 (W20 (F := Ideal) m ρ c) (Proc.devRef .tc main_v48) = _
    rw [ChainFinal.take_row, hh, A.row]
  have e47 : W21 (F := Ideal) m ρ c (Proc.devRef .tc main_v47) = h := by back_h; exact hh
  have e3 : W21 (F := Ideal) m ρ c (Proc.devRef .tc main_v3) = colK (m ((c : Thread nD τ).loc main_arg1)) := by back_h; exact A.col
  have h49 : V23 (F := Ideal) m ρ c main_v49 = takeK (F := Ideal) h (colK (m ((c : Thread nD τ).loc main_arg1))) := by
    show W23 (F := Ideal) m ρ c (Proc.devRef .tc main_v49) = _
    back_h
    show StableHlo.after hostOps7_1 (W21 (F := Ideal) m ρ c) (Proc.devRef .tc main_v49) = _
    rw [ChainFinal.take_col, e47, e3]
  have h4 : V23 (F := Ideal) m ρ c main_arg4 = m ((c : Thread nD τ).loc main_arg4) := by
    show W23 (F := Ideal) m ρ c (Proc.devRef .tc main_arg4) = _
    back_h; back_h; back_h; exact A.a4
  have h6 : V23 (F := Ideal) m ρ c main_arg6 = m ((c : Thread nD τ).loc main_arg6) := by
    show W23 (F := Ideal) m ρ c (Proc.devRef .tc main_arg6) = _
    back_h; back_h; back_h; exact A.a6
  have e5 : W22 (F := Ideal) m ρ c (Proc.devRef .tc main_arg5) = m ((c : Thread nD τ).loc main_arg5) := by
    back_h; back_h; exact A.a5
  have e7 : W22 (F := Ideal) m ρ c (Proc.devRef .tc main_arg7) = m ((c : Thread nD τ).loc main_arg7) := by
    back_h; back_h; exact A.a7
  have hb1 : ∀ j : Fin 8, V23 (F := Ideal) m ρ c main_v50 (ix2 (0 : Fin 1) j) = (m ((c : Thread nD τ).loc main_arg5) : S8.Idx → EReal) (ix1 j) := by
    intro j
    have e : (V23 (F := Ideal) m ρ c main_v50 : S1x8.Idx → EReal)
        = shapeCast S1x8 (m ((c : Thread nD τ).loc main_arg5) : S8.Idx → EReal) Facts₀.shapeCasts_S8_S1x8 := by
      show StableHlo.after hostOps7_2 (W22 (F := Ideal) m ρ c) (Proc.devRef .tc main_v50) = _
      rw [ChainFinal.bias_row8, e5]
    rw [e]
    exact shapeCast_a_1a_apply _ _ (0 : Fin 1) j
  have hb2 : V23 (F := Ideal) m ρ c main_v51 (ix2 (0 : Fin 1) (0 : Fin 1)) = (m ((c : Thread nD τ).loc main_arg7) : S1.Idx → EReal) (ix1 (0 : Fin 1)) := by
    have e : (V23 (F := Ideal) m ρ c main_v51 : S1x1.Idx → EReal)
        = shapeCast S1x1 (m ((c : Thread nD τ).loc main_arg7) : S1.Idx → EReal) Facts₀.shapeCasts_S1_S1x1 := by
      show StableHlo.after hostOps7_2 (W22 (F := Ideal) m ρ c) (Proc.devRef .tc main_v51) = _
      rw [ChainFinal.bias_row1, e7]
    rw [e]
    exact shapeCast_a_1a_apply _ _ (0 : Fin 1) (0 : Fin 1)
  -- the region's output, then the squeeze
  have hout : W24 (F := Ideal) m ρ c (Proc.devRef .tc main_v52)
      = gateK (F := Ideal) h (rowK (m ((c : Thread nD τ).loc main_arg1))) (colK (m ((c : Thread nD τ).loc main_arg1)))
          (m ((c : Thread nD τ).loc main_arg4)) (m ((c : Thread nD τ).loc main_arg5)) (m ((c : Thread nD τ).loc main_arg6)) (m ((c : Thread nD τ).loc main_arg7)) := by
    refine ((W24_arr m ρ c 6).trans (reg7_e (V23 (F := Ideal) m ρ) c (m ((c : Thread nD τ).loc main_arg5)) (m ((c : Thread nD τ).loc main_arg7)) hb1 hb2)).trans ?_
    rw [h49, h48, h4, h6]
    rfl
  show StableHlo.after hostOps8 (W24 (F := Ideal) m ρ c) (Proc.devRef .tc main_v53) = _
  rw [ChainFinal.squeeze, hout]

end Cert.KernelIdeal.Val

end
-- ==== Proof.Chain.lean ====
/- The kernel program's result buffer at the end of @main is its network function of the launched arguments: the start,
   three rounds and the last edge pass, composed. -/
import proofs.«409147_j26182120636657_1_alg».proof.Proof.ChainStart
import proofs.«409147_j26182120636657_1_alg».proof.Proof.ChainRound1
import proofs.«409147_j26182120636657_1_alg».proof.Proof.ChainRound2
import proofs.«409147_j26182120636657_1_alg».proof.Proof.ChainRound3
import proofs.«409147_j26182120636657_1_alg».proof.Proof.ChainFinal
import Idealize.ShloMosaic.Lib.ValueIdx
import Idealize.ShloMosaic.Lib.Pipeline.Value
import Idealize.ShloMosaic.Lib.StableHlo.Run

set_option maxRecDepth 16384

noncomputable section

namespace Cert.KernelIdeal.Val

open Idealize.ShloMosaic Idealize.ShloMosaic.TcCoe Idealize.SL.Sem Cert.KernelIdeal Cert.KernelIdeal.Gen
open Idealize.ShloMosaic.ValueIdx

variable [Cert.KernelIdeal.Facts] [Cert.ReferenceIdeal.Facts]
variable (m : (ℓ : Loc nD τ sig) → Buf (Elt Ideal) ℓ) (ρ : Dev nD → PrngReg) (c : Dev nD)

theorem kernel_value : W25 (F := Ideal) m ρ c (Proc.devRef .tc main_v53)
    = netK (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have A2 := start_args m ρ c
  have A8 := round1_args m ρ c A2
  have A14 := round2_args m ρ c A8
  have A20 := round3_args m ρ c A14
  unfold netK
  exact final_val m ρ c A20 _ (round3_h m ρ c A14 _ (round2_h m ρ c A8 _ (round1_h m ρ c A2 _ (start_h m ρ c))))

end Cert.KernelIdeal.Val

end
-- ==== Proof.LibReduceAnd.lean ====
/-
  `jnp.all` in the other direction: a `stablehlo.reduce` by `and` of one-bit words, every one of which is 1, from an
  initial value that is 1, is 1 at every result index (the library's Lib/ReduceAll.lean reads a result that is 1 back into
  its operand; this is the converse, for a range test that is known to pass everywhere).
-/
import Idealize.ShloMosaic.Lib.ReduceAll

namespace Cert.LibReduceAnd

open Idealize.ShloMosaic

/-- A left fold by `and` over words that are all 1, from 1, is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 by decide]
    exact foldl_andi_one f hf l

/-- A reduce by `and` of an operand that is 1 everywhere, from an initial value that is 1, is 1. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_one x hx _

end Cert.LibReduceAnd
-- ==== Proof.Take.lean ====
/- Under in-range indices the kernel program's fill-mode gather is the reference's plain gather, its segment sum the
   reference's, and its two index vectors the reference's; and the certificate's precondition puts both index vectors in range. -/
import proofs.«409147_j26182120636657_1_alg».proof.Proof.KDefs
import proofs.«409147_j26182120636657_1_alg».proof.Proof.LibReduceAnd
import proofs.«409147_j26182120636657_1_alg».proof.Pre_finite_inputs
import Idealize.ShloMosaic.Lib.ValueIdx
import Idealize.ShloMosaic.Lib.ValueLayout
import Idealize.ShloMosaic.Lib.StableHlo.Predicate
import Idealize.ShloMosaic.Lib.ReduceAll

noncomputable section

namespace Cert.KernelIdeal.Val

open Idealize.ShloMosaic Idealize.ShloMosaic.ValueIdx

variable [Cert.KernelIdeal.Facts] [Cert.ReferenceIdeal.Facts]

/-! ## Words: a 32-bit word whose value is below 100000, compared as a signed number -/

/-- A word below 100000 is not negative as a signed number. -/
theorem slt_zero_of_lt (w : BitVec 32) (hw : w.toNat < 100000) : IntOp.cmpi .slt w 0#32 = 0#1 := by
  apply eq_zero_of_ne_one
  intro h
  have h' := (StableHlo.Predicate.slt_iff_toNat (a := w) (b := 0#32) (by omega) (by decide)).1 h
  exact absurd h' (by simp)

/-- It is at least 0 … -/
theorem sge_zero_of_lt (w : BitVec 32) (hw : w.toNat < 100000) : IntOp.cmpi .sge w 0#32 = 1#1 :=
  (StableHlo.Predicate.sge_iff_toNat (a := w) (b := 0#32) (by omega) (by decide)).2 (by simp)

/-- … and at most 99999. -/
theorem sle_max_of_lt (w : BitVec 32) (hw : w.toNat < 100000) : IntOp.cmpi .sle w 99999#32 = 1#1 :=
  (StableHlo.Predicate.sle_iff_toNat (a := w) (b := 99999#32) (by omega) (by decide)).2
    (by show w.toNat ≤ 99999; omega)

/-- Conversely a word that is at least 0 and below 100000 as signed numbers has a value below 100000: being at least 0 its
    top bit is clear, so it reads the same signed and unsigned. -/
theorem toNat_lt_of_sge_slt (w : BitVec 32) (h0 : IntOp.cmpi .sge w 0#32 = 1#1) (h1 : IntOp.cmpi .slt w 100000#32 = 1#1) :
    w.toNat < 100000 := by
  have hlt : w.toNat < 2 ^ 31 := by
    by_contra hc
    simp only [IntOp.cmpi, StableHlo.Predicate.ofBool_eq_one_iff, BitVec.sle, decide_eq_true_eq] at h0
    have e := BitVec.toInt_eq_toNat_cond w
    have := w.isLt
    simp at h0
    omega
  exact (StableHlo.Predicate.slt_iff_toNat (a := w) (b := 100000#32) hlt (by decide)).1 h1

/-! ## The wrapped index column and its mask at an index -/

/-- Every index of an [n × 1] column is (its row, a unit coordinate). -/
theorem exists_ix2_col (k : Cert.KernelIdeal.S3200000x1.Idx) : ∃ (e : Fin 3200000) (u : Fin 1), k = ix2 e u :=
  ⟨k 0, k 1, eq_ix2 k⟩

/-- The wrapped index column at row e is the index itself when it lies in [0, 100000): it is not negative, so the wrap's
    select keeps it. -/
theorem idxK_apply (i : IVec Cert.KernelIdeal.S3200000 32) (e : Fin 3200000) (u : Fin 1) (hw : (i (ix1 e)).toNat < 100000) :
    idxK i (ix2 e u) = i (ix1 e) := by
  unfold idxK
  refine (broadcastInDim_apply _ _ _ _ (ix1 e) (fun a => ?_)).trans ?_
  · match a with
    | ⟨0, _⟩ => show e.val = if (3200000 : Nat) = 1 then 0 else e.val; simp
  · rw [select_apply]
    have hc : cmpi .slt i (broadcastInDim Cert.KernelIdeal.S3200000 ![] Cert.KernelIdeal.Facts₀.bcast_S_S3200000
        (constantI Cert.KernelIdeal.S_ 32 0#32)) (ix1 e) = 0#1 := slt_zero_of_lt _ hw
    rw [hc, select_zero]

/-- The in-bounds test of the wrapped column is 1 in every row when every index lies in [0, 100000). -/
theorem maskK_idxK (i : IVec Cert.KernelIdeal.S3200000 32) (hi : InRange i) (j : Cert.KernelIdeal.S3200000.Idx) :
    maskK (idxK i) j = 1#1 := by
  unfold maskK
  refine Cert.LibReduceAnd.reduce_andi_of_all _ _ _ _ _ (fun k => ?_) rfl
  obtain ⟨e, u, rfl⟩ := exists_ix2_col k
  show IntOp.andi (IntOp.cmpi .sge (idxK i (ix2 e u)) 0#32) (IntOp.cmpi .sle (idxK i (ix2 e u)) 99999#32) = 1#1
  rw [idxK_apply i e u (hi e), sge_zero_of_lt _ (hi e), sle_max_of_lt _ (hi e)]
  decide

/-! ## The two programs' dimension numbers and index columns are the same -/

theorem gather_eq : Cert.KernelIdeal.gather_S100000x11_S3200000x1_S3200000x11_1_0_n_n_0_1_111
    = Cert.ReferenceIdeal.gather_S100000x11_S3200000x1_S3200000x11_1_0_n_n_0_1_111 := rfl

theorem scatter_eq : Cert.KernelIdeal.scatter_S100000x11_S3200000x1_S3200000x11_1_0_0_1
    = Cert.ReferenceIdeal.scatter_S100000x11_S3200000x1_S3200000x11_1_0_0_1 := rfl

theorem idxK_eq_idxL (i : IVec Cert.KernelIdeal.S3200000 32) : idxK i = Cert.Bridge.idxL i := rfl

/-- With every index in [0, 100000) the wrap is the identity and the in-bounds mask is all ones, so the fill-mode
    gather is the plain gather of the reference. -/
theorem takeK_eq_takeL (h : FVec Ideal Cert.KernelIdeal.S100000x11 .f32) (i : IVec Cert.KernelIdeal.S3200000 32) (hi : InRange i) :
    takeK (F := Ideal) h i = Cert.Bridge.takeL (F := Ideal) h i := by
  funext j
  unfold takeK Cert.Bridge.takeL
  rw [select_apply]
  have hm : broadcastInDim Cert.KernelIdeal.S3200000x11 ![0] Cert.KernelIdeal.Facts₀.bcast_S3200000_S3200000x11_0
      (maskK (idxK i)) j = 1#1 := by
    unfold broadcastInDim
    exact maskK_idxK i hi _
  rw [hm, select_one, gather_eq, idxK_eq_idxL]

/-- The two programs' segment sums are one function (the same scatter dimension numbers). -/
theorem segK_eq_segL (u : FVec Ideal Cert.KernelIdeal.S3200000x11 .f32) (i : IVec Cert.KernelIdeal.S3200000 32) :
    segK (F := Ideal) u i = Cert.Bridge.segL (F := Ideal) u i := by
  unfold segK Cert.Bridge.segL
  rw [scatter_eq]

/-! ## The precondition decoded -/

instance : Subsingleton Cert.Pre_finite_inputs.S_.Idx := ⟨fun a b => funext fun d => d.elim0⟩

/-- The precondition's last two conjuncts, all(edge_index ≥ 0) and all(edge_index < 100000), read at one entry. -/
theorem pre_range [Cert.Pre_finite_inputs.Facts]
    (a0 : FVec Ideal Cert.Pre_finite_inputs.S100000x3 .f32) (a1 : IVec Cert.Pre_finite_inputs.S2x3200000 32)
    (a2 : FVec Ideal Cert.Pre_finite_inputs.S3x8 .f32) (a3 : FVec Ideal Cert.Pre_finite_inputs.S8 .f32)
    (a4 : FVec Ideal Cert.Pre_finite_inputs.S22x8 .f32) (a5 : FVec Ideal Cert.Pre_finite_inputs.S8 .f32)
    (a6 : FVec Ideal Cert.Pre_finite_inputs.S8x1 .f32) (a7 : FVec Ideal Cert.Pre_finite_inputs.S1 .f32)
    (a8 : FVec Ideal Cert.Pre_finite_inputs.S33x8 .f32) (a9 : FVec Ideal Cert.Pre_finite_inputs.S8 .f32)
    (a10 : FVec Ideal Cert.Pre_finite_inputs.S8x8 .f32) (a11 : FVec Ideal Cert.Pre_finite_inputs.S8 .f32)
    (hpre : Cert.Pre_finite_inputs.fn (F := Ideal) a0 a1 a2 a3 a4 a5 a6 a7 a8 a9 a10 a11 = (fun _ => 1#1))
    (k : Cert.Pre_finite_inputs.S2x3200000.Idx) : (a1 k).toNat < 100000 := by
  have h := congrFun hpre ix0
  dsimp only [Cert.Pre_finite_inputs.fn, Cert.Pre_finite_inputs.fn_part1, Cert.Pre_finite_inputs.fn_part2,
    Cert.Pre_finite_inputs.fn_part3] at h
  obtain ⟨h57, h60⟩ := IntOp.andi_eq_one.1 h
  obtain ⟨_, h56⟩ := IntOp.andi_eq_one.1 h57
  exact toNat_lt_of_sge_slt (a1 k) (Host.reduce_andi_all _ _ _ _ _ h56 k) (Host.reduce_andi_all _ _ _ _ _ h60 k)

/-- Row 0 of edge_index, as a vector, at e is edge_index at (0, e) … -/
theorem rowK_apply (ei : IVec Cert.KernelIdeal.S2x3200000 32) (e : Fin 3200000) : rowK ei (ix1 e) = ei (ix2 (0 : Fin 2) e) := by
  unfold rowK
  refine (shapeCast_1a_a_apply _ _ e).trans ?_
  exact slice2_axis0_apply 0 ei _ (0 : Fin 1) e (0 : Fin 2) rfl

/-- … and row 1 at e is edge_index at (1, e). -/
theorem colK_apply (ei : IVec Cert.KernelIdeal.S2x3200000 32) (e : Fin 3200000) : colK ei (ix1 e) = ei (ix2 (1 : Fin 2) e) := by
  unfold colK
  refine (shapeCast_1a_a_apply _ _ e).trans ?_
  exact slice2_axis0_apply 1 ei _ (0 : Fin 1) e (1 : Fin 2) rfl

/-- The certificate's precondition, decoded: both rows of edge_index lie in [0, 100000). -/
theorem inRange_of_pre [Cert.Pre_finite_inputs.Facts]
    (a0 : FVec Ideal Cert.Pre_finite_inputs.S100000x3 .f32) (a1 : IVec Cert.Pre_finite_inputs.S2x3200000 32)
    (a2 : FVec Ideal Cert.Pre_finite_inputs.S3x8 .f32) (a3 : FVec Ideal Cert.Pre_finite_inputs.S8 .f32)
    (a4 : FVec Ideal Cert.Pre_finite_inputs.S22x8 .f32) (a5 : FVec Ideal Cert.Pre_finite_inputs.S8 .f32)
    (a6 : FVec Ideal Cert.Pre_finite_inputs.S8x1 .f32) (a7 : FVec Ideal Cert.Pre_finite_inputs.S1 .f32)
    (a8 : FVec Ideal Cert.Pre_finite_inputs.S33x8 .f32) (a9 : FVec Ideal Cert.Pre_finite_inputs.S8 .f32)
    (a10 : FVec Ideal Cert.Pre_finite_inputs.S8x8 .f32) (a11 : FVec Ideal Cert.Pre_finite_inputs.S8 .f32)
    (hpre : Cert.Pre_finite_inputs.fn (F := Ideal) a0 a1 a2 a3 a4 a5 a6 a7 a8 a9 a10 a11 = (fun _ => 1#1)) :
    InRange (rowK a1) ∧ InRange (colK a1) := by
  constructor
  · intro e
    rw [rowK_apply]
    exact pre_range a0 a1 a2 a3 a4 a5 a6 a7 a8 a9 a10 a11 hpre _
  · intro e
    rw [colK_apply]
    exact pre_range a0 a1 a2 a3 a4 a5 a6 a7 a8 a9 a10 a11 hpre _

end Cert.KernelIdeal.Val

end
-- ==== Proof.Bridge.lean ====
/- Under in-range indices the kernel program's whole-network function is the reference's: the two differ only in the
   gather's fill mode, which in-range indices never meet. -/
import proofs.«409147_j26182120636657_1_alg».proof.Proof.Take

noncomputable section

namespace Cert.KernelIdeal.Val

open Idealize.ShloMosaic

variable [Cert.KernelIdeal.Facts] [Cert.ReferenceIdeal.Facts]

/-- The index vectors of the two programs are one function of edge_index. -/
theorem rowK_eq_rowL (ei : IVec Cert.KernelIdeal.S2x3200000 32) : rowK ei = Cert.Bridge.rowL ei := rfl
theorem colK_eq_colL (ei : IVec Cert.KernelIdeal.S2x3200000 32) : colK ei = Cert.Bridge.colL ei := rfl

/-- With both index vectors in [0, 100000) the kernel program's network is the reference's. -/
theorem netK_eq_netL (x : FVec Ideal Cert.KernelIdeal.S100000x3 .f32) (ei : IVec Cert.KernelIdeal.S2x3200000 32)
    (win : FVec Ideal Cert.KernelIdeal.S3x8 .f32) (bin : FVec Ideal Cert.KernelIdeal.S8 .f32)
    (we1 : FVec Ideal Cert.KernelIdeal.S22x8 .f32) (be1 : FVec Ideal Cert.KernelIdeal.S8 .f32)
    (we2 : FVec Ideal Cert.KernelIdeal.S8x1 .f32) (be2 : FVec Ideal Cert.KernelIdeal.S1 .f32)
    (wn1 : FVec Ideal Cert.KernelIdeal.S33x8 .f32) (bn1 : FVec Ideal Cert.KernelIdeal.S8 .f32)
    (wn2 : FVec Ideal Cert.KernelIdeal.S8x8 .f32) (bn2 : FVec Ideal Cert.KernelIdeal.S8 .f32)
    (hr : InRange (rowK ei)) (hc : InRange (colK ei)) :
    netK (F := Ideal) x ei win bin we1 be1 we2 be2 wn1 bn1 wn2 bn2
      = Cert.Bridge.netL (F := Ideal) x ei win bin we1 be1 we2 be2 wn1 bn1 wn2 bn2 := by
  unfold netK Cert.Bridge.netL roundK Cert.Bridge.roundL gateK Cert.Bridge.gateL
  simp only [takeK_eq_takeL _ _ hr, takeK_eq_takeL _ _ hc, segK_eq_segL]
  rfl

end Cert.KernelIdeal.Val

end
-- ==== Proof.RefRun.lean ====
/- The reference's run, read: its result is the network function of its arguments — the generated run's named
   intermediate terms are, one after the other, the index vectors, the embedding, and for each round the edge gate and
   the node update of the round before. -/
import proofs.«409147_j26182120636657_1_alg».proof.Proof.Gen.ReferenceIdeal.Run
import proofs.«409147_j26182120636657_1_alg».proof.Proof.Layers

set_option maxRecDepth 16384

noncomputable section

namespace Cert.ReferenceIdeal.RefValue

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]
variable (V0 : Valuation τ sig (Elt F))

/-- The two index vectors. -/
theorem row_eq : res_main_v1 V0 = Cert.Bridge.rowL (V0 (Proc.devRef .tc main_arg1)) := rfl
theorem col_eq : res_main_v3 V0 = Cert.Bridge.colL (V0 (Proc.devRef .tc main_arg1)) := rfl
/-- The embedding. -/
theorem h0_eq : res_main_v9 V0 = Cert.Bridge.embedL (V0 (Proc.devRef .tc main_arg0)) (V0 (Proc.devRef .tc main_arg2)) (V0 (Proc.devRef .tc main_arg3)) := rfl
/-- Round 1: its gate and its node update over the embedding. -/
theorem e1_eq : res_main_v39 V0 = Cert.Bridge.gateL (res_main_v9 V0) (res_main_v1 V0) (res_main_v3 V0) (V0 (Proc.devRef .tc main_arg4)) (V0 (Proc.devRef .tc main_arg5)) (V0 (Proc.devRef .tc main_arg6)) (V0 (Proc.devRef .tc main_arg7)) := rfl
theorem h1_eq : res_main_v75 V0 = Cert.Bridge.roundL (res_main_v9 V0) (V0 (Proc.devRef .tc main_arg0)) (res_main_v1 V0) (res_main_v3 V0) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  unfold Cert.Bridge.roundL; rw [← e1_eq]; rfl
/-- Round 2. -/
theorem e2_eq : res_main_v105 V0 = Cert.Bridge.gateL (res_main_v75 V0) (res_main_v1 V0) (res_main_v3 V0) (V0 (Proc.devRef .tc main_arg4)) (V0 (Proc.devRef .tc main_arg5)) (V0 (Proc.devRef .tc main_arg6)) (V0 (Proc.devRef .tc main_arg7)) := rfl
theorem h2_eq : res_main_v141 V0 = Cert.Bridge.roundL (res_main_v75 V0) (V0 (Proc.devRef .tc main_arg0)) (res_main_v1 V0) (res_main_v3 V0) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  unfold Cert.Bridge.roundL; rw [← e2_eq]; rfl
/-- Round 3. -/
theorem e3_eq : res_main_v171 V0 = Cert.Bridge.gateL (res_main_v141 V0) (res_main_v1 V0) (res_main_v3 V0) (V0 (Proc.devRef .tc main_arg4)) (V0 (Proc.devRef .tc main_arg5)) (V0 (Proc.devRef .tc main_arg6)) (V0 (Proc.devRef .tc main_arg7)) := rfl
theorem h3_eq : res_main_v207 V0 = Cert.Bridge.roundL (res_main_v141 V0) (V0 (Proc.devRef .tc main_arg0)) (res_main_v1 V0) (res_main_v3 V0) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  unfold Cert.Bridge.roundL; rw [← e3_eq]; rfl

/-- The result buffer after @main's operations is the network function of the launch contents of the arguments. -/
theorem result_eq : val5 V0 (Proc.devRef .tc main_v238)
    = Cert.Bridge.netL (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  refine (val5_main_v238 V0).trans ?_
  unfold Cert.Bridge.netL
  rw [← row_eq, ← col_eq, ← h0_eq, ← h1_eq, ← h2_eq, ← h3_eq]
  rfl

/-- The reference's run with its result as the network function of the arguments. -/
theorem run_net (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v238)
        = Cert.Bridge.netL (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
      ⟨(h c).1.trans ((val5_main_v238 (launchContents m c)).symm.trans (result_eq (launchContents m c))), (h c).2⟩)
    (Cert.ReferenceIdeal.Value.run m ρ)

end Cert.ReferenceIdeal.RefValue

end
-- ==== Proof.lean ====
/- The certificate of the graph network's message-passing kernel program against its jnp reference, over the extended
   reals, for edge indices in [0, 100000) and finite float inputs.

   Both programs compute: h = [tanh(x·W_in + b_in), x]; three times: e = sigmoid(tanh([h[col], h[row]]·We1 + be1)·We2 + be2),
   mi = segment_sum(e·h[row], col), mo = segment_sum(e·h[col], row), h = [tanh(tanh([mi, mo, h]·Wn1 + bn1)·Wn2 + bn2), x];
   and return sigmoid(tanh([h[col], h[row]]·We1 + be1)·We2 + be2) per edge. The kernel program runs the embedding, the
   edge layer and the node layer as tiled kernels (rows in blocks of 5000 nodes or 5120 edges; matrix products on values
   narrowed to bf16, which at the extended reals is the identity) and leaves the gathers and segment sums to the host; its
   gathers are jnp.take's fill mode (out-of-range rows become a fill pattern) where the reference's indexing clamps, which is
   the one place the programs differ, and only for indices outside [0, 100000).

   The three frames are the generated ones (the reference's is its generated run with the result dropped); no rewrite was
   made by the ideal pass, so preserves is trivial; algebraic: the kernel program's run ends with its result buffer at the
   fold of @main's segments over the launch memory (KernelRun), that fold read at the result is the kernel program's
   network function of the arguments (Chain: each region's output array is its layer of the region's input arrays, each
   host stretch is read operation by operation), which for in-range indices is the reference's network function
   (Bridge, Take), which is what the reference's generated run ends at (RefRun). -/
import proofs.«409147_j26182120636657_1_alg».proof.Defs
import proofs.«409147_j26182120636657_1_alg».proof.Proof.Gen.Kernel
import proofs.«409147_j26182120636657_1_alg».proof.Proof.Gen.Kernel.Frame
import proofs.«409147_j26182120636657_1_alg».proof.Proof.Gen.KernelIdeal
import proofs.«409147_j26182120636657_1_alg».proof.Proof.Gen.KernelIdeal.Frame
import proofs.«409147_j26182120636657_1_alg».proof.Proof.Gen.ReferenceIdeal
import proofs.«409147_j26182120636657_1_alg».proof.Proof.Gen.Pre_finite_inputs
import proofs.«409147_j26182120636657_1_alg».proof.Proof.Gen.ReferenceIdeal.Run
import proofs.«409147_j26182120636657_1_alg».proof.Proof.KernelRun
import proofs.«409147_j26182120636657_1_alg».proof.Proof.Chain
import proofs.«409147_j26182120636657_1_alg».proof.Proof.Bridge
import proofs.«409147_j26182120636657_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end at the network function of the arguments: the kernel
    program's in fill-mode gathers, which the precondition's index range makes the reference's plain gathers. -/
theorem algebraic : Cert.algebraic_KernelIdeal_ReferenceIdeal := by
  intro m ρ m' ρ' hpre hagree
  refine ⟨fun c => Cert.KernelIdeal.Gen.W25 (F := Ideal) m ρ c (Proc.devRef .tc Cert.KernelIdeal.main_v53),
    Cert.KernelIdeal.GenR.run_result (F := Ideal) m ρ, ?_⟩
  refine (θ_run Cert.ReferenceIdeal.defs _ _).mono (fun _ h c => ⟨(h c).1.trans ?_, (h c).2⟩)
    (Cert.ReferenceIdeal.RefValue.run_net (F := Ideal) m' ρ')
  obtain ⟨hr, hc⟩ := Cert.KernelIdeal.Val.inRange_of_pre _ _ _ _ _ _ _ _ _ _ _ _ (hpre c)
  obtain ⟨e0, e1, e2, e3, e4, e5, e6, e7, e8, e9, e10, e11⟩ := hagree c
  rw [e0, e1, e2, e3, e4, e5, e6, e7, e8, e9, e10, e11]
  exact ((Cert.KernelIdeal.Val.kernel_value m ρ c).trans (Cert.KernelIdeal.Val.netK_eq_netL _ _ _ _ _ _ _ _ _ _ _ _ hr hc)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
